-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v24) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S640000x128 : Shape := ⟨2, ![640000, 128]⟩
abbrev S128x128 : Shape := ⟨2, ![128, 128]⟩
abbrev S128 : Shape := ⟨1, ![128]⟩
abbrev S640000 : Shape := ⟨1, ![640000]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S640000 : S_.BroadcastsInDim S640000 (![] : Fin 0 → Fin S640000.rank)
  reducesTo_S640000_S_d0 : S640000.ReducesTo [0] S_

variable [Facts]

def fn_part4 {F : FTy → Type} [FloatOps F] (main_arg14 : IVec S640000 32) (main_arg15 : IVec S640000 32) (main_v63 : IVec S_ 1) (main_v67 : IVec S_ 1) : IVec S_ 1 :=
  let main_v68 : IVec S_ 1 := andi main_v63 main_v67
  let main_c_26 : IVec S_ 32 := constantI S_ 32 0#32
  let main_v69 : IVec S640000 32 := broadcastInDim S640000 ![] bcast_S_S640000 main_c_26
  let main_v70 : IVec S640000 1 := cmpi .sge main_arg14 main_v69
  let main_c_27 : IVec S_ 32 := constantI S_ 32 20000#32
  let main_v71 : IVec S640000 32 := broadcastInDim S640000 ![] bcast_S_S640000 main_c_27
  let main_v72 : IVec S640000 1 := cmpi .slt main_arg14 main_v71
  let main_v73 : IVec S640000 1 := andi main_v70 main_v72
  let main_c_28 : IVec S_ 1 := constantI S_ 1 1#1
  let main_v74 : IVec S_ 1 := (fun x v => Host.reduce IntOp.andi x v reducesTo_S640000_S_d0 h_S_) main_v73 main_c_28
  let main_v75 : IVec S_ 1 := andi main_v68 main_v74
  let main_c_29 : IVec S_ 32 := constantI S_ 32 0#32
  let main_v76 : IVec S640000 32 := broadcastInDim S640000 ![] bcast_S_S640000 main_c_29
  let main_v77 : IVec S640000 1 := cmpi .sge main_arg15 main_v76
  let main_c_30 : IVec S_ 32 := constantI S_ 32 20000#32
  let main_v78 : IVec S640000 32 := broadcastInDim S640000 ![] bcast_S_S640000 main_c_30
  let main_v79 : IVec S640000 1 := cmpi .slt main_arg15 main_v78
  let main_v80 : IVec S640000 1 := andi main_v77 main_v79
  let main_c_31 : IVec S_ 1 := constantI S_ 1 1#1
  let main_v81 : IVec S_ 1 := (fun x v => Host.reduce IntOp.andi x v reducesTo_S640000_S_d0 h_S_) main_v80 main_c_31
  let main_v82 : IVec S_ 1 := andi main_v75 main_v81
  main_v82

def fn_part3 {F : FTy → Type} [FloatOps F] (main_arg11 : FVec F S128 .f32) (main_arg12 : FVec F S128x128 .f32) (main_arg13 : FVec F S128 .f32) (main_arg14 : IVec S640000 32) (main_arg15 : IVec S640000 32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg12
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_v63 main_v67

def fn_part2 {F : FTy → Type} [FloatOps F] (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : IVec S640000 32) (main_arg15 : IVec S640000 32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_arg13 main_arg14 main_arg15 main_v48 main_v49 main_v50

def fn_part1 {F : FTy → Type} [FloatOps F] (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : IVec S640000 32) (main_arg15 : IVec S640000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S20000x128 .f32) (main_arg1 : FVec F S640000x128 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : IVec S640000 32) (main_arg15 : IVec S640000 32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S640000x128 .f32 := Host.absf main_arg1
  let main_cst_0 : FVec F S_ .f32 := constant S_ .f32 0x7F800000#32
  let main_v5 : FVec F S640000x128 .f32 := broadcastInDim S640000x128 ![] bcast_S_S640000x128 main_cst_0
  let main_v6 : IVec S640000x128 1 := cmpf .olt main_v4 main_v5
  let main_c_1 : IVec S_ 1 := constantI S_ 1 1#1
  let main_v7 : IVec S_ 1 := (fun x v => Host.reduce IntOp.andi x v reducesTo_S640000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S20000x128 : Shape := ⟨2, ![20000, 128]⟩
abbrev S640000x128 : Shape := ⟨2, ![640000, 128]⟩
abbrev S128x128 : Shape := ⟨2, ![128, 128]⟩
abbrev S128 : Shape := ⟨1, ![128]⟩
abbrev S640000 : Shape := ⟨1, ![640000]⟩
abbrev S128x384 : Shape := ⟨2, ![128, 384]⟩
abbrev S384 : Shape := ⟨1, ![384]⟩
abbrev S1x384 : Shape := ⟨2, ![1, 384]⟩
abbrev S20000x384 : Shape := ⟨2, ![20000, 384]⟩
abbrev S2000x128 : Shape := ⟨2, ![2000, 128]⟩
abbrev S2000x384 : Shape := ⟨2, ![2000, 384]⟩
abbrev S1x128 : Shape := ⟨2, ![1, 128]⟩
abbrev S8000x128 : Shape := ⟨2, ![8000, 128]⟩
abbrev S_ : Shape := ⟨0, ![]⟩
abbrev S640000x1 : Shape := ⟨2, ![640000, 1]⟩
abbrev S1 : Shape := ⟨1, ![1]⟩
abbrev S1x1 : Shape := ⟨2, ![1, 1]⟩
abbrev S4000x128 : Shape := ⟨2, ![4000, 128]⟩

abbrev nBuf : Space → Nat
  | .hbm => 132
  | .vmem => 42
  | .smem => 0
  | _ => 0

abbrev hbmTy0_0 (i : Nat) : BufTy := match i % 128 with
  | 0 => ⟨S20000x128, .f32⟩
  | 1 => ⟨S640000x128, .f32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S640000, .i32⟩
  | 15 => ⟨S640000, .i32⟩
  | 16 => ⟨S128x384, .f32⟩
  | 17 => ⟨S384, .f32⟩
  | 18 => ⟨S1x384, .f32⟩
  | 19 => ⟨S20000x384, .f32⟩
  | 20 => ⟨S20000x128, .f32⟩
  | 21 => ⟨S20000x128, .f32⟩
  | 22 => ⟨S20000x128, .f32⟩
  | 23 => ⟨S1x128, .f32⟩
  | 24 => ⟨S640000x128, .f32⟩
  | 25 => ⟨S_, .i32⟩
  | 26 => ⟨S640000, .i32⟩
  | 27 => ⟨S640000, .i1⟩
  | 28 => ⟨S_, .i32⟩
  | 29 => ⟨S640000, .i32⟩
  | 30 => ⟨S640000, .i32⟩
  | 31 => ⟨S640000, .i32⟩
  | 32 => ⟨S640000x1, .i32⟩
  | 33 => ⟨S1, .i32⟩
  | 34 => ⟨S_, .i32⟩
  | 35 => ⟨S640000x1, .i32⟩
  | 36 => ⟨S640000x1, .i1⟩
  | 37 => ⟨S1x1, .i32⟩
  | 38 => ⟨S640000x1, .i32⟩
  | 39 => ⟨S640000x1, .i1⟩
  | 40 => ⟨S640000x1, .i1⟩
  | 41 => ⟨S_, .i1⟩
  | 42 => ⟨S640000, .i1⟩
  | 43 => ⟨S640000x128, .f32⟩
  | 44 => ⟨S640000x128, .i1⟩
  | 45 => ⟨S_, .f32⟩
  | 46 => ⟨S640000x128, .f32⟩
  | 47 => ⟨S640000x128, .f32⟩
  | 48 => ⟨S_, .i32⟩
  | 49 => ⟨S640000, .i32⟩
  | 50 => ⟨S640000, .i1⟩
  | 51 => ⟨S_, .i32⟩
  | 52 => ⟨S640000, .i32⟩
  | 53 => ⟨S640000, .i32⟩
  | 54 => ⟨S640000, .i32⟩
  | 55 => ⟨S640000x1, .i32⟩
  | 56 => ⟨S1, .i32⟩
  | 57 => ⟨S_, .i32⟩
  | 58 => ⟨S640000x1, .i32⟩
  | 59 => ⟨S640000x1, .i1⟩
  | 60 => ⟨S1x1, .i32⟩
  | 61 => ⟨S640000x1, .i32⟩
  | 62 => ⟨S640000x1, .i1⟩
  | 63 => ⟨S640000x1, .i1⟩
  | 64 => ⟨S_, .i1⟩
  | 65 => ⟨S640000, .i1⟩
  | 66 => ⟨S640000x128, .f32⟩
  | 67 => ⟨S640000x128, .i1⟩
  | 68 => ⟨S_, .f32⟩
  | 69 => ⟨S640000x128, .f32⟩
  | 70 => ⟨S640000x128, .f32⟩
  | 71 => ⟨S640000x128, .f32⟩
  | 72 => ⟨S_, .f32⟩
  | 73 => ⟨S20000x128, .f32⟩
  | 74 => ⟨S640000x1, .i32⟩
  | 75 => ⟨S20000x128, .f32⟩
  | 76 => ⟨S_, .i32⟩
  | 77 => ⟨S640000, .i32⟩
  | 78 => ⟨S640000, .i1⟩
  | 79 => ⟨S_, .i32⟩
  | 80 => ⟨S640000, .i32⟩
  | 81 => ⟨S640000, .i32⟩
  | 82 => ⟨S640000, .i32⟩
  | 83 => ⟨S640000x1, .i32⟩
  | 84 => ⟨S1, .i32⟩
  | 85 => ⟨S_, .i32⟩
  | 86 => ⟨S640000x1, .i32⟩
  | 87 => ⟨S640000x1, .i1⟩
  | 88 => ⟨S1x1, .i32⟩
  | 89 => ⟨S640000x1, .i32⟩
  | 90 => ⟨S640000x1, .i1⟩
  | 91 => ⟨S640000x1, .i1⟩
  | 92 => ⟨S_, .i1⟩
  | 93 => ⟨S640000, .i1⟩
  | 94 => ⟨S640000x128, .f32⟩
  | 95 => ⟨S640000x128, .i1⟩
  | 96 => ⟨S_, .f32⟩
  | 97 => ⟨S640000x128, .f32⟩
  | 98 => ⟨S640000x128, .f32⟩
  | 99 => ⟨S_, .i32⟩
  | 100 => ⟨S640000, .i32⟩
  | 101 => ⟨S640000, .i1⟩
  | 102 => ⟨S_, .i32⟩
  | 103 => ⟨S640000, .i32⟩
  | 104 => ⟨S640000, .i32⟩
  | 105 => ⟨S640000, .i32⟩
  | 106 => ⟨S640000x1, .i32⟩
  | 107 => ⟨S1, .i32⟩
  | 108 => ⟨S_, .i32⟩
  | 109 => ⟨S640000x1, .i32⟩
  | 110 => ⟨S640000x1, .i1⟩
  | 111 => ⟨S1x1, .i32⟩
  | 112 => ⟨S640000x1, .i32⟩
  | 113 => ⟨S640000x1, .i1⟩
  | 114 => ⟨S640000x1, .i1⟩
  | 115 => ⟨S_, .i1⟩
  | 116 => ⟨S640000, .i1⟩
  | 117 => ⟨S640000x128, .f32⟩
  | 118 => ⟨S640000x128, .i1⟩
  | 119 => ⟨S_, .f32⟩
  | 120 => ⟨S640000x128, .f32⟩
  | 121 => ⟨S640000x128, .f32⟩
  | 122 => ⟨S640000x128, .f32⟩
  | 123 => ⟨S640000x128, .f32⟩
  | 124 => ⟨S_, .f32⟩
  | 125 => ⟨S20000x128, .f32⟩
  | 126 => ⟨S640000x1, .i32⟩
  | 127 => ⟨S20000x128, .f32⟩
  | _ => ⟨S20000x128, .f32⟩

abbrev hbmTy0_1 (i : Nat) : BufTy := match i % 128 with
  | 0 => ⟨S1x128, .f32⟩
  | 1 => ⟨S20000x128, .f32⟩
  | 2 => ⟨S1x128, .f32⟩
  | 3 => ⟨S640000x128, .f32⟩
  | _ => ⟨S20000x128, .f32⟩

abbrev hbmTy (i : Nat) : BufTy := match i / 128 with
  | 0 => hbmTy0_0 i
  | 1 => hbmTy0_1 i
  | _ => ⟨S20000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x384, .f32⟩
  | .local _ .vmem, ⟨3, _⟩ => ⟨S1x384, .f32⟩
  | .local _ .vmem, ⟨4, _⟩ => ⟨S2000x384, .f32⟩
  | .local _ .vmem, ⟨5, _⟩ => ⟨S2000x384, .f32⟩
  | .local _ .vmem, ⟨6, _⟩ => ⟨S8000x128, .f32⟩
  | .local _ .vmem, ⟨7, _⟩ => ⟨S8000x128, .f32⟩
  | .local _ .vmem, ⟨8, _⟩ => ⟨S128x128, .f32⟩
  | .local _ .vmem, ⟨9, _⟩ => ⟨S1x128, .f32⟩
  | .local _ .vmem, ⟨10, _⟩ => ⟨S8000x128, .f32⟩
  | .local _ .vmem, ⟨11, _⟩ => ⟨S8000x128, .f32⟩
  | .local _ .vmem, ⟨12, _⟩ => ⟨S8000x128, .f32⟩
  | .local _ .vmem, ⟨13, _⟩ => ⟨S8000x128, .f32⟩
  | .local _ .vmem, ⟨14, _⟩ => ⟨S8000x128, .f32⟩
  | .local _ .vmem, ⟨15, _⟩ => ⟨S8000x128, .f32⟩
  | .local _ .vmem, ⟨16, _⟩ => ⟨S8000x128, .f32⟩
  | .local _ .vmem, ⟨17, _⟩ => ⟨S8000x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S4000x128, .f32⟩
  | .local _ .vmem, ⟨24, _⟩ => ⟨S4000x128, .f32⟩
  | .local _ .vmem, ⟨25, _⟩ => ⟨S4000x128, .f32⟩
  | .local _ .vmem, ⟨26, _⟩ => ⟨S4000x128, .f32⟩
  | .local _ .vmem, ⟨27, _⟩ => ⟨S4000x128, .f32⟩
  | .local _ .vmem, ⟨28, _⟩ => ⟨S4000x128, .f32⟩
  | .local _ .vmem, ⟨29, _⟩ => ⟨S4000x128, .f32⟩
  | .local _ .vmem, ⟨30, _⟩ => ⟨S2000x128, .f32⟩
  | .local _ .vmem, ⟨31, _⟩ => ⟨S2000x128, .f32⟩
  | .local _ .vmem, ⟨32, _⟩ => ⟨S128x128, .f32⟩
  | .local _ .vmem, ⟨33, _⟩ => ⟨S1x128, .f32⟩
  | .local _ .vmem, ⟨34, _⟩ => ⟨S2000x128, .f32⟩
  | .local _ .vmem, ⟨35, _⟩ => ⟨S2000x128, .f32⟩
  | .local _ .vmem, ⟨36, _⟩ => ⟨S8000x128, .f32⟩
  | .local _ .vmem, ⟨37, _⟩ => ⟨S8000x128, .f32⟩
  | .local _ .vmem, ⟨38, _⟩ => ⟨S128x128, .f32⟩
  | .local _ .vmem, ⟨39, _⟩ => ⟨S1x128, .f32⟩
  | .local _ .vmem, ⟨40, _⟩ => ⟨S8000x128, .f32⟩
  | .local _ .vmem, ⟨41, _⟩ => ⟨S8000x128, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_c_2 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_3 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_call0_cst : Ref sig .tc := ⟨.hbm, 45, rfl⟩
abbrev main_call0_v15 : Ref sig .tc := ⟨.hbm, 46, rfl⟩
abbrev main_v9 : Ref sig .tc := ⟨.hbm, 47, rfl⟩
abbrev main_call1_c : Ref sig .tc := ⟨.hbm, 48, rfl⟩
abbrev main_call1_v0 : Ref sig .tc := ⟨.hbm, 49, rfl⟩
abbrev main_call1_v1 : Ref sig .tc := ⟨.hbm, 50, rfl⟩
abbrev main_call1_c_0 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_c_1 : Ref sig .tc := ⟨.hbm, 56, rfl⟩
abbrev main_call1_c_2 : Ref sig .tc := ⟨.hbm, 57, rfl⟩
abbrev main_call1_v6 : Ref sig .tc := ⟨.hbm, 58, rfl⟩
abbrev main_call1_v7 : Ref sig .tc := ⟨.hbm, 59, rfl⟩
abbrev main_call1_v8 : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_c_3 : Ref sig .tc := ⟨.hbm, 64, rfl⟩
abbrev main_call1_v12 : Ref sig .tc := ⟨.hbm, 65, rfl⟩
abbrev main_call1_v13 : Ref sig .tc := ⟨.hbm, 66, rfl⟩
abbrev main_call1_v14 : Ref sig .tc := ⟨.hbm, 67, rfl⟩
abbrev main_call1_cst : Ref sig .tc := ⟨.hbm, 68, rfl⟩
abbrev main_call1_v15 : Ref sig .tc := ⟨.hbm, 69, rfl⟩
abbrev main_v10 : Ref sig .tc := ⟨.hbm, 70, rfl⟩
abbrev main_v11 : Ref sig .tc := ⟨.hbm, 71, rfl⟩
abbrev main_cst : Ref sig .tc := ⟨.hbm, 72, rfl⟩
abbrev main_v12 : Ref sig .tc := ⟨.hbm, 73, rfl⟩
abbrev main_v13 : Ref sig .tc := ⟨.hbm, 74, rfl⟩
abbrev main_v14 : Ref sig .tc := ⟨.hbm, 75, rfl⟩
abbrev main_call2_c : Ref sig .tc := ⟨.hbm, 76, rfl⟩
abbrev main_call2_v0 : Ref sig .tc := ⟨.hbm, 77, rfl⟩
abbrev main_call2_v1 : Ref sig .tc := ⟨.hbm, 78, rfl⟩
abbrev main_call2_c_0 : Ref sig .tc := ⟨.hbm, 79, rfl⟩
abbrev main_call2_v2 : Ref sig .tc := ⟨.hbm, 80, rfl⟩
abbrev main_call2_v3 : Ref sig .tc := ⟨.hbm, 81, rfl⟩
abbrev main_call2_v4 : Ref sig .tc := ⟨.hbm, 82, rfl⟩
abbrev main_call2_v5 : Ref sig .tc := ⟨.hbm, 83, rfl⟩
abbrev main_call2_c_1 : Ref sig .tc := ⟨.hbm, 84, rfl⟩
abbrev main_call2_c_2 : Ref sig .tc := ⟨.hbm, 85, rfl⟩
abbrev main_call2_v6 : Ref sig .tc := ⟨.hbm, 86, rfl⟩
abbrev main_call2_v7 : Ref sig .tc := ⟨.hbm, 87, rfl⟩
abbrev main_call2_v8 : Ref sig .tc := ⟨.hbm, 88, rfl⟩
abbrev main_call2_v9 : Ref sig .tc := ⟨.hbm, 89, rfl⟩
abbrev main_call2_v10 : Ref sig .tc := ⟨.hbm, 90, rfl⟩
abbrev main_call2_v11 : Ref sig .tc := ⟨.hbm, 91, rfl⟩
abbrev main_call2_c_3 : Ref sig .tc := ⟨.hbm, 92, rfl⟩
abbrev main_call2_v12 : Ref sig .tc := ⟨.hbm, 93, rfl⟩
abbrev main_call2_v13 : Ref sig .tc := ⟨.hbm, 94, rfl⟩
abbrev main_call2_v14 : Ref sig .tc := ⟨.hbm, 95, rfl⟩
abbrev main_call2_cst : Ref sig .tc := ⟨.hbm, 96, rfl⟩
abbrev main_call2_v15 : Ref sig .tc := ⟨.hbm, 97, rfl⟩
abbrev main_v15 : Ref sig .tc := ⟨.hbm, 98, rfl⟩
abbrev main_call3_c : Ref sig .tc := ⟨.hbm, 99, rfl⟩
abbrev main_call3_v0 : Ref sig .tc := ⟨.hbm, 100, rfl⟩
abbrev main_call3_v1 : Ref sig .tc := ⟨.hbm, 101, rfl⟩
abbrev main_call3_c_0 : Ref sig .tc := ⟨.hbm, 102, rfl⟩
abbrev main_call3_v2 : Ref sig .tc := ⟨.hbm, 103, rfl⟩
abbrev main_call3_v3 : Ref sig .tc := ⟨.hbm, 104, rfl⟩
abbrev main_call3_v4 : Ref sig .tc := ⟨.hbm, 105, rfl⟩
abbrev main_call3_v5 : Ref sig .tc := ⟨.hbm, 106, rfl⟩
abbrev main_call3_c_1 : Ref sig .tc := ⟨.hbm, 107, rfl⟩
abbrev main_call3_c_2 : Ref sig .tc := ⟨.hbm, 108, rfl⟩
abbrev main_call3_v6 : Ref sig .tc := ⟨.hbm, 109, rfl⟩
abbrev main_call3_v7 : Ref sig .tc := ⟨.hbm, 110, rfl⟩
abbrev main_call3_v8 : Ref sig .tc := ⟨.hbm, 111, rfl⟩
abbrev main_call3_v9 : Ref sig .tc := ⟨.hbm, 112, rfl⟩
abbrev main_call3_v10 : Ref sig .tc := ⟨.hbm, 113, rfl⟩
abbrev main_call3_v11 : Ref sig .tc := ⟨.hbm, 114, rfl⟩
abbrev main_call3_c_3 : Ref sig .tc := ⟨.hbm, 115, rfl⟩
abbrev main_call3_v12 : Ref sig .tc := ⟨.hbm, 116, rfl⟩
abbrev main_call3_v13 : Ref sig .tc := ⟨.hbm, 117, rfl⟩
abbrev main_call3_v14 : Ref sig .tc := ⟨.hbm, 118, rfl⟩
abbrev main_call3_cst : Ref sig .tc := ⟨.hbm, 119, rfl⟩
abbrev main_call3_v15 : Ref sig .tc := ⟨.hbm, 120, rfl⟩
abbrev main_v16 : Ref sig .tc := ⟨.hbm, 121, rfl⟩
abbrev main_v17_0 : Ref sig .tc := ⟨.hbm, 122, rfl⟩
abbrev main_v17_1 : Ref sig .tc := ⟨.hbm, 123, rfl⟩
abbrev main_cst_0 : Ref sig .tc := ⟨.hbm, 124, rfl⟩
abbrev main_v18 : Ref sig .tc := ⟨.hbm, 125, rfl⟩
abbrev main_v19 : Ref sig .tc := ⟨.hbm, 126, rfl⟩
abbrev main_v20 : Ref sig .tc := ⟨.hbm, 127, rfl⟩
abbrev main_v21 : Ref sig .tc := ⟨.hbm, 128, rfl⟩
abbrev main_v22 : Ref sig .tc := ⟨.hbm, 129, rfl⟩
abbrev main_v23 : Ref sig .tc := ⟨.hbm, 130, rfl⟩
abbrev main_v24 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc3_stg4_0 : Ref sig .tc := ⟨.vmem, 26, rfl⟩
abbrev cc3_stg4_1 : Ref sig .tc := ⟨.vmem, 27, rfl⟩
abbrev cc3_stg5_0 : Ref sig .tc := ⟨.vmem, 28, rfl⟩
abbrev cc3_stg5_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg3_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg3_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc3_sem4_0 : DmaSem sig := 26
abbrev cc3_sem4_1 : DmaSem sig := 27
abbrev cc3_sem5_0 : DmaSem sig := 28
abbrev cc3_sem5_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem3_0 : DmaSem sig := 34
abbrev cc4_sem3_1 : DmaSem sig := 35
abbrev cc5_sem0_0 : DmaSem sig := 36
abbrev cc5_sem0_1 : DmaSem sig := 37
abbrev cc5_sem1_0 : DmaSem sig := 38
abbrev cc5_sem2_0 : DmaSem sig := 39
abbrev cc5_sem3_0 : DmaSem sig := 40
abbrev cc5_sem3_1 : DmaSem sig := 41

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![80], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![80], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![160], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S4000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S4000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S4000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![80], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S8000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  concatenates_S128x128_S128x128_S128x128_S128x384_d1 : Shape.Concatenates [S128x128, S128x128, S128x128] S128x384 1
  concatenates_S128_S128_S128_S384_d0 : Shape.Concatenates [S128, S128, S128] S384 0
  shapeCasts_S384_S1x384 : S384.ShapeCasts S1x384
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S2000x384 : S1x384.Broadcasts S2000x384
  inb_S2000x384_S2000x384_0_0 : ∀ a, (![0, 0] : Fin 2 → Nat) a + S2000x384.size a ≤ S2000x384.size a
  h_S2000x384 : 0 < S2000x384.numel
  slices_S20000x384_S20000x128_0_0 : S20000x384.Slices ![0, 0] S20000x128
  slices_S20000x384_S20000x128_0_128 : S20000x384.Slices ![0, 128] S20000x128
  slices_S20000x384_S20000x128_0_256 : S20000x384.Slices ![0, 256] S20000x128
  shapeCasts_S128_S1x128 : S128.ShapeCasts S1x128
  inb_S8000x128_S8000x128_0_0 : ∀ a, (![0, 0] : Fin 2 → Nat) a + S8000x128.size a ≤ S8000x128.size a
  h_S8000x128 : 0 < S8000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  shapeCasts_S8000x128_S8000x128 : S8000x128.ShapeCasts S8000x128
  bcast_S_S20000x128 : S_.BroadcastsInDim S20000x128 (![] : Fin 0 → Fin S20000x128.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  shapeCasts_S2000x128_S2000x128 : S2000x128.ShapeCasts S2000x128
  broadcasts_S1x128_S2000x128 : S1x128.Broadcasts S2000x128
  dot_S2000x128_S128x384_S2000x384_1_0_0_1_n_n_wf : DotDims.WF S2000x128 S128x384 S2000x384 [1] [0] [0] [1] [] []
  dot_S8000x128_S128x128_S8000x128_1_0_0_1_n_n_wf : DotDims.WF S8000x128 S128x128 S8000x128 [1] [0] [0] [1] [] []
  gather_S20000x128_S640000x1_S640000x128_1_0_n_n_0_1_1128_wf : GatherDims.WF S20000x128 S640000x1 S640000x128 [1] [0] [] [0] [] 1 ![1, 128]
  scatter_S20000x128_S640000x1_S640000x128_1_0_0_1_wf : ScatterDims.WF S20000x128 S640000x1 S640000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S20000x128.size a
  hwx0_0 : ∀ i : grid0.Coords, EltTy.bits .f32 = 32 ∨ (Rect.block (s := S20000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x384.size a ≤ S128x384.size a
  hwx0_1 : ∀ i : grid0.Coords, EltTy.bits .f32 = 32 ∨ (Rect.block (s := S128x384) S128x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x384.size a ≤ S1x384.size a
  hwx0_2 : ∀ i : grid0.Coords, EltTy.bits .f32 = 32 ∨ (Rect.block (s := S1x384) S1x384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x384.size a ≤ S20000x384.size a
  hwx0_3 : ∀ i : grid0.Coords, EltTy.bits .f32 = 32 ∨ (Rect.block (s := S20000x384) S2000x384.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S640000x128.size a
  hwx1_0 : ∀ i : grid1.Coords, EltTy.bits .f32 = 32 ∨ (Rect.block (s := S640000x128) S8000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x128.size a ≤ S640000x128.size a
  hwx1_3 : ∀ i : grid1.Coords, EltTy.bits .f32 = 32 ∨ (Rect.block (s := S640000x128) S8000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x128.size a ≤ S640000x128.size a
  hwx2_0 : ∀ i : grid2.Coords, EltTy.bits .f32 = 32 ∨ (Rect.block (s := S640000x128) S8000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x128.size a ≤ S640000x128.size a
  hwx2_1 : ∀ i : grid2.Coords, EltTy.bits .f32 = 32 ∨ (Rect.block (s := S640000x128) S8000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x128.size a ≤ S640000x128.size a
  hwx2_2 : ∀ i : grid2.Coords, EltTy.bits .f32 = 32 ∨ (Rect.block (s := S640000x128) S8000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S640000x128.size a
  hwx3_0 : ∀ i : grid3.Coords, EltTy.bits .f32 = 32 ∨ (Rect.block (s := S640000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x128.size a ≤ S640000x128.size a
  hwx3_1 : ∀ i : grid3.Coords, EltTy.bits .f32 = 32 ∨ (Rect.block (s := S640000x128) S4000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x128.size a ≤ S640000x128.size a
  hwx3_2 : ∀ i : grid3.Coords, EltTy.bits .f32 = 32 ∨ (Rect.block (s := S640000x128) S4000x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4000x128.size a ≤ S640000x128.size a
  hwx3_3 : ∀ i : grid3.Coords, EltTy.bits .f32 = 32 ∨ (Rect.block (s := S640000x128) S4000x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4000x128.size a ≤ S640000x128.size a
  hwx3_4 : ∀ i : grid3.Coords, EltTy.bits .f32 = 32 ∨ (Rect.block (s := S640000x128) S4000x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S4000x128.size a ≤ S640000x128.size a
  hwx3_5 : ∀ i : grid3.Coords, EltTy.bits .f32 = 32 ∨ (Rect.block (s := S640000x128) S4000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S20000x128.size a
  hwx4_0 : ∀ i : grid4.Coords, EltTy.bits .f32 = 32 ∨ (Rect.block (s := S20000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x128.size a ≤ S20000x128.size a
  hwx4_3 : ∀ i : grid4.Coords, EltTy.bits .f32 = 32 ∨ (Rect.block (s := S20000x128) S2000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8000x128.size a ≤ S640000x128.size a
  hwx5_0 : ∀ i : grid5.Coords, EltTy.bits .f32 = 32 ∨ (Rect.block (s := S640000x128) S8000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S8000x128.size a ≤ S640000x128.size a
  hwx5_3 : ∀ i : grid5.Coords, EltTy.bits .f32 = 32 ∨ (Rect.block (s := S640000x128) S8000x128.size (cc5_transform_3 i) (hinb5_3 i)).WholeWords (EltTy.packing .f32)

variable [Facts₀]

def dot_S2000x128_S128x384_S2000x384_1_0_0_1_n_n : DotDims S2000x128 S128x384 S2000x384 where
  lhsContracting := [1]
  rhsContracting := [0]
  lhsNonContracting := [0]
  rhsNonContracting := [1]
  lhsBatch := []
  rhsBatch := []
  wf := dot_S2000x128_S128x384_S2000x384_1_0_0_1_n_n_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2000x384.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S8000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v9) S8000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S8000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S8000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v11) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v8) S4000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v15) S4000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v16) S4000x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v17_0) S4000x128.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v17_1) S4000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v20) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg10) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v21) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v22) S2000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v17_0) S8000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg12) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v23) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v24) S8000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S20000x128 : Shape := ⟨2, ![20000, 128]⟩
abbrev S640000x128 : Shape := ⟨2, ![640000, 128]⟩
abbrev S128x128 : Shape := ⟨2, ![128, 128]⟩
abbrev S128 : Shape := ⟨1, ![128]⟩
abbrev S640000 : Shape := ⟨1, ![640000]⟩
abbrev S1x128 : Shape := ⟨2, ![1, 128]⟩
abbrev S20000x8x16 : Shape := ⟨3, ![20000, 8, 16]⟩
abbrev S640000x8x16 : Shape := ⟨3, ![640000, 8, 16]⟩
abbrev S_ : Shape := ⟨0, ![]⟩
abbrev S640000x1 : Shape := ⟨2, ![640000, 1]⟩

abbrev nBuf : Space → Nat
  | .hbm => 98
  | .vmem => 0
  | .smem => 0
  | _ => 0

abbrev bufTy : (tb : Table) → Fin (tcTables nBuf tb) → BufTy
  | .hbm, ⟨0, _⟩ => ⟨S20000x128, .f32⟩
  | .hbm, ⟨1, _⟩ => ⟨S640000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S640000, .i32⟩
  | .hbm, ⟨15, _⟩ => ⟨S640000, .i32⟩
  | .hbm, ⟨16, _⟩ => ⟨S20000x128, .f32⟩
  | .hbm, ⟨17, _⟩ => ⟨S1x128, .f32⟩
  | .hbm, ⟨18, _⟩ => ⟨S20000x128, .f32⟩
  | .hbm, ⟨19, _⟩ => ⟨S20000x128, .f32⟩
  | .hbm, ⟨20, _⟩ => ⟨S20000x8x16, .f32⟩
  | .hbm, ⟨21, _⟩ => ⟨S20000x128, .f32⟩
  | .hbm, ⟨22, _⟩ => ⟨S1x128, .f32⟩
  | .hbm, ⟨23, _⟩ => ⟨S20000x128, .f32⟩
  | .hbm, ⟨24, _⟩ => ⟨S20000x128, .f32⟩
  | .hbm, ⟨25, _⟩ => ⟨S20000x8x16, .f32⟩
  | .hbm, ⟨26, _⟩ => ⟨S20000x128, .f32⟩
  | .hbm, ⟨27, _⟩ => ⟨S1x128, .f32⟩
  | .hbm, ⟨28, _⟩ => ⟨S20000x128, .f32⟩
  | .hbm, ⟨29, _⟩ => ⟨S20000x128, .f32⟩
  | .hbm, ⟨30, _⟩ => ⟨S20000x8x16, .f32⟩
  | .hbm, ⟨31, _⟩ => ⟨S640000x128, .f32⟩
  | .hbm, ⟨32, _⟩ => ⟨S1x128, .f32⟩
  | .hbm, ⟨33, _⟩ => ⟨S640000x128, .f32⟩
  | .hbm, ⟨34, _⟩ => ⟨S640000x128, .f32⟩
  | .hbm, ⟨35, _⟩ => ⟨S640000x8x16, .f32⟩
  | .hbm, ⟨36, _⟩ => ⟨S_, .i32⟩
  | .hbm, ⟨37, _⟩ => ⟨S640000, .i32⟩
  | .hbm, ⟨38, _⟩ => ⟨S640000, .i1⟩
  | .hbm, ⟨39, _⟩ => ⟨S_, .i32⟩
  | .hbm, ⟨40, _⟩ => ⟨S640000, .i32⟩
  | .hbm, ⟨41, _⟩ => ⟨S640000, .i32⟩
  | .hbm, ⟨42, _⟩ => ⟨S640000, .i32⟩
  | .hbm, ⟨43, _⟩ => ⟨S640000x1, .i32⟩
  | .hbm, ⟨44, _⟩ => ⟨S640000x8x16, .f32⟩
  | .hbm, ⟨45, _⟩ => ⟨S_, .i32⟩
  | .hbm, ⟨46, _⟩ => ⟨S640000, .i32⟩
  | .hbm, ⟨47, _⟩ => ⟨S640000, .i1⟩
  | .hbm, ⟨48, _⟩ => ⟨S_, .i32⟩
  | .hbm, ⟨49, _⟩ => ⟨S640000, .i32⟩
  | .hbm, ⟨50, _⟩ => ⟨S640000, .i32⟩
  | .hbm, ⟨51, _⟩ => ⟨S640000, .i32⟩
  | .hbm, ⟨52, _⟩ => ⟨S640000x1, .i32⟩
  | .hbm, ⟨53, _⟩ => ⟨S640000x8x16, .f32⟩
  | .hbm, ⟨54, _⟩ => ⟨S640000x8x16, .f32⟩
  | .hbm, ⟨55, _⟩ => ⟨S_, .f32⟩
  | .hbm, ⟨56, _⟩ => ⟨S640000x8x16, .f32⟩
  | .hbm, ⟨57, _⟩ => ⟨S640000x8x16, .f32⟩
  | .hbm, ⟨58, _⟩ => ⟨S640000x8x16, .f32⟩
  | .hbm, ⟨59, _⟩ => ⟨S_, .f32⟩
  | .hbm, ⟨60, _⟩ => ⟨S20000x8x16, .f32⟩
  | .hbm, ⟨61, _⟩ => ⟨S640000x1, .i32⟩
  | .hbm, ⟨62, _⟩ => ⟨S20000x8x16, .f32⟩
  | .hbm, ⟨63, _⟩ => ⟨S640000x8x16, .f32⟩
  | .hbm, ⟨64, _⟩ => ⟨S_, .i32⟩
  | .hbm, ⟨65, _⟩ => ⟨S640000, .i32⟩
  | .hbm, ⟨66, _⟩ => ⟨S640000, .i1⟩
  | .hbm, ⟨67, _⟩ => ⟨S_, .i32⟩
  | .hbm, ⟨68, _⟩ => ⟨S640000, .i32⟩
  | .hbm, ⟨69, _⟩ => ⟨S640000, .i32⟩
  | .hbm, ⟨70, _⟩ => ⟨S640000, .i32⟩
  | .hbm, ⟨71, _⟩ => ⟨S640000x1, .i32⟩
  | .hbm, ⟨72, _⟩ => ⟨S640000x8x16, .f32⟩
  | .hbm, ⟨73, _⟩ => ⟨S640000x8x16, .f32⟩
  | .hbm, ⟨74, _⟩ => ⟨S_, .i32⟩
  | .hbm, ⟨75, _⟩ => ⟨S640000, .i32⟩
  | .hbm, ⟨76, _⟩ => ⟨S640000, .i1⟩
  | .hbm, ⟨77, _⟩ => ⟨S_, .i32⟩
  | .hbm, ⟨78, _⟩ => ⟨S640000, .i32⟩
  | .hbm, ⟨79, _⟩ => ⟨S640000, .i32⟩
  | .hbm, ⟨80, _⟩ => ⟨S640000, .i32⟩
  | .hbm, ⟨81, _⟩ => ⟨S640000x1, .i32⟩
  | .hbm, ⟨82, _⟩ => ⟨S640000x8x16, .f32⟩
  | .hbm, ⟨83, _⟩ => ⟨S640000x8x16, .f32⟩
  | .hbm, ⟨84, _⟩ => ⟨S_, .f32⟩
  | .hbm, ⟨85, _⟩ => ⟨S20000x8x16, .f32⟩
  | .hbm, ⟨86, _⟩ => ⟨S640000x1, .i32⟩
  | .hbm, ⟨87, _⟩ => ⟨S20000x8x16, .f32⟩
  | .hbm, ⟨88, _⟩ => ⟨S20000x128, .f32⟩
  | .hbm, ⟨89, _⟩ => ⟨S20000x128, .f32⟩
  | .hbm, ⟨90, _⟩ => ⟨S1x128, .f32⟩
  | .hbm, ⟨91, _⟩ => ⟨S20000x128, .f32⟩
  | .hbm, ⟨92, _⟩ => ⟨S20000x128, .f32⟩
  | .hbm, ⟨93, _⟩ => ⟨S640000x128, .f32⟩
  | .hbm, ⟨94, _⟩ => ⟨S640000x128, .f32⟩
  | .hbm, ⟨95, _⟩ => ⟨S1x128, .f32⟩
  | .hbm, ⟨96, _⟩ => ⟨S640000x128, .f32⟩
  | .hbm, ⟨97, _⟩ => ⟨S640000x128, .f32⟩
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c : Ref sig .tc := ⟨.hbm, 36, rfl⟩
abbrev main_v20 : Ref sig .tc := ⟨.hbm, 37, rfl⟩
abbrev main_v21 : Ref sig .tc := ⟨.hbm, 38, rfl⟩
abbrev main_c_0 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_1 : Ref sig .tc := ⟨.hbm, 45, rfl⟩
abbrev main_v27 : Ref sig .tc := ⟨.hbm, 46, rfl⟩
abbrev main_v28 : Ref sig .tc := ⟨.hbm, 47, rfl⟩
abbrev main_c_2 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_3 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_c_4 : Ref sig .tc := ⟨.hbm, 64, rfl⟩
abbrev main_v42 : Ref sig .tc := ⟨.hbm, 65, rfl⟩
abbrev main_v43 : Ref sig .tc := ⟨.hbm, 66, rfl⟩
abbrev main_c_5 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_c_6 : Ref sig .tc := ⟨.hbm, 74, rfl⟩
abbrev main_v50 : Ref sig .tc := ⟨.hbm, 75, rfl⟩
abbrev main_v51 : Ref sig .tc := ⟨.hbm, 76, rfl⟩
abbrev main_c_7 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_8 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  shapeCasts_S20000x128_S20000x8x16 : S20000x128.ShapeCasts S20000x8x16
  bcast_S1x128_S640000x128_0_1 : S1x128.BroadcastsInDim S640000x128 (![0, 1] : Fin 2 → Fin S640000x128.rank)
  shapeCasts_S640000x128_S640000x8x16 : S640000x128.ShapeCasts S640000x8x16
  bcast_S_S640000 : S_.BroadcastsInDim S640000 (![] : Fin 0 → Fin S640000.rank)
  bcast_S640000_S640000x1_0 : S640000.BroadcastsInDim S640000x1 (![0] : Fin 1 → Fin S640000x1.rank)
  bcast_S_S640000x8x16 : S_.BroadcastsInDim S640000x8x16 (![] : Fin 0 → Fin S640000x8x16.rank)
  bcast_S_S20000x8x16 : S_.BroadcastsInDim S20000x8x16 (![] : Fin 0 → Fin S20000x8x16.rank)
  shapeCasts_S20000x8x16_S20000x128 : S20000x8x16.ShapeCasts S20000x128
  shapeCasts_S640000x8x16_S640000x128 : S640000x8x16.ShapeCasts S640000x128
  dot_S20000x128_S128x128_S20000x128_1_0_0_1_n_n_wf : DotDims.WF S20000x128 S128x128 S20000x128 [1] [0] [0] [1] [] []
  dot_S640000x128_S128x128_S640000x128_1_0_0_1_n_n_wf : DotDims.WF S640000x128 S128x128 S640000x128 [1] [0] [0] [1] [] []
  gather_S20000x8x16_S640000x1_S640000x8x16_12_0_n_n_0_1_1816_wf : GatherDims.WF S20000x8x16 S640000x1 S640000x8x16 [1, 2] [0] [] [0] [] 1 ![1, 8, 16]
  scatter_S20000x8x16_S640000x1_S640000x8x16_12_0_0_1_wf : ScatterDims.WF S20000x8x16 S640000x1 S640000x8x16 [1, 2] [0] [0] 1

variable [Facts₀]

def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def gather_S20000x8x16_S640000x1_S640000x8x16_12_0_n_n_0_1_1816 : GatherDims S20000x8x16 S640000x1 S640000x8x16 where
  offsetDims := [1, 2]
  collapsedSliceDims := [0]
  operandBatchingDims := []
  startIndicesBatchingDims := []
  startIndexMap := [0]
  indexVectorDim := 1
  sliceSizes := ![1, 8, 16]
  wf := gather_S20000x8x16_S640000x1_S640000x8x16_12_0_n_n_0_1_1816_wf
def scatter_S20000x8x16_S640000x1_S640000x8x16_12_0_0_1 : ScatterDims S20000x8x16 S640000x1 S640000x8x16 where
  updateWindowDims := [1, 2]
  insertedWindowDims := [0]
  scatterDimsToOperandDims := [0]
  indexVectorDim := 1
  wf := scatter_S20000x8x16_S640000x1_S640000x8x16_12_0_0_1_wf

class Facts : Prop extends Facts₀ where

variable [Facts]
-- ==== Proof.K.Region0.lean ====
/-
  Region 0 of the program: the fused node projection [q | k | v] = x · [Wq | Wk | Wv] + [bq | bk | bv], one block of 2000 rows per grid point.
  At any contents V of the core's buffers when the region is entered: each window's block at a point, what the body leaves
  in the output window's buffer (the canon of its one whole-block store over the payload of the three loaded blocks),
  the body's triple, the pipeline's proof data and the body obligation at every point.
-/
import proofs.«426099_j50130858279187_1_alg».proof.Proof.Gen.Kernel.Launch
import proofs.«426099_j50130858279187_1_alg».proof.Proof.Gen.Kernel.Skeleton
import proofs.«426099_j50130858279187_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangle of the output's staging buffer. -/
abbrev r0_out : Rect S2000x384 := Rect.unit (s := S2000x384) ![0, 0] S2000x384.size inb_S2000x384_S2000x384_0_0

/-- The output window's staging buffer after the body: its one store, over the payload of the loaded blocks. -/
def out0_3 (x0 : Vec F S2000x128 .f32) (x1 : Vec F S128x384 .f32) (x2 : Vec F S1x384 .f32) : Vec F S2000x384 .f32 :=
  View.canon [⟨r0_out, k0_pay1 (View.ld x0 (Rect.unit (s := S2000x128) ![0, 0] S2000x128.size inb_S2000x128_S2000x128_0_0))
    (View.ld x1 (Rect.unit (s := S128x384) ![0, 0] S128x384.size inb_S128x384_S128x384_0_0))
    (View.ld x2 (Rect.unit (s := S1x384) ![0, 0] S1x384.size inb_S1x384_S1x384_0_0))⟩]

theorem cover0_3 (p0 : Vec F S2000x384 .f32) (y : S2000x384.Idx) :
    ∃ pc ∈ ([⟨r0_out, p0⟩] : List (View.Piece (Elt F) S2000x384 .f32)), y ∈ pc.1.set :=
  View.cover_of_tiled [⟨r0_out, p0⟩] S2000x384.size (by rfl) y

set_option maxHeartbeats 1000000 in
/-- The body on whole staging memrefs: the inputs stay, the output ends at `out0_3` of the inputs. -/
theorem sound_kernel0 (c : Dev nD) (E : Set ℕ) (i : grid0.Coords)
    (arg1 : Memref sig .tc .vmem S2000x128 .f32) (harg1 : arg1.IsWhole) (arg2 : Memref sig .tc .vmem S128x384 .f32) (harg2 : arg2.IsWhole)
    (arg3 : Memref sig .tc .vmem S1x384 .f32) (harg3 : arg3.IsWhole) (arg4 : Memref sig .tc .vmem S2000x384 .f32) (harg4 : arg4.IsWhole)
    (x0 : Vec F S2000x128 .f32) (x1 : Vec F S128x384 .f32) (x2 : Vec F S1x384 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of pipeline 1 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1.lean ====
/-
  Region 1 of the program: the edge projection ep = e · We + be, one block of 8000 rows per grid point.
  At any contents V of the core's buffers when the region is entered: each window's block at a point, what the body leaves
  in the output window's buffer (the canon of its one whole-block store over the payload of the three loaded blocks),
  the body's triple, the pipeline's proof data and the body obligation at every point.
-/
import proofs.«426099_j50130858279187_1_alg».proof.Proof.Gen.Kernel.Launch
import proofs.«426099_j50130858279187_1_alg».proof.Proof.Gen.Kernel.Skeleton
import proofs.«426099_j50130858279187_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangle of the output's staging buffer. -/
abbrev r1_out : Rect S8000x128 := Rect.unit (s := S8000x128) ![0, 0] S8000x128.size inb_S8000x128_S8000x128_0_0

/-- The output window's staging buffer after the body: its one store, over the payload of the loaded blocks. -/
def out1_3 (x0 : Vec F S8000x128 .f32) (x1 : Vec F S128x128 .f32) (x2 : Vec F S1x128 .f32) : Vec F S8000x128 .f32 :=
  View.canon [⟨r1_out, k1_pay1 (View.ld x0 (Rect.unit (s := S8000x128) ![0, 0] S8000x128.size inb_S8000x128_S8000x128_0_0))
    (View.ld x1 (Rect.unit (s := S128x128) ![0, 0] S128x128.size inb_S128x128_S128x128_0_0))
    (View.ld x2 (Rect.unit (s := S1x128) ![0, 0] S1x128.size inb_S1x128_S1x128_0_0))⟩]

theorem cover1_3 (p0 : Vec F S8000x128 .f32) (y : S8000x128.Idx) :
    ∃ pc ∈ ([⟨r1_out, p0⟩] : List (View.Piece (Elt F) S8000x128 .f32)), y ∈ pc.1.set :=
  View.cover_of_tiled [⟨r1_out, p0⟩] S8000x128.size (by rfl) y

set_option maxHeartbeats 1000000 in
/-- The body on whole staging memrefs: the inputs stay, the output ends at `out1_3` of the inputs. -/
theorem sound_kernel1 (c : Dev nD) (E : Set ℕ) (i : grid1.Coords)
    (arg1 : Memref sig .tc .vmem S8000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S8000x128 .f32) (harg4 : arg4.IsWhole)
    (x0 : Vec F S8000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Region2.lean ====
/-
  Region 2 of the program: the edge score m = exp (k[src] · q[dst] · 1/4), entry by entry, one block of 8000 rows per grid point.
  At any contents V of the core's buffers when the region is entered: each window's block at a point, what the body leaves
  in each output window's buffer (the canon of its one whole-block store over the payload of the loaded blocks),
  the body's triple, the pipeline's proof data and the body obligation at every point.
-/
import proofs.«426099_j50130858279187_1_alg».proof.Proof.Gen.Kernel.Launch
import proofs.«426099_j50130858279187_1_alg».proof.Proof.Gen.Kernel.Skeleton
import proofs.«426099_j50130858279187_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole-block rectangle of the output's staging buffer. -/
abbrev r2_out : Rect S8000x128 := Rect.unit (s := S8000x128) ![0, 0] S8000x128.size inb_S8000x128_S8000x128_0_0

/-- The output window's staging buffer after the body: its one store, over the payload of the loaded blocks. -/
def out2_2 (x0 : Vec F S8000x128 .f32) (x1 : Vec F S8000x128 .f32) : Vec F S8000x128 .f32 :=
  View.canon [⟨r2_out, k2_pay1 (View.ld x0 (Rect.unit (s := S8000x128) ![0, 0] S8000x128.size inb_S8000x128_S8000x128_0_0)) (View.ld x1 (Rect.unit (s := S8000x128) ![0, 0] S8000x128.size inb_S8000x128_S8000x128_0_0))⟩]

theorem cover2_2 (p0 : Vec F S8000x128 .f32) (y : S8000x128.Idx) :
    ∃ pc ∈ ([⟨r2_out, p0⟩] : List (View.Piece (Elt F) S8000x128 .f32)), y ∈ pc.1.set :=
  View.cover_of_tiled [⟨r2_out, p0⟩] S8000x128.size (by rfl) y

set_option maxHeartbeats 1000000 in
/-- The body on whole staging memrefs: the inputs stay, the output ends at `out2_2` of the inputs. -/
theorem sound_kernel2 (c : Dev nD) (E : Set ℕ) (i : grid2.Coords)
    (arg1 : Memref sig .tc .vmem S8000x128 .f32) (harg1 : arg1.IsWhole) (arg2 : Memref sig .tc .vmem S8000x128 .f32) (harg2 : arg2.IsWhole)
    (arg3 : Memref sig .tc .vmem S8000x128 .f32) (harg3 : arg3.IsWhole)
    (x0 : Vec F S8000x128 .f32) (x1 : Vec F S8000x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2_kernel i arg1 harg1 arg2 harg2 arg3 harg3) K := by
  simp only [cc2_kernel_eq_skeleton]; unfold cc2_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of pipeline 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Region3.lean ====
/-
  Region 3 of the program: me = m · ep and mx = me · v[src] / z[dst], entry by entry, one block of 4000 rows per grid point; two output windows.
  At any contents V of the core's buffers when the region is entered: each window's block at a point, what the body leaves
  in each output window's buffer (the canon of its one whole-block store over the payload of the loaded blocks),
  the body's triple, the pipeline's proof data and the body obligation at every point.
-/
import proofs.«426099_j50130858279187_1_alg».proof.Proof.Gen.Kernel.Launch
import proofs.«426099_j50130858279187_1_alg».proof.Proof.Gen.Kernel.Skeleton
import proofs.«426099_j50130858279187_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- The whole-block rectangle of an output's staging buffer. -/
abbrev r3_out : Rect S4000x128 := Rect.unit (s := S4000x128) ![0, 0] S4000x128.size inb_S4000x128_S4000x128_0_0

/-- The first output window's staging buffer after the body (me): its one store, over the payload of the loaded blocks. -/
def out3_4 (x0 : Vec F S4000x128 .f32) (x1 : Vec F S4000x128 .f32) : Vec F S4000x128 .f32 :=
  View.canon [⟨r3_out, k3_pay1 (View.ld x0 (Rect.unit (s := S4000x128) ![0, 0] S4000x128.size inb_S4000x128_S4000x128_0_0)) (View.ld x1 (Rect.unit (s := S4000x128) ![0, 0] S4000x128.size inb_S4000x128_S4000x128_0_0))⟩]
/-- The second output window's staging buffer after the body (mx). -/
def out3_5 (x0 : Vec F S4000x128 .f32) (x1 : Vec F S4000x128 .f32) (x2 : Vec F S4000x128 .f32) (x3 : Vec F S4000x128 .f32) : Vec F S4000x128 .f32 :=
  View.canon [⟨r3_out, k3_pay2 (View.ld x0 (Rect.unit (s := S4000x128) ![0, 0] S4000x128.size inb_S4000x128_S4000x128_0_0)) (View.ld x1 (Rect.unit (s := S4000x128) ![0, 0] S4000x128.size inb_S4000x128_S4000x128_0_0)) (View.ld x2 (Rect.unit (s := S4000x128) ![0, 0] S4000x128.size inb_S4000x128_S4000x128_0_0)) (View.ld x3 (Rect.unit (s := S4000x128) ![0, 0] S4000x128.size inb_S4000x128_S4000x128_0_0))⟩]

theorem cover3 (p0 : Vec F S4000x128 .f32) (y : S4000x128.Idx) :
    ∃ pc ∈ ([⟨r3_out, p0⟩] : List (View.Piece (Elt F) S4000x128 .f32)), y ∈ pc.1.set :=
  View.cover_of_tiled [⟨r3_out, p0⟩] S4000x128.size (by rfl) y

set_option maxHeartbeats 1000000 in
/-- The body on whole staging memrefs: the inputs stay, the outputs end at `out3_4` and `out3_5` of the inputs. -/
theorem sound_kernel3 (c : Dev nD) (E : Set ℕ) (i : grid3.Coords)
    (arg1 : Memref sig .tc .vmem S4000x128 .f32) (harg1 : arg1.IsWhole) (arg2 : Memref sig .tc .vmem S4000x128 .f32) (harg2 : arg2.IsWhole)
    (arg3 : Memref sig .tc .vmem S4000x128 .f32) (harg3 : arg3.IsWhole) (arg4 : Memref sig .tc .vmem S4000x128 .f32) (harg4 : arg4.IsWhole)
    (arg5 : Memref sig .tc .vmem S4000x128 .f32) (harg5 : arg5.IsWhole) (arg6 : Memref sig .tc .vmem S4000x128 .f32) (harg6 : arg6.IsWhole)
    (x0 x1 x2 x3 : Vec F S4000x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out3_4 x0 x1) ∗ owns (c : Thread nD τ) arg6 fullShare (out3_5 x0 x1 x2 x3)) -∗ K ⟨⟩))
      ⊢ wp frame (wpE (defs₀ (F := F)) Variants.none c none) E (cc3__me_mx_kernel i arg1 harg1 arg2 harg2 arg3 harg3 arg4 harg4 arg5 harg5 arg6 harg6) K := by
  simp only [cc3__me_mx_kernel_eq_skeleton]; unfold cc3__me_mx_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover3 _)
  iexists _; isplitr
  swap; · iexact H5
  ipureintro
  exact View.read_writes_eq_canon _ _ _ (cover3 _)

/-- The proof data of pipeline 3 on core `c`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t)
    | ⟨5, _⟩ => out3_5 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out3_4 (iblk3 V c 0 t) (iblk3 V c 1 t) := by dsimp only [dat3]
theorem after3_5 (c : Dev nD) (t : Fin cfg3.N) :
    (dat3 V c).after 5 t = out3_5 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Region4.lean ====
/-
  Region 4 of the program: the node output projection out_x = x_agg · Wox + box, one block of 2000 rows per grid point.
  At any contents V of the core's buffers when the region is entered: each window's block at a point, what the body leaves
  in the output window's buffer (the canon of its one whole-block store over the payload of the three loaded blocks),
  the body's triple, the pipeline's proof data and the body obligation at every point.
-/
import proofs.«426099_j50130858279187_1_alg».proof.Proof.Gen.Kernel.Launch
import proofs.«426099_j50130858279187_1_alg».proof.Proof.Gen.Kernel.Skeleton
import proofs.«426099_j50130858279187_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The whole-block rectangle of the output's staging buffer. -/
abbrev r4_out : Rect S2000x128 := Rect.unit (s := S2000x128) ![0, 0] S2000x128.size inb_S2000x128_S2000x128_0_0

/-- The output window's staging buffer after the body: its one store, over the payload of the loaded blocks. -/
def out4_3 (x0 : Vec F S2000x128 .f32) (x1 : Vec F S128x128 .f32) (x2 : Vec F S1x128 .f32) : Vec F S2000x128 .f32 :=
  View.canon [⟨r4_out, k4_pay1 (View.ld x0 (Rect.unit (s := S2000x128) ![0, 0] S2000x128.size inb_S2000x128_S2000x128_0_0))
    (View.ld x1 (Rect.unit (s := S128x128) ![0, 0] S128x128.size inb_S128x128_S128x128_0_0))
    (View.ld x2 (Rect.unit (s := S1x128) ![0, 0] S1x128.size inb_S1x128_S1x128_0_0))⟩]

theorem cover4_3 (p0 : Vec F S2000x128 .f32) (y : S2000x128.Idx) :
    ∃ pc ∈ ([⟨r4_out, p0⟩] : List (View.Piece (Elt F) S2000x128 .f32)), y ∈ pc.1.set :=
  View.cover_of_tiled [⟨r4_out, p0⟩] S2000x128.size (by rfl) y

set_option maxHeartbeats 1000000 in
/-- The body on whole staging memrefs: the inputs stay, the output ends at `out4_3` of the inputs. -/
theorem sound_kernel4 (c : Dev nD) (E : Set ℕ) (i : grid4.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (x0 : Vec F S2000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4__linear_kernel i arg1 harg1 arg2 harg2 arg3 harg3 arg4 harg4) K := by
  simp only [cc4__linear_kernel_eq_skeleton]; unfold cc4__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-- The proof data of pipeline 1 on core `c`. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.Region5.lean ====
/-
  Region 5 of the program: the edge output projection out_e = me · Woe + boe, one block of 8000 rows per grid point.
  At any contents V of the core's buffers when the region is entered: each window's block at a point, what the body leaves
  in the output window's buffer (the canon of its one whole-block store over the payload of the three loaded blocks),
  the body's triple, the pipeline's proof data and the body obligation at every point.
-/
import proofs.«426099_j50130858279187_1_alg».proof.Proof.Gen.Kernel.Launch
import proofs.«426099_j50130858279187_1_alg».proof.Proof.Gen.Kernel.Skeleton
import proofs.«426099_j50130858279187_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, fetched there or not. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- The whole-block rectangle of the output's staging buffer. -/
abbrev r5_out : Rect S8000x128 := Rect.unit (s := S8000x128) ![0, 0] S8000x128.size inb_S8000x128_S8000x128_0_0

/-- The output window's staging buffer after the body: its one store, over the payload of the loaded blocks. -/
def out5_3 (x0 : Vec F S8000x128 .f32) (x1 : Vec F S128x128 .f32) (x2 : Vec F S1x128 .f32) : Vec F S8000x128 .f32 :=
  View.canon [⟨r5_out, k5_pay1 (View.ld x0 (Rect.unit (s := S8000x128) ![0, 0] S8000x128.size inb_S8000x128_S8000x128_0_0))
    (View.ld x1 (Rect.unit (s := S128x128) ![0, 0] S128x128.size inb_S128x128_S128x128_0_0))
    (View.ld x2 (Rect.unit (s := S1x128) ![0, 0] S1x128.size inb_S1x128_S1x128_0_0))⟩]

theorem cover5_3 (p0 : Vec F S8000x128 .f32) (y : S8000x128.Idx) :
    ∃ pc ∈ ([⟨r5_out, p0⟩] : List (View.Piece (Elt F) S8000x128 .f32)), y ∈ pc.1.set :=
  View.cover_of_tiled [⟨r5_out, p0⟩] S8000x128.size (by rfl) y

set_option maxHeartbeats 1000000 in
/-- The body on whole staging memrefs: the inputs stay, the output ends at `out5_3` of the inputs. -/
theorem sound_kernel5 (c : Dev nD) (E : Set ℕ) (i : grid5.Coords)
    (arg1 : Memref sig .tc .vmem S8000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S8000x128 .f32) (harg4 : arg4.IsWhole)
    (x0 : Vec F S8000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out5_3 x0 x1 x2)) -∗ K ⟨⟩))
      ⊢ wp frame (wpE (defs₀ (F := F)) Variants.none c none) E (cc5__linear_kernel i arg1 harg1 arg2 harg2 arg3 harg3 arg4 harg4) K := by
  simp only [cc5__linear_kernel_eq_skeleton]; unfold cc5__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-- The proof data of pipeline 1 on core `c`. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = out5_3 (iblk5 V c 0 t) (iblk5 V c 1 t) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.Vals.lean ====
/-
  The contents of the core's buffers at every boundary between two items of the program's entry function, as a fold from
  the launch memory: a stretch of host operations leaves what the operations compute; a kernel region leaves its arrays at
  what the pipeline's write-backs make of them (its inputs as entered) and every other buffer as entered.
-/
import proofs.«426099_j50130858279187_1_alg».proof.Proof.K.Region0
import proofs.«426099_j50130858279187_1_alg».proof.Proof.K.Region1
import proofs.«426099_j50130858279187_1_alg».proof.Proof.K.Region2
import proofs.«426099_j50130858279187_1_alg».proof.Proof.K.Region3
import proofs.«426099_j50130858279187_1_alg».proof.Proof.K.Region4
import proofs.«426099_j50130858279187_1_alg».proof.Proof.K.Region5

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s buffers at launch. -/
abbrev U0 : Dev nD → Valuation τ sig (Elt F) := fun c b => (s₀ m ρ).mem ((c : Dev nD), b)
/-- After `hostOps0` (region 0's entry). -/
abbrev U1 : Dev nD → Valuation τ sig (Elt F) := fun c => StableHlo.after hostOps0 (U0 m ρ c)
/-- The same read at the core's references. -/
abbrev T1 : (c : Dev nD) → (b : Ref sig .tc) → Buf (Elt F) ((c : Thread nD τ).loc b) := fun c b => U1 m ρ c b
/-- At region 0's exit: its arrays at what the pipeline leaves, every other buffer as entered. -/
def U2 (c : Dev nD) : Valuation τ sig (Elt F) :=
  Pipeline.withArrays spec0 c (U1 m ρ c) fun w => (dat0 (T1 m ρ) c).arrAt w cfg0.N
theorem U2_arr (c : Dev nD) (w : Fin cfg0.W) :
    U2 m ρ c (Proc.devRef .tc (Pipeline.arrRef spec0 w)) = (dat0 (T1 m ρ) c).arrAt w cfg0.N := by
  unfold U2; exact Pipeline.withArrays_arr spec0 launch0.win.arr_inj c _ _ w
theorem U2_of_ne (c : Dev nD) (b : Ref sig .tc) (hb : ∀ w, Pipeline.arrRef spec0 w ≠ b) :
    U2 m ρ c (Proc.devRef .tc b) = U1 m ρ c (Proc.devRef .tc b) := by
  unfold U2; exact Pipeline.withArrays_of_ne spec0 c _ _ b hb
/-- The same read at the core's references. -/
abbrev T2 : (c : Dev nD) → (b : Ref sig .tc) → Buf (Elt F) ((c : Thread nD τ).loc b) := fun c b => U2 m ρ c b
theorem hF0 (c : Dev nD) (w : Fin cfg0.W) : (dat0 (T1 m ρ) c).arrAt w cfg0.N = T2 m ρ c (Pipeline.arrRef spec0 w) :=
  (U2_arr m ρ c w).symm
theorem hrest0 (c : Dev nD) : ∀ b, b ∉ Finset.univ.image (Pipeline.arrRef spec0) → T2 m ρ c b = T1 m ρ c b :=
  fun b hb => U2_of_ne m ρ c b fun w e => hb (Finset.mem_image.mpr ⟨w, Finset.mem_univ _, e⟩)
/-- After `hostOps1` (region 1's entry). -/
abbrev U3 : Dev nD → Valuation τ sig (Elt F) := fun c => StableHlo.after hostOps1 (U2 m ρ c)
/-- The same read at the core's references. -/
abbrev T3 : (c : Dev nD) → (b : Ref sig .tc) → Buf (Elt F) ((c : Thread nD τ).loc b) := fun c b => U3 m ρ c b
/-- At region 1's exit: its arrays at what the pipeline leaves, every other buffer as entered. -/
def U4 (c : Dev nD) : Valuation τ sig (Elt F) :=
  Pipeline.withArrays spec1 c (U3 m ρ c) fun w => (dat1 (T3 m ρ) c).arrAt w cfg1.N
theorem U4_arr (c : Dev nD) (w : Fin cfg1.W) :
    U4 m ρ c (Proc.devRef .tc (Pipeline.arrRef spec1 w)) = (dat1 (T3 m ρ) c).arrAt w cfg1.N := by
  unfold U4; exact Pipeline.withArrays_arr spec1 launch1.win.arr_inj c _ _ w
theorem U4_of_ne (c : Dev nD) (b : Ref sig .tc) (hb : ∀ w, Pipeline.arrRef spec1 w ≠ b) :
    U4 m ρ c (Proc.devRef .tc b) = U3 m ρ c (Proc.devRef .tc b) := by
  unfold U4; exact Pipeline.withArrays_of_ne spec1 c _ _ b hb
/-- The same read at the core's references. -/
abbrev T4 : (c : Dev nD) → (b : Ref sig .tc) → Buf (Elt F) ((c : Thread nD τ).loc b) := fun c b => U4 m ρ c b
theorem hF1 (c : Dev nD) (w : Fin cfg1.W) : (dat1 (T3 m ρ) c).arrAt w cfg1.N = T4 m ρ c (Pipeline.arrRef spec1 w) :=
  (U4_arr m ρ c w).symm
theorem hrest1 (c : Dev nD) : ∀ b, b ∉ Finset.univ.image (Pipeline.arrRef spec1) → T4 m ρ c b = T3 m ρ c b :=
  fun b hb => U4_of_ne m ρ c b fun w e => hb (Finset.mem_image.mpr ⟨w, Finset.mem_univ _, e⟩)
/-- After `hostOps2`. -/
abbrev U5 : Dev nD → Valuation τ sig (Elt F) := fun c => StableHlo.after hostOps2 (U4 m ρ c)
/-- After `hostOps2_1` (region 2's entry). -/
abbrev U6 : Dev nD → Valuation τ sig (Elt F) := fun c => StableHlo.after hostOps2_1 (U5 m ρ c)
/-- The same read at the core's references. -/
abbrev T6 : (c : Dev nD) → (b : Ref sig .tc) → Buf (Elt F) ((c : Thread nD τ).loc b) := fun c b => U6 m ρ c b
/-- At region 2's exit: its arrays at what the pipeline leaves, every other buffer as entered. -/
def U7 (c : Dev nD) : Valuation τ sig (Elt F) :=
  Pipeline.withArrays spec2 c (U6 m ρ c) fun w => (dat2 (T6 m ρ) c).arrAt w cfg2.N
theorem U7_arr (c : Dev nD) (w : Fin cfg2.W) :
    U7 m ρ c (Proc.devRef .tc (Pipeline.arrRef spec2 w)) = (dat2 (T6 m ρ) c).arrAt w cfg2.N := by
  unfold U7; exact Pipeline.withArrays_arr spec2 launch2.win.arr_inj c _ _ w
theorem U7_of_ne (c : Dev nD) (b : Ref sig .tc) (hb : ∀ w, Pipeline.arrRef spec2 w ≠ b) :
    U7 m ρ c (Proc.devRef .tc b) = U6 m ρ c (Proc.devRef .tc b) := by
  unfold U7; exact Pipeline.withArrays_of_ne spec2 c _ _ b hb
/-- The same read at the core's references. -/
abbrev T7 : (c : Dev nD) → (b : Ref sig .tc) → Buf (Elt F) ((c : Thread nD τ).loc b) := fun c b => U7 m ρ c b
theorem hF2 (c : Dev nD) (w : Fin cfg2.W) : (dat2 (T6 m ρ) c).arrAt w cfg2.N = T7 m ρ c (Pipeline.arrRef spec2 w) :=
  (U7_arr m ρ c w).symm
theorem hrest2 (c : Dev nD) : ∀ b, b ∉ Finset.univ.image (Pipeline.arrRef spec2) → T7 m ρ c b = T6 m ρ c b :=
  fun b hb => U7_of_ne m ρ c b fun w e => hb (Finset.mem_image.mpr ⟨w, Finset.mem_univ _, e⟩)
/-- After `hostOps3`. -/
abbrev U8 : Dev nD → Valuation τ sig (Elt F) := fun c => StableHlo.after hostOps3 (U7 m ρ c)
/-- After `hostOps3_1`. -/
abbrev U9 : Dev nD → Valuation τ sig (Elt F) := fun c => StableHlo.after hostOps3_1 (U8 m ρ c)
/-- After `hostOps3_2` (region 3's entry). -/
abbrev U10 : Dev nD → Valuation τ sig (Elt F) := fun c => StableHlo.after hostOps3_2 (U9 m ρ c)
/-- The same read at the core's references. -/
abbrev T10 : (c : Dev nD) → (b : Ref sig .tc) → Buf (Elt F) ((c : Thread nD τ).loc b) := fun c b => U10 m ρ c b
/-- At region 3's exit: its arrays at what the pipeline leaves, every other buffer as entered. -/
def U11 (c : Dev nD) : Valuation τ sig (Elt F) :=
  Pipeline.withArrays spec3 c (U10 m ρ c) fun w => (dat3 (T10 m ρ) c).arrAt w cfg3.N
theorem U11_arr (c : Dev nD) (w : Fin cfg3.W) :
    U11 m ρ c (Proc.devRef .tc (Pipeline.arrRef spec3 w)) = (dat3 (T10 m ρ) c).arrAt w cfg3.N := by
  unfold U11; exact Pipeline.withArrays_arr spec3 launch3.win.arr_inj c _ _ w
theorem U11_of_ne (c : Dev nD) (b : Ref sig .tc) (hb : ∀ w, Pipeline.arrRef spec3 w ≠ b) :
    U11 m ρ c (Proc.devRef .tc b) = U10 m ρ c (Proc.devRef .tc b) := by
  unfold U11; exact Pipeline.withArrays_of_ne spec3 c _ _ b hb
/-- The same read at the core's references. -/
abbrev T11 : (c : Dev nD) → (b : Ref sig .tc) → Buf (Elt F) ((c : Thread nD τ).loc b) := fun c b => U11 m ρ c b
theorem hF3 (c : Dev nD) (w : Fin cfg3.W) : (dat3 (T10 m ρ) c).arrAt w cfg3.N = T11 m ρ c (Pipeline.arrRef spec3 w) :=
  (U11_arr m ρ c w).symm
theorem hrest3 (c : Dev nD) : ∀ b, b ∉ Finset.univ.image (Pipeline.arrRef spec3) → T11 m ρ c b = T10 m ρ c b :=
  fun b hb => U11_of_ne m ρ c b fun w e => hb (Finset.mem_image.mpr ⟨w, Finset.mem_univ _, e⟩)
/-- After `hostOps4` (region 4's entry). -/
abbrev U12 : Dev nD → Valuation τ sig (Elt F) := fun c => StableHlo.after hostOps4 (U11 m ρ c)
/-- The same read at the core's references. -/
abbrev T12 : (c : Dev nD) → (b : Ref sig .tc) → Buf (Elt F) ((c : Thread nD τ).loc b) := fun c b => U12 m ρ c b
/-- At region 4's exit: its arrays at what the pipeline leaves, every other buffer as entered. -/
def U13 (c : Dev nD) : Valuation τ sig (Elt F) :=
  Pipeline.withArrays spec4 c (U12 m ρ c) fun w => (dat4 (T12 m ρ) c).arrAt w cfg4.N
theorem U13_arr (c : Dev nD) (w : Fin cfg4.W) :
    U13 m ρ c (Proc.devRef .tc (Pipeline.arrRef spec4 w)) = (dat4 (T12 m ρ) c).arrAt w cfg4.N := by
  unfold U13; exact Pipeline.withArrays_arr spec4 launch4.win.arr_inj c _ _ w
theorem U13_of_ne (c : Dev nD) (b : Ref sig .tc) (hb : ∀ w, Pipeline.arrRef spec4 w ≠ b) :
    U13 m ρ c (Proc.devRef .tc b) = U12 m ρ c (Proc.devRef .tc b) := by
  unfold U13; exact Pipeline.withArrays_of_ne spec4 c _ _ b hb
/-- The same read at the core's references. -/
abbrev T13 : (c : Dev nD) → (b : Ref sig .tc) → Buf (Elt F) ((c : Thread nD τ).loc b) := fun c b => U13 m ρ c b
theorem hF4 (c : Dev nD) (w : Fin cfg4.W) : (dat4 (T12 m ρ) c).arrAt w cfg4.N = T13 m ρ c (Pipeline.arrRef spec4 w) :=
  (U13_arr m ρ c w).symm
theorem hrest4 (c : Dev nD) : ∀ b, b ∉ Finset.univ.image (Pipeline.arrRef spec4) → T13 m ρ c b = T12 m ρ c b :=
  fun b hb => U13_of_ne m ρ c b fun w e => hb (Finset.mem_image.mpr ⟨w, Finset.mem_univ _, e⟩)
/-- After `hostOps5` (region 5's entry). -/
abbrev U14 : Dev nD → Valuation τ sig (Elt F) := fun c => StableHlo.after hostOps5 (U13 m ρ c)
/-- The same read at the core's references. -/
abbrev T14 : (c : Dev nD) → (b : Ref sig .tc) → Buf (Elt F) ((c : Thread nD τ).loc b) := fun c b => U14 m ρ c b
/-- At region 5's exit: its arrays at what the pipeline leaves, every other buffer as entered. -/
def U15 (c : Dev nD) : Valuation τ sig (Elt F) :=
  Pipeline.withArrays spec5 c (U14 m ρ c) fun w => (dat5 (T14 m ρ) c).arrAt w cfg5.N
theorem U15_arr (c : Dev nD) (w : Fin cfg5.W) :
    U15 m ρ c (Proc.devRef .tc (Pipeline.arrRef spec5 w)) = (dat5 (T14 m ρ) c).arrAt w cfg5.N := by
  unfold U15; exact Pipeline.withArrays_arr spec5 launch5.win.arr_inj c _ _ w
theorem U15_of_ne (c : Dev nD) (b : Ref sig .tc) (hb : ∀ w, Pipeline.arrRef spec5 w ≠ b) :
    U15 m ρ c (Proc.devRef .tc b) = U14 m ρ c (Proc.devRef .tc b) := by
  unfold U15; exact Pipeline.withArrays_of_ne spec5 c _ _ b hb
/-- The same read at the core's references. -/
abbrev T15 : (c : Dev nD) → (b : Ref sig .tc) → Buf (Elt F) ((c : Thread nD τ).loc b) := fun c b => U15 m ρ c b
theorem hF5 (c : Dev nD) (w : Fin cfg5.W) : (dat5 (T14 m ρ) c).arrAt w cfg5.N = T15 m ρ c (Pipeline.arrRef spec5 w) :=
  (U15_arr m ρ c w).symm
theorem hrest5 (c : Dev nD) : ∀ b, b ∉ Finset.univ.image (Pipeline.arrRef spec5) → T15 m ρ c b = T14 m ρ c b :=
  fun b hb => U15_of_ne m ρ c b fun w e => hb (Finset.mem_image.mpr ⟨w, Finset.mem_univ _, e⟩)

end Cert.Kernel.Hand

end
-- ==== Proof.K.Keep.lean ====
/-
  A buffer that no item of the program writes reaches the end holding its launch contents. A stretch of host operations
  changes only the references its operations write; a kernel region changes only its output arrays — an input array is
  left by the pipeline as it was entered, and a buffer that is no array of the region is not touched. The sixteen
  argument arrays are written by no stretch and are no region's output.
-/
import proofs.«426099_j50130858279187_1_alg».proof.Proof.K.Vals
import proofs.«426099_j50130858279187_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## A region changes only its output arrays -/

/-- Region 0 changes only `main_v3`: an array of the region other than its output is an input window's, which the
    pipeline leaves as entered; a buffer that is no array of the region is as entered. -/
theorem U2_keep (c : Dev nD) (r : Ref sig .tc) (h : r ≠ main_v3) :
    U2 m ρ c (Proc.devRef .tc r) = U1 m ρ c (Proc.devRef .tc r) := by
  by_cases hw : ∃ w, Pipeline.arrRef spec0 w = r
  · obtain ⟨w, rfl⟩ := hw
    have hin : (cfg0.win w).isOut = false := by revert w; decide
    exact (U2_arr m ρ c w).trans (((dat0 (T1 m ρ) c).arrAt_in w hin _).trans (A_eq0 (T1 m ρ) c w))
  · exact U2_of_ne m ρ c r fun w e => hw ⟨w, e⟩

/-- Region 1 changes only `main_v8`. -/
theorem U4_keep (c : Dev nD) (r : Ref sig .tc) (h : r ≠ main_v8) :
    U4 m ρ c (Proc.devRef .tc r) = U3 m ρ c (Proc.devRef .tc r) := by
  by_cases hw : ∃ w, Pipeline.arrRef spec1 w = r
  · obtain ⟨w, rfl⟩ := hw
    have hin : (cfg1.win w).isOut = false := by revert w; decide
    exact (U4_arr m ρ c w).trans (((dat1 (T3 m ρ) c).arrAt_in w hin _).trans (A_eq1 (T3 m ρ) c w))
  · exact U4_of_ne m ρ c r fun w e => hw ⟨w, e⟩

/-- Region 2 changes only `main_v11`. -/
theorem U7_keep (c : Dev nD) (r : Ref sig .tc) (h : r ≠ main_v11) :
    U7 m ρ c (Proc.devRef .tc r) = U6 m ρ c (Proc.devRef .tc r) := by
  by_cases hw : ∃ w, Pipeline.arrRef spec2 w = r
  · obtain ⟨w, rfl⟩ := hw
    have hin : (cfg2.win w).isOut = false := by revert w; decide
    exact (U7_arr m ρ c w).trans (((dat2 (T6 m ρ) c).arrAt_in w hin _).trans (A_eq2 (T6 m ρ) c w))
  · exact U7_of_ne m ρ c r fun w e => hw ⟨w, e⟩

/-- Region 3 changes only `main_v17_0` and `main_v17_1`. -/
theorem U11_keep (c : Dev nD) (r : Ref sig .tc) (h : r ≠ main_v17_0 ∧ r ≠ main_v17_1) :
    U11 m ρ c (Proc.devRef .tc r) = U10 m ρ c (Proc.devRef .tc r) := by
  by_cases hw : ∃ w, Pipeline.arrRef spec3 w = r
  · obtain ⟨w, rfl⟩ := hw
    have hin : (cfg3.win w).isOut = false := by revert w; decide
    exact (U11_arr m ρ c w).trans (((dat3 (T10 m ρ) c).arrAt_in w hin _).trans (A_eq3 (T10 m ρ) c w))
  · exact U11_of_ne m ρ c r fun w e => hw ⟨w, e⟩

/-- Region 4 changes only `main_v22`. -/
theorem U13_keep (c : Dev nD) (r : Ref sig .tc) (h : r ≠ main_v22) :
    U13 m ρ c (Proc.devRef .tc r) = U12 m ρ c (Proc.devRef .tc r) := by
  by_cases hw : ∃ w, Pipeline.arrRef spec4 w = r
  · obtain ⟨w, rfl⟩ := hw
    have hin : (cfg4.win w).isOut = false := by revert w; decide
    exact (U13_arr m ρ c w).trans (((dat4 (T12 m ρ) c).arrAt_in w hin _).trans (A_eq4 (T12 m ρ) c w))
  · exact U13_of_ne m ρ c r fun w e => hw ⟨w, e⟩

/-- Region 5 changes only `main_v24`. -/
theorem U15_keep (c : Dev nD) (r : Ref sig .tc) (h : r ≠ main_v24) :
    U15 m ρ c (Proc.devRef .tc r) = U14 m ρ c (Proc.devRef .tc r) := by
  by_cases hw : ∃ w, Pipeline.arrRef spec5 w = r
  · obtain ⟨w, rfl⟩ := hw
    have hin : (cfg5.win w).isOut = false := by revert w; decide
    exact (U15_arr m ρ c w).trans (((dat5 (T14 m ρ) c).arrAt_in w hin _).trans (A_eq5 (T14 m ρ) c w))
  · exact U15_of_ne m ρ c r fun w e => hw ⟨w, e⟩

/-! ## Through all fifteen items -/

/-- `r` is written by no item: it is among no host stretch's targets and is no region's output array. -/
abbrev Unwritten (r : Ref sig .tc) : Prop :=
  r ∉ hostOps0_W ∧ r ≠ main_v3 ∧ r ∉ hostOps1_W ∧ r ≠ main_v8 ∧ r ∉ hostOps2_W ∧ r ∉ hostOps2_1_W ∧ r ≠ main_v11
    ∧ r ∉ hostOps3_W ∧ r ∉ hostOps3_1_W ∧ r ∉ hostOps3_2_W ∧ (r ≠ main_v17_0 ∧ r ≠ main_v17_1) ∧ r ∉ hostOps4_W
    ∧ r ≠ main_v22 ∧ r ∉ hostOps5_W ∧ r ≠ main_v24

/-- A buffer no item writes ends as launched: the fold of the boundary contents walked back, item by item, to the
    launch memory. -/
theorem U15_arg (c : Dev nD) (r : Ref sig .tc) (h : Unwritten r) :
    U15 m ρ c (Proc.devRef .tc r) = m ((c : Thread nD τ).loc r) := by
  obtain ⟨h0, h1, h2, h3, h4, h5, h6, h7, h8, h9, h10, h11, h12, h13, h14⟩ := h
  calc U15 m ρ c (Proc.devRef .tc r)
    _ = U14 m ρ c (Proc.devRef .tc r) := U15_keep m ρ c r h14
    _ = U13 m ρ c (Proc.devRef .tc r) := StableHlo.after_of_writes_sub hostOps5 _ hostOps5_writes h13
    _ = U12 m ρ c (Proc.devRef .tc r) := U13_keep m ρ c r h12
    _ = U11 m ρ c (Proc.devRef .tc r) := StableHlo.after_of_writes_sub hostOps4 _ hostOps4_writes h11
    _ = U10 m ρ c (Proc.devRef .tc r) := U11_keep m ρ c r h10
    _ = U9 m ρ c (Proc.devRef .tc r) := StableHlo.after_of_writes_sub hostOps3_2 _ hostOps3_2_writes h9
    _ = U8 m ρ c (Proc.devRef .tc r) := StableHlo.after_of_writes_sub hostOps3_1 _ hostOps3_1_writes h8
    _ = U7 m ρ c (Proc.devRef .tc r) := StableHlo.after_of_writes_sub hostOps3 _ hostOps3_writes h7
    _ = U6 m ρ c (Proc.devRef .tc r) := U7_keep m ρ c r h6
    _ = U5 m ρ c (Proc.devRef .tc r) := StableHlo.after_of_writes_sub hostOps2_1 _ hostOps2_1_writes h5
    _ = U4 m ρ c (Proc.devRef .tc r) := StableHlo.after_of_writes_sub hostOps2 _ hostOps2_writes h4
    _ = U3 m ρ c (Proc.devRef .tc r) := U4_keep m ρ c r h3
    _ = U2 m ρ c (Proc.devRef .tc r) := StableHlo.after_of_writes_sub hostOps1 _ hostOps1_writes h2
    _ = U1 m ρ c (Proc.devRef .tc r) := U2_keep m ρ c r h1
    _ = U0 m ρ c (Proc.devRef .tc r) := StableHlo.after_of_writes_sub hostOps0 _ hostOps0_writes h0
    _ = m ((c : Thread nD τ).loc r) := rfl

end Cert.Kernel.Hand

end
-- ==== Proof.K.Run.lean ====
/-
  The run of the program's entry function from the launch to the return: six kernel regions among nine stretches of host
  operations. Between two items core `c` holds every unscoped buffer whole at the boundary's contents (`U0` … `U15`), its
  random-number register at some state, and owes nothing. A stretch of host operations takes the buffers from one boundary's
  contents to the next by what its operations compute; a region splits its arrays out of the unscoped buffers, runs its
  pipeline over them, and puts them back at what the write-backs leave. At the return every unscoped buffer holds the
  last boundary's contents `U15`.
-/
import proofs.«426099_j50130858279187_1_alg».proof.Proof.K.Vals
import proofs.«426099_j50130858279187_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev admH : (p : Fin 6) → (pcfgs (F := F) p).Adm := fun p => (cfgs p).toPCfg_adm
/-- Every pipeline's proof data, each at its region's entry contents. -/
def pd : (p : Fin 6) → (c : Dev nD) → Dat τ (Elt F) Unit ℕ (UR sig nD τ) ℕ (Pipeline.pin (pcfgs (F := F)) admH p) c
  | ⟨0, _⟩ => fun c => dat0 (T1 m ρ) c
  | ⟨1, _⟩ => fun c => dat1 (T3 m ρ) c
  | ⟨2, _⟩ => fun c => dat2 (T6 m ρ) c
  | ⟨3, _⟩ => fun c => dat3 (T10 m ρ) c
  | ⟨4, _⟩ => fun c => dat4 (T12 m ρ) c
  | ⟨5, _⟩ => fun c => dat5 (T14 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's random-number register at some state and its dues, at
    nothing. -/
abbrev R (c : Dev nD) : sProp 𝕄 := iprop((∃ r, prngReg c r) ∗ ∃ W, owes (c : Thread nD τ) (0 : CellTallies nD τ sig Unit) W)
/-- A stretch of host operations as a segment over the unscoped references from the contents `W`, `R` riding along: it
    is left with those references at what the operations make of `W c`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents `U15`, the random-number
    register at some state. -/
abbrev Tₙ (c : Dev nD) : sProp 𝕄 := iprop(StableHlo.held (c : Thread nD τ) (Pipeline.ucRefs τ sig) (U15 m ρ c) ∗ ∃ r, prngReg c r)

/-! ## The regions as segments -/

set_option backward.isDefEq.respectTransparency.types false in
/-- Region 0 over the thread state: entered from every unscoped buffer at `U1`, left at `U2`.
    Its arrays are split out of the unscoped buffers at entry and put back at the exit contents; the random-number
    register passes into the region's invariant and out; nothing is owed; the region has no semaphore of its own. -/
def rg0 : Pipeline.RegionSeg (pcfgs (F := F)) admH (pd m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (T1 m ρ) c).loose
  hwaits := Pipeline.hwaits_of_owed_zero _ _ _ _ L lv 0 fun _ _ => rfl
  pre c := iprop(StableHlo.held (c : Thread nD τ) (Pipeline.ucRefs τ sig) (U1 m ρ c) ∗ R c)
  post c := iprop(StableHlo.held (c : Thread nD τ) (Pipeline.ucRefs τ sig) (U2 m ρ c) ∗ R c)
  X c := iprop(∃ r, prngReg c r)
  Y c := iprop(∃ r, prngReg c r)
  Z c := Pipeline.unscopedRest (Ix := Unit) (Name := ℕ) (U := UR sig nD τ) (Lvl := ℕ) spec0 c (T1 m ρ c)
  hentry c := by
    rw [Pipeline.ownSems0_none]
    have hsplit := Pipeline.arrays_of_unscopedBufs (p := 0) (pcfgs (F := F)) admH (pd m ρ) launch0.win launch0.arr_whole c
      ((pd m ρ 0 c).share_full fun _ => rfl) (T1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pd m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pd m ρ) ((pd m ρ 0 c).share_full fun _ => rfl)
      (T1 m ρ c) (T2 m ρ c) ((pd m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `U3`, left at `U4`.
    Its arrays are split out of the unscoped buffers at entry and put back at the exit contents; the random-number
    register passes into the region's invariant and out; nothing is owed; the region has no semaphore of its own. -/
def rg1 : Pipeline.RegionSeg (pcfgs (F := F)) admH (pd m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (T3 m ρ) c).loose
  hwaits := Pipeline.hwaits_of_owed_zero _ _ _ _ L lv 1 fun _ _ => rfl
  pre c := iprop(StableHlo.held (c : Thread nD τ) (Pipeline.ucRefs τ sig) (U3 m ρ c) ∗ R c)
  post c := iprop(StableHlo.held (c : Thread nD τ) (Pipeline.ucRefs τ sig) (U4 m ρ c) ∗ R c)
  X c := iprop(∃ r, prngReg c r)
  Y c := iprop(∃ r, prngReg c r)
  Z c := Pipeline.unscopedRest (Ix := Unit) (Name := ℕ) (U := UR sig nD τ) (Lvl := ℕ) spec1 c (T3 m ρ c)
  hentry c := by
    rw [Pipeline.ownSems0_none]
    have hsplit := Pipeline.arrays_of_unscopedBufs (p := 1) (pcfgs (F := F)) admH (pd m ρ) launch1.win launch1.arr_whole c
      ((pd m ρ 1 c).share_full fun _ => rfl) (T3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pd m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pd m ρ) ((pd m ρ 1 c).share_full fun _ => rfl)
      (T3 m ρ c) (T4 m ρ c) ((pd m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `U6`, left at `U7`.
    Its arrays are split out of the unscoped buffers at entry and put back at the exit contents; the random-number
    register passes into the region's invariant and out; nothing is owed; the region has no semaphore of its own. -/
def rg2 : Pipeline.RegionSeg (pcfgs (F := F)) admH (pd m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (T6 m ρ) c).loose
  hwaits := Pipeline.hwaits_of_owed_zero _ _ _ _ L lv 2 fun _ _ => rfl
  pre c := iprop(StableHlo.held (c : Thread nD τ) (Pipeline.ucRefs τ sig) (U6 m ρ c) ∗ R c)
  post c := iprop(StableHlo.held (c : Thread nD τ) (Pipeline.ucRefs τ sig) (U7 m ρ c) ∗ R c)
  X c := iprop(∃ r, prngReg c r)
  Y c := iprop(∃ r, prngReg c r)
  Z c := Pipeline.unscopedRest (Ix := Unit) (Name := ℕ) (U := UR sig nD τ) (Lvl := ℕ) spec2 c (T6 m ρ c)
  hentry c := by
    rw [Pipeline.ownSems0_none]
    have hsplit := Pipeline.arrays_of_unscopedBufs (p := 2) (pcfgs (F := F)) admH (pd m ρ) launch2.win launch2.arr_whole c
      ((pd m ρ 2 c).share_full fun _ => rfl) (T6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pd m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pd m ρ) ((pd m ρ 2 c).share_full fun _ => rfl)
      (T6 m ρ c) (T7 m ρ c) ((pd m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `U10`, left at `U11`.
    Its arrays are split out of the unscoped buffers at entry and put back at the exit contents; the random-number
    register passes into the region's invariant and out; nothing is owed; the region has no semaphore of its own. -/
def rg3 : Pipeline.RegionSeg (pcfgs (F := F)) admH (pd m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (T10 m ρ) c).loose
  hwaits := Pipeline.hwaits_of_owed_zero _ _ _ _ L lv 3 fun _ _ => rfl
  pre c := iprop(StableHlo.held (c : Thread nD τ) (Pipeline.ucRefs τ sig) (U10 m ρ c) ∗ R c)
  post c := iprop(StableHlo.held (c : Thread nD τ) (Pipeline.ucRefs τ sig) (U11 m ρ c) ∗ R c)
  X c := iprop(∃ r, prngReg c r)
  Y c := iprop(∃ r, prngReg c r)
  Z c := Pipeline.unscopedRest (Ix := Unit) (Name := ℕ) (U := UR sig nD τ) (Lvl := ℕ) spec3 c (T10 m ρ c)
  hentry c := by
    rw [Pipeline.ownSems0_none]
    have hsplit := Pipeline.arrays_of_unscopedBufs (p := 3) (pcfgs (F := F)) admH (pd m ρ) launch3.win launch3.arr_whole c
      ((pd m ρ 3 c).share_full fun _ => rfl) (T10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pd m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pd m ρ) ((pd m ρ 3 c).share_full fun _ => rfl)
      (T10 m ρ c) (T11 m ρ c) ((pd m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `U12`, left at `U13`.
    Its arrays are split out of the unscoped buffers at entry and put back at the exit contents; the random-number
    register passes into the region's invariant and out; nothing is owed; the region has no semaphore of its own. -/
def rg4 : Pipeline.RegionSeg (pcfgs (F := F)) admH (pd m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (T12 m ρ) c).loose
  hwaits := Pipeline.hwaits_of_owed_zero _ _ _ _ L lv 4 fun _ _ => rfl
  pre c := iprop(StableHlo.held (c : Thread nD τ) (Pipeline.ucRefs τ sig) (U12 m ρ c) ∗ R c)
  post c := iprop(StableHlo.held (c : Thread nD τ) (Pipeline.ucRefs τ sig) (U13 m ρ c) ∗ R c)
  X c := iprop(∃ r, prngReg c r)
  Y c := iprop(∃ r, prngReg c r)
  Z c := Pipeline.unscopedRest (Ix := Unit) (Name := ℕ) (U := UR sig nD τ) (Lvl := ℕ) spec4 c (T12 m ρ c)
  hentry c := by
    rw [Pipeline.ownSems0_none]
    have hsplit := Pipeline.arrays_of_unscopedBufs (p := 4) (pcfgs (F := F)) admH (pd m ρ) launch4.win launch4.arr_whole c
      ((pd m ρ 4 c).share_full fun _ => rfl) (T12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pd m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admH (Ix := Unit) (Name := ℕ) (U := UR sig nD τ) (Lvl := ℕ)
      launch4.win launch4.arr_whole c (pd m ρ) ((pd m ρ 4 c).share_full fun _ => rfl)
      (T12 m ρ c) (T13 m ρ c) ((pd m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `U14`, left at `U15` (what is read at the end).
    Its arrays are split out of the unscoped buffers at entry and put back at the exit contents; the random-number
    register passes into the region's invariant and out; nothing is owed; the region has no semaphore of its own. -/
def rg5 : Pipeline.RegionSeg (pcfgs (F := F)) admH (pd m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (T14 m ρ) c).loose
  hwaits := Pipeline.hwaits_of_owed_zero _ _ _ _ L lv 5 fun _ _ => rfl
  pre c := iprop(StableHlo.held (c : Thread nD τ) (Pipeline.ucRefs τ sig) (U14 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (T14 m ρ c)
  hentry c := by
    rw [Pipeline.ownSems0_none]
    have hsplit := Pipeline.arrays_of_unscopedBufs (p := 5) (pcfgs (F := F)) admH (pd m ρ) launch5.win launch5.arr_whole c
      ((pd m ρ 5 c).share_full fun _ => rfl) (T14 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pd m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) admH (Ix := Unit) (Name := ℕ) (U := UR sig nD τ) (Lvl := ℕ)
      launch5.win launch5.arr_whole c (pd m ρ) ((pd m ρ 5 c).share_full fun _ => rfl)
      (T14 m ρ c) (T15 m ρ c) ((pd m ρ 5 c).arrAt · cfg5.N) (hF5 m ρ c) (hrest5 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The entry function as segments, and the launch -/

/-- The entry function's 15 items in order: a host segment per stretch from its boundary's contents, a region per kernel call. -/
abbrev sgs : List (Pipeline.Seg (pcfgs (F := F)) admH (pd m ρ) () defs₀ 𝒱₀ L lv) :=
  [ .host (hseg hostOps0 hostOps0_sub hostOps0_fresh (U0 m ρ)),
    .region (rg0 m ρ),
    .host (hseg hostOps1 hostOps1_sub hostOps1_fresh (U2 m ρ)),
    .region (rg1 m ρ),
    .host (hseg hostOps2 hostOps2_sub hostOps2_fresh (U4 m ρ)),
    .host (hseg hostOps2_1 hostOps2_1_sub hostOps2_1_fresh (U5 m ρ)),
    .region (rg2 m ρ),
    .host (hseg hostOps3 hostOps3_sub hostOps3_fresh (U7 m ρ)),
    .host (hseg hostOps3_1 hostOps3_1_sub hostOps3_1_fresh (U8 m ρ)),
    .host (hseg hostOps3_2 hostOps3_2_sub hostOps3_2_fresh (U9 m ρ)),
    .region (rg3 m ρ),
    .host (hseg hostOps4 hostOps4_sub hostOps4_fresh (U11 m ρ)),
    .region (rg4 m ρ),
    .host (hseg hostOps5 hostOps5_sub hostOps5_fresh (U13 m ρ)),
    .region (rg5 m ρ) ]
/-- The segments' programs are the entry function's items. -/
theorem sgs_progs : (sgs m ρ).map Pipeline.Seg.prog = ([
      StableHlo.seq hostOps0,
      Prog.lift (.customCall (Pipeline.entry 0) ()),
      StableHlo.seq hostOps1,
      Prog.lift (.customCall (Pipeline.entry 1) ()),
      StableHlo.seq hostOps2,
      StableHlo.seq hostOps2_1,
      Prog.lift (.customCall (Pipeline.entry 2) ()),
      StableHlo.seq hostOps3,
      StableHlo.seq hostOps3_1,
      StableHlo.seq hostOps3_2,
      Prog.lift (.customCall (Pipeline.entry 3) ()),
      StableHlo.seq hostOps4,
      Prog.lift (.customCall (Pipeline.entry 4) ()),
      StableHlo.seq hostOps5,
      Prog.lift (.customCall (Pipeline.entry 5) ()) ] : List (Prog (TpuEff nD τ sig (Elt F) (Pipeline.Sig Λ₀ (Fin 6) fun p => (pcfgs (F := F) p).Adm) .tc) PUnit)) := rfl
/-- The entry function is the run of the segments. -/
theorem main_run (c : Dev nD) : main (F := F) c = Pipeline.Seg.run (sgs m ρ) := by
  rw [main_chain c, Pipeline.Seg.run_eq_chain, sgs_progs]

set_option backward.isDefEq.respectTransparency.types false in
/-- THE RUN: from any memory with zero counters, every weakly fair execution of the entry function on the cores terminates,
    nothing faulting, and in every final state each core's unscoped buffers hold the last boundary's contents `U15`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = U15 m ρ c b) :=
  Pipeline.θ_run_regions_kit (pcfgs (F := F)) admH (pd m ρ) () cellOf_inj emb₁ defs₀ 𝒱₀ L lv m ρ main (sgs m ρ)
    (fun c Q => by rw [main_run m ρ c])
    (by simp only [sgs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (U0 m ρ c)
        from Pipeline.unscopedBufs_held c (U0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U15 m ρ c b)
    (hfin := fun c s' => by
      iintro ⟨⟨Hh, -⟩, HSI⟩
      unfold StableHlo.held
      imodintro
      iapply (pointsTo_read_all (Pipeline.ucRefs τ sig) (fun b => (((c : Thread nD τ)).1, b)) (U15 m ρ c) s')
      isplitl [Hh] <;> iassumption)
    (hQ := fun _ h => h)

end Cert.Kernel.Hand

end
-- ==== Proof.K.Frame.lean ====
/-
  THE FRAME of the program: from any memory with zero counters, every weakly fair execution of the entry function on the
  cores terminates and every final memory holds each of the sixteen argument arrays as launched. The run leaves every
  unscoped buffer of a core at the last boundary's contents; an argument array is written by no item, so those contents,
  walked back through the fifteen items, are the launch memory's.
-/
import proofs.«426099_j50130858279187_1_alg».proof.Proof.K.Keep
import proofs.«426099_j50130858279187_1_alg».proof.Proof.K.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every argument array ends as launched: each is an unscoped buffer of the core, read off the final memory at the
    last boundary's contents, and no item writes it. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    ⟨(h c _ (mem_uc main_arg0 (by decide))).trans (U15_arg m ρ c main_arg0 (by decide)),
      (h c _ (mem_uc main_arg1 (by decide))).trans (U15_arg m ρ c main_arg1 (by decide)),
      (h c _ (mem_uc main_arg2 (by decide))).trans (U15_arg m ρ c main_arg2 (by decide)),
      (h c _ (mem_uc main_arg3 (by decide))).trans (U15_arg m ρ c main_arg3 (by decide)),
      (h c _ (mem_uc main_arg4 (by decide))).trans (U15_arg m ρ c main_arg4 (by decide)),
      (h c _ (mem_uc main_arg5 (by decide))).trans (U15_arg m ρ c main_arg5 (by decide)),
      (h c _ (mem_uc main_arg6 (by decide))).trans (U15_arg m ρ c main_arg6 (by decide)),
      (h c _ (mem_uc main_arg7 (by decide))).trans (U15_arg m ρ c main_arg7 (by decide)),
      (h c _ (mem_uc main_arg8 (by decide))).trans (U15_arg m ρ c main_arg8 (by decide)),
      (h c _ (mem_uc main_arg9 (by decide))).trans (U15_arg m ρ c main_arg9 (by decide)),
      (h c _ (mem_uc main_arg10 (by decide))).trans (U15_arg m ρ c main_arg10 (by decide)),
      (h c _ (mem_uc main_arg11 (by decide))).trans (U15_arg m ρ c main_arg11 (by decide)),
      (h c _ (mem_uc main_arg12 (by decide))).trans (U15_arg m ρ c main_arg12 (by decide)),
      (h c _ (mem_uc main_arg13 (by decide))).trans (U15_arg m ρ c main_arg13 (by decide)),
      (h c _ (mem_uc main_arg14 (by decide))).trans (U15_arg m ρ c main_arg14 (by decide)),
      (h c _ (mem_uc main_arg15 (by decide))).trans (U15_arg m ρ c main_arg15 (by decide))⟩) (run_all m ρ)

end Cert.Kernel.Hand

end
-- ==== Proof.KI.Region0.lean ====
/-
  Region 0 of the program: the fused node projection [q | k | v] = x · [Wq | Wk | Wv] + [bq | bk | bv], one block of 2000 rows per grid point.
  At any contents V of the core's buffers when the region is entered: each window's block at a point, what the body leaves
  in the output window's buffer (the canon of its one whole-block store over the payload of the three loaded blocks),
  the body's triple, the pipeline's proof data and the body obligation at every point.
-/
import proofs.«426099_j50130858279187_1_alg».proof.Proof.Gen.KernelIdeal.Launch
import proofs.«426099_j50130858279187_1_alg».proof.Proof.Gen.KernelIdeal.Skeleton
import proofs.«426099_j50130858279187_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangle of the output's staging buffer. -/
abbrev r0_out : Rect S2000x384 := Rect.unit (s := S2000x384) ![0, 0] S2000x384.size inb_S2000x384_S2000x384_0_0

/-- The output window's staging buffer after the body: its one store, over the payload of the loaded blocks. -/
def out0_3 (x0 : Vec F S2000x128 .f32) (x1 : Vec F S128x384 .f32) (x2 : Vec F S1x384 .f32) : Vec F S2000x384 .f32 :=
  View.canon [⟨r0_out, k0_pay1 (View.ld x0 (Rect.unit (s := S2000x128) ![0, 0] S2000x128.size inb_S2000x128_S2000x128_0_0))
    (View.ld x1 (Rect.unit (s := S128x384) ![0, 0] S128x384.size inb_S128x384_S128x384_0_0))
    (View.ld x2 (Rect.unit (s := S1x384) ![0, 0] S1x384.size inb_S1x384_S1x384_0_0))⟩]

theorem cover0_3 (p0 : Vec F S2000x384 .f32) (y : S2000x384.Idx) :
    ∃ pc ∈ ([⟨r0_out, p0⟩] : List (View.Piece (Elt F) S2000x384 .f32)), y ∈ pc.1.set :=
  View.cover_of_tiled [⟨r0_out, p0⟩] S2000x384.size (by rfl) y

set_option maxHeartbeats 1000000 in
/-- The body on whole staging memrefs: the inputs stay, the output ends at `out0_3` of the inputs. -/
theorem sound_kernel0 (c : Dev nD) (E : Set ℕ) (i : grid0.Coords)
    (arg1 : Memref sig .tc .vmem S2000x128 .f32) (harg1 : arg1.IsWhole) (arg2 : Memref sig .tc .vmem S128x384 .f32) (harg2 : arg2.IsWhole)
    (arg3 : Memref sig .tc .vmem S1x384 .f32) (harg3 : arg3.IsWhole) (arg4 : Memref sig .tc .vmem S2000x384 .f32) (harg4 : arg4.IsWhole)
    (x0 : Vec F S2000x128 .f32) (x1 : Vec F S128x384 .f32) (x2 : Vec F S1x384 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of pipeline 1 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
/-
  Region 1 of the program: the edge projection ep = e · We + be, one block of 8000 rows per grid point.
  At any contents V of the core's buffers when the region is entered: each window's block at a point, what the body leaves
  in the output window's buffer (the canon of its one whole-block store over the payload of the three loaded blocks),
  the body's triple, the pipeline's proof data and the body obligation at every point.
-/
import proofs.«426099_j50130858279187_1_alg».proof.Proof.Gen.KernelIdeal.Launch
import proofs.«426099_j50130858279187_1_alg».proof.Proof.Gen.KernelIdeal.Skeleton
import proofs.«426099_j50130858279187_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangle of the output's staging buffer. -/
abbrev r1_out : Rect S8000x128 := Rect.unit (s := S8000x128) ![0, 0] S8000x128.size inb_S8000x128_S8000x128_0_0

/-- The output window's staging buffer after the body: its one store, over the payload of the loaded blocks. -/
def out1_3 (x0 : Vec F S8000x128 .f32) (x1 : Vec F S128x128 .f32) (x2 : Vec F S1x128 .f32) : Vec F S8000x128 .f32 :=
  View.canon [⟨r1_out, k1_pay1 (View.ld x0 (Rect.unit (s := S8000x128) ![0, 0] S8000x128.size inb_S8000x128_S8000x128_0_0))
    (View.ld x1 (Rect.unit (s := S128x128) ![0, 0] S128x128.size inb_S128x128_S128x128_0_0))
    (View.ld x2 (Rect.unit (s := S1x128) ![0, 0] S1x128.size inb_S1x128_S1x128_0_0))⟩]

theorem cover1_3 (p0 : Vec F S8000x128 .f32) (y : S8000x128.Idx) :
    ∃ pc ∈ ([⟨r1_out, p0⟩] : List (View.Piece (Elt F) S8000x128 .f32)), y ∈ pc.1.set :=
  View.cover_of_tiled [⟨r1_out, p0⟩] S8000x128.size (by rfl) y

set_option maxHeartbeats 1000000 in
/-- The body on whole staging memrefs: the inputs stay, the output ends at `out1_3` of the inputs. -/
theorem sound_kernel1 (c : Dev nD) (E : Set ℕ) (i : grid1.Coords)
    (arg1 : Memref sig .tc .vmem S8000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S8000x128 .f32) (harg4 : arg4.IsWhole)
    (x0 : Vec F S8000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Region2.lean ====
/-
  Region 2 of the program: the edge score m = exp (k[src] · q[dst] · 1/4), entry by entry, one block of 8000 rows per grid point.
  At any contents V of the core's buffers when the region is entered: each window's block at a point, what the body leaves
  in each output window's buffer (the canon of its one whole-block store over the payload of the loaded blocks),
  the body's triple, the pipeline's proof data and the body obligation at every point.
-/
import proofs.«426099_j50130858279187_1_alg».proof.Proof.Gen.KernelIdeal.Launch
import proofs.«426099_j50130858279187_1_alg».proof.Proof.Gen.KernelIdeal.Skeleton
import proofs.«426099_j50130858279187_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole-block rectangle of the output's staging buffer. -/
abbrev r2_out : Rect S8000x128 := Rect.unit (s := S8000x128) ![0, 0] S8000x128.size inb_S8000x128_S8000x128_0_0

/-- The output window's staging buffer after the body: its one store, over the payload of the loaded blocks. -/
def out2_2 (x0 : Vec F S8000x128 .f32) (x1 : Vec F S8000x128 .f32) : Vec F S8000x128 .f32 :=
  View.canon [⟨r2_out, k2_pay1 (View.ld x0 (Rect.unit (s := S8000x128) ![0, 0] S8000x128.size inb_S8000x128_S8000x128_0_0)) (View.ld x1 (Rect.unit (s := S8000x128) ![0, 0] S8000x128.size inb_S8000x128_S8000x128_0_0))⟩]

theorem cover2_2 (p0 : Vec F S8000x128 .f32) (y : S8000x128.Idx) :
    ∃ pc ∈ ([⟨r2_out, p0⟩] : List (View.Piece (Elt F) S8000x128 .f32)), y ∈ pc.1.set :=
  View.cover_of_tiled [⟨r2_out, p0⟩] S8000x128.size (by rfl) y

set_option maxHeartbeats 1000000 in
/-- The body on whole staging memrefs: the inputs stay, the output ends at `out2_2` of the inputs. -/
theorem sound_kernel2 (c : Dev nD) (E : Set ℕ) (i : grid2.Coords)
    (arg1 : Memref sig .tc .vmem S8000x128 .f32) (harg1 : arg1.IsWhole) (arg2 : Memref sig .tc .vmem S8000x128 .f32) (harg2 : arg2.IsWhole)
    (arg3 : Memref sig .tc .vmem S8000x128 .f32) (harg3 : arg3.IsWhole)
    (x0 : Vec F S8000x128 .f32) (x1 : Vec F S8000x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2_kernel i arg1 harg1 arg2 harg2 arg3 harg3) K := by
  simp only [cc2_kernel_eq_skeleton]; unfold cc2_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of pipeline 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Region3.lean ====
/-
  Region 3 of the program: me = m · ep and mx = me · v[src] / z[dst], entry by entry, one block of 4000 rows per grid point; two output windows.
  At any contents V of the core's buffers when the region is entered: each window's block at a point, what the body leaves
  in each output window's buffer (the canon of its one whole-block store over the payload of the loaded blocks),
  the body's triple, the pipeline's proof data and the body obligation at every point.
-/
import proofs.«426099_j50130858279187_1_alg».proof.Proof.Gen.KernelIdeal.Launch
import proofs.«426099_j50130858279187_1_alg».proof.Proof.Gen.KernelIdeal.Skeleton
import proofs.«426099_j50130858279187_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- The whole-block rectangle of an output's staging buffer. -/
abbrev r3_out : Rect S4000x128 := Rect.unit (s := S4000x128) ![0, 0] S4000x128.size inb_S4000x128_S4000x128_0_0

/-- The first output window's staging buffer after the body (me): its one store, over the payload of the loaded blocks. -/
def out3_4 (x0 : Vec F S4000x128 .f32) (x1 : Vec F S4000x128 .f32) : Vec F S4000x128 .f32 :=
  View.canon [⟨r3_out, k3_pay1 (View.ld x0 (Rect.unit (s := S4000x128) ![0, 0] S4000x128.size inb_S4000x128_S4000x128_0_0)) (View.ld x1 (Rect.unit (s := S4000x128) ![0, 0] S4000x128.size inb_S4000x128_S4000x128_0_0))⟩]
/-- The second output window's staging buffer after the body (mx). -/
def out3_5 (x0 : Vec F S4000x128 .f32) (x1 : Vec F S4000x128 .f32) (x2 : Vec F S4000x128 .f32) (x3 : Vec F S4000x128 .f32) : Vec F S4000x128 .f32 :=
  View.canon [⟨r3_out, k3_pay2 (View.ld x0 (Rect.unit (s := S4000x128) ![0, 0] S4000x128.size inb_S4000x128_S4000x128_0_0)) (View.ld x1 (Rect.unit (s := S4000x128) ![0, 0] S4000x128.size inb_S4000x128_S4000x128_0_0)) (View.ld x2 (Rect.unit (s := S4000x128) ![0, 0] S4000x128.size inb_S4000x128_S4000x128_0_0)) (View.ld x3 (Rect.unit (s := S4000x128) ![0, 0] S4000x128.size inb_S4000x128_S4000x128_0_0))⟩]

theorem cover3 (p0 : Vec F S4000x128 .f32) (y : S4000x128.Idx) :
    ∃ pc ∈ ([⟨r3_out, p0⟩] : List (View.Piece (Elt F) S4000x128 .f32)), y ∈ pc.1.set :=
  View.cover_of_tiled [⟨r3_out, p0⟩] S4000x128.size (by rfl) y

set_option maxHeartbeats 1000000 in
/-- The body on whole staging memrefs: the inputs stay, the outputs end at `out3_4` and `out3_5` of the inputs. -/
theorem sound_kernel3 (c : Dev nD) (E : Set ℕ) (i : grid3.Coords)
    (arg1 : Memref sig .tc .vmem S4000x128 .f32) (harg1 : arg1.IsWhole) (arg2 : Memref sig .tc .vmem S4000x128 .f32) (harg2 : arg2.IsWhole)
    (arg3 : Memref sig .tc .vmem S4000x128 .f32) (harg3 : arg3.IsWhole) (arg4 : Memref sig .tc .vmem S4000x128 .f32) (harg4 : arg4.IsWhole)
    (arg5 : Memref sig .tc .vmem S4000x128 .f32) (harg5 : arg5.IsWhole) (arg6 : Memref sig .tc .vmem S4000x128 .f32) (harg6 : arg6.IsWhole)
    (x0 x1 x2 x3 : Vec F S4000x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out3_4 x0 x1) ∗ owns (c : Thread nD τ) arg6 fullShare (out3_5 x0 x1 x2 x3)) -∗ K ⟨⟩))
      ⊢ wp frame (wpE (defs₀ (F := F)) Variants.none c none) E (cc3__me_mx_kernel i arg1 harg1 arg2 harg2 arg3 harg3 arg4 harg4 arg5 harg5 arg6 harg6) K := by
  simp only [cc3__me_mx_kernel_eq_skeleton]; unfold cc3__me_mx_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover3 _)
  iexists _; isplitr
  swap; · iexact H5
  ipureintro
  exact View.read_writes_eq_canon _ _ _ (cover3 _)

/-- The proof data of pipeline 3 on core `c`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t)
    | ⟨5, _⟩ => out3_5 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out3_4 (iblk3 V c 0 t) (iblk3 V c 1 t) := by dsimp only [dat3]
theorem after3_5 (c : Dev nD) (t : Fin cfg3.N) :
    (dat3 V c).after 5 t = out3_5 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Region4.lean ====
/-
  Region 4 of the program: the node output projection out_x = x_agg · Wox + box, one block of 2000 rows per grid point.
  At any contents V of the core's buffers when the region is entered: each window's block at a point, what the body leaves
  in the output window's buffer (the canon of its one whole-block store over the payload of the three loaded blocks),
  the body's triple, the pipeline's proof data and the body obligation at every point.
-/
import proofs.«426099_j50130858279187_1_alg».proof.Proof.Gen.KernelIdeal.Launch
import proofs.«426099_j50130858279187_1_alg».proof.Proof.Gen.KernelIdeal.Skeleton
import proofs.«426099_j50130858279187_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The whole-block rectangle of the output's staging buffer. -/
abbrev r4_out : Rect S2000x128 := Rect.unit (s := S2000x128) ![0, 0] S2000x128.size inb_S2000x128_S2000x128_0_0

/-- The output window's staging buffer after the body: its one store, over the payload of the loaded blocks. -/
def out4_3 (x0 : Vec F S2000x128 .f32) (x1 : Vec F S128x128 .f32) (x2 : Vec F S1x128 .f32) : Vec F S2000x128 .f32 :=
  View.canon [⟨r4_out, k4_pay1 (View.ld x0 (Rect.unit (s := S2000x128) ![0, 0] S2000x128.size inb_S2000x128_S2000x128_0_0))
    (View.ld x1 (Rect.unit (s := S128x128) ![0, 0] S128x128.size inb_S128x128_S128x128_0_0))
    (View.ld x2 (Rect.unit (s := S1x128) ![0, 0] S1x128.size inb_S1x128_S1x128_0_0))⟩]

theorem cover4_3 (p0 : Vec F S2000x128 .f32) (y : S2000x128.Idx) :
    ∃ pc ∈ ([⟨r4_out, p0⟩] : List (View.Piece (Elt F) S2000x128 .f32)), y ∈ pc.1.set :=
  View.cover_of_tiled [⟨r4_out, p0⟩] S2000x128.size (by rfl) y

set_option maxHeartbeats 1000000 in
/-- The body on whole staging memrefs: the inputs stay, the output ends at `out4_3` of the inputs. -/
theorem sound_kernel4 (c : Dev nD) (E : Set ℕ) (i : grid4.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (x0 : Vec F S2000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4__linear_kernel i arg1 harg1 arg2 harg2 arg3 harg3 arg4 harg4) K := by
  simp only [cc4__linear_kernel_eq_skeleton]; unfold cc4__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-- The proof data of pipeline 1 on core `c`. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Region5.lean ====
/-
  Region 5 of the program: the edge output projection out_e = me · Woe + boe, one block of 8000 rows per grid point.
  At any contents V of the core's buffers when the region is entered: each window's block at a point, what the body leaves
  in the output window's buffer (the canon of its one whole-block store over the payload of the three loaded blocks),
  the body's triple, the pipeline's proof data and the body obligation at every point.
-/
import proofs.«426099_j50130858279187_1_alg».proof.Proof.Gen.KernelIdeal.Launch
import proofs.«426099_j50130858279187_1_alg».proof.Proof.Gen.KernelIdeal.Skeleton
import proofs.«426099_j50130858279187_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, fetched there or not. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- The whole-block rectangle of the output's staging buffer. -/
abbrev r5_out : Rect S8000x128 := Rect.unit (s := S8000x128) ![0, 0] S8000x128.size inb_S8000x128_S8000x128_0_0

/-- The output window's staging buffer after the body: its one store, over the payload of the loaded blocks. -/
def out5_3 (x0 : Vec F S8000x128 .f32) (x1 : Vec F S128x128 .f32) (x2 : Vec F S1x128 .f32) : Vec F S8000x128 .f32 :=
  View.canon [⟨r5_out, k5_pay1 (View.ld x0 (Rect.unit (s := S8000x128) ![0, 0] S8000x128.size inb_S8000x128_S8000x128_0_0))
    (View.ld x1 (Rect.unit (s := S128x128) ![0, 0] S128x128.size inb_S128x128_S128x128_0_0))
    (View.ld x2 (Rect.unit (s := S1x128) ![0, 0] S1x128.size inb_S1x128_S1x128_0_0))⟩]

theorem cover5_3 (p0 : Vec F S8000x128 .f32) (y : S8000x128.Idx) :
    ∃ pc ∈ ([⟨r5_out, p0⟩] : List (View.Piece (Elt F) S8000x128 .f32)), y ∈ pc.1.set :=
  View.cover_of_tiled [⟨r5_out, p0⟩] S8000x128.size (by rfl) y

set_option maxHeartbeats 1000000 in
/-- The body on whole staging memrefs: the inputs stay, the output ends at `out5_3` of the inputs. -/
theorem sound_kernel5 (c : Dev nD) (E : Set ℕ) (i : grid5.Coords)
    (arg1 : Memref sig .tc .vmem S8000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S8000x128 .f32) (harg4 : arg4.IsWhole)
    (x0 : Vec F S8000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out5_3 x0 x1 x2)) -∗ K ⟨⟩))
      ⊢ wp frame (wpE (defs₀ (F := F)) Variants.none c none) E (cc5__linear_kernel i arg1 harg1 arg2 harg2 arg3 harg3 arg4 harg4) K := by
  simp only [cc5__linear_kernel_eq_skeleton]; unfold cc5__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-- The proof data of pipeline 1 on core `c`. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = out5_3 (iblk5 V c 0 t) (iblk5 V c 1 t) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Vals.lean ====
/-
  The contents of the core's buffers at every boundary between two items of the program's entry function, as a fold from
  the launch memory: a stretch of host operations leaves what the operations compute; a kernel region leaves its arrays at
  what the pipeline's write-backs make of them (its inputs as entered) and every other buffer as entered.
-/
import proofs.«426099_j50130858279187_1_alg».proof.Proof.KI.Region0
import proofs.«426099_j50130858279187_1_alg».proof.Proof.KI.Region1
import proofs.«426099_j50130858279187_1_alg».proof.Proof.KI.Region2
import proofs.«426099_j50130858279187_1_alg».proof.Proof.KI.Region3
import proofs.«426099_j50130858279187_1_alg».proof.Proof.KI.Region4
import proofs.«426099_j50130858279187_1_alg».proof.Proof.KI.Region5

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s buffers at launch. -/
abbrev U0 : Dev nD → Valuation τ sig (Elt F) := fun c b => (s₀ m ρ).mem ((c : Dev nD), b)
/-- After `hostOps0` (region 0's entry). -/
abbrev U1 : Dev nD → Valuation τ sig (Elt F) := fun c => StableHlo.after hostOps0 (U0 m ρ c)
/-- The same read at the core's references. -/
abbrev T1 : (c : Dev nD) → (b : Ref sig .tc) → Buf (Elt F) ((c : Thread nD τ).loc b) := fun c b => U1 m ρ c b
/-- At region 0's exit: its arrays at what the pipeline leaves, every other buffer as entered. -/
def U2 (c : Dev nD) : Valuation τ sig (Elt F) :=
  Pipeline.withArrays spec0 c (U1 m ρ c) fun w => (dat0 (T1 m ρ) c).arrAt w cfg0.N
theorem U2_arr (c : Dev nD) (w : Fin cfg0.W) :
    U2 m ρ c (Proc.devRef .tc (Pipeline.arrRef spec0 w)) = (dat0 (T1 m ρ) c).arrAt w cfg0.N := by
  unfold U2; exact Pipeline.withArrays_arr spec0 launch0.win.arr_inj c _ _ w
theorem U2_of_ne (c : Dev nD) (b : Ref sig .tc) (hb : ∀ w, Pipeline.arrRef spec0 w ≠ b) :
    U2 m ρ c (Proc.devRef .tc b) = U1 m ρ c (Proc.devRef .tc b) := by
  unfold U2; exact Pipeline.withArrays_of_ne spec0 c _ _ b hb
/-- The same read at the core's references. -/
abbrev T2 : (c : Dev nD) → (b : Ref sig .tc) → Buf (Elt F) ((c : Thread nD τ).loc b) := fun c b => U2 m ρ c b
theorem hF0 (c : Dev nD) (w : Fin cfg0.W) : (dat0 (T1 m ρ) c).arrAt w cfg0.N = T2 m ρ c (Pipeline.arrRef spec0 w) :=
  (U2_arr m ρ c w).symm
theorem hrest0 (c : Dev nD) : ∀ b, b ∉ Finset.univ.image (Pipeline.arrRef spec0) → T2 m ρ c b = T1 m ρ c b :=
  fun b hb => U2_of_ne m ρ c b fun w e => hb (Finset.mem_image.mpr ⟨w, Finset.mem_univ _, e⟩)
/-- After `hostOps1` (region 1's entry). -/
abbrev U3 : Dev nD → Valuation τ sig (Elt F) := fun c => StableHlo.after hostOps1 (U2 m ρ c)
/-- The same read at the core's references. -/
abbrev T3 : (c : Dev nD) → (b : Ref sig .tc) → Buf (Elt F) ((c : Thread nD τ).loc b) := fun c b => U3 m ρ c b
/-- At region 1's exit: its arrays at what the pipeline leaves, every other buffer as entered. -/
def U4 (c : Dev nD) : Valuation τ sig (Elt F) :=
  Pipeline.withArrays spec1 c (U3 m ρ c) fun w => (dat1 (T3 m ρ) c).arrAt w cfg1.N
theorem U4_arr (c : Dev nD) (w : Fin cfg1.W) :
    U4 m ρ c (Proc.devRef .tc (Pipeline.arrRef spec1 w)) = (dat1 (T3 m ρ) c).arrAt w cfg1.N := by
  unfold U4; exact Pipeline.withArrays_arr spec1 launch1.win.arr_inj c _ _ w
theorem U4_of_ne (c : Dev nD) (b : Ref sig .tc) (hb : ∀ w, Pipeline.arrRef spec1 w ≠ b) :
    U4 m ρ c (Proc.devRef .tc b) = U3 m ρ c (Proc.devRef .tc b) := by
  unfold U4; exact Pipeline.withArrays_of_ne spec1 c _ _ b hb
/-- The same read at the core's references. -/
abbrev T4 : (c : Dev nD) → (b : Ref sig .tc) → Buf (Elt F) ((c : Thread nD τ).loc b) := fun c b => U4 m ρ c b
theorem hF1 (c : Dev nD) (w : Fin cfg1.W) : (dat1 (T3 m ρ) c).arrAt w cfg1.N = T4 m ρ c (Pipeline.arrRef spec1 w) :=
  (U4_arr m ρ c w).symm
theorem hrest1 (c : Dev nD) : ∀ b, b ∉ Finset.univ.image (Pipeline.arrRef spec1) → T4 m ρ c b = T3 m ρ c b :=
  fun b hb => U4_of_ne m ρ c b fun w e => hb (Finset.mem_image.mpr ⟨w, Finset.mem_univ _, e⟩)
/-- After `hostOps2`. -/
abbrev U5 : Dev nD → Valuation τ sig (Elt F) := fun c => StableHlo.after hostOps2 (U4 m ρ c)
/-- After `hostOps2_1` (region 2's entry). -/
abbrev U6 : Dev nD → Valuation τ sig (Elt F) := fun c => StableHlo.after hostOps2_1 (U5 m ρ c)
/-- The same read at the core's references. -/
abbrev T6 : (c : Dev nD) → (b : Ref sig .tc) → Buf (Elt F) ((c : Thread nD τ).loc b) := fun c b => U6 m ρ c b
/-- At region 2's exit: its arrays at what the pipeline leaves, every other buffer as entered. -/
def U7 (c : Dev nD) : Valuation τ sig (Elt F) :=
  Pipeline.withArrays spec2 c (U6 m ρ c) fun w => (dat2 (T6 m ρ) c).arrAt w cfg2.N
theorem U7_arr (c : Dev nD) (w : Fin cfg2.W) :
    U7 m ρ c (Proc.devRef .tc (Pipeline.arrRef spec2 w)) = (dat2 (T6 m ρ) c).arrAt w cfg2.N := by
  unfold U7; exact Pipeline.withArrays_arr spec2 launch2.win.arr_inj c _ _ w
theorem U7_of_ne (c : Dev nD) (b : Ref sig .tc) (hb : ∀ w, Pipeline.arrRef spec2 w ≠ b) :
    U7 m ρ c (Proc.devRef .tc b) = U6 m ρ c (Proc.devRef .tc b) := by
  unfold U7; exact Pipeline.withArrays_of_ne spec2 c _ _ b hb
/-- The same read at the core's references. -/
abbrev T7 : (c : Dev nD) → (b : Ref sig .tc) → Buf (Elt F) ((c : Thread nD τ).loc b) := fun c b => U7 m ρ c b
theorem hF2 (c : Dev nD) (w : Fin cfg2.W) : (dat2 (T6 m ρ) c).arrAt w cfg2.N = T7 m ρ c (Pipeline.arrRef spec2 w) :=
  (U7_arr m ρ c w).symm
theorem hrest2 (c : Dev nD) : ∀ b, b ∉ Finset.univ.image (Pipeline.arrRef spec2) → T7 m ρ c b = T6 m ρ c b :=
  fun b hb => U7_of_ne m ρ c b fun w e => hb (Finset.mem_image.mpr ⟨w, Finset.mem_univ _, e⟩)
/-- After `hostOps3`. -/
abbrev U8 : Dev nD → Valuation τ sig (Elt F) := fun c => StableHlo.after hostOps3 (U7 m ρ c)
/-- After `hostOps3_1`. -/
abbrev U9 : Dev nD → Valuation τ sig (Elt F) := fun c => StableHlo.after hostOps3_1 (U8 m ρ c)
/-- After `hostOps3_2` (region 3's entry). -/
abbrev U10 : Dev nD → Valuation τ sig (Elt F) := fun c => StableHlo.after hostOps3_2 (U9 m ρ c)
/-- The same read at the core's references. -/
abbrev T10 : (c : Dev nD) → (b : Ref sig .tc) → Buf (Elt F) ((c : Thread nD τ).loc b) := fun c b => U10 m ρ c b
/-- At region 3's exit: its arrays at what the pipeline leaves, every other buffer as entered. -/
def U11 (c : Dev nD) : Valuation τ sig (Elt F) :=
  Pipeline.withArrays spec3 c (U10 m ρ c) fun w => (dat3 (T10 m ρ) c).arrAt w cfg3.N
theorem U11_arr (c : Dev nD) (w : Fin cfg3.W) :
    U11 m ρ c (Proc.devRef .tc (Pipeline.arrRef spec3 w)) = (dat3 (T10 m ρ) c).arrAt w cfg3.N := by
  unfold U11; exact Pipeline.withArrays_arr spec3 launch3.win.arr_inj c _ _ w
theorem U11_of_ne (c : Dev nD) (b : Ref sig .tc) (hb : ∀ w, Pipeline.arrRef spec3 w ≠ b) :
    U11 m ρ c (Proc.devRef .tc b) = U10 m ρ c (Proc.devRef .tc b) := by
  unfold U11; exact Pipeline.withArrays_of_ne spec3 c _ _ b hb
/-- The same read at the core's references. -/
abbrev T11 : (c : Dev nD) → (b : Ref sig .tc) → Buf (Elt F) ((c : Thread nD τ).loc b) := fun c b => U11 m ρ c b
theorem hF3 (c : Dev nD) (w : Fin cfg3.W) : (dat3 (T10 m ρ) c).arrAt w cfg3.N = T11 m ρ c (Pipeline.arrRef spec3 w) :=
  (U11_arr m ρ c w).symm
theorem hrest3 (c : Dev nD) : ∀ b, b ∉ Finset.univ.image (Pipeline.arrRef spec3) → T11 m ρ c b = T10 m ρ c b :=
  fun b hb => U11_of_ne m ρ c b fun w e => hb (Finset.mem_image.mpr ⟨w, Finset.mem_univ _, e⟩)
/-- After `hostOps4` (region 4's entry). -/
abbrev U12 : Dev nD → Valuation τ sig (Elt F) := fun c => StableHlo.after hostOps4 (U11 m ρ c)
/-- The same read at the core's references. -/
abbrev T12 : (c : Dev nD) → (b : Ref sig .tc) → Buf (Elt F) ((c : Thread nD τ).loc b) := fun c b => U12 m ρ c b
/-- At region 4's exit: its arrays at what the pipeline leaves, every other buffer as entered. -/
def U13 (c : Dev nD) : Valuation τ sig (Elt F) :=
  Pipeline.withArrays spec4 c (U12 m ρ c) fun w => (dat4 (T12 m ρ) c).arrAt w cfg4.N
theorem U13_arr (c : Dev nD) (w : Fin cfg4.W) :
    U13 m ρ c (Proc.devRef .tc (Pipeline.arrRef spec4 w)) = (dat4 (T12 m ρ) c).arrAt w cfg4.N := by
  unfold U13; exact Pipeline.withArrays_arr spec4 launch4.win.arr_inj c _ _ w
theorem U13_of_ne (c : Dev nD) (b : Ref sig .tc) (hb : ∀ w, Pipeline.arrRef spec4 w ≠ b) :
    U13 m ρ c (Proc.devRef .tc b) = U12 m ρ c (Proc.devRef .tc b) := by
  unfold U13; exact Pipeline.withArrays_of_ne spec4 c _ _ b hb
/-- The same read at the core's references. -/
abbrev T13 : (c : Dev nD) → (b : Ref sig .tc) → Buf (Elt F) ((c : Thread nD τ).loc b) := fun c b => U13 m ρ c b
theorem hF4 (c : Dev nD) (w : Fin cfg4.W) : (dat4 (T12 m ρ) c).arrAt w cfg4.N = T13 m ρ c (Pipeline.arrRef spec4 w) :=
  (U13_arr m ρ c w).symm
theorem hrest4 (c : Dev nD) : ∀ b, b ∉ Finset.univ.image (Pipeline.arrRef spec4) → T13 m ρ c b = T12 m ρ c b :=
  fun b hb => U13_of_ne m ρ c b fun w e => hb (Finset.mem_image.mpr ⟨w, Finset.mem_univ _, e⟩)
/-- After `hostOps5` (region 5's entry). -/
abbrev U14 : Dev nD → Valuation τ sig (Elt F) := fun c => StableHlo.after hostOps5 (U13 m ρ c)
/-- The same read at the core's references. -/
abbrev T14 : (c : Dev nD) → (b : Ref sig .tc) → Buf (Elt F) ((c : Thread nD τ).loc b) := fun c b => U14 m ρ c b
/-- At region 5's exit: its arrays at what the pipeline leaves, every other buffer as entered. -/
def U15 (c : Dev nD) : Valuation τ sig (Elt F) :=
  Pipeline.withArrays spec5 c (U14 m ρ c) fun w => (dat5 (T14 m ρ) c).arrAt w cfg5.N
theorem U15_arr (c : Dev nD) (w : Fin cfg5.W) :
    U15 m ρ c (Proc.devRef .tc (Pipeline.arrRef spec5 w)) = (dat5 (T14 m ρ) c).arrAt w cfg5.N := by
  unfold U15; exact Pipeline.withArrays_arr spec5 launch5.win.arr_inj c _ _ w
theorem U15_of_ne (c : Dev nD) (b : Ref sig .tc) (hb : ∀ w, Pipeline.arrRef spec5 w ≠ b) :
    U15 m ρ c (Proc.devRef .tc b) = U14 m ρ c (Proc.devRef .tc b) := by
  unfold U15; exact Pipeline.withArrays_of_ne spec5 c _ _ b hb
/-- The same read at the core's references. -/
abbrev T15 : (c : Dev nD) → (b : Ref sig .tc) → Buf (Elt F) ((c : Thread nD τ).loc b) := fun c b => U15 m ρ c b
theorem hF5 (c : Dev nD) (w : Fin cfg5.W) : (dat5 (T14 m ρ) c).arrAt w cfg5.N = T15 m ρ c (Pipeline.arrRef spec5 w) :=
  (U15_arr m ρ c w).symm
theorem hrest5 (c : Dev nD) : ∀ b, b ∉ Finset.univ.image (Pipeline.arrRef spec5) → T15 m ρ c b = T14 m ρ c b :=
  fun b hb => U15_of_ne m ρ c b fun w e => hb (Finset.mem_image.mpr ⟨w, Finset.mem_univ _, e⟩)

end Cert.KernelIdeal.Hand

end
-- ==== Proof.KI.Keep.lean ====
/-
  A buffer that no item of the program writes reaches the end holding its launch contents. A stretch of host operations
  changes only the references its operations write; a kernel region changes only its output arrays — an input array is
  left by the pipeline as it was entered, and a buffer that is no array of the region is not touched. The sixteen
  argument arrays are written by no stretch and are no region's output.
-/
import proofs.«426099_j50130858279187_1_alg».proof.Proof.KI.Vals
import proofs.«426099_j50130858279187_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## A region changes only its output arrays -/

/-- Region 0 changes only `main_v3`: an array of the region other than its output is an input window's, which the
    pipeline leaves as entered; a buffer that is no array of the region is as entered. -/
theorem U2_keep (c : Dev nD) (r : Ref sig .tc) (h : r ≠ main_v3) :
    U2 m ρ c (Proc.devRef .tc r) = U1 m ρ c (Proc.devRef .tc r) := by
  by_cases hw : ∃ w, Pipeline.arrRef spec0 w = r
  · obtain ⟨w, rfl⟩ := hw
    have hin : (cfg0.win w).isOut = false := by revert w; decide
    exact (U2_arr m ρ c w).trans (((dat0 (T1 m ρ) c).arrAt_in w hin _).trans (A_eq0 (T1 m ρ) c w))
  · exact U2_of_ne m ρ c r fun w e => hw ⟨w, e⟩

/-- Region 1 changes only `main_v8`. -/
theorem U4_keep (c : Dev nD) (r : Ref sig .tc) (h : r ≠ main_v8) :
    U4 m ρ c (Proc.devRef .tc r) = U3 m ρ c (Proc.devRef .tc r) := by
  by_cases hw : ∃ w, Pipeline.arrRef spec1 w = r
  · obtain ⟨w, rfl⟩ := hw
    have hin : (cfg1.win w).isOut = false := by revert w; decide
    exact (U4_arr m ρ c w).trans (((dat1 (T3 m ρ) c).arrAt_in w hin _).trans (A_eq1 (T3 m ρ) c w))
  · exact U4_of_ne m ρ c r fun w e => hw ⟨w, e⟩

/-- Region 2 changes only `main_v11`. -/
theorem U7_keep (c : Dev nD) (r : Ref sig .tc) (h : r ≠ main_v11) :
    U7 m ρ c (Proc.devRef .tc r) = U6 m ρ c (Proc.devRef .tc r) := by
  by_cases hw : ∃ w, Pipeline.arrRef spec2 w = r
  · obtain ⟨w, rfl⟩ := hw
    have hin : (cfg2.win w).isOut = false := by revert w; decide
    exact (U7_arr m ρ c w).trans (((dat2 (T6 m ρ) c).arrAt_in w hin _).trans (A_eq2 (T6 m ρ) c w))
  · exact U7_of_ne m ρ c r fun w e => hw ⟨w, e⟩

/-- Region 3 changes only `main_v17_0` and `main_v17_1`. -/
theorem U11_keep (c : Dev nD) (r : Ref sig .tc) (h : r ≠ main_v17_0 ∧ r ≠ main_v17_1) :
    U11 m ρ c (Proc.devRef .tc r) = U10 m ρ c (Proc.devRef .tc r) := by
  by_cases hw : ∃ w, Pipeline.arrRef spec3 w = r
  · obtain ⟨w, rfl⟩ := hw
    have hin : (cfg3.win w).isOut = false := by revert w; decide
    exact (U11_arr m ρ c w).trans (((dat3 (T10 m ρ) c).arrAt_in w hin _).trans (A_eq3 (T10 m ρ) c w))
  · exact U11_of_ne m ρ c r fun w e => hw ⟨w, e⟩

/-- Region 4 changes only `main_v22`. -/
theorem U13_keep (c : Dev nD) (r : Ref sig .tc) (h : r ≠ main_v22) :
    U13 m ρ c (Proc.devRef .tc r) = U12 m ρ c (Proc.devRef .tc r) := by
  by_cases hw : ∃ w, Pipeline.arrRef spec4 w = r
  · obtain ⟨w, rfl⟩ := hw
    have hin : (cfg4.win w).isOut = false := by revert w; decide
    exact (U13_arr m ρ c w).trans (((dat4 (T12 m ρ) c).arrAt_in w hin _).trans (A_eq4 (T12 m ρ) c w))
  · exact U13_of_ne m ρ c r fun w e => hw ⟨w, e⟩

/-- Region 5 changes only `main_v24`. -/
theorem U15_keep (c : Dev nD) (r : Ref sig .tc) (h : r ≠ main_v24) :
    U15 m ρ c (Proc.devRef .tc r) = U14 m ρ c (Proc.devRef .tc r) := by
  by_cases hw : ∃ w, Pipeline.arrRef spec5 w = r
  · obtain ⟨w, rfl⟩ := hw
    have hin : (cfg5.win w).isOut = false := by revert w; decide
    exact (U15_arr m ρ c w).trans (((dat5 (T14 m ρ) c).arrAt_in w hin _).trans (A_eq5 (T14 m ρ) c w))
  · exact U15_of_ne m ρ c r fun w e => hw ⟨w, e⟩

/-! ## Through all fifteen items -/

/-- `r` is written by no item: it is among no host stretch's targets and is no region's output array. -/
abbrev Unwritten (r : Ref sig .tc) : Prop :=
  r ∉ hostOps0_W ∧ r ≠ main_v3 ∧ r ∉ hostOps1_W ∧ r ≠ main_v8 ∧ r ∉ hostOps2_W ∧ r ∉ hostOps2_1_W ∧ r ≠ main_v11
    ∧ r ∉ hostOps3_W ∧ r ∉ hostOps3_1_W ∧ r ∉ hostOps3_2_W ∧ (r ≠ main_v17_0 ∧ r ≠ main_v17_1) ∧ r ∉ hostOps4_W
    ∧ r ≠ main_v22 ∧ r ∉ hostOps5_W ∧ r ≠ main_v24

/-- A buffer no item writes ends as launched: the fold of the boundary contents walked back, item by item, to the
    launch memory. -/
theorem U15_arg (c : Dev nD) (r : Ref sig .tc) (h : Unwritten r) :
    U15 m ρ c (Proc.devRef .tc r) = m ((c : Thread nD τ).loc r) := by
  obtain ⟨h0, h1, h2, h3, h4, h5, h6, h7, h8, h9, h10, h11, h12, h13, h14⟩ := h
  calc U15 m ρ c (Proc.devRef .tc r)
    _ = U14 m ρ c (Proc.devRef .tc r) := U15_keep m ρ c r h14
    _ = U13 m ρ c (Proc.devRef .tc r) := StableHlo.after_of_writes_sub hostOps5 _ hostOps5_writes h13
    _ = U12 m ρ c (Proc.devRef .tc r) := U13_keep m ρ c r h12
    _ = U11 m ρ c (Proc.devRef .tc r) := StableHlo.after_of_writes_sub hostOps4 _ hostOps4_writes h11
    _ = U10 m ρ c (Proc.devRef .tc r) := U11_keep m ρ c r h10
    _ = U9 m ρ c (Proc.devRef .tc r) := StableHlo.after_of_writes_sub hostOps3_2 _ hostOps3_2_writes h9
    _ = U8 m ρ c (Proc.devRef .tc r) := StableHlo.after_of_writes_sub hostOps3_1 _ hostOps3_1_writes h8
    _ = U7 m ρ c (Proc.devRef .tc r) := StableHlo.after_of_writes_sub hostOps3 _ hostOps3_writes h7
    _ = U6 m ρ c (Proc.devRef .tc r) := U7_keep m ρ c r h6
    _ = U5 m ρ c (Proc.devRef .tc r) := StableHlo.after_of_writes_sub hostOps2_1 _ hostOps2_1_writes h5
    _ = U4 m ρ c (Proc.devRef .tc r) := StableHlo.after_of_writes_sub hostOps2 _ hostOps2_writes h4
    _ = U3 m ρ c (Proc.devRef .tc r) := U4_keep m ρ c r h3
    _ = U2 m ρ c (Proc.devRef .tc r) := StableHlo.after_of_writes_sub hostOps1 _ hostOps1_writes h2
    _ = U1 m ρ c (Proc.devRef .tc r) := U2_keep m ρ c r h1
    _ = U0 m ρ c (Proc.devRef .tc r) := StableHlo.after_of_writes_sub hostOps0 _ hostOps0_writes h0
    _ = m ((c : Thread nD τ).loc r) := rfl

end Cert.KernelIdeal.Hand

end
-- ==== Proof.KI.Run.lean ====
/-
  The run of the program's entry function from the launch to the return: six kernel regions among nine stretches of host
  operations. Between two items core `c` holds every unscoped buffer whole at the boundary's contents (`U0` … `U15`), its
  random-number register at some state, and owes nothing. A stretch of host operations takes the buffers from one boundary's
  contents to the next by what its operations compute; a region splits its arrays out of the unscoped buffers, runs its
  pipeline over them, and puts them back at what the write-backs leave. At the return every unscoped buffer holds the
  last boundary's contents `U15`.
-/
import proofs.«426099_j50130858279187_1_alg».proof.Proof.KI.Vals
import proofs.«426099_j50130858279187_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev admH : (p : Fin 6) → (pcfgs (F := F) p).Adm := fun p => (cfgs p).toPCfg_adm
/-- Every pipeline's proof data, each at its region's entry contents. -/
def pd : (p : Fin 6) → (c : Dev nD) → Dat τ (Elt F) Unit ℕ (UR sig nD τ) ℕ (Pipeline.pin (pcfgs (F := F)) admH p) c
  | ⟨0, _⟩ => fun c => dat0 (T1 m ρ) c
  | ⟨1, _⟩ => fun c => dat1 (T3 m ρ) c
  | ⟨2, _⟩ => fun c => dat2 (T6 m ρ) c
  | ⟨3, _⟩ => fun c => dat3 (T10 m ρ) c
  | ⟨4, _⟩ => fun c => dat4 (T12 m ρ) c
  | ⟨5, _⟩ => fun c => dat5 (T14 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's random-number register at some state and its dues, at
    nothing. -/
abbrev R (c : Dev nD) : sProp 𝕄 := iprop((∃ r, prngReg c r) ∗ ∃ W, owes (c : Thread nD τ) (0 : CellTallies nD τ sig Unit) W)
/-- A stretch of host operations as a segment over the unscoped references from the contents `W`, `R` riding along: it
    is left with those references at what the operations make of `W c`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents `U15`, the random-number
    register at some state. -/
abbrev Tₙ (c : Dev nD) : sProp 𝕄 := iprop(StableHlo.held (c : Thread nD τ) (Pipeline.ucRefs τ sig) (U15 m ρ c) ∗ ∃ r, prngReg c r)

/-! ## The regions as segments -/

set_option backward.isDefEq.respectTransparency.types false in
/-- Region 0 over the thread state: entered from every unscoped buffer at `U1`, left at `U2`.
    Its arrays are split out of the unscoped buffers at entry and put back at the exit contents; the random-number
    register passes into the region's invariant and out; nothing is owed; the region has no semaphore of its own. -/
def rg0 : Pipeline.RegionSeg (pcfgs (F := F)) admH (pd m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (T1 m ρ) c).loose
  hwaits := Pipeline.hwaits_of_owed_zero _ _ _ _ L lv 0 fun _ _ => rfl
  pre c := iprop(StableHlo.held (c : Thread nD τ) (Pipeline.ucRefs τ sig) (U1 m ρ c) ∗ R c)
  post c := iprop(StableHlo.held (c : Thread nD τ) (Pipeline.ucRefs τ sig) (U2 m ρ c) ∗ R c)
  X c := iprop(∃ r, prngReg c r)
  Y c := iprop(∃ r, prngReg c r)
  Z c := Pipeline.unscopedRest (Ix := Unit) (Name := ℕ) (U := UR sig nD τ) (Lvl := ℕ) spec0 c (T1 m ρ c)
  hentry c := by
    rw [Pipeline.ownSems0_none]
    have hsplit := Pipeline.arrays_of_unscopedBufs (p := 0) (pcfgs (F := F)) admH (pd m ρ) launch0.win launch0.arr_whole c
      ((pd m ρ 0 c).share_full fun _ => rfl) (T1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pd m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pd m ρ) ((pd m ρ 0 c).share_full fun _ => rfl)
      (T1 m ρ c) (T2 m ρ c) ((pd m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `U3`, left at `U4`.
    Its arrays are split out of the unscoped buffers at entry and put back at the exit contents; the random-number
    register passes into the region's invariant and out; nothing is owed; the region has no semaphore of its own. -/
def rg1 : Pipeline.RegionSeg (pcfgs (F := F)) admH (pd m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (T3 m ρ) c).loose
  hwaits := Pipeline.hwaits_of_owed_zero _ _ _ _ L lv 1 fun _ _ => rfl
  pre c := iprop(StableHlo.held (c : Thread nD τ) (Pipeline.ucRefs τ sig) (U3 m ρ c) ∗ R c)
  post c := iprop(StableHlo.held (c : Thread nD τ) (Pipeline.ucRefs τ sig) (U4 m ρ c) ∗ R c)
  X c := iprop(∃ r, prngReg c r)
  Y c := iprop(∃ r, prngReg c r)
  Z c := Pipeline.unscopedRest (Ix := Unit) (Name := ℕ) (U := UR sig nD τ) (Lvl := ℕ) spec1 c (T3 m ρ c)
  hentry c := by
    rw [Pipeline.ownSems0_none]
    have hsplit := Pipeline.arrays_of_unscopedBufs (p := 1) (pcfgs (F := F)) admH (pd m ρ) launch1.win launch1.arr_whole c
      ((pd m ρ 1 c).share_full fun _ => rfl) (T3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pd m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pd m ρ) ((pd m ρ 1 c).share_full fun _ => rfl)
      (T3 m ρ c) (T4 m ρ c) ((pd m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `U6`, left at `U7`.
    Its arrays are split out of the unscoped buffers at entry and put back at the exit contents; the random-number
    register passes into the region's invariant and out; nothing is owed; the region has no semaphore of its own. -/
def rg2 : Pipeline.RegionSeg (pcfgs (F := F)) admH (pd m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (T6 m ρ) c).loose
  hwaits := Pipeline.hwaits_of_owed_zero _ _ _ _ L lv 2 fun _ _ => rfl
  pre c := iprop(StableHlo.held (c : Thread nD τ) (Pipeline.ucRefs τ sig) (U6 m ρ c) ∗ R c)
  post c := iprop(StableHlo.held (c : Thread nD τ) (Pipeline.ucRefs τ sig) (U7 m ρ c) ∗ R c)
  X c := iprop(∃ r, prngReg c r)
  Y c := iprop(∃ r, prngReg c r)
  Z c := Pipeline.unscopedRest (Ix := Unit) (Name := ℕ) (U := UR sig nD τ) (Lvl := ℕ) spec2 c (T6 m ρ c)
  hentry c := by
    rw [Pipeline.ownSems0_none]
    have hsplit := Pipeline.arrays_of_unscopedBufs (p := 2) (pcfgs (F := F)) admH (pd m ρ) launch2.win launch2.arr_whole c
      ((pd m ρ 2 c).share_full fun _ => rfl) (T6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pd m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pd m ρ) ((pd m ρ 2 c).share_full fun _ => rfl)
      (T6 m ρ c) (T7 m ρ c) ((pd m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `U10`, left at `U11`.
    Its arrays are split out of the unscoped buffers at entry and put back at the exit contents; the random-number
    register passes into the region's invariant and out; nothing is owed; the region has no semaphore of its own. -/
def rg3 : Pipeline.RegionSeg (pcfgs (F := F)) admH (pd m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (T10 m ρ) c).loose
  hwaits := Pipeline.hwaits_of_owed_zero _ _ _ _ L lv 3 fun _ _ => rfl
  pre c := iprop(StableHlo.held (c : Thread nD τ) (Pipeline.ucRefs τ sig) (U10 m ρ c) ∗ R c)
  post c := iprop(StableHlo.held (c : Thread nD τ) (Pipeline.ucRefs τ sig) (U11 m ρ c) ∗ R c)
  X c := iprop(∃ r, prngReg c r)
  Y c := iprop(∃ r, prngReg c r)
  Z c := Pipeline.unscopedRest (Ix := Unit) (Name := ℕ) (U := UR sig nD τ) (Lvl := ℕ) spec3 c (T10 m ρ c)
  hentry c := by
    rw [Pipeline.ownSems0_none]
    have hsplit := Pipeline.arrays_of_unscopedBufs (p := 3) (pcfgs (F := F)) admH (pd m ρ) launch3.win launch3.arr_whole c
      ((pd m ρ 3 c).share_full fun _ => rfl) (T10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pd m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pd m ρ) ((pd m ρ 3 c).share_full fun _ => rfl)
      (T10 m ρ c) (T11 m ρ c) ((pd m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `U12`, left at `U13`.
    Its arrays are split out of the unscoped buffers at entry and put back at the exit contents; the random-number
    register passes into the region's invariant and out; nothing is owed; the region has no semaphore of its own. -/
def rg4 : Pipeline.RegionSeg (pcfgs (F := F)) admH (pd m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (T12 m ρ) c).loose
  hwaits := Pipeline.hwaits_of_owed_zero _ _ _ _ L lv 4 fun _ _ => rfl
  pre c := iprop(StableHlo.held (c : Thread nD τ) (Pipeline.ucRefs τ sig) (U12 m ρ c) ∗ R c)
  post c := iprop(StableHlo.held (c : Thread nD τ) (Pipeline.ucRefs τ sig) (U13 m ρ c) ∗ R c)
  X c := iprop(∃ r, prngReg c r)
  Y c := iprop(∃ r, prngReg c r)
  Z c := Pipeline.unscopedRest (Ix := Unit) (Name := ℕ) (U := UR sig nD τ) (Lvl := ℕ) spec4 c (T12 m ρ c)
  hentry c := by
    rw [Pipeline.ownSems0_none]
    have hsplit := Pipeline.arrays_of_unscopedBufs (p := 4) (pcfgs (F := F)) admH (pd m ρ) launch4.win launch4.arr_whole c
      ((pd m ρ 4 c).share_full fun _ => rfl) (T12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pd m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admH (Ix := Unit) (Name := ℕ) (U := UR sig nD τ) (Lvl := ℕ)
      launch4.win launch4.arr_whole c (pd m ρ) ((pd m ρ 4 c).share_full fun _ => rfl)
      (T12 m ρ c) (T13 m ρ c) ((pd m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `U14`, left at `U15` (what is read at the end).
    Its arrays are split out of the unscoped buffers at entry and put back at the exit contents; the random-number
    register passes into the region's invariant and out; nothing is owed; the region has no semaphore of its own. -/
def rg5 : Pipeline.RegionSeg (pcfgs (F := F)) admH (pd m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (T14 m ρ) c).loose
  hwaits := Pipeline.hwaits_of_owed_zero _ _ _ _ L lv 5 fun _ _ => rfl
  pre c := iprop(StableHlo.held (c : Thread nD τ) (Pipeline.ucRefs τ sig) (U14 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (T14 m ρ c)
  hentry c := by
    rw [Pipeline.ownSems0_none]
    have hsplit := Pipeline.arrays_of_unscopedBufs (p := 5) (pcfgs (F := F)) admH (pd m ρ) launch5.win launch5.arr_whole c
      ((pd m ρ 5 c).share_full fun _ => rfl) (T14 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pd m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) admH (Ix := Unit) (Name := ℕ) (U := UR sig nD τ) (Lvl := ℕ)
      launch5.win launch5.arr_whole c (pd m ρ) ((pd m ρ 5 c).share_full fun _ => rfl)
      (T14 m ρ c) (T15 m ρ c) ((pd m ρ 5 c).arrAt · cfg5.N) (hF5 m ρ c) (hrest5 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The entry function as segments, and the launch -/

/-- The entry function's 15 items in order: a host segment per stretch from its boundary's contents, a region per kernel call. -/
abbrev sgs : List (Pipeline.Seg (pcfgs (F := F)) admH (pd m ρ) () defs₀ 𝒱₀ L lv) :=
  [ .host (hseg hostOps0 hostOps0_sub hostOps0_fresh (U0 m ρ)),
    .region (rg0 m ρ),
    .host (hseg hostOps1 hostOps1_sub hostOps1_fresh (U2 m ρ)),
    .region (rg1 m ρ),
    .host (hseg hostOps2 hostOps2_sub hostOps2_fresh (U4 m ρ)),
    .host (hseg hostOps2_1 hostOps2_1_sub hostOps2_1_fresh (U5 m ρ)),
    .region (rg2 m ρ),
    .host (hseg hostOps3 hostOps3_sub hostOps3_fresh (U7 m ρ)),
    .host (hseg hostOps3_1 hostOps3_1_sub hostOps3_1_fresh (U8 m ρ)),
    .host (hseg hostOps3_2 hostOps3_2_sub hostOps3_2_fresh (U9 m ρ)),
    .region (rg3 m ρ),
    .host (hseg hostOps4 hostOps4_sub hostOps4_fresh (U11 m ρ)),
    .region (rg4 m ρ),
    .host (hseg hostOps5 hostOps5_sub hostOps5_fresh (U13 m ρ)),
    .region (rg5 m ρ) ]
/-- The segments' programs are the entry function's items. -/
theorem sgs_progs : (sgs m ρ).map Pipeline.Seg.prog = ([
      StableHlo.seq hostOps0,
      Prog.lift (.customCall (Pipeline.entry 0) ()),
      StableHlo.seq hostOps1,
      Prog.lift (.customCall (Pipeline.entry 1) ()),
      StableHlo.seq hostOps2,
      StableHlo.seq hostOps2_1,
      Prog.lift (.customCall (Pipeline.entry 2) ()),
      StableHlo.seq hostOps3,
      StableHlo.seq hostOps3_1,
      StableHlo.seq hostOps3_2,
      Prog.lift (.customCall (Pipeline.entry 3) ()),
      StableHlo.seq hostOps4,
      Prog.lift (.customCall (Pipeline.entry 4) ()),
      StableHlo.seq hostOps5,
      Prog.lift (.customCall (Pipeline.entry 5) ()) ] : List (Prog (TpuEff nD τ sig (Elt F) (Pipeline.Sig Λ₀ (Fin 6) fun p => (pcfgs (F := F) p).Adm) .tc) PUnit)) := rfl
/-- The entry function is the run of the segments. -/
theorem main_run (c : Dev nD) : main (F := F) c = Pipeline.Seg.run (sgs m ρ) := by
  rw [main_chain c, Pipeline.Seg.run_eq_chain, sgs_progs]

set_option backward.isDefEq.respectTransparency.types false in
/-- THE RUN: from any memory with zero counters, every weakly fair execution of the entry function on the cores terminates,
    nothing faulting, and in every final state each core's unscoped buffers hold the last boundary's contents `U15`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = U15 m ρ c b) :=
  Pipeline.θ_run_regions_kit (pcfgs (F := F)) admH (pd m ρ) () cellOf_inj emb₁ defs₀ 𝒱₀ L lv m ρ main (sgs m ρ)
    (fun c Q => by rw [main_run m ρ c])
    (by simp only [sgs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (U0 m ρ c)
        from Pipeline.unscopedBufs_held c (U0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U15 m ρ c b)
    (hfin := fun c s' => by
      iintro ⟨⟨Hh, -⟩, HSI⟩
      unfold StableHlo.held
      imodintro
      iapply (pointsTo_read_all (Pipeline.ucRefs τ sig) (fun b => (((c : Thread nD τ)).1, b)) (U15 m ρ c) s')
      isplitl [Hh] <;> iassumption)
    (hQ := fun _ h => h)

end Cert.KernelIdeal.Hand

end
-- ==== Proof.KI.Frame.lean ====
/-
  THE FRAME of the program: from any memory with zero counters, every weakly fair execution of the entry function on the
  cores terminates and every final memory holds each of the sixteen argument arrays as launched. The run leaves every
  unscoped buffer of a core at the last boundary's contents; an argument array is written by no item, so those contents,
  walked back through the fifteen items, are the launch memory's.
-/
import proofs.«426099_j50130858279187_1_alg».proof.Proof.KI.Keep
import proofs.«426099_j50130858279187_1_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every argument array ends as launched: each is an unscoped buffer of the core, read off the final memory at the
    last boundary's contents, and no item writes it. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    ⟨(h c _ (mem_uc main_arg0 (by decide))).trans (U15_arg m ρ c main_arg0 (by decide)),
      (h c _ (mem_uc main_arg1 (by decide))).trans (U15_arg m ρ c main_arg1 (by decide)),
      (h c _ (mem_uc main_arg2 (by decide))).trans (U15_arg m ρ c main_arg2 (by decide)),
      (h c _ (mem_uc main_arg3 (by decide))).trans (U15_arg m ρ c main_arg3 (by decide)),
      (h c _ (mem_uc main_arg4 (by decide))).trans (U15_arg m ρ c main_arg4 (by decide)),
      (h c _ (mem_uc main_arg5 (by decide))).trans (U15_arg m ρ c main_arg5 (by decide)),
      (h c _ (mem_uc main_arg6 (by decide))).trans (U15_arg m ρ c main_arg6 (by decide)),
      (h c _ (mem_uc main_arg7 (by decide))).trans (U15_arg m ρ c main_arg7 (by decide)),
      (h c _ (mem_uc main_arg8 (by decide))).trans (U15_arg m ρ c main_arg8 (by decide)),
      (h c _ (mem_uc main_arg9 (by decide))).trans (U15_arg m ρ c main_arg9 (by decide)),
      (h c _ (mem_uc main_arg10 (by decide))).trans (U15_arg m ρ c main_arg10 (by decide)),
      (h c _ (mem_uc main_arg11 (by decide))).trans (U15_arg m ρ c main_arg11 (by decide)),
      (h c _ (mem_uc main_arg12 (by decide))).trans (U15_arg m ρ c main_arg12 (by decide)),
      (h c _ (mem_uc main_arg13 (by decide))).trans (U15_arg m ρ c main_arg13 (by decide)),
      (h c _ (mem_uc main_arg14 (by decide))).trans (U15_arg m ρ c main_arg14 (by decide)),
      (h c _ (mem_uc main_arg15 (by decide))).trans (U15_arg m ρ c main_arg15 (by decide))⟩) (run_all m ρ)

end Cert.KernelIdeal.Hand

end
-- ==== Proof.KI.Pay0.lean ====
/-
  The payload of region 0 (the node projection onto the three concatenated weight blocks) read at one entry, at the ideal values: the change of format is the identity, the
  product into the zero accumulator is the sum over the contracted axis, and the one-row bias is read at the entry's column.
-/
import proofs.«426099_j50130858279187_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx

/-- The left operand's row coordinate is the output's row. -/
theorem lhs_k0_0 (i : S2000x384.Idx) (q : dot_S2000x128_S128x384_S2000x384_1_0_0_1_n_n.contr.Idx) :
    (dot_S2000x128_S128x384_S2000x384_1_0_0_1_n_n.lhsIdx i q 0).val = (i 0).val := by
  unfold DotDims.lhsIdx
  rw [dif_neg (show ¬(0 : Fin S2000x128.rank) ∈ dot_S2000x128_S128x384_S2000x384_1_0_0_1_n_n.lhsBatch by decide), dif_pos (show (0 : Fin S2000x128.rank) ∈ dot_S2000x128_S128x384_S2000x384_1_0_0_1_n_n.lhsNonContracting by decide)]
  rfl
/-- The left operand's column coordinate is the contraction index. -/
theorem lhs_k0_1 (i : S2000x384.Idx) (q : dot_S2000x128_S128x384_S2000x384_1_0_0_1_n_n.contr.Idx) :
    (dot_S2000x128_S128x384_S2000x384_1_0_0_1_n_n.lhsIdx i q 1).val = (q ⟨0, by decide⟩).val :=
  dot_S2000x128_S128x384_S2000x384_1_0_0_1_n_n.lhsIdx_val_of_single rfl i q
/-- The right operand's row coordinate is the contraction index. -/
theorem rhs_k0_0 (i : S2000x384.Idx) (q : dot_S2000x128_S128x384_S2000x384_1_0_0_1_n_n.contr.Idx) :
    (dot_S2000x128_S128x384_S2000x384_1_0_0_1_n_n.rhsIdx i q 0).val = (q ⟨0, by decide⟩).val :=
  dot_S2000x128_S128x384_S2000x384_1_0_0_1_n_n.rhsIdx_val_of_single rfl i q
/-- The right operand's column coordinate is the output's column. -/
theorem rhs_k0_1 (i : S2000x384.Idx) (q : dot_S2000x128_S128x384_S2000x384_1_0_0_1_n_n.contr.Idx) :
    (dot_S2000x128_S128x384_S2000x384_1_0_0_1_n_n.rhsIdx i q 1).val = (i 1).val := by
  unfold DotDims.rhsIdx
  rw [dif_neg (show ¬(1 : Fin S128x384.rank) ∈ dot_S2000x128_S128x384_S2000x384_1_0_0_1_n_n.rhsBatch by decide), dif_pos (show (1 : Fin S128x384.rank) ∈ dot_S2000x128_S128x384_S2000x384_1_0_0_1_n_n.rhsNonContracting by decide)]
  rfl

/-- The product into the zero accumulator, at an entry: the sum over the contracted axis. -/
theorem matmul_k0_apply (a : FVec Ideal S2000x128 .bf16) (b : FVec Ideal S128x384 .bf16) (p : Fin 2000) (q : Fin 384) :
    matmul dot_S2000x128_S128x384_S2000x384_1_0_0_1_n_n none a b (constant S2000x384 .f32 0x00000000#32) (ix2 p q)
      = ∑ k : Fin 128, a (ix2 p k) * b (ix2 k q) := by
  show FloatOps.matmul dot_S2000x128_S128x384_S2000x384_1_0_0_1_n_n none a b (constant S2000x384 .f32 0x00000000#32) (ix2 p q) = _
  rw [Ideal.matmul_constant_zero_apply, ← Equiv.sum_comp (contrEquiv1 dot_S2000x128_S128x384_S2000x384_1_0_0_1_n_n 128 rfl rfl).symm]
  refine Finset.sum_congr rfl fun k _ => ?_
  have hk := contrEquiv1_symm_val dot_S2000x128_S128x384_S2000x384_1_0_0_1_n_n 128 rfl rfl k
  have el : dot_S2000x128_S128x384_S2000x384_1_0_0_1_n_n.lhsIdx (ix2 p q) ((contrEquiv1 dot_S2000x128_S128x384_S2000x384_1_0_0_1_n_n 128 rfl rfl).symm k) = ix2 p k := funext fun a => Fin.ext (by
    match a with
    | ⟨0, _⟩ => exact lhs_k0_0 _ _
    | ⟨1, _⟩ => exact (lhs_k0_1 _ _).trans hk)
  have er : dot_S2000x128_S128x384_S2000x384_1_0_0_1_n_n.rhsIdx (ix2 p q) ((contrEquiv1 dot_S2000x128_S128x384_S2000x384_1_0_0_1_n_n 128 rfl rfl).symm k) = ix2 k q := funext fun a => Fin.ext (by
    match a with
    | ⟨0, _⟩ => exact (rhs_k0_0 _ _).trans hk
    | ⟨1, _⟩ => exact rhs_k0_1 _ _)
  rw [el, er]

/-- A one-row array spread over the block's rows reads its row's entry of the same column. -/
theorem bcast_row_k0_apply (x : S1x384.Idx → EReal) (p : Fin 2000) (q : Fin 384) :
    broadcastTo S2000x384 x broadcasts_S1x384_S2000x384 (ix2 p q) = x (ix2 (0 : Fin 1) q) :=
  broadcastTo_apply x broadcasts_S1x384_S2000x384 (ix2 p q) (ix2 (0 : Fin 1) q) (fun a => match a with
    | ⟨0, _⟩ => by show 0 = if (1 : Nat) = 1 then 0 else _; rw [if_pos rfl]
    | ⟨1, _⟩ => by show q.val = if (384 : Nat) = 1 then 0 else q.val; rw [if_neg (by decide)])

/-- The payload at an entry: the row of the input block against the column of the weights, plus the bias of that column. -/
theorem k0_pay1_apply (x0 : Vec Ideal S2000x128 .f32) (x1 : Vec Ideal S128x384 .f32) (x2 : Vec Ideal S1x384 .f32) (p : Fin 2000) (q : Fin 384) :
    k0_pay1 x0 x1 x2 (ix2 p q) = (∑ k : Fin 128, x0 (ix2 p k) * x1 (ix2 k q)) + x2 (ix2 (0 : Fin 1) q) := by
  unfold k0_pay1
  refine (addf_apply _ _ _).trans ?_
  refine congrArg₂ (· + ·) ((matmul_k0_apply _ _ p q).trans ?_) ((bcast_row_k0_apply _ p q).trans ?_)
  · refine Finset.sum_congr rfl fun k _ => ?_
    rw [shapeCast_self]
    rfl
  · rw [shapeCast_self]

end Cert.KernelIdeal.Hand

end
-- ==== Proof.KI.Val0.lean ====
/-
  What region 0 (the node projection onto the three concatenated weight blocks) leaves in its output array, at the ideal values: ONE function of the region's three input arrays as
  it finds them, entry by entry — row `i 0` of the input array against column `i 1` of the weights, plus the bias of that
  column. Each grid point writes back its block of 2000 rows of that function; the 10 blocks tile the 20000 rows.
-/
import proofs.«426099_j50130858279187_1_alg».proof.Proof.KI.Region0
import proofs.«426099_j50130858279187_1_alg».proof.Proof.KI.Pay0
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The zero offsets of a whole-block rectangle. -/
theorem off00_0 : (![0, 0] : Fin 2 → Nat) = fun _ => 0 := funext fun a => by fin_cases a <;> rfl

/-- The projection of whole arrays: row `i 0` of `a` against column `i 1` of `w`, plus the bias row's entry of that column. -/
def lin0 (a : S20000x128.Idx → EReal) (w : S128x384.Idx → EReal) (b : S1x384.Idx → EReal) : S20000x384.Idx → EReal :=
  fun i => (∑ k : Fin 128, a (ix2 (i 0) k) * w (ix2 k (i 1))) + b (ix2 (0 : Fin 1) (i 1))

/-- The same at an entry given by its coordinates. -/
theorem lin0_ix2 (a : S20000x128.Idx → EReal) (w : S128x384.Idx → EReal) (b : S1x384.Idx → EReal) (r : Fin 20000) (q : Fin 384) :
    lin0 a w b (ix2 r q) = (∑ k : Fin 128, a (ix2 r k) * w (ix2 k q)) + b (ix2 (0 : Fin 1) q) := rfl

/-- The projection at any entry, spelt out. -/
theorem lin0_apply (a : S20000x128.Idx → EReal) (w : S128x384.Idx → EReal) (b : S1x384.Idx → EReal) (i : S20000x384.Idx) :
    lin0 a w b i = (∑ k : Fin 128, a (ix2 (i 0) k) * w (ix2 k (i 1))) + b (ix2 (0 : Fin 1) (i 1)) := rfl

/-- The payload of blocks that are restrictions of the arrays is the restriction of the projection: at row `p` of the
    block whose rows are the array's rows from `r - p` on. -/
theorem lin0_block (a : S20000x128.Idx → EReal) (w : S128x384.Idx → EReal) (b : S1x384.Idx → EReal)
    (x0 : Vec Ideal S2000x128 .f32) (x1 : Vec Ideal S128x384 .f32) (x2 : Vec Ideal S1x384 .f32)
    (p : Fin 2000) (q : Fin 384) (r : Fin 20000)
    (h0 : ∀ k : Fin 128, x0 (ix2 p k) = a (ix2 r k))
    (h1 : ∀ k : Fin 128, x1 (ix2 k q) = w (ix2 k q))
    (h2 : x2 (ix2 (0 : Fin 1) q) = b (ix2 (0 : Fin 1) q)) :
    k0_pay1 x0 x1 x2 (ix2 p q) = lin0 a w b (ix2 r q) := by
  refine (k0_pay1_apply x0 x1 x2 p q).trans ?_
  refine Eq.trans ?_ (lin0_ix2 a w b r q).symm
  exact congrArg₂ (· + ·) (Finset.sum_congr rfl fun k _ => by rw [h0 k, h1 k]) h2

/-- The printed index maps, decided over the grid: the input and the output move one block of rows per point, the weights
    and the bias stay. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- WHAT POINT `t` WRITES BACK is block `t` of the projection of the arrays as the region finds them. -/
theorem flushed0_eq (c : Dev nD) (t : Fin cfg0.N) :
    (dat0 V c).flushed 3 t
      = ((cfg0.win 3).blk t).view.read (Elt Ideal) (lin0 (V c main_arg0) (V c main_v0) (V c main_v2)) := by
  show (cfg0.win 3).cut (grid0.coords t) ((dat0 V c).after 3 t) = _
  rw [after0_3]
  unfold out0_3
  rw [View.canon_unit_zero off00_0]
  simp only [View.ld_unit_zero (S := S2000x128) off00_0, View.ld_unit_zero (S := S128x384) off00_0, View.ld_unit_zero (S := S1x384) off00_0]
  obtain ⟨e00, e01, e10, e11, e20, e21, e30, e31⟩ := idx_facts0 t
  have ht : t.val < 10 := t.isLt.trans_eq N_0
  funext j
  obtain ⟨p, q, rfl⟩ : ∃ (p : Fin 2000) (q : Fin 384), j = ix2 p q := ⟨j 0, j 1, @eq_ix2 2000 384 j⟩
  have hp : p.val < 2000 := p.isLt
  have hq : q.val < 384 := q.isLt
  have hr : t.val * 2000 + p.val < 20000 := by omega
  show k0_pay1 (iblk0 V c 0 t) (iblk0 V c 1 t) (iblk0 V c 2 t) (ix2 p q)
      = lin0 (V c main_arg0) (V c main_v0) (V c main_v2) (((cfg0.win 3).blk t).view.emb (ix2 p q))
  have hemb : ((cfg0.win 3).blk t).view.emb (ix2 p q) = (ix2 (⟨t.val * 2000 + p.val, hr⟩ : Fin 20000) q : S20000x384.Idx) := by
    funext a; apply Fin.ext
    match a with
    | ⟨0, _⟩ => show win0_3.index t (0 : Fin 2) * 2000 + 1 * p.val = t.val * 2000 + p.val; omega
    | ⟨1, _⟩ => show win0_3.index t (1 : Fin 2) * 384 + 1 * q.val = q.val; omega
  refine Eq.trans ?_ (congrArg (lin0 (V c main_arg0) (V c main_v0) (V c main_v2)) hemb.symm)
  refine lin0_block (V c main_arg0) (V c main_v0) (V c main_v2) (iblk0 V c 0 t) (iblk0 V c 1 t) (iblk0 V c 2 t) p q ⟨t.val * 2000 + p.val, hr⟩ ?_ ?_ ?_
  · intro k
    have hk : k.val < 128 := k.isLt
    show V c main_arg0 (((cfg0.win 0).blk t).view.emb (ix2 p k)) = V c main_arg0 (ix2 (⟨t.val * 2000 + p.val, hr⟩ : Fin 20000) k)
    have h : ((cfg0.win 0).blk t).view.emb (ix2 p k) = (ix2 (⟨t.val * 2000 + p.val, hr⟩ : Fin 20000) k : S20000x128.Idx) := by
      funext a; apply Fin.ext
      match a with
      | ⟨0, _⟩ => show win0_0.index t (0 : Fin 2) * 2000 + 1 * p.val = t.val * 2000 + p.val; omega
      | ⟨1, _⟩ => show win0_0.index t (1 : Fin 2) * 128 + 1 * k.val = k.val; omega
    rw [h]
  · intro k
    have hk : k.val < 128 := k.isLt
    show V c main_v0 (((cfg0.win 1).blk t).view.emb (ix2 k q)) = V c main_v0 (ix2 k q)
    have h : ((cfg0.win 1).blk t).view.emb (ix2 k q) = (ix2 k q : S128x384.Idx) := by
      funext a; apply Fin.ext
      match a with
      | ⟨0, _⟩ => show win0_1.index t (0 : Fin 2) * 128 + 1 * k.val = k.val; omega
      | ⟨1, _⟩ => show win0_1.index t (1 : Fin 2) * 384 + 1 * q.val = q.val; omega
    rw [h]
  · show V c main_v2 (((cfg0.win 2).blk t).view.emb (ix2 (0 : Fin 1) q)) = V c main_v2 (ix2 (0 : Fin 1) q)
    have h : ((cfg0.win 2).blk t).view.emb (ix2 (0 : Fin 1) q) = (ix2 (0 : Fin 1) q : S1x384.Idx) := by
      funext a; apply Fin.ext
      match a with
      | ⟨0, _⟩ => show win0_2.index t (0 : Fin 2) * 1 + 1 * 0 = 0; omega
      | ⟨1, _⟩ => show win0_2.index t (1 : Fin 2) * 384 + 1 * q.val = q.val; omega
    rw [h]

/-- An index of the output array is in point `t`'s block iff each coordinate is in the block's range on its axis. -/
theorem mem_blk0 (t : Fin cfg0.N) (i : S20000x384.Idx) :
    i ∈ ((cfg0.win 3).blk t).view.set ↔ ∀ a : Fin 2, win0_3.index t a * S2000x384.size a ≤ (i a).val ∧ (i a).val < win0_3.index t a * S2000x384.size a + S2000x384.size a := by
  show i ∈ ((View.whole main_v3).slice (win0_3.rect t)).set ↔ _
  rw [View.set_slice_whole, Rect.mem_set_unit]
  exact Iff.rfl

/-- Every entry of the output array is in the block of the point its row's block number names. -/
theorem cover0 (i : S20000x384.Idx) : ∃ t : Fin cfg0.N, (cfg0.win 3).flush t = true ∧ i ∈ ((cfg0.win 3).blk t).view.set := by
  have hi0 : (i 0).val < 20000 := (i 0).isLt
  have hi1 : (i 1).val < 384 := (i 1).isLt
  obtain ⟨t, ht⟩ : ∃ t : Fin cfg0.N, t.val = (i 0).val / 2000 :=
    ⟨⟨(i 0).val / 2000, (show (i 0).val / 2000 < 10 by omega).trans_eq N_0.symm⟩, rfl⟩
  obtain ⟨e00, e01, e10, e11, e20, e21, e30, e31⟩ := idx_facts0 t
  refine ⟨t, flush0_3 t, ?_⟩
  rw [mem_blk0]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 384 ≤ (i 1).val ∧ (i 1).val < win0_3.index t (1 : Fin 2) * 384 + 384; omega

/-- THE OUTPUT ARRAY after the region: the projection `lin0` of the three input arrays as the region finds them
    (`lin0_apply` spells it at an entry: the sum over `k` of the input at `(i 0, k)` times the weights at `(k, i 1)`, plus the
    bias at `(0, i 1)`). -/
theorem final0 (c : Dev nD) : (dat0 (F := Ideal) V c).arrAt 3 cfg0.N = lin0 (V c main_arg0) (V c main_v0) (V c main_v2) :=
  (dat0 V c).arrAt_eq_of_cover 3 (lin0 (V c main_arg0) (V c main_v0) (V c main_v2)) (fun t _ => flushed0_eq V c t) cover0

/-- The same array read at an entry. -/
theorem final0_apply (c : Dev nD) (i : S20000x384.Idx) :
    ((dat0 (F := Ideal) V c).arrAt 3 cfg0.N : S20000x384.Idx → EReal) i = lin0 (V c main_arg0) (V c main_v0) (V c main_v2) i :=
  congrFun (final0 V c) i

end Cert.KernelIdeal.Hand

end
-- ==== Proof.KI.Pay1.lean ====
/-
  The payload of region 1 (the edge projection) read at one entry, at the ideal values: the change of format is the identity, the
  product into the zero accumulator is the sum over the contracted axis, and the one-row bias is read at the entry's column.
-/
import proofs.«426099_j50130858279187_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx

/-- The left operand's row coordinate is the output's row. -/
theorem lhs_k1_0 (i : S8000x128.Idx) (q : dot_S8000x128_S128x128_S8000x128_1_0_0_1_n_n.contr.Idx) :
    (dot_S8000x128_S128x128_S8000x128_1_0_0_1_n_n.lhsIdx i q 0).val = (i 0).val := by
  unfold DotDims.lhsIdx
  rw [dif_neg (show ¬(0 : Fin S8000x128.rank) ∈ dot_S8000x128_S128x128_S8000x128_1_0_0_1_n_n.lhsBatch by decide), dif_pos (show (0 : Fin S8000x128.rank) ∈ dot_S8000x128_S128x128_S8000x128_1_0_0_1_n_n.lhsNonContracting by decide)]
  rfl
/-- The left operand's column coordinate is the contraction index. -/
theorem lhs_k1_1 (i : S8000x128.Idx) (q : dot_S8000x128_S128x128_S8000x128_1_0_0_1_n_n.contr.Idx) :
    (dot_S8000x128_S128x128_S8000x128_1_0_0_1_n_n.lhsIdx i q 1).val = (q ⟨0, by decide⟩).val :=
  dot_S8000x128_S128x128_S8000x128_1_0_0_1_n_n.lhsIdx_val_of_single rfl i q
/-- The right operand's row coordinate is the contraction index. -/
theorem rhs_k1_0 (i : S8000x128.Idx) (q : dot_S8000x128_S128x128_S8000x128_1_0_0_1_n_n.contr.Idx) :
    (dot_S8000x128_S128x128_S8000x128_1_0_0_1_n_n.rhsIdx i q 0).val = (q ⟨0, by decide⟩).val :=
  dot_S8000x128_S128x128_S8000x128_1_0_0_1_n_n.rhsIdx_val_of_single rfl i q
/-- The right operand's column coordinate is the output's column. -/
theorem rhs_k1_1 (i : S8000x128.Idx) (q : dot_S8000x128_S128x128_S8000x128_1_0_0_1_n_n.contr.Idx) :
    (dot_S8000x128_S128x128_S8000x128_1_0_0_1_n_n.rhsIdx i q 1).val = (i 1).val := by
  unfold DotDims.rhsIdx
  rw [dif_neg (show ¬(1 : Fin S128x128.rank) ∈ dot_S8000x128_S128x128_S8000x128_1_0_0_1_n_n.rhsBatch by decide), dif_pos (show (1 : Fin S128x128.rank) ∈ dot_S8000x128_S128x128_S8000x128_1_0_0_1_n_n.rhsNonContracting by decide)]
  rfl

/-- The product into the zero accumulator, at an entry: the sum over the contracted axis. -/
theorem matmul_k1_apply (a : FVec Ideal S8000x128 .bf16) (b : FVec Ideal S128x128 .bf16) (p : Fin 8000) (q : Fin 128) :
    matmul dot_S8000x128_S128x128_S8000x128_1_0_0_1_n_n none a b (constant S8000x128 .f32 0x00000000#32) (ix2 p q)
      = ∑ k : Fin 128, a (ix2 p k) * b (ix2 k q) := by
  show FloatOps.matmul dot_S8000x128_S128x128_S8000x128_1_0_0_1_n_n none a b (constant S8000x128 .f32 0x00000000#32) (ix2 p q) = _
  rw [Ideal.matmul_constant_zero_apply, ← Equiv.sum_comp (contrEquiv1 dot_S8000x128_S128x128_S8000x128_1_0_0_1_n_n 128 rfl rfl).symm]
  refine Finset.sum_congr rfl fun k _ => ?_
  have hk := contrEquiv1_symm_val dot_S8000x128_S128x128_S8000x128_1_0_0_1_n_n 128 rfl rfl k
  have el : dot_S8000x128_S128x128_S8000x128_1_0_0_1_n_n.lhsIdx (ix2 p q) ((contrEquiv1 dot_S8000x128_S128x128_S8000x128_1_0_0_1_n_n 128 rfl rfl).symm k) = ix2 p k := funext fun a => Fin.ext (by
    match a with
    | ⟨0, _⟩ => exact lhs_k1_0 _ _
    | ⟨1, _⟩ => exact (lhs_k1_1 _ _).trans hk)
  have er : dot_S8000x128_S128x128_S8000x128_1_0_0_1_n_n.rhsIdx (ix2 p q) ((contrEquiv1 dot_S8000x128_S128x128_S8000x128_1_0_0_1_n_n 128 rfl rfl).symm k) = ix2 k q := funext fun a => Fin.ext (by
    match a with
    | ⟨0, _⟩ => exact (rhs_k1_0 _ _).trans hk
    | ⟨1, _⟩ => exact rhs_k1_1 _ _)
  rw [el, er]

/-- A one-row array spread over the block's rows reads its row's entry of the same column. -/
theorem bcast_row_k1_apply (x : S1x128.Idx → EReal) (p : Fin 8000) (q : Fin 128) :
    broadcastTo S8000x128 x broadcasts_S1x128_S8000x128 (ix2 p q) = x (ix2 (0 : Fin 1) q) :=
  broadcastTo_apply x broadcasts_S1x128_S8000x128 (ix2 p q) (ix2 (0 : Fin 1) q) (fun a => match a with
    | ⟨0, _⟩ => by show 0 = if (1 : Nat) = 1 then 0 else _; rw [if_pos rfl]
    | ⟨1, _⟩ => by show q.val = if (128 : Nat) = 1 then 0 else q.val; rw [if_neg (by decide)])

/-- The payload at an entry: the row of the input block against the column of the weights, plus the bias of that column. -/
theorem k1_pay1_apply (x0 : Vec Ideal S8000x128 .f32) (x1 : Vec Ideal S128x128 .f32) (x2 : Vec Ideal S1x128 .f32) (p : Fin 8000) (q : Fin 128) :
    k1_pay1 x0 x1 x2 (ix2 p q) = (∑ k : Fin 128, x0 (ix2 p k) * x1 (ix2 k q)) + x2 (ix2 (0 : Fin 1) q) := by
  unfold k1_pay1
  refine (addf_apply _ _ _).trans ?_
  refine congrArg₂ (· + ·) ((matmul_k1_apply _ _ p q).trans ?_) ((bcast_row_k1_apply _ p q).trans ?_)
  · rfl
  · rw [shapeCast_self]

end Cert.KernelIdeal.Hand

end
-- ==== Proof.KI.Val1.lean ====
/-
  What region 1 (the edge projection) leaves in its output array, at the ideal values: ONE function of the region's three input arrays as
  it finds them, entry by entry — row `i 0` of the input array against column `i 1` of the weights, plus the bias of that
  column. Each grid point writes back its block of 8000 rows of that function; the 80 blocks tile the 640000 rows.
-/
import proofs.«426099_j50130858279187_1_alg».proof.Proof.KI.Region1
import proofs.«426099_j50130858279187_1_alg».proof.Proof.KI.Pay1
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The zero offsets of a whole-block rectangle. -/
theorem off00_1 : (![0, 0] : Fin 2 → Nat) = fun _ => 0 := funext fun a => by fin_cases a <;> rfl

/-- The projection of whole arrays: row `i 0` of `a` against column `i 1` of `w`, plus the bias row's entry of that column. -/
def lin1 (a : S640000x128.Idx → EReal) (w : S128x128.Idx → EReal) (b : S1x128.Idx → EReal) : S640000x128.Idx → EReal :=
  fun i => (∑ k : Fin 128, a (ix2 (i 0) k) * w (ix2 k (i 1))) + b (ix2 (0 : Fin 1) (i 1))

/-- The same at an entry given by its coordinates. -/
theorem lin1_ix2 (a : S640000x128.Idx → EReal) (w : S128x128.Idx → EReal) (b : S1x128.Idx → EReal) (r : Fin 640000) (q : Fin 128) :
    lin1 a w b (ix2 r q) = (∑ k : Fin 128, a (ix2 r k) * w (ix2 k q)) + b (ix2 (0 : Fin 1) q) := rfl

/-- The projection at any entry, spelt out. -/
theorem lin1_apply (a : S640000x128.Idx → EReal) (w : S128x128.Idx → EReal) (b : S1x128.Idx → EReal) (i : S640000x128.Idx) :
    lin1 a w b i = (∑ k : Fin 128, a (ix2 (i 0) k) * w (ix2 k (i 1))) + b (ix2 (0 : Fin 1) (i 1)) := rfl

/-- The payload of blocks that are restrictions of the arrays is the restriction of the projection: at row `p` of the
    block whose rows are the array's rows from `r - p` on. -/
theorem lin1_block (a : S640000x128.Idx → EReal) (w : S128x128.Idx → EReal) (b : S1x128.Idx → EReal)
    (x0 : Vec Ideal S8000x128 .f32) (x1 : Vec Ideal S128x128 .f32) (x2 : Vec Ideal S1x128 .f32)
    (p : Fin 8000) (q : Fin 128) (r : Fin 640000)
    (h0 : ∀ k : Fin 128, x0 (ix2 p k) = a (ix2 r k))
    (h1 : ∀ k : Fin 128, x1 (ix2 k q) = w (ix2 k q))
    (h2 : x2 (ix2 (0 : Fin 1) q) = b (ix2 (0 : Fin 1) q)) :
    k1_pay1 x0 x1 x2 (ix2 p q) = lin1 a w b (ix2 r q) := by
  refine (k1_pay1_apply x0 x1 x2 p q).trans ?_
  refine Eq.trans ?_ (lin1_ix2 a w b r q).symm
  exact congrArg₂ (· + ·) (Finset.sum_congr rfl fun k _ => by rw [h0 k, h1 k]) h2

/-- The printed index maps, decided over the grid: the input and the output move one block of rows per point, the weights
    and the bias stay. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- WHAT POINT `t` WRITES BACK is block `t` of the projection of the arrays as the region finds them. -/
theorem flushed1_eq (c : Dev nD) (t : Fin cfg1.N) :
    (dat1 V c).flushed 3 t
      = ((cfg1.win 3).blk t).view.read (Elt Ideal) (lin1 (V c main_arg1) (V c main_arg8) (V c main_v7)) := by
  show (cfg1.win 3).cut (grid1.coords t) ((dat1 V c).after 3 t) = _
  rw [after1_3]
  unfold out1_3
  rw [View.canon_unit_zero off00_1]
  simp only [View.ld_unit_zero (S := S8000x128) off00_1, View.ld_unit_zero (S := S128x128) off00_1, View.ld_unit_zero (S := S1x128) off00_1]
  obtain ⟨e00, e01, e10, e11, e20, e21, e30, e31⟩ := idx_facts1 t
  have ht : t.val < 80 := t.isLt.trans_eq N_1
  funext j
  obtain ⟨p, q, rfl⟩ : ∃ (p : Fin 8000) (q : Fin 128), j = ix2 p q := ⟨j 0, j 1, @eq_ix2 8000 128 j⟩
  have hp : p.val < 8000 := p.isLt
  have hq : q.val < 128 := q.isLt
  have hr : t.val * 8000 + p.val < 640000 := by omega
  show k1_pay1 (iblk1 V c 0 t) (iblk1 V c 1 t) (iblk1 V c 2 t) (ix2 p q)
      = lin1 (V c main_arg1) (V c main_arg8) (V c main_v7) (((cfg1.win 3).blk t).view.emb (ix2 p q))
  have hemb : ((cfg1.win 3).blk t).view.emb (ix2 p q) = (ix2 (⟨t.val * 8000 + p.val, hr⟩ : Fin 640000) q : S640000x128.Idx) := by
    funext a; apply Fin.ext
    match a with
    | ⟨0, _⟩ => show win1_3.index t (0 : Fin 2) * 8000 + 1 * p.val = t.val * 8000 + p.val; omega
    | ⟨1, _⟩ => show win1_3.index t (1 : Fin 2) * 128 + 1 * q.val = q.val; omega
  refine Eq.trans ?_ (congrArg (lin1 (V c main_arg1) (V c main_arg8) (V c main_v7)) hemb.symm)
  refine lin1_block (V c main_arg1) (V c main_arg8) (V c main_v7) (iblk1 V c 0 t) (iblk1 V c 1 t) (iblk1 V c 2 t) p q ⟨t.val * 8000 + p.val, hr⟩ ?_ ?_ ?_
  · intro k
    have hk : k.val < 128 := k.isLt
    show V c main_arg1 (((cfg1.win 0).blk t).view.emb (ix2 p k)) = V c main_arg1 (ix2 (⟨t.val * 8000 + p.val, hr⟩ : Fin 640000) k)
    have h : ((cfg1.win 0).blk t).view.emb (ix2 p k) = (ix2 (⟨t.val * 8000 + p.val, hr⟩ : Fin 640000) k : S640000x128.Idx) := by
      funext a; apply Fin.ext
      match a with
      | ⟨0, _⟩ => show win1_0.index t (0 : Fin 2) * 8000 + 1 * p.val = t.val * 8000 + p.val; omega
      | ⟨1, _⟩ => show win1_0.index t (1 : Fin 2) * 128 + 1 * k.val = k.val; omega
    rw [h]
  · intro k
    have hk : k.val < 128 := k.isLt
    show V c main_arg8 (((cfg1.win 1).blk t).view.emb (ix2 k q)) = V c main_arg8 (ix2 k q)
    have h : ((cfg1.win 1).blk t).view.emb (ix2 k q) = (ix2 k q : S128x128.Idx) := by
      funext a; apply Fin.ext
      match a with
      | ⟨0, _⟩ => show win1_1.index t (0 : Fin 2) * 128 + 1 * k.val = k.val; omega
      | ⟨1, _⟩ => show win1_1.index t (1 : Fin 2) * 128 + 1 * q.val = q.val; omega
    rw [h]
  · show V c main_v7 (((cfg1.win 2).blk t).view.emb (ix2 (0 : Fin 1) q)) = V c main_v7 (ix2 (0 : Fin 1) q)
    have h : ((cfg1.win 2).blk t).view.emb (ix2 (0 : Fin 1) q) = (ix2 (0 : Fin 1) q : S1x128.Idx) := by
      funext a; apply Fin.ext
      match a with
      | ⟨0, _⟩ => show win1_2.index t (0 : Fin 2) * 1 + 1 * 0 = 0; omega
      | ⟨1, _⟩ => show win1_2.index t (1 : Fin 2) * 128 + 1 * q.val = q.val; omega
    rw [h]

/-- An index of the output array is in point `t`'s block iff each coordinate is in the block's range on its axis. -/
theorem mem_blk1 (t : Fin cfg1.N) (i : S640000x128.Idx) :
    i ∈ ((cfg1.win 3).blk t).view.set ↔ ∀ a : Fin 2, win1_3.index t a * S8000x128.size a ≤ (i a).val ∧ (i a).val < win1_3.index t a * S8000x128.size a + S8000x128.size a := by
  show i ∈ ((View.whole main_v8).slice (win1_3.rect t)).set ↔ _
  rw [View.set_slice_whole, Rect.mem_set_unit]
  exact Iff.rfl

/-- Every entry of the output array is in the block of the point its row's block number names. -/
theorem cover1 (i : S640000x128.Idx) : ∃ t : Fin cfg1.N, (cfg1.win 3).flush t = true ∧ i ∈ ((cfg1.win 3).blk t).view.set := by
  have hi0 : (i 0).val < 640000 := (i 0).isLt
  have hi1 : (i 1).val < 128 := (i 1).isLt
  obtain ⟨t, ht⟩ : ∃ t : Fin cfg1.N, t.val = (i 0).val / 8000 :=
    ⟨⟨(i 0).val / 8000, (show (i 0).val / 8000 < 80 by omega).trans_eq N_1.symm⟩, rfl⟩
  obtain ⟨e00, e01, e10, e11, e20, e21, e30, e31⟩ := idx_facts1 t
  refine ⟨t, flush1_3 t, ?_⟩
  rw [mem_blk1]
  intro a
  match a with
  | ⟨0, _⟩ => show win1_3.index t (0 : Fin 2) * 8000 ≤ (i 0).val ∧ (i 0).val < win1_3.index t (0 : Fin 2) * 8000 + 8000; omega
  | ⟨1, _⟩ => show win1_3.index t (1 : Fin 2) * 128 ≤ (i 1).val ∧ (i 1).val < win1_3.index t (1 : Fin 2) * 128 + 128; omega

/-- THE OUTPUT ARRAY after the region: the projection `lin1` of the three input arrays as the region finds them
    (`lin1_apply` spells it at an entry: the sum over `k` of the input at `(i 0, k)` times the weights at `(k, i 1)`, plus the
    bias at `(0, i 1)`). -/
theorem final1 (c : Dev nD) : (dat1 (F := Ideal) V c).arrAt 3 cfg1.N = lin1 (V c main_arg1) (V c main_arg8) (V c main_v7) :=
  (dat1 V c).arrAt_eq_of_cover 3 (lin1 (V c main_arg1) (V c main_arg8) (V c main_v7)) (fun t _ => flushed1_eq V c t) cover1

/-- The same array read at an entry. -/
theorem final1_apply (c : Dev nD) (i : S640000x128.Idx) :
    ((dat1 (F := Ideal) V c).arrAt 3 cfg1.N : S640000x128.Idx → EReal) i = lin1 (V c main_arg1) (V c main_arg8) (V c main_v7) i :=
  congrFun (final1 V c) i

end Cert.KernelIdeal.Hand

end
-- ==== Proof.KI.Val2.lean ====
/-
  What region 2 leaves in its output array, whole: the edge score exp (k[src] · q[dst] · 1/4) of the two gathered arrays the
  region finds, entry by entry. Each point writes back one block of 8000 rows; a written block is the same block of
  the entrywise score of the two input arrays, because the three windows sit on the same block at every point; the 80
  blocks tile the 640000 rows (row r is in block r / 8000), so the array ends at the score of the inputs everywhere.
-/
import proofs.«426099_j50130858279187_1_alg».proof.Proof.KI.Region2
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

/-- The zero offsets of a whole-block rectangle, as the constant function. -/
theorem zero_off2 : (![0, 0] : Fin 2 → Nat) = fun _ => 0 := funext fun a => by fin_cases a <;> rfl

/-- The edge score of two entries: exp (x · y · 1/4). -/
abbrev sc2 (x y : EReal) : EReal := Ideal.exp (x * y * Ideal.ofBits .f32 0x3E800000#32)

/-- The edge score of two arrays, entry by entry. -/
abbrev score2 (a b : S640000x128.Idx → EReal) : S640000x128.Idx → EReal :=
  fun i => sc2 (a i) (b i)

/-- The body's payload at an entry of the block: the exponential of the product of the two loaded entries and 1/4. -/
theorem pay2_apply (x0 x1 : Vec Ideal S8000x128 .f32) (j : S8000x128.Idx) :
    k2_pay1 x0 x1 j = sc2 (x0 j) (x1 j) := by
  unfold k2_pay1
  simp only [shapeCast_self]
  rfl

/-- The three index maps over the grid: at point t every window is on block row t, block column 0. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- What point t writes back is block t of the score of the two input arrays as the region finds them. -/
theorem flushed2_eq (c : Dev nD) (t : Fin cfg2.N) :
    (dat2 V c).flushed 2 t = ((cfg2.win 2).blk t).view.read (Elt Ideal) (score2 (V c main_v9) (V c main_v10)) := by
  show (cfg2.win 2).cut (grid2.coords t) ((dat2 V c).after 2 t) = _
  rw [after2_2]
  unfold out2_2
  rw [View.canon_unit_zero zero_off2]
  simp only [View.ld_unit_zero (S := S8000x128) zero_off2]
  obtain ⟨e0, e1, e2, e3, e4, e5⟩ := idx_facts2 t
  funext j
  show k2_pay1 (iblk2 V c 0 t) (iblk2 V c 1 t) j = score2 (V c main_v9) (V c main_v10) (((cfg2.win 2).blk t).view.emb j)
  refine (pay2_apply _ _ j).trans ?_
  show sc2 (V c main_v9 (((cfg2.win 0).blk t).view.emb j)) (V c main_v10 (((cfg2.win 1).blk t).view.emb j))
    = sc2 (V c main_v9 (((cfg2.win 2).blk t).view.emb j)) (V c main_v10 (((cfg2.win 2).blk t).view.emb j))
  have h0 : ((cfg2.win 0).blk t).view.emb j = ((cfg2.win 2).blk t).view.emb j := by
    funext a; apply Fin.ext
    match a with
    | ⟨0, _⟩ => show win2_0.index t (0 : Fin 2) * 8000 + 1 * (j 0).val = win2_2.index t (0 : Fin 2) * 8000 + 1 * (j 0).val; omega
    | ⟨1, _⟩ => show win2_0.index t (1 : Fin 2) * 128 + 1 * (j 1).val = win2_2.index t (1 : Fin 2) * 128 + 1 * (j 1).val; omega
  have h1 : ((cfg2.win 1).blk t).view.emb j = ((cfg2.win 2).blk t).view.emb j := by
    funext a; apply Fin.ext
    match a with
    | ⟨0, _⟩ => show win2_1.index t (0 : Fin 2) * 8000 + 1 * (j 0).val = win2_2.index t (0 : Fin 2) * 8000 + 1 * (j 0).val; omega
    | ⟨1, _⟩ => show win2_1.index t (1 : Fin 2) * 128 + 1 * (j 1).val = win2_2.index t (1 : Fin 2) * 128 + 1 * (j 1).val; omega
  rw [h0, h1]

/-- An index of the array is in point t's block iff each coordinate is in the block's range on its axis. -/
theorem mem_blk2 (t : Fin cfg2.N) (i : S640000x128.Idx) :
    i ∈ ((cfg2.win 2).blk t).view.set ↔ ∀ a : Fin 2, win2_2.index t a * S8000x128.size a ≤ (i a).val ∧ (i a).val < win2_2.index t a * S8000x128.size a + S8000x128.size a := by
  show i ∈ ((View.whole main_v11).slice (win2_2.rect t)).set ↔ _
  rw [View.set_slice_whole, Rect.mem_set_unit]
  exact Iff.rfl

/-- The blocks tile the array: row r lies in the block of point r / 8000. -/
theorem tiles2 (i : S640000x128.Idx) :
    ∃ t : Fin cfg2.N, (cfg2.win 2).flush t = true ∧ i ∈ ((cfg2.win 2).blk t).view.set := by
  have hi0 : (i 0).val < 640000 := (i 0).isLt
  have hi1 : (i 1).val < 128 := (i 1).isLt
  obtain ⟨t, ht⟩ : ∃ t : Fin cfg2.N, t.val = (i 0).val / 8000 :=
    ⟨⟨(i 0).val / 8000, by rw [show cfg2.N = 80 from N_2]; omega⟩, rfl⟩
  obtain ⟨-, -, -, -, e4, e5⟩ := idx_facts2 t
  refine ⟨t, flush2_2 t, ?_⟩
  rw [mem_blk2]
  intro a
  match a with
  | ⟨0, _⟩ => show win2_2.index t (0 : Fin 2) * 8000 ≤ (i 0).val ∧ (i 0).val < win2_2.index t (0 : Fin 2) * 8000 + 8000; omega
  | ⟨1, _⟩ => show win2_2.index t (1 : Fin 2) * 128 ≤ (i 1).val ∧ (i 1).val < win2_2.index t (1 : Fin 2) * 128 + 128; omega

/-- The array the region leaves: the edge score of its two input arrays, entry by entry. -/
theorem final2 (c : Dev nD) : (dat2 V c).arrAt 2 cfg2.N
    = score2 (V c main_v9) (V c main_v10) :=
  (dat2 V c).arrAt_eq_of_cover 2 (score2 (V c main_v9) (V c main_v10)) (fun t _ => flushed2_eq V c t) tiles2

end Cert.KernelIdeal.Hand

end
-- ==== Proof.Spec.lean ====
/-
  The message-passing layer as plain functions of the argument arrays over the extended reals, index by index, on flat
  [rows, 128] arrays: the three node projections q, k, v and the edge projection ep (a row of the input times a 128 × 128
  matrix plus a bias row), the gathered rows k[src], q[dst], v[src], z[dst] (an index read signed, a negative one counted
  from the end, then clamped into the table), the edge score m = exp(k[src] · q[dst] · 1/4), its per-destination sum z,
  me = m · ep, mx = me · v[src] / z[dst], the per-destination sum of mx, and the two output projections.
  Heads never mix: every operation acts on a row's 128 entries one by one (or, for the two output projections, on the whole
  row), so the reference's [rows, 8, 16] view is the same data at column 16 h + d.
-/
import Idealize.ShloMosaic.PureOps.Ideal
import Idealize.ShloMosaic.Lib.ValueIdx

noncomputable section

namespace Cert.Spec

open Idealize.ShloMosaic Idealize.ShloMosaic.ValueIdx

abbrev Sn : Shape := ⟨2, ![20000, 128]⟩
abbrev Se : Shape := ⟨2, ![640000, 128]⟩
abbrev Sw : Shape := ⟨2, ![128, 128]⟩
abbrev Sb : Shape := ⟨1, ![128]⟩
abbrev Si : Shape := ⟨1, ![640000]⟩

/-- One entry of `X · W + b`: row `r` of `X` against column `j` of `W`, plus `b j`. -/
def linAt {R : Nat} (X : (⟨2, ![R, 128]⟩ : Shape).Idx → EReal) (W : Sw.Idx → EReal) (b : Sb.Idx → EReal)
    (r : Fin R) (j : Fin 128) : EReal :=
  (∑ k : Fin 128, X (ix2 r k) * W (ix2 k j)) + b (ix1 j)

/-- `X · W + b` as an array. -/
def lin {R : Nat} (X : (⟨2, ![R, 128]⟩ : Shape).Idx → EReal) (W : Sw.Idx → EReal) (b : Sb.Idx → EReal) :
    (⟨2, ![R, 128]⟩ : Shape).Idx → EReal :=
  fun i => linAt X W b (i 0) (i 1)

/-- jnp's index normalisation: a negative index counts from the end of the 20000 rows. -/
def wrap (s : BitVec 32) : BitVec 32 := Scalar.select (IntOp.cmpi .slt s 0#32) (IntOp.addi s 20000#32) s

/-- The row a gather reads for the index word `s`: normalised, read signed, clamped into the table. -/
def row (s : BitVec 32) : Fin 20000 := ⟨min (wrap s).toInt.toNat 19999, by omega⟩

/-- The rows of `X` the index array names, one per edge. -/
def gat (X : Sn.Idx → EReal) (idx : Si.Idx → BitVec 32) : Se.Idx → EReal :=
  fun i => X (ix2 (row (idx (ix1 (i 0)))) (i 1))

/-- The per-destination sum of the edge rows: entry (n, j) is zero plus the sum of `U (e, j)` over the edges `e` whose
    index word, read signed, is `n` (an index outside the table contributes nowhere). -/
def segsum (U : Se.Idx → EReal) (idx : Si.Idx → BitVec 32) : Sn.Idx → EReal :=
  fun i => (0 : EReal) + ∑ e ∈ Finset.univ.filter (fun e : Fin 640000 => (idx (ix1 e)).toInt = (((i 0 : Fin 20000).val : Nat) : Int)),
    U (ix2 e (i 1))

/-- The constant 1/4 as the program prints it. -/
def quarter : EReal := Ideal.ofBits .f32 0x3E800000#32

section Layer
variable (x : Sn.Idx → EReal) (e : Se.Idx → EReal)
  (Wq : Sw.Idx → EReal) (bq : Sb.Idx → EReal) (Wk : Sw.Idx → EReal) (bk : Sb.Idx → EReal)
  (Wv : Sw.Idx → EReal) (bv : Sb.Idx → EReal) (We : Sw.Idx → EReal) (be : Sb.Idx → EReal)
  (Wox : Sw.Idx → EReal) (box : Sb.Idx → EReal) (Woe : Sw.Idx → EReal) (boe : Sb.Idx → EReal)
  (src dst : Si.Idx → BitVec 32)

/-- The edge score m = exp (k[src] · q[dst] · 1/4). -/
def score : Se.Idx → EReal :=
  fun i => Ideal.exp (gat (lin x Wk bk) src i * gat (lin x Wq bq) dst i * quarter)

/-- me = m · ep. -/
def me : Se.Idx → EReal :=
  fun i => score x Wq bq Wk bk src dst i * lin e We be i

/-- mx = me · v[src] / z[dst], with z the per-destination sum of m. -/
def mx : Se.Idx → EReal :=
  fun i => Ideal.div (me x e Wq bq Wk bk We be src dst i * gat (lin x Wv bv) src i)
    (gat (segsum (score x Wq bq Wk bk src dst) dst) dst i)

/-- The node output: the per-destination sum of mx, projected. -/
def outX : Sn.Idx → EReal :=
  lin (segsum (mx x e Wq bq Wk bk Wv bv We be src dst) dst) Wox box

/-- The edge output: me, projected. -/
def outE : Se.Idx → EReal :=
  lin (me x e Wq bq Wk bk We be src dst) Woe boe

end Layer

end Cert.Spec

end
-- ==== Proof.LibRowGather.lean ====
/-
  ROW GATHER READ AT AN INDEX.

  A row gather takes a table of N rows (a row is a vector of D entries, or an H × D block) and a column of E
  start indices, and returns E rows: row e of the result is the table's row whose number is the e-th start index,
  the number read as a signed integer and clamped into [0, N − 1] (a negative number reads row 0, a number past
  the end reads the last row). Inside a row nothing moves: entry j of result row e is entry j of the row read.

  In the dimension numbers this is: operand axis 0 collapsed and start-indexed (slice size 1 there), the operand's
  other axes kept whole as the result's offset axes, no batching axes, the index vector on axis 1 of the [E, 1]
  start indices. The operand index of a result index is then, axis by axis: on axis 0 the clamped start index (the
  batching and offset coordinates are zero there), on every other axis the result's own coordinate (the start and
  the batching coordinate are zero there).
-/
import Idealize.ShloMosaic.PureOps
import Idealize.ShloMosaic.Lib.ValueIdx

namespace Cert.LibRows

open Idealize.ShloMosaic Idealize.ShloMosaic.ValueIdx

/-- An entry of a list known through equations: if the list equals l', the position equals i', and l' has the
    entry a at i', then the list has a at the position. -/
private theorem getElem_of_eqs {β : Type} {l l' : List β} {i i' : Nat} {a : β} (hl : l = l') (hi : i = i')
    (h : i < l.length) (ha : l'[i']? = some a) : l[i] = a := by
  subst hl; subst hi
  obtain ⟨_, h2⟩ := List.getElem?_eq_some_iff.1 ha
  exact h2

section General
variable {s si t : Shape} (d : GatherDims s si t)

/-- On the index vector's axis the start-indices index carries the number of the component read. -/
private theorem siIdx_val_ivd (j : t.Idx) (c : Fin d.startIndexMap.length) (b : Fin si.rank)
    (hb : b.val = d.indexVectorDim) : (d.siIdx j c b).val = c.val := by
  unfold GatherDims.siIdx
  split
  · rfl
  · rename_i h'; exact absurd hb h'

/-- Off the index vector's axis the start-indices index carries the result index's coordinate on the batch axis
    in the same position: with the result's batch axes the list l, the start indices' kept axes the list l', and
    a the entry of l at the position of b in l', the coordinate is the result index's on axis a. -/
private theorem siIdx_val_batch (j : t.Idx) (c : Fin d.startIndexMap.length) (b : Fin si.rank)
    (hb : b.val ≠ d.indexVectorDim) (l : List (Fin t.rank)) (l' : List (Fin si.rank)) (a : Fin t.rank)
    (hl : d.batchDims = l) (hl' : d.siKept = l') (ha : l[l'.idxOf b]? = some a) :
    (d.siIdx j c b).val = (j a).val := by
  have hmem : b ∈ d.siKept := List.mem_filter.2 ⟨List.mem_finRange b, by simpa using hb⟩
  have hp : d.siKept.idxOf b < d.batchDims.length := by
    rw [d.batch_length]; exact List.idxOf_lt_length_iff.2 hmem
  have h : d.batchDims[d.siKept.idxOf b]'hp = a := getElem_of_eqs hl (by rw [hl']) hp ha
  have h1 : (d.siIdx j c b).val = (d.siCoord j b hmem).val := by
    unfold GatherDims.siIdx
    split
    · rename_i h'; exact absurd h' hb
    · rfl
  have h2 : (d.siCoord j b hmem).val = (j (d.batchDims[d.siKept.idxOf b]'hp)).val := rfl
  exact h1.trans (h2.trans (congrArg (fun X => (j X).val) h))

/-- On an operand axis that is kept, the offset coordinate is the result index's coordinate on the offset axis in
    the same position: with the offset axes the list l, the operand's kept axes the list l', and c the entry of l
    at the position of a in l'. -/
private theorem offCoord_of_kept (j : t.Idx) (a : Fin s.rank) (l : List (Fin t.rank)) (l' : List (Fin s.rank))
    (c : Fin t.rank) (hl : d.offsetDims = l) (hl' : d.sKept = l') (hc : l[l'.idxOf a]? = some c) :
    d.offCoord j a = (j c).val := by
  obtain ⟨hlt, _⟩ := List.getElem?_eq_some_iff.1 hc
  have hlen : l.length = l'.length :=
    (congrArg List.length hl).symm.trans (d.offset_length.trans (congrArg List.length hl'))
  have ha : a ∈ l' := List.idxOf_lt_length_iff.1 (Nat.lt_of_lt_of_eq hlt hlen)
  have ha' : a ∈ d.sKept := by rw [hl']; exact ha
  have hp : d.sKept.idxOf a < d.offsetDims.length := by
    rw [d.offset_length]; exact List.idxOf_lt_length_iff.2 ha'
  have h : d.offsetDims[d.sKept.idxOf a]'hp = c := getElem_of_eqs hl (by rw [hl']) hp hc
  have h1 : d.offCoord j a = (j (d.offsetDims[d.sKept.idxOf a]'hp)).val := by
    unfold GatherDims.offCoord
    split
    · rfl
    · rename_i h'; exact absurd ha' h'
  exact h1.trans (congrArg (fun X => (j X).val) h)

/-- On a start-indexed operand axis the slice starts at the start index's component for that axis, read signed and
    clamped so that the slice fits. -/
private theorem start_of_mem {w : Nat} (j : t.Idx) (idx : IVec si w) (a : Fin s.rank) (ha : a ∈ d.startIndexMap) :
    d.start j idx a = min (idx (d.siIdx j ⟨d.startIndexMap.idxOf a, List.idxOf_lt_length_iff.2 ha⟩)).toInt.toNat
      (s.size a - d.sliceSizes a) := by
  unfold GatherDims.start
  split
  · rfl
  · rename_i h'; exact absurd ha h'

/-- On an operand axis that is not start-indexed the slice starts at 0. -/
private theorem start_of_not_mem {w : Nat} (j : t.Idx) (idx : IVec si w) (a : Fin s.rank) (ha : a ∉ d.startIndexMap) :
    d.start j idx a = 0 := by
  unfold GatherDims.start
  split
  · rename_i h'; exact absurd h' ha
  · rfl

end General

/-- THE ROW GATHER OF A MATRIX. For a table of N rows of D entries and a column of E start indices, with the
    dimension numbers of a gather along axis 0 (the hypotheses: the printed lists, each by rfl), entry (e, j) of
    the result is entry j of the table's row whose number is start index e read SIGNED and CLAMPED into [0, N − 1]:
    a negative index reads row 0, an index past the end reads the last row. (The reading does not depend on the start
    indices' batching axes, none here: that hypothesis only completes the list.) -/
theorem gather_rows2 {α : Type} {N E D w : Nat} (hN : 0 < N)
    (d : GatherDims ⟨2, ![N, D]⟩ ⟨2, ![E, 1]⟩ ⟨2, ![E, D]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hsl : d.sliceSizes = ![1, D])
    (x : (⟨2, ![N, D]⟩ : Shape).Idx → α) (idx : IVec ⟨2, ![E, 1]⟩ w) (e : Fin E) (j : Fin D) :
    Host.gather d x idx (ix2 e j)
      = x (ix2 (⟨min (idx (ix2 e (0 : Fin 1))).toInt.toNat (N - 1), by omega⟩ : Fin N) j) := by
  -- the lists of axes the dimension numbers name
  have hbatch : d.batchDims = [0] := by
    show (⟨2, ![E, D]⟩ : Shape).kept d.offsetDims = [0]
    rw [hoff]; rfl
  have hsik : d.siKept = [0] := by
    show (List.finRange 2).filter (fun b : Fin 2 => decide (b.val ≠ d.indexVectorDim)) = [0]
    rw [hivd]; decide
  have hsk : d.sKept = [1] := by
    show (⟨2, ![N, D]⟩ : Shape).kept (d.collapsedSliceDims ++ d.operandBatchingDims) = [1]
    rw [hcoll, hob]; rfl
  have h01 : (0 : Fin 2) ≠ 1 := by decide
  have h10 : (1 : Fin 2) ≠ 0 := by decide
  have hb : ∀ a : Fin 2, a ∉ d.operandBatchingDims := fun a => by rw [hob]; exact List.not_mem_nil
  have hm : (0 : Fin 2) ∈ d.startIndexMap := by rw [hsim]; exact List.mem_singleton.mpr rfl
  have hnm1 : (1 : Fin 2) ∉ d.startIndexMap := by rw [hsim]; exact fun h => h10 (List.mem_singleton.mp h)
  have hk0 : (0 : Fin 2) ∉ d.sKept := by rw [hsk]; exact fun h => h01 (List.mem_singleton.mp h)
  have hsl0 : d.sliceSizes (0 : Fin 2) = 1 := congrFun hsl (0 : Fin 2)
  have _ := hsb
  have hne0 : ((0 : Fin 2)).val ≠ d.indexVectorDim := by rw [hivd]; decide
  have heq1 : ((1 : Fin 2)).val = d.indexVectorDim := hivd.symm
  have hidx0 : d.startIndexMap.idxOf (0 : Fin 2) = 0 := by rw [hsim]; rfl
  -- the start index read: the column's entry in row e
  have hsi : d.siIdx (ix2 e j) ⟨d.startIndexMap.idxOf (0 : Fin 2), List.idxOf_lt_length_iff.2 hm⟩
      = ix2 e (0 : Fin 1) := by
    funext b
    apply Fin.ext
    match b with
    | ⟨0, _⟩ => exact siIdx_val_batch d (ix2 e j) _ (0 : Fin 2) hne0 [0] [0] (0 : Fin 2) hbatch hsik rfl
    | ⟨1, _⟩ => exact (siIdx_val_ivd d (ix2 e j) _ (1 : Fin 2) heq1).trans hidx0
  -- axis 0: the clamped start index
  have hax0 : (d.operandIdx (ix2 e j) idx (0 : Fin 2)).val = min (idx (ix2 e (0 : Fin 1))).toInt.toNat (N - 1) := by
    have h1 : d.start (ix2 e j) idx (0 : Fin 2) = min (idx (ix2 e (0 : Fin 1))).toInt.toNat (N - 1) := by
      have := start_of_mem d (ix2 e j) idx (0 : Fin 2) hm
      rw [hsi, hsl0] at this
      exact this
    have h2 : d.batchCoord (ix2 e j) (0 : Fin 2) = 0 := GatherDims.batchCoord_eq_zero _ _ _ (hb 0)
    have h3 : d.offCoord (ix2 e j) (0 : Fin 2) = 0 := GatherDims.offCoord_eq_zero _ _ _ hk0
    show d.start (ix2 e j) idx (0 : Fin 2) + d.batchCoord (ix2 e j) (0 : Fin 2) + d.offCoord (ix2 e j) (0 : Fin 2)
      = min (idx (ix2 e (0 : Fin 1))).toInt.toNat (N - 1)
    omega
  -- axis 1: the entry's own position in the row
  have hax1 : (d.operandIdx (ix2 e j) idx (1 : Fin 2)).val = j.val := by
    have h1 : d.start (ix2 e j) idx (1 : Fin 2) = 0 := start_of_not_mem d _ idx _ hnm1
    have h2 : d.batchCoord (ix2 e j) (1 : Fin 2) = 0 := GatherDims.batchCoord_eq_zero _ _ _ (hb 1)
    have h3 : d.offCoord (ix2 e j) (1 : Fin 2) = j.val :=
      offCoord_of_kept d (ix2 e j) (1 : Fin 2) [1] [1] (1 : Fin 2) hoff hsk rfl
    show d.start (ix2 e j) idx (1 : Fin 2) + d.batchCoord (ix2 e j) (1 : Fin 2) + d.offCoord (ix2 e j) (1 : Fin 2)
      = j.val
    omega
  unfold Host.gather
  congr 1
  funext a
  apply Fin.ext
  match a with
  | ⟨0, _⟩ => exact hax0
  | ⟨1, _⟩ => exact hax1

/-- THE ROW GATHER OF A RANK-3 TABLE. For a table of N rows, each an H × D block, and a column of E start indices,
    with the dimension numbers of a gather along axis 0 (the hypotheses: the printed lists, each by rfl), entry
    (e, h, dd) of the result is entry (h, dd) of the table's row whose number is start index e read SIGNED and
    CLAMPED into [0, N − 1]. (The reading does not depend on the start indices' batching axes, none here: that
    hypothesis only completes the list.) -/
theorem gather_rows3 {α : Type} {N E H D w : Nat} (hN : 0 < N)
    (d : GatherDims ⟨3, ![N, H, D]⟩ ⟨2, ![E, 1]⟩ ⟨3, ![E, H, D]⟩)
    (hoff : d.offsetDims = [1, 2]) (hcoll : d.collapsedSliceDims = [0]) (hob : d.operandBatchingDims = [])
    (hsb : d.startIndicesBatchingDims = []) (hsim : d.startIndexMap = [0]) (hivd : d.indexVectorDim = 1)
    (hsl : d.sliceSizes = ![1, H, D])
    (x : (⟨3, ![N, H, D]⟩ : Shape).Idx → α) (idx : IVec ⟨2, ![E, 1]⟩ w) (e : Fin E) (h : Fin H) (dd : Fin D) :
    Host.gather d x idx (ix3 e h dd)
      = x (ix3 (⟨min (idx (ix2 e (0 : Fin 1))).toInt.toNat (N - 1), by omega⟩ : Fin N) h dd) := by
  -- the lists of axes the dimension numbers name
  have hbatch : d.batchDims = [0] := by
    show (⟨3, ![E, H, D]⟩ : Shape).kept d.offsetDims = [0]
    rw [hoff]; rfl
  have hsik : d.siKept = [0] := by
    show (List.finRange 2).filter (fun b : Fin 2 => decide (b.val ≠ d.indexVectorDim)) = [0]
    rw [hivd]; decide
  have hsk : d.sKept = [1, 2] := by
    show (⟨3, ![N, H, D]⟩ : Shape).kept (d.collapsedSliceDims ++ d.operandBatchingDims) = [1, 2]
    rw [hcoll, hob]; rfl
  have h01 : (0 : Fin 3) ≠ 1 := by decide
  have h02 : (0 : Fin 3) ≠ 2 := by decide
  have h10 : (1 : Fin 3) ≠ 0 := by decide
  have h20 : (2 : Fin 3) ≠ 0 := by decide
  have hb : ∀ a : Fin 3, a ∉ d.operandBatchingDims := fun a => by rw [hob]; exact List.not_mem_nil
  have hm : (0 : Fin 3) ∈ d.startIndexMap := by rw [hsim]; exact List.mem_singleton.mpr rfl
  have hnm1 : (1 : Fin 3) ∉ d.startIndexMap := by rw [hsim]; exact fun h' => h10 (List.mem_singleton.mp h')
  have hnm2 : (2 : Fin 3) ∉ d.startIndexMap := by rw [hsim]; exact fun h' => h20 (List.mem_singleton.mp h')
  have hk0 : (0 : Fin 3) ∉ d.sKept := by
    rw [hsk]
    intro h'
    rcases List.mem_cons.mp h' with h' | h'
    · exact h01 h'
    · exact h02 (List.mem_singleton.mp h')
  have hsl0 : d.sliceSizes (0 : Fin 3) = 1 := congrFun hsl (0 : Fin 3)
  have _ := hsb
  have hne0 : ((0 : Fin 2)).val ≠ d.indexVectorDim := by rw [hivd]; decide
  have heq1 : ((1 : Fin 2)).val = d.indexVectorDim := hivd.symm
  have hidx0 : d.startIndexMap.idxOf (0 : Fin 3) = 0 := by rw [hsim]; rfl
  -- the start index read: the column's entry in row e
  have hsi : d.siIdx (ix3 e h dd) ⟨d.startIndexMap.idxOf (0 : Fin 3), List.idxOf_lt_length_iff.2 hm⟩
      = ix2 e (0 : Fin 1) := by
    funext b
    apply Fin.ext
    match b with
    | ⟨0, _⟩ => exact siIdx_val_batch d (ix3 e h dd) _ (0 : Fin 2) hne0 [0] [0] (0 : Fin 3) hbatch hsik rfl
    | ⟨1, _⟩ => exact (siIdx_val_ivd d (ix3 e h dd) _ (1 : Fin 2) heq1).trans hidx0
  -- axis 0: the clamped start index
  have hax0 : (d.operandIdx (ix3 e h dd) idx (0 : Fin 3)).val
      = min (idx (ix2 e (0 : Fin 1))).toInt.toNat (N - 1) := by
    have h1 : d.start (ix3 e h dd) idx (0 : Fin 3) = min (idx (ix2 e (0 : Fin 1))).toInt.toNat (N - 1) := by
      have := start_of_mem d (ix3 e h dd) idx (0 : Fin 3) hm
      rw [hsi, hsl0] at this
      exact this
    have h2 : d.batchCoord (ix3 e h dd) (0 : Fin 3) = 0 := GatherDims.batchCoord_eq_zero _ _ _ (hb 0)
    have h3 : d.offCoord (ix3 e h dd) (0 : Fin 3) = 0 := GatherDims.offCoord_eq_zero _ _ _ hk0
    show d.start (ix3 e h dd) idx (0 : Fin 3) + d.batchCoord (ix3 e h dd) (0 : Fin 3)
      + d.offCoord (ix3 e h dd) (0 : Fin 3) = min (idx (ix2 e (0 : Fin 1))).toInt.toNat (N - 1)
    omega
  -- axis 1: the entry's own first position in the block
  have hax1 : (d.operandIdx (ix3 e h dd) idx (1 : Fin 3)).val = h.val := by
    have h1 : d.start (ix3 e h dd) idx (1 : Fin 3) = 0 := start_of_not_mem d _ idx _ hnm1
    have h2 : d.batchCoord (ix3 e h dd) (1 : Fin 3) = 0 := GatherDims.batchCoord_eq_zero _ _ _ (hb 1)
    have h3 : d.offCoord (ix3 e h dd) (1 : Fin 3) = h.val :=
      offCoord_of_kept d (ix3 e h dd) (1 : Fin 3) [1, 2] [1, 2] (1 : Fin 3) hoff hsk rfl
    show d.start (ix3 e h dd) idx (1 : Fin 3) + d.batchCoord (ix3 e h dd) (1 : Fin 3)
      + d.offCoord (ix3 e h dd) (1 : Fin 3) = h.val
    omega
  -- axis 2: the entry's own second position in the block
  have hax2 : (d.operandIdx (ix3 e h dd) idx (2 : Fin 3)).val = dd.val := by
    have h1 : d.start (ix3 e h dd) idx (2 : Fin 3) = 0 := start_of_not_mem d _ idx _ hnm2
    have h2 : d.batchCoord (ix3 e h dd) (2 : Fin 3) = 0 := GatherDims.batchCoord_eq_zero _ _ _ (hb 2)
    have h3 : d.offCoord (ix3 e h dd) (2 : Fin 3) = dd.val :=
      offCoord_of_kept d (ix3 e h dd) (2 : Fin 3) [1, 2] [1, 2] (2 : Fin 3) hoff hsk rfl
    show d.start (ix3 e h dd) idx (2 : Fin 3) + d.batchCoord (ix3 e h dd) (2 : Fin 3)
      + d.offCoord (ix3 e h dd) (2 : Fin 3) = dd.val
    omega
  unfold Host.gather
  congr 1
  funext a
  apply Fin.ext
  match a with
  | ⟨0, _⟩ => exact hax0
  | ⟨1, _⟩ => exact hax1
  | ⟨2, _⟩ => exact hax2

end Cert.LibRows
-- ==== Proof.KI.Take.lean ====
/-
  The index-checked row gather of the program (an index read signed, a negative one counted from the end, every index
  tested against the table's bounds, a row of NaNs where the test fails) is the plain row gather when every index is
  in range: the normalisation leaves an index in range as it is, the bounds test holds at every edge, so the selection
  keeps the gathered row, and the gather's own clamp is the specification's.
-/
import proofs.«426099_j50130858279187_1_alg».proof.KernelIdeal
import proofs.«426099_j50130858279187_1_alg».proof.Proof.Spec
import proofs.«426099_j50130858279187_1_alg».proof.Proof.LibRowGather
import Idealize.ShloMosaic.PureOps.Ideal
import Idealize.ShloMosaic.PureOps.Reduce
import Idealize.ShloMosaic.Lib.Affine
import Idealize.ShloMosaic.Lib.ValueIdx
import Idealize.ShloMosaic.Lib.Pipeline.Value

noncomputable section

namespace Cert.KernelIdeal.Hand

open Cert.KernelIdeal
open Idealize.ShloMosaic Idealize.ShloMosaic.ValueIdx

variable [Cert.KernelIdeal.Facts]
open Facts₀ Facts

/-- The index normalised: a negative index counts from the end of the 20000 rows. -/
def takeW (idx : IVec S640000 32) : IVec S640000 32 :=
  select (cmpi .slt idx (broadcastInDim S640000 ![] bcast_S_S640000 (constantI S_ 32 0#32)))
    (addi idx (broadcastInDim S640000 ![] bcast_S_S640000 (constantI S_ 32 20000#32))) idx

/-- The normalised indices as a column. -/
def takeW2 (idx : IVec S640000 32) : IVec S640000x1 32 :=
  broadcastInDim S640000x1 ![0] bcast_S640000_S640000x1_0 (takeW idx)

/-- The bounds test of every entry of the column: 0 ≤ w and w ≤ 19999. -/
def takeBits (idx : IVec S640000 32) : IVec S640000x1 1 :=
  andi
    (cmpi .sge (takeW2 idx) (broadcastInDim S640000x1 ![] bcast_S_S640000x1 (constantI S_ 32 0#32)))
    (cmpi .sle (takeW2 idx)
      (broadcastInDim S640000x1 ![0, 1] bcast_S1x1_S640000x1_0_1
        (broadcastInDim S1x1 ![1] bcast_S1_S1x1_1 (constantI S1 32 19999#32))))

/-- The test per edge: the conjunction over the column's one entry. -/
def takeOk (idx : IVec S640000 32) : IVec S640000 1 :=
  Host.reduce IntOp.andi (takeBits idx) (constantI S_ 1 1#1) reducesTo_S640000x1_S640000_d1 h_S_

/-- The index-checked row gather, operation by operation as the program composes it. -/
def takeTerm {F : FTy → Type} [FloatOps F] (x : (⟨S20000x128, .f32⟩ : BufTy).Contents (Elt F))
    (idx : (⟨S640000, .i32⟩ : BufTy).Contents (Elt F)) : (⟨S640000x128, .f32⟩ : BufTy).Contents (Elt F) :=
  select
    (broadcastInDim S640000x128 ![0] bcast_S640000_S640000x128_0 (takeOk idx))
    (Host.gather gather_S20000x128_S640000x1_S640000x128_1_0_n_n_0_1_1128 x (takeW2 idx))
    (broadcastInDim S640000x128 ![] bcast_S_S640000x128 (constant (F := F) S_ .f32 0x7FC00000#32))

/-- A vector laid along the rows of a matrix reads, at (r, c), its entry r. -/
theorem bcast_rows_apply {α : Type} {n m : Nat} (hn : n ≠ 1)
    (h : (⟨1, ![n]⟩ : Shape).BroadcastsInDim ⟨2, ![n, m]⟩ ![0])
    (v : (⟨1, ![n]⟩ : Shape).Idx → α) (i : (⟨2, ![n, m]⟩ : Shape).Idx) :
    broadcastInDim ⟨2, ![n, m]⟩ ![0] h v i = v (ix1 (i 0)) := by
  refine broadcastInDim_apply ![0] h v i (ix1 (i 0)) ?_
  intro a
  match a with
  | ⟨0, _⟩ =>
    show (i 0).val = if n = 1 then 0 else (i 0).val
    rw [if_neg hn]

/-- An index that is not negative is its own normalisation. -/
theorem wrap_of_nonneg (s : BitVec 32) (h0 : 0 ≤ s.toInt) : Cert.Spec.wrap s = s := by
  have hz : (0#32 : BitVec 32).toInt = 0 := by decide
  have hc : ¬ IntOp.cmpi .slt s 0#32 = 1#1 := by
    rw [IntOp.cmpi_slt, hz]; omega
  unfold Cert.Spec.wrap Scalar.select
  exact if_neg hc

/-- The column's entry of edge `i 0` is that edge's index, normalised. -/
theorem takeW2_apply (idx : IVec S640000 32) (i : S640000x1.Idx) :
    takeW2 idx i = Cert.Spec.wrap (idx (ix1 (i 0))) :=
  bcast_rows_apply (n := 640000) (m := 1) (by decide) bcast_S640000_S640000x1_0 (takeW idx) i

/-- Every entry of the column passes the bounds test when every index is in range. -/
theorem takeBits_apply (idx : IVec S640000 32)
    (h : ∀ e : Fin 640000, 0 ≤ (idx (ix1 e)).toInt ∧ (idx (ix1 e)).toInt < 20000) (i : S640000x1.Idx) :
    takeBits idx i = 1#1 := by
  have hw : takeW2 idx i = idx (ix1 (i 0)) := (takeW2_apply idx i).trans (wrap_of_nonneg _ (h (i 0)).1)
  have h0 : (0#32 : BitVec 32).toInt = 0 := by decide
  have h1 : (19999#32 : BitVec 32).toInt = 19999 := by decide
  have e : takeBits idx i
      = IntOp.andi (IntOp.cmpi .sge (takeW2 idx i) 0#32) (IntOp.cmpi .sle (takeW2 idx i) 19999#32) := rfl
  rw [e, hw]
  refine IntOp.andi_eq_one.2 ⟨IntOp.cmpi_sge.2 ?_, IntOp.cmpi_sle.2 ?_⟩
  · rw [h0]; exact (h (i 0)).1
  · rw [h1]; have := (h (i 0)).2; omega

/-- A conjunction, from true, of bits that are all true is true. -/
theorem fold_andi_one {ι : Type} (S : Finset ι) (b : ι → BitVec 1) (hb : ∀ i ∈ S, b i = 1#1) :
    S.fold IntOp.andi 1#1 b = 1#1 := by
  induction S using Finset.cons_induction with
  | empty => rfl
  | cons a S ha ih =>
    rw [Finset.fold_cons, ih (fun i hi => hb i (Finset.mem_cons_of_mem hi)), hb a (Finset.mem_cons_self a S)]
    decide

/-- The test holds at every edge when every index is in range. -/
theorem takeOk_apply (idx : IVec S640000 32)
    (h : ∀ e : Fin 640000, 0 ≤ (idx (ix1 e)).toInt ∧ (idx (ix1 e)).toInt < 20000) (j : S640000.Idx) :
    takeOk idx j = 1#1 :=
  (Host.reduce_eq_fold IntOp.andi (takeBits idx) (constantI S_ 1 1#1) reducesTo_S640000x1_S640000_d1 h_S_ j).trans
    (fold_andi_one _ _ fun i _ => takeBits_apply idx h i)

/-- With every index in range the index-checked row gather is the plain one. -/
theorem takeTerm_eq_gat (x : S20000x128.Idx → EReal) (idx : S640000.Idx → BitVec 32)
    (h : ∀ e : Fin 640000, 0 ≤ (idx (ix1 e)).toInt ∧ (idx (ix1 e)).toInt < 20000) :
    takeTerm (F := Ideal) x idx = Cert.Spec.gat x idx := by
  funext i
  obtain ⟨e, j, rfl⟩ : ∃ (e : Fin 640000) (j : Fin 128), i = ix2 e j := ⟨i 0, i 1, eq_ix2 i⟩
  have hm : broadcastInDim S640000x128 ![0] bcast_S640000_S640000x128_0 (takeOk idx) (ix2 e j) = 1#1 :=
    (bcast_rows_apply (n := 640000) (m := 128) (by decide) bcast_S640000_S640000x128_0 (takeOk idx) (ix2 e j)).trans
      (takeOk_apply idx h (ix1 e))
  have hw : takeW2 idx (ix2 e (0 : Fin 1)) = Cert.Spec.wrap (idx (ix1 e)) := takeW2_apply idx (ix2 e (0 : Fin 1))
  have hrow : (⟨min (takeW2 idx (ix2 e (0 : Fin 1))).toInt.toNat (20000 - 1), by omega⟩ : Fin 20000)
      = Cert.Spec.row (idx (ix1 e)) :=
    Fin.ext (congrArg (fun s : BitVec 32 => min s.toInt.toNat 19999) hw)
  have hg : Host.gather gather_S20000x128_S640000x1_S640000x128_1_0_n_n_0_1_1128 x (takeW2 idx) (ix2 e j)
      = x (ix2 (Cert.Spec.row (idx (ix1 e))) j) :=
    (Cert.LibRows.gather_rows2 (N := 20000) (E := 640000) (D := 128) (by decide)
      gather_S20000x128_S640000x1_S640000x128_1_0_n_n_0_1_1128 rfl rfl rfl rfl rfl rfl rfl x (takeW2 idx) e j).trans
      (congrArg (fun r : Fin 20000 => x (ix2 r j)) hrow)
  calc takeTerm (F := Ideal) x idx (ix2 e j)
      = Scalar.select (broadcastInDim S640000x128 ![0] bcast_S640000_S640000x128_0 (takeOk idx) (ix2 e j))
          (Host.gather gather_S20000x128_S640000x1_S640000x128_1_0_n_n_0_1_1128 x (takeW2 idx) (ix2 e j))
          (broadcastInDim S640000x128 ![] bcast_S_S640000x128 (constant (F := Ideal) S_ .f32 0x7FC00000#32)
            (ix2 e j)) := rfl
    _ = Scalar.select 1#1 (x (ix2 (Cert.Spec.row (idx (ix1 e))) j))
          (broadcastInDim S640000x128 ![] bcast_S_S640000x128 (constant (F := Ideal) S_ .f32 0x7FC00000#32)
            (ix2 e j)) := by rw [hm, hg]
    _ = x (ix2 (Cert.Spec.row (idx (ix1 e))) j) := select_one _ _
    _ = Cert.Spec.gat x idx (ix2 e j) := rfl

end Cert.KernelIdeal.Hand

end
-- ==== Proof.KI.ChainTake1.lean ====
/-
  A call of the row gather read at its result: the call's twenty-three operations leave, in the call's result buffer, the
  gather's composed term over the call's table and index array as the stretch finds them.
-/
import proofs.«426099_j50130858279187_1_alg».proof.Proof.Gen.KernelIdeal.Launch
import proofs.«426099_j50130858279187_1_alg».proof.Proof.KI.Take
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe

/-- A transport along an equation of a type with itself changes nothing. -/
theorem cast_self {α : Sort _} (h : α = α) (a : α) : cast h a = a := eq_of_heq (cast_heq h a)

variable {F : FTy → Type} [FloatOps F] (V : Valuation τ sig (Elt F))

/-- The first call: k's rows at src. -/
theorem h2_v9 : StableHlo.after hostOps2 V (Proc.devRef .tc main_v9)
    = takeTerm (F := F) (V (Proc.devRef .tc main_v5)) (V (Proc.devRef .tc main_arg14)) := by
  after_results_simp
  simp only [StableHlo.TRef.ofBuf, StableHlo.TRef.toBuf, cast_cast]
  simp only [cast_self]
  simp only [takeTerm, takeOk, takeBits, takeW2, takeW]

end Cert.KernelIdeal.Hand

end
-- ==== Proof.KI.ChainTake2.lean ====
/-
  A call of the row gather read at its result: the call's twenty-three operations leave, in the call's result buffer, the
  gather's composed term over the call's table and index array as the stretch finds them.
-/
import proofs.«426099_j50130858279187_1_alg».proof.Proof.Gen.KernelIdeal.Launch
import proofs.«426099_j50130858279187_1_alg».proof.Proof.KI.Take
import proofs.«426099_j50130858279187_1_alg».proof.Proof.KI.ChainTake1
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe

variable {F : FTy → Type} [FloatOps F] (V : Valuation τ sig (Elt F))

/-- The second call: q's rows at dst. -/
theorem h2_v10 : StableHlo.after hostOps2_1 V (Proc.devRef .tc main_v10)
    = takeTerm (F := F) (V (Proc.devRef .tc main_v4)) (V (Proc.devRef .tc main_arg15)) := by
  after_results_simp
  simp only [StableHlo.TRef.ofBuf, StableHlo.TRef.toBuf, cast_cast]
  simp only [cast_self]
  simp only [takeTerm, takeOk, takeBits, takeW2, takeW]

end Cert.KernelIdeal.Hand

end
-- ==== Proof.KI.ChainPure.lean ====
/-
  The host stretches before regions 0 and 1 read at a reference, and the index arithmetic that turns the fused node
  projection, cut into its three column blocks, into the three projections of the specification. Three 128-column blocks
  laid side by side read, at column 128 p + j, block p's column j; three 128-entry vectors laid end to end read, at entry
  128 p + j, vector p's entry j; a vector viewed as one row reads its entry; a column block [0:20000, o:o+128] of a
  [20000, 384] array reads the array at column o + j. So entry (n, j) of block p of x · [Wq | Wk | Wv] + [bq | bk | bv] is
  the row n of x against column j of the p-th weight plus the p-th bias at j.
-/
import proofs.«426099_j50130858279187_1_alg».proof.Proof.Gen.KernelIdeal.Launch
import proofs.«426099_j50130858279187_1_alg».proof.Proof.Spec
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.ShloMosaic.ValueIdx

/-! ## Three blocks side by side, three vectors end to end -/

section Cat

variable {α : Type}

/-- Column `j` of the whole, `j < 128`: the first block's column `j`. -/
theorem cat3_col0 (W0 W1 W2 : S128x128.Idx → α) (h : Shape.Concatenates [S128x128, S128x128, S128x128] S128x384 1)
    (k j : Fin 128) (cc : Fin 384) (hc : cc.val = 0 + j.val) :
    concatenate S128x384 1 [⟨S128x128, W0⟩, ⟨S128x128, W1⟩, ⟨S128x128, W2⟩] h (ix2 k cc) = W0 (ix2 k j) := by
  refine concatenate_apply_piece (t := S128x384) 1 ([⟨S128x128, W0⟩, ⟨S128x128, W1⟩, ⟨S128x128, W2⟩] : List ((s : Shape) × (s.Idx → α))) h (ix2 k cc) 0 (by show (0 : Nat) < 3; omega) S128x128 W0 rfl rfl 0 (by rfl)
    (ix2 k j) (fun b hb => ?_) ?_
  · match b, hb with
    | ⟨0, _⟩, _ => rfl
    | ⟨1, _⟩, hb => exact absurd rfl hb
  · show 0 + j.val = cc.val
    omega

/-- Column `128 + j` of the whole: the second block's column `j`. -/
theorem cat3_col1 (W0 W1 W2 : S128x128.Idx → α) (h : Shape.Concatenates [S128x128, S128x128, S128x128] S128x384 1)
    (k j : Fin 128) (cc : Fin 384) (hc : cc.val = 128 + j.val) :
    concatenate S128x384 1 [⟨S128x128, W0⟩, ⟨S128x128, W1⟩, ⟨S128x128, W2⟩] h (ix2 k cc) = W1 (ix2 k j) := by
  refine concatenate_apply_piece (t := S128x384) 1 ([⟨S128x128, W0⟩, ⟨S128x128, W1⟩, ⟨S128x128, W2⟩] : List ((s : Shape) × (s.Idx → α))) h (ix2 k cc) 1 (by show (1 : Nat) < 3; omega) S128x128 W1 rfl rfl 128 (by rfl)
    (ix2 k j) (fun b hb => ?_) ?_
  · match b, hb with
    | ⟨0, _⟩, _ => rfl
    | ⟨1, _⟩, hb => exact absurd rfl hb
  · show 128 + j.val = cc.val
    omega

/-- Column `256 + j` of the whole: the third block's column `j`. -/
theorem cat3_col2 (W0 W1 W2 : S128x128.Idx → α) (h : Shape.Concatenates [S128x128, S128x128, S128x128] S128x384 1)
    (k j : Fin 128) (cc : Fin 384) (hc : cc.val = 256 + j.val) :
    concatenate S128x384 1 [⟨S128x128, W0⟩, ⟨S128x128, W1⟩, ⟨S128x128, W2⟩] h (ix2 k cc) = W2 (ix2 k j) := by
  refine concatenate_apply_piece (t := S128x384) 1 ([⟨S128x128, W0⟩, ⟨S128x128, W1⟩, ⟨S128x128, W2⟩] : List ((s : Shape) × (s.Idx → α))) h (ix2 k cc) 2 (by show (2 : Nat) < 3; omega) S128x128 W2 rfl rfl 256 (by rfl)
    (ix2 k j) (fun b hb => ?_) ?_
  · match b, hb with
    | ⟨0, _⟩, _ => rfl
    | ⟨1, _⟩, hb => exact absurd rfl hb
  · show 256 + j.val = cc.val
    omega

/-- Entry `j` of the whole, `j < 128`: the first vector's entry `j`. -/
theorem cat3_vec0 (b0 b1 b2 : S128.Idx → α) (h : Shape.Concatenates [S128, S128, S128] S384 0)
    (j : Fin 128) (cc : Fin 384) (hc : cc.val = 0 + j.val) :
    concatenate S384 0 [⟨S128, b0⟩, ⟨S128, b1⟩, ⟨S128, b2⟩] h (ix1 cc) = b0 (ix1 j) := by
  refine concatenate_apply_piece (t := S384) 0 ([⟨S128, b0⟩, ⟨S128, b1⟩, ⟨S128, b2⟩] : List ((s : Shape) × (s.Idx → α))) h (ix1 cc) 0 (by show (0 : Nat) < 3; omega) S128 b0 rfl rfl 0 (by rfl)
    (ix1 j) (fun b hb => ?_) ?_
  · match b, hb with
    | ⟨0, _⟩, hb => exact absurd rfl hb
  · show 0 + j.val = cc.val
    omega

/-- Entry `128 + j` of the whole: the second vector's entry `j`. -/
theorem cat3_vec1 (b0 b1 b2 : S128.Idx → α) (h : Shape.Concatenates [S128, S128, S128] S384 0)
    (j : Fin 128) (cc : Fin 384) (hc : cc.val = 128 + j.val) :
    concatenate S384 0 [⟨S128, b0⟩, ⟨S128, b1⟩, ⟨S128, b2⟩] h (ix1 cc) = b1 (ix1 j) := by
  refine concatenate_apply_piece (t := S384) 0 ([⟨S128, b0⟩, ⟨S128, b1⟩, ⟨S128, b2⟩] : List ((s : Shape) × (s.Idx → α))) h (ix1 cc) 1 (by show (1 : Nat) < 3; omega) S128 b1 rfl rfl 128 (by rfl)
    (ix1 j) (fun b hb => ?_) ?_
  · match b, hb with
    | ⟨0, _⟩, hb => exact absurd rfl hb
  · show 128 + j.val = cc.val
    omega

/-- Entry `256 + j` of the whole: the third vector's entry `j`. -/
theorem cat3_vec2 (b0 b1 b2 : S128.Idx → α) (h : Shape.Concatenates [S128, S128, S128] S384 0)
    (j : Fin 128) (cc : Fin 384) (hc : cc.val = 256 + j.val) :
    concatenate S384 0 [⟨S128, b0⟩, ⟨S128, b1⟩, ⟨S128, b2⟩] h (ix1 cc) = b2 (ix1 j) := by
  refine concatenate_apply_piece (t := S384) 0 ([⟨S128, b0⟩, ⟨S128, b1⟩, ⟨S128, b2⟩] : List ((s : Shape) × (s.Idx → α))) h (ix1 cc) 2 (by show (2 : Nat) < 3; omega) S128 b2 rfl rfl 256 (by rfl)
    (ix1 j) (fun b hb => ?_) ?_
  · match b, hb with
    | ⟨0, _⟩, hb => exact absurd rfl hb
  · show 256 + j.val = cc.val
    omega

/-- The three vectors end to end, viewed as one row, at entry `j` of the first. -/
theorem row3_vec0 (b0 b1 b2 : S128.Idx → α) (h : Shape.Concatenates [S128, S128, S128] S384 0) (hs : S384.ShapeCasts S1x384)
    (j : Fin 128) (cc : Fin 384) (hc : cc.val = 0 + j.val) :
    shapeCast S1x384 (concatenate S384 0 [⟨S128, b0⟩, ⟨S128, b1⟩, ⟨S128, b2⟩] h) hs (ix2 (0 : Fin 1) cc) = b0 (ix1 j) :=
  (shapeCast_a_1a_apply _ hs 0 cc).trans (cat3_vec0 b0 b1 b2 h j cc hc)

/-- The same at entry `j` of the second. -/
theorem row3_vec1 (b0 b1 b2 : S128.Idx → α) (h : Shape.Concatenates [S128, S128, S128] S384 0) (hs : S384.ShapeCasts S1x384)
    (j : Fin 128) (cc : Fin 384) (hc : cc.val = 128 + j.val) :
    shapeCast S1x384 (concatenate S384 0 [⟨S128, b0⟩, ⟨S128, b1⟩, ⟨S128, b2⟩] h) hs (ix2 (0 : Fin 1) cc) = b1 (ix1 j) :=
  (shapeCast_a_1a_apply _ hs 0 cc).trans (cat3_vec1 b0 b1 b2 h j cc hc)

/-- The same at entry `j` of the third. -/
theorem row3_vec2 (b0 b1 b2 : S128.Idx → α) (h : Shape.Concatenates [S128, S128, S128] S384 0) (hs : S384.ShapeCasts S1x384)
    (j : Fin 128) (cc : Fin 384) (hc : cc.val = 256 + j.val) :
    shapeCast S1x384 (concatenate S384 0 [⟨S128, b0⟩, ⟨S128, b1⟩, ⟨S128, b2⟩] h) hs (ix2 (0 : Fin 1) cc) = b2 (ix1 j) :=
  (shapeCast_a_1a_apply _ hs 0 cc).trans (cat3_vec2 b0 b1 b2 h j cc hc)

end Cat

/-! ## A row times a matrix plus a bias row, as the specification's projection -/

/-- An array that is, entry by entry, a row of `x'` against a column of `W'` plus a one-row bias, is the specification's
    projection of the same input, weight and bias vector. -/
theorem lin_of_row {R : Nat} (X x' : (⟨2, ![R, 128]⟩ : Shape).Idx → EReal) (W' : S128x128.Idx → EReal)
    (bc : S1x128.Idx → EReal)
    (hX : X = fun i => (∑ k : Fin 128, x' (ix2 (i 0) k) * W' (ix2 k (i 1))) + bc (ix2 (0 : Fin 1) (i 1)))
    (x : (⟨2, ![R, 128]⟩ : Shape).Idx → EReal) (W : Cert.Spec.Sw.Idx → EReal) (b : Cert.Spec.Sb.Idx → EReal)
    (hx : x' = x) (hW : W' = W) (hb : ∀ j : Fin 128, bc (ix2 (0 : Fin 1) j) = b (ix1 j)) :
    X = Cert.Spec.lin x W b := by
  subst hx hW hX
  funext i
  obtain ⟨r, j, rfl⟩ : ∃ (r : Fin R) (j : Fin 128), i = ix2 r j := ⟨i 0, i 1, eq_ix2 i⟩
  show (∑ k : Fin 128, x' (ix2 r k) * W' (ix2 k j)) + bc (ix2 (0 : Fin 1) j)
      = (∑ k : Fin 128, x' (ix2 r k) * W' (ix2 k j)) + b (ix1 j)
  rw [hb j]

/-- The column block at offset `o` of the fused product: when column `o + j` of the fused weight is column `j` of `W` and
    entry `o + j` of the fused bias row is entry `j` of `b`, the block is the specification's projection by `W`, `b`. -/
theorem fused_slice (X3 : S20000x384.Idx → EReal) (x' : S20000x128.Idx → EReal) (Wc : S128x384.Idx → EReal)
    (bc : S1x384.Idx → EReal)
    (hX3 : X3 = fun i => (∑ k : Fin 128, x' (ix2 (i 0) k) * Wc (ix2 k (i 1))) + bc (ix2 (0 : Fin 1) (i 1)))
    (o : Nat) (ho : o + 128 ≤ 384) (h : S20000x384.Slices ![0, o] S20000x128)
    (x : Cert.Spec.Sn.Idx → EReal) (W : Cert.Spec.Sw.Idx → EReal) (b : Cert.Spec.Sb.Idx → EReal)
    (hx : x' = x)
    (hW : ∀ (k j : Fin 128) (cc : Fin 384), cc.val = o + j.val → Wc (ix2 k cc) = W (ix2 k j))
    (hb : ∀ (j : Fin 128) (cc : Fin 384), cc.val = o + j.val → bc (ix2 (0 : Fin 1) cc) = b (ix1 j)) :
    extractStridedSlice S20000x128 ![0, o] X3 h = Cert.Spec.lin x W b := by
  subst hx hX3
  funext i
  obtain ⟨r, j, rfl⟩ : ∃ (r : Fin 20000) (j : Fin 128), i = ix2 r j := ⟨i 0, i 1, eq_ix2 i⟩
  have hj := j.isLt
  have hlt : o + j.val < 384 := by omega
  refine (slice2_axis1_apply o _ h r j ⟨o + j.val, hlt⟩ rfl).trans ?_
  show (∑ k : Fin 128, x' (ix2 r k) * Wc (ix2 k (⟨o + j.val, hlt⟩ : Fin 384))) + bc (ix2 (0 : Fin 1) (⟨o + j.val, hlt⟩ : Fin 384))
      = (∑ k : Fin 128, x' (ix2 r k) * W (ix2 k j)) + b (ix1 j)
  rw [hb j _ rfl]
  congr 1
  exact Finset.sum_congr rfl fun k _ => by rw [hW k j _ rfl]

/-! ## The host stretches before regions 0 and 1, read at a reference -/

section Host

variable (V : Valuation τ sig (Elt Ideal))

/-- The fused weight: the three weights side by side. -/
theorem h0_v0 : StableHlo.after hostOps0 V (Proc.devRef .tc main_v0)
    = concatenate S128x384 1 [⟨S128x128, V (Proc.devRef .tc main_arg2)⟩, ⟨S128x128, V (Proc.devRef .tc main_arg4)⟩,
        ⟨S128x128, V (Proc.devRef .tc main_arg6)⟩] concatenates_S128x128_S128x128_S128x128_S128x384_d1 := by
  after_results <;> rfl

/-- The fused bias row: the three biases end to end, viewed as one row. -/
theorem h0_v2 : StableHlo.after hostOps0 V (Proc.devRef .tc main_v2)
    = fun i => shapeCast S1x384 (concatenate S384 0 [⟨S128, V (Proc.devRef .tc main_arg3)⟩, ⟨S128, V (Proc.devRef .tc main_arg5)⟩,
        ⟨S128, V (Proc.devRef .tc main_arg7)⟩] concatenates_S128_S128_S128_S384_d0) shapeCasts_S384_S1x384 i := by
  after_results <;> rfl

/-- q: the column block [0:128] of the fused product. -/
theorem h1_v4 : StableHlo.after hostOps1 V (Proc.devRef .tc main_v4)
    = extractStridedSlice S20000x128 ![0, 0] (V (Proc.devRef .tc main_v3)) slices_S20000x384_S20000x128_0_0 := by
  after_results <;> rfl

/-- k: the column block [128:256]. -/
theorem h1_v5 : StableHlo.after hostOps1 V (Proc.devRef .tc main_v5)
    = extractStridedSlice S20000x128 ![0, 128] (V (Proc.devRef .tc main_v3)) slices_S20000x384_S20000x128_0_128 := by
  after_results <;> rfl

/-- v: the column block [256:384]. -/
theorem h1_v6 : StableHlo.after hostOps1 V (Proc.devRef .tc main_v6)
    = extractStridedSlice S20000x128 ![0, 256] (V (Proc.devRef .tc main_v3)) slices_S20000x384_S20000x128_0_256 := by
  after_results <;> rfl

/-- The edge projection's bias viewed as one row. -/
theorem h1_v7 : StableHlo.after hostOps1 V (Proc.devRef .tc main_v7)
    = fun i => shapeCast S1x128 (V (Proc.devRef .tc main_arg9)) shapeCasts_S128_S1x128 i := by
  after_results <;> rfl

end Host

end Cert.KernelIdeal.Hand

end
-- ==== Proof.KI.ChainA.lean ====
/-
  The first half of the program's value chain against the specification, from the launch to the exit of region 2, at core
  `c` and launch memory `m`. Region 0 leaves x · [Wq | Wk | Wv] + [bq | bk | bv]; its three column blocks are the node
  projections q, k, v. Region 1 leaves the edge projection ep = e · We + be. The two calls of the row gather leave
  k[src] and q[dst] (the index words lie in the table by hypothesis, so the gather's own normalisation and clamp are the
  specification's). Region 2 leaves the edge score exp (k[src] · q[dst] · 1/4). A buffer keeps its contents across every
  item that does not write it, so ep and v are still there at region 2's exit, and an argument array holds its launch
  contents throughout.
-/
import proofs.«426099_j50130858279187_1_alg».proof.Proof.KI.Vals
import proofs.«426099_j50130858279187_1_alg».proof.Proof.KI.Keep
import proofs.«426099_j50130858279187_1_alg».proof.Proof.KI.Val0
import proofs.«426099_j50130858279187_1_alg».proof.Proof.KI.Val1
import proofs.«426099_j50130858279187_1_alg».proof.Proof.KI.Val2
import proofs.«426099_j50130858279187_1_alg».proof.Proof.KI.Take
import proofs.«426099_j50130858279187_1_alg».proof.Proof.KI.ChainTake1
import proofs.«426099_j50130858279187_1_alg».proof.Proof.KI.ChainTake2
import proofs.«426099_j50130858279187_1_alg».proof.Proof.KI.ChainPure
import proofs.«426099_j50130858279187_1_alg».proof.Proof.Gen.KernelIdeal.Regions
import proofs.«426099_j50130858279187_1_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg) (c : Dev nD)

/-! ## The argument arrays as launched -/

/-- x. -/
abbrev aX : Cert.Spec.Sn.Idx → EReal := m ((c : Thread nD τ).loc main_arg0)
/-- e. -/
abbrev aE : Cert.Spec.Se.Idx → EReal := m ((c : Thread nD τ).loc main_arg1)
/-- Wq. -/
abbrev aWq : Cert.Spec.Sw.Idx → EReal := m ((c : Thread nD τ).loc main_arg2)
/-- bq. -/
abbrev aBq : Cert.Spec.Sb.Idx → EReal := m ((c : Thread nD τ).loc main_arg3)
/-- Wk. -/
abbrev aWk : Cert.Spec.Sw.Idx → EReal := m ((c : Thread nD τ).loc main_arg4)
/-- bk. -/
abbrev aBk : Cert.Spec.Sb.Idx → EReal := m ((c : Thread nD τ).loc main_arg5)
/-- Wv. -/
abbrev aWv : Cert.Spec.Sw.Idx → EReal := m ((c : Thread nD τ).loc main_arg6)
/-- bv. -/
abbrev aBv : Cert.Spec.Sb.Idx → EReal := m ((c : Thread nD τ).loc main_arg7)
/-- We. -/
abbrev aWe : Cert.Spec.Sw.Idx → EReal := m ((c : Thread nD τ).loc main_arg8)
/-- be. -/
abbrev aBe : Cert.Spec.Sb.Idx → EReal := m ((c : Thread nD τ).loc main_arg9)
/-- src. -/
abbrev aSrc : Cert.Spec.Si.Idx → BitVec 32 := m ((c : Thread nD τ).loc main_arg14)
/-- dst. -/
abbrev aDst : Cert.Spec.Si.Idx → BitVec 32 := m ((c : Thread nD τ).loc main_arg15)

/-! ## A buffer no item has written yet holds its launch contents -/

/-- Through `hostOps0`. -/
theorem U1_arg (r : Ref sig .tc) (h0 : r ∉ hostOps0_W) :
    U1 m ρ c (Proc.devRef .tc r) = m ((c : Thread nD τ).loc r) :=
  calc U1 m ρ c (Proc.devRef .tc r)
    _ = U0 m ρ c (Proc.devRef .tc r) := StableHlo.after_of_writes_sub hostOps0 _ hostOps0_writes h0
    _ = m ((c : Thread nD τ).loc r) := rfl

/-- Through region 0. -/
theorem U2_arg (r : Ref sig .tc) (h0 : r ∉ hostOps0_W) (h1 : r ≠ main_v3) :
    U2 m ρ c (Proc.devRef .tc r) = m ((c : Thread nD τ).loc r) :=
  (U2_keep m ρ c r h1).trans (U1_arg m ρ c r h0)

/-- Through `hostOps1`. -/
theorem U3_arg (r : Ref sig .tc) (h0 : r ∉ hostOps0_W) (h1 : r ≠ main_v3) (h2 : r ∉ hostOps1_W) :
    U3 m ρ c (Proc.devRef .tc r) = m ((c : Thread nD τ).loc r) :=
  calc U3 m ρ c (Proc.devRef .tc r)
    _ = U2 m ρ c (Proc.devRef .tc r) := StableHlo.after_of_writes_sub hostOps1 _ hostOps1_writes h2
    _ = m ((c : Thread nD τ).loc r) := U2_arg m ρ c r h0 h1

/-- Through region 1. -/
theorem U4_arg (r : Ref sig .tc) (h0 : r ∉ hostOps0_W) (h1 : r ≠ main_v3) (h2 : r ∉ hostOps1_W) (h3 : r ≠ main_v8) :
    U4 m ρ c (Proc.devRef .tc r) = m ((c : Thread nD τ).loc r) :=
  (U4_keep m ρ c r h3).trans (U3_arg m ρ c r h0 h1 h2)

/-- Through `hostOps2`. -/
theorem U5_arg (r : Ref sig .tc) (h0 : r ∉ hostOps0_W) (h1 : r ≠ main_v3) (h2 : r ∉ hostOps1_W) (h3 : r ≠ main_v8)
    (h4 : r ∉ hostOps2_W) :
    U5 m ρ c (Proc.devRef .tc r) = m ((c : Thread nD τ).loc r) :=
  calc U5 m ρ c (Proc.devRef .tc r)
    _ = U4 m ρ c (Proc.devRef .tc r) := StableHlo.after_of_writes_sub hostOps2 _ hostOps2_writes h4
    _ = m ((c : Thread nD τ).loc r) := U4_arg m ρ c r h0 h1 h2 h3

/-- Through region 2: a buffer none of the first seven items writes holds its launch contents at region 2's exit. -/
theorem U7_arg (r : Ref sig .tc) (h0 : r ∉ hostOps0_W) (h1 : r ≠ main_v3) (h2 : r ∉ hostOps1_W) (h3 : r ≠ main_v8)
    (h4 : r ∉ hostOps2_W) (h5 : r ∉ hostOps2_1_W) (h6 : r ≠ main_v11) :
    U7 m ρ c (Proc.devRef .tc r) = m ((c : Thread nD τ).loc r) :=
  calc U7 m ρ c (Proc.devRef .tc r)
    _ = U6 m ρ c (Proc.devRef .tc r) := U7_keep m ρ c r h6
    _ = U5 m ρ c (Proc.devRef .tc r) := StableHlo.after_of_writes_sub hostOps2_1 _ hostOps2_1_writes h5
    _ = m ((c : Thread nD τ).loc r) := U5_arg m ρ c r h0 h1 h2 h3 h4

/-! ## Region 0 and the three node projections -/

/-- q = x · Wq + bq. -/
theorem mid_q : U3 m ρ c (Proc.devRef .tc main_v4) = Cert.Spec.lin (aX m c) (aWq m c) (aBq m c) :=
  (h1_v4 (U2 m ρ c)).trans
    (fused_slice (U2 m ρ c (Proc.devRef .tc main_v3)) (U1 m ρ c (Proc.devRef .tc main_arg0))
      (U1 m ρ c (Proc.devRef .tc main_v0)) (U1 m ρ c (Proc.devRef .tc main_v2))
      ((U2_arr m ρ c 3).trans (final0 (T1 m ρ) c)) 0 (by omega) _
      (aX m c) (aWq m c) (aBq m c) (U1_arg m ρ c main_arg0 (by decide))
      (fun k j cc hc => (congrFun (h0_v0 (U0 m ρ c)) (ix2 k cc)).trans (cat3_col0 _ _ _ _ k j cc hc))
      (fun j cc hc => (congrFun (h0_v2 (U0 m ρ c)) (ix2 (0 : Fin 1) cc)).trans (row3_vec0 _ _ _ _ _ j cc hc)))

/-- k = x · Wk + bk. -/
theorem mid_k : U3 m ρ c (Proc.devRef .tc main_v5) = Cert.Spec.lin (aX m c) (aWk m c) (aBk m c) :=
  (h1_v5 (U2 m ρ c)).trans
    (fused_slice (U2 m ρ c (Proc.devRef .tc main_v3)) (U1 m ρ c (Proc.devRef .tc main_arg0))
      (U1 m ρ c (Proc.devRef .tc main_v0)) (U1 m ρ c (Proc.devRef .tc main_v2))
      ((U2_arr m ρ c 3).trans (final0 (T1 m ρ) c)) 128 (by omega) _
      (aX m c) (aWk m c) (aBk m c) (U1_arg m ρ c main_arg0 (by decide))
      (fun k j cc hc => (congrFun (h0_v0 (U0 m ρ c)) (ix2 k cc)).trans (cat3_col1 _ _ _ _ k j cc hc))
      (fun j cc hc => (congrFun (h0_v2 (U0 m ρ c)) (ix2 (0 : Fin 1) cc)).trans (row3_vec1 _ _ _ _ _ j cc hc)))

/-- v = x · Wv + bv. -/
theorem mid_v : U3 m ρ c (Proc.devRef .tc main_v6) = Cert.Spec.lin (aX m c) (aWv m c) (aBv m c) :=
  (h1_v6 (U2 m ρ c)).trans
    (fused_slice (U2 m ρ c (Proc.devRef .tc main_v3)) (U1 m ρ c (Proc.devRef .tc main_arg0))
      (U1 m ρ c (Proc.devRef .tc main_v0)) (U1 m ρ c (Proc.devRef .tc main_v2))
      ((U2_arr m ρ c 3).trans (final0 (T1 m ρ) c)) 256 (by omega) _
      (aX m c) (aWv m c) (aBv m c) (U1_arg m ρ c main_arg0 (by decide))
      (fun k j cc hc => (congrFun (h0_v0 (U0 m ρ c)) (ix2 k cc)).trans (cat3_col2 _ _ _ _ k j cc hc))
      (fun j cc hc => (congrFun (h0_v2 (U0 m ρ c)) (ix2 (0 : Fin 1) cc)).trans (row3_vec2 _ _ _ _ _ j cc hc)))

/-! ## Region 1: the edge projection -/

/-- ep = e · We + be. -/
theorem mid_ep : U4 m ρ c (Proc.devRef .tc main_v8) = Cert.Spec.lin (aE m c) (aWe m c) (aBe m c) :=
  lin_of_row (U4 m ρ c (Proc.devRef .tc main_v8)) (U3 m ρ c (Proc.devRef .tc main_arg1))
    (U3 m ρ c (Proc.devRef .tc main_arg8)) (U3 m ρ c (Proc.devRef .tc main_v7))
    ((U4_arr m ρ c 3).trans (final1 (T3 m ρ) c))
    (aE m c) (aWe m c) (aBe m c)
    (U3_arg m ρ c main_arg1 (by decide) (by decide) (by decide))
    (U3_arg m ρ c main_arg8 (by decide) (by decide) (by decide))
    (fun j => (congrFun (h1_v7 (U2 m ρ c)) (ix2 (0 : Fin 1) j)).trans
      ((shapeCast_a_1a_apply _ shapeCasts_S128_S1x128 0 j).trans
        (congrFun (U2_arg m ρ c main_arg9 (by decide) (by decide)) (ix1 j))))

/-! ## The two gathers before region 2 -/

/-- A buffer that holds the row gather's term over a table and an index array whose words lie in the table holds the
    specification's gathered rows. -/
theorem gat_of_take (T : S640000x128.Idx → EReal) (x' : S20000x128.Idx → EReal) (idx' : S640000.Idx → BitVec 32)
    (hT : T = takeTerm (F := Ideal) x' idx') (x : Cert.Spec.Sn.Idx → EReal) (idx : Cert.Spec.Si.Idx → BitVec 32)
    (hx : x' = x) (hi : idx' = idx)
    (h : ∀ e : Fin 640000, 0 ≤ (idx (ix1 e)).toInt ∧ (idx (ix1 e)).toInt < 20000) :
    T = Cert.Spec.gat x idx := by
  subst hx hi
  exact hT.trans (takeTerm_eq_gat x' idx' h)

/-- k[src]. -/
theorem mid_ksrc (hsrc : ∀ e : Fin 640000, 0 ≤ (aSrc m c (ix1 e)).toInt ∧ (aSrc m c (ix1 e)).toInt < 20000) :
    U5 m ρ c (Proc.devRef .tc main_v9) = Cert.Spec.gat (Cert.Spec.lin (aX m c) (aWk m c) (aBk m c)) (aSrc m c) :=
  gat_of_take (U5 m ρ c (Proc.devRef .tc main_v9)) (U4 m ρ c (Proc.devRef .tc main_v5))
    (U4 m ρ c (Proc.devRef .tc main_arg14)) (h2_v9 (U4 m ρ c)) _ (aSrc m c)
    ((U4_keep m ρ c main_v5 (by decide)).trans (mid_k m ρ c))
    (U4_arg m ρ c main_arg14 (by decide) (by decide) (by decide) (by decide)) hsrc

/-- q is still there after the first gather. -/
theorem U5_q : U5 m ρ c (Proc.devRef .tc main_v4) = Cert.Spec.lin (aX m c) (aWq m c) (aBq m c) :=
  calc U5 m ρ c (Proc.devRef .tc main_v4)
    _ = U4 m ρ c (Proc.devRef .tc main_v4) :=
        StableHlo.after_of_writes_sub hostOps2 _ hostOps2_writes (by decide)
    _ = U3 m ρ c (Proc.devRef .tc main_v4) := U4_keep m ρ c main_v4 (by decide)
    _ = Cert.Spec.lin (aX m c) (aWq m c) (aBq m c) := mid_q m ρ c

/-- q[dst]. -/
theorem mid_qdst (hdst : ∀ e : Fin 640000, 0 ≤ (aDst m c (ix1 e)).toInt ∧ (aDst m c (ix1 e)).toInt < 20000) :
    U6 m ρ c (Proc.devRef .tc main_v10) = Cert.Spec.gat (Cert.Spec.lin (aX m c) (aWq m c) (aBq m c)) (aDst m c) :=
  gat_of_take (U6 m ρ c (Proc.devRef .tc main_v10)) (U5 m ρ c (Proc.devRef .tc main_v4))
    (U5 m ρ c (Proc.devRef .tc main_arg15)) (h2_v10 (U5 m ρ c)) _ (aDst m c)
    (U5_q m ρ c)
    (U5_arg m ρ c main_arg15 (by decide) (by decide) (by decide) (by decide) (by decide)) hdst

/-- k[src] is still there after the second gather. -/
theorem U6_ksrc (hsrc : ∀ e : Fin 640000, 0 ≤ (aSrc m c (ix1 e)).toInt ∧ (aSrc m c (ix1 e)).toInt < 20000) :
    U6 m ρ c (Proc.devRef .tc main_v9) = Cert.Spec.gat (Cert.Spec.lin (aX m c) (aWk m c) (aBk m c)) (aSrc m c) :=
  calc U6 m ρ c (Proc.devRef .tc main_v9)
    _ = U5 m ρ c (Proc.devRef .tc main_v9) :=
        StableHlo.after_of_writes_sub hostOps2_1 _ hostOps2_1_writes (by decide)
    _ = _ := mid_ksrc m ρ c hsrc

/-! ## Region 2: the edge score -/

/-- The entrywise score of two arrays that are the specification's gathered rows is the specification's score. -/
theorem score_of (S ks qd : S640000x128.Idx → EReal)
    (hS : S = fun i => Ideal.exp (ks i * qd i * Ideal.ofBits .f32 0x3E800000#32))
    (x : Cert.Spec.Sn.Idx → EReal) (Wq : Cert.Spec.Sw.Idx → EReal) (bq : Cert.Spec.Sb.Idx → EReal)
    (Wk : Cert.Spec.Sw.Idx → EReal) (bk : Cert.Spec.Sb.Idx → EReal) (src dst : Cert.Spec.Si.Idx → BitVec 32)
    (hk : ks = Cert.Spec.gat (Cert.Spec.lin x Wk bk) src) (hq : qd = Cert.Spec.gat (Cert.Spec.lin x Wq bq) dst) :
    S = Cert.Spec.score x Wq bq Wk bk src dst := by
  subst hk hq
  exact hS

/-- m = exp (k[src] · q[dst] · 1/4). -/
theorem mid_score (hsrc : ∀ e : Fin 640000, 0 ≤ (aSrc m c (ix1 e)).toInt ∧ (aSrc m c (ix1 e)).toInt < 20000)
    (hdst : ∀ e : Fin 640000, 0 ≤ (aDst m c (ix1 e)).toInt ∧ (aDst m c (ix1 e)).toInt < 20000) :
    U7 m ρ c (Proc.devRef .tc main_v11)
      = Cert.Spec.score (aX m c) (aWq m c) (aBq m c) (aWk m c) (aBk m c) (aSrc m c) (aDst m c) :=
  score_of (U7 m ρ c (Proc.devRef .tc main_v11)) (U6 m ρ c (Proc.devRef .tc main_v9))
    (U6 m ρ c (Proc.devRef .tc main_v10)) ((U7_arr m ρ c 2).trans (final2 (T6 m ρ) c)) _ _ _ _ _ _ _
    (U6_ksrc m ρ c hsrc) (mid_qdst m ρ c hdst)

/-! ## Still there at region 2's exit -/

/-- ep at region 2's exit. -/
theorem U7_ep : U7 m ρ c (Proc.devRef .tc main_v8) = Cert.Spec.lin (aE m c) (aWe m c) (aBe m c) :=
  calc U7 m ρ c (Proc.devRef .tc main_v8)
    _ = U6 m ρ c (Proc.devRef .tc main_v8) := U7_keep m ρ c main_v8 (by decide)
    _ = U5 m ρ c (Proc.devRef .tc main_v8) :=
        StableHlo.after_of_writes_sub hostOps2_1 _ hostOps2_1_writes (by decide)
    _ = U4 m ρ c (Proc.devRef .tc main_v8) :=
        StableHlo.after_of_writes_sub hostOps2 _ hostOps2_writes (by decide)
    _ = Cert.Spec.lin (aE m c) (aWe m c) (aBe m c) := mid_ep m ρ c

/-- v at region 2's exit. -/
theorem U7_v : U7 m ρ c (Proc.devRef .tc main_v6) = Cert.Spec.lin (aX m c) (aWv m c) (aBv m c) :=
  calc U7 m ρ c (Proc.devRef .tc main_v6)
    _ = U6 m ρ c (Proc.devRef .tc main_v6) := U7_keep m ρ c main_v6 (by decide)
    _ = U5 m ρ c (Proc.devRef .tc main_v6) :=
        StableHlo.after_of_writes_sub hostOps2_1 _ hostOps2_1_writes (by decide)
    _ = U4 m ρ c (Proc.devRef .tc main_v6) :=
        StableHlo.after_of_writes_sub hostOps2 _ hostOps2_writes (by decide)
    _ = U3 m ρ c (Proc.devRef .tc main_v6) := U4_keep m ρ c main_v6 (by decide)
    _ = Cert.Spec.lin (aX m c) (aWv m c) (aBv m c) := mid_v m ρ c

/-- src at region 2's exit. -/
theorem U7_src : U7 m ρ c (Proc.devRef .tc main_arg14) = aSrc m c :=
  U7_arg m ρ c main_arg14 (by decide) (by decide) (by decide) (by decide) (by decide) (by decide) (by decide)

/-- dst at region 2's exit. -/
theorem U7_dst : U7 m ρ c (Proc.devRef .tc main_arg15) = aDst m c :=
  U7_arg m ρ c main_arg15 (by decide) (by decide) (by decide) (by decide) (by decide) (by decide) (by decide)

end Cert.KernelIdeal.Hand

end
-- ==== Proof.KI.Val3.lean ====
/-
  What region 3 leaves in its two output arrays, whole: the message m · v and the normalised message (m · v · a) / b of the
  arrays the region finds, entry by entry. Each point writes back one block of 4000 rows to each output; a written block is
  the same block of the entrywise function of the input arrays, because the six windows sit on the same block at every
  point; the 160 blocks tile the 640000 rows (row r is in block r / 4000), so each array ends at its function of the
  inputs everywhere.
-/
import proofs.«426099_j50130858279187_1_alg».proof.Proof.KI.Region3
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

/-- The zero offsets of a whole-block rectangle, as the constant function. -/
theorem zero_off3 : (![0, 0] : Fin 2 → Nat) = fun _ => 0 := funext fun a => by fin_cases a <;> rfl

/-- The message of two entries: the product. -/
abbrev pr3 (x y : EReal) : EReal := x * y

/-- The normalised message of four entries: (x · y · z) / w. -/
abbrev qu3 (x y z w : EReal) : EReal := Ideal.div (x * y * z) w

/-- The message of two arrays, entry by entry. -/
abbrev prod3 (a b : S640000x128.Idx → EReal) : S640000x128.Idx → EReal :=
  fun i => pr3 (a i) (b i)

/-- The normalised message of four arrays, entry by entry. -/
abbrev quot3 (a b c d : S640000x128.Idx → EReal) : S640000x128.Idx → EReal :=
  fun i => qu3 (a i) (b i) (c i) (d i)

/-- The first payload at an entry of the block: the product of the two loaded entries. -/
theorem pay3_1_apply (x0 x1 : Vec Ideal S4000x128 .f32) (j : S4000x128.Idx) :
    k3_pay1 x0 x1 j = pr3 (x0 j) (x1 j) := by
  unfold k3_pay1
  simp only [shapeCast_self]
  rfl

/-- The second payload at an entry of the block: the product of three loaded entries over the fourth. -/
theorem pay3_2_apply (x0 x1 x2 x3 : Vec Ideal S4000x128 .f32) (j : S4000x128.Idx) :
    k3_pay2 x0 x1 x2 x3 j = qu3 (x0 j) (x1 j) (x2 j) (x3 j) := by
  unfold k3_pay2 k3_pay1
  simp only [shapeCast_self]
  rfl

/-- The six index maps over the grid: at point t every window is on block row t, block column 0. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0
    ∧ win3_5.index t (0 : Fin 2) = t.val ∧ win3_5.index t (1 : Fin 2) = 0 :=
  (by decide +kernel : ∀ t : Fin grid3.N, _)

/-- What point t writes back to the first output is block t of the product of the first two input arrays. -/
theorem flushed3_4_eq (c : Dev nD) (t : Fin cfg3.N) :
    (dat3 V c).flushed 4 t = ((cfg3.win 4).blk t).view.read (Elt Ideal) (prod3 (V c main_v11) (V c main_v8)) := by
  show (cfg3.win 4).cut (grid3.coords t) ((dat3 V c).after 4 t) = _
  rw [after3_4]
  unfold out3_4
  rw [View.canon_unit_zero zero_off3]
  simp only [View.ld_unit_zero (S := S4000x128) zero_off3]
  obtain ⟨e0, e1, e2, e3, e4, e5, e6, e7, e8, e9, e10, e11⟩ := idx_facts3 t
  funext j
  show k3_pay1 (iblk3 V c 0 t) (iblk3 V c 1 t) j = prod3 (V c main_v11) (V c main_v8) (((cfg3.win 4).blk t).view.emb j)
  refine (pay3_1_apply _ _ j).trans ?_
  show pr3 (V c main_v11 (((cfg3.win 0).blk t).view.emb j)) (V c main_v8 (((cfg3.win 1).blk t).view.emb j))
    = pr3 (V c main_v11 (((cfg3.win 4).blk t).view.emb j)) (V c main_v8 (((cfg3.win 4).blk t).view.emb j))
  have h0 : ((cfg3.win 0).blk t).view.emb j = ((cfg3.win 4).blk t).view.emb j := by
    funext a; apply Fin.ext
    match a with
    | ⟨0, _⟩ => show win3_0.index t (0 : Fin 2) * 4000 + 1 * (j 0).val = win3_4.index t (0 : Fin 2) * 4000 + 1 * (j 0).val; omega
    | ⟨1, _⟩ => show win3_0.index t (1 : Fin 2) * 128 + 1 * (j 1).val = win3_4.index t (1 : Fin 2) * 128 + 1 * (j 1).val; omega
  have h1 : ((cfg3.win 1).blk t).view.emb j = ((cfg3.win 4).blk t).view.emb j := by
    funext a; apply Fin.ext
    match a with
    | ⟨0, _⟩ => show win3_1.index t (0 : Fin 2) * 4000 + 1 * (j 0).val = win3_4.index t (0 : Fin 2) * 4000 + 1 * (j 0).val; omega
    | ⟨1, _⟩ => show win3_1.index t (1 : Fin 2) * 128 + 1 * (j 1).val = win3_4.index t (1 : Fin 2) * 128 + 1 * (j 1).val; omega
  rw [h0, h1]

/-- What point t writes back to the second output is block t of the normalised message of the four input arrays. -/
theorem flushed3_5_eq (c : Dev nD) (t : Fin cfg3.N) :
    (dat3 V c).flushed 5 t = ((cfg3.win 5).blk t).view.read (Elt Ideal) (quot3 (V c main_v11) (V c main_v8) (V c main_v15) (V c main_v16)) := by
  show (cfg3.win 5).cut (grid3.coords t) ((dat3 V c).after 5 t) = _
  rw [after3_5]
  unfold out3_5
  rw [View.canon_unit_zero zero_off3]
  simp only [View.ld_unit_zero (S := S4000x128) zero_off3]
  obtain ⟨e0, e1, e2, e3, e4, e5, e6, e7, e8, e9, e10, e11⟩ := idx_facts3 t
  funext j
  show k3_pay2 (iblk3 V c 0 t) (iblk3 V c 1 t) (iblk3 V c 2 t) (iblk3 V c 3 t) j
    = quot3 (V c main_v11) (V c main_v8) (V c main_v15) (V c main_v16) (((cfg3.win 5).blk t).view.emb j)
  refine (pay3_2_apply _ _ _ _ j).trans ?_
  show qu3 (V c main_v11 (((cfg3.win 0).blk t).view.emb j)) (V c main_v8 (((cfg3.win 1).blk t).view.emb j)) (V c main_v15 (((cfg3.win 2).blk t).view.emb j)) (V c main_v16 (((cfg3.win 3).blk t).view.emb j))
    = qu3 (V c main_v11 (((cfg3.win 5).blk t).view.emb j)) (V c main_v8 (((cfg3.win 5).blk t).view.emb j)) (V c main_v15 (((cfg3.win 5).blk t).view.emb j)) (V c main_v16 (((cfg3.win 5).blk t).view.emb j))
  have h0 : ((cfg3.win 0).blk t).view.emb j = ((cfg3.win 5).blk t).view.emb j := by
    funext a; apply Fin.ext
    match a with
    | ⟨0, _⟩ => show win3_0.index t (0 : Fin 2) * 4000 + 1 * (j 0).val = win3_5.index t (0 : Fin 2) * 4000 + 1 * (j 0).val; omega
    | ⟨1, _⟩ => show win3_0.index t (1 : Fin 2) * 128 + 1 * (j 1).val = win3_5.index t (1 : Fin 2) * 128 + 1 * (j 1).val; omega
  have h1 : ((cfg3.win 1).blk t).view.emb j = ((cfg3.win 5).blk t).view.emb j := by
    funext a; apply Fin.ext
    match a with
    | ⟨0, _⟩ => show win3_1.index t (0 : Fin 2) * 4000 + 1 * (j 0).val = win3_5.index t (0 : Fin 2) * 4000 + 1 * (j 0).val; omega
    | ⟨1, _⟩ => show win3_1.index t (1 : Fin 2) * 128 + 1 * (j 1).val = win3_5.index t (1 : Fin 2) * 128 + 1 * (j 1).val; omega
  have h2 : ((cfg3.win 2).blk t).view.emb j = ((cfg3.win 5).blk t).view.emb j := by
    funext a; apply Fin.ext
    match a with
    | ⟨0, _⟩ => show win3_2.index t (0 : Fin 2) * 4000 + 1 * (j 0).val = win3_5.index t (0 : Fin 2) * 4000 + 1 * (j 0).val; omega
    | ⟨1, _⟩ => show win3_2.index t (1 : Fin 2) * 128 + 1 * (j 1).val = win3_5.index t (1 : Fin 2) * 128 + 1 * (j 1).val; omega
  have h3 : ((cfg3.win 3).blk t).view.emb j = ((cfg3.win 5).blk t).view.emb j := by
    funext a; apply Fin.ext
    match a with
    | ⟨0, _⟩ => show win3_3.index t (0 : Fin 2) * 4000 + 1 * (j 0).val = win3_5.index t (0 : Fin 2) * 4000 + 1 * (j 0).val; omega
    | ⟨1, _⟩ => show win3_3.index t (1 : Fin 2) * 128 + 1 * (j 1).val = win3_5.index t (1 : Fin 2) * 128 + 1 * (j 1).val; omega
  rw [h0, h1, h2, h3]

/-- An index of the first output is in point t's block iff each coordinate is in the block's range on its axis. -/
theorem mem_blk3_4 (t : Fin cfg3.N) (i : S640000x128.Idx) :
    i ∈ ((cfg3.win 4).blk t).view.set ↔ ∀ a : Fin 2, win3_4.index t a * S4000x128.size a ≤ (i a).val ∧ (i a).val < win3_4.index t a * S4000x128.size a + S4000x128.size a := by
  show i ∈ ((View.whole main_v17_0).slice (win3_4.rect t)).set ↔ _
  rw [View.set_slice_whole, Rect.mem_set_unit]
  exact Iff.rfl

/-- The same for the second output. -/
theorem mem_blk3_5 (t : Fin cfg3.N) (i : S640000x128.Idx) :
    i ∈ ((cfg3.win 5).blk t).view.set ↔ ∀ a : Fin 2, win3_5.index t a * S4000x128.size a ≤ (i a).val ∧ (i a).val < win3_5.index t a * S4000x128.size a + S4000x128.size a := by
  show i ∈ ((View.whole main_v17_1).slice (win3_5.rect t)).set ↔ _
  rw [View.set_slice_whole, Rect.mem_set_unit]
  exact Iff.rfl

/-- The first output's blocks tile the array: row r lies in the block of point r / 4000. -/
theorem tiles3_4 (i : S640000x128.Idx) :
    ∃ t : Fin cfg3.N, (cfg3.win 4).flush t = true ∧ i ∈ ((cfg3.win 4).blk t).view.set := by
  have hi0 : (i 0).val < 640000 := (i 0).isLt
  have hi1 : (i 1).val < 128 := (i 1).isLt
  obtain ⟨t, ht⟩ : ∃ t : Fin cfg3.N, t.val = (i 0).val / 4000 :=
    ⟨⟨(i 0).val / 4000, by rw [show cfg3.N = 160 from N_3]; omega⟩, rfl⟩
  obtain ⟨-, -, -, -, -, -, -, -, e8, e9, -, -⟩ := idx_facts3 t
  refine ⟨t, flush3_4 t, ?_⟩
  rw [mem_blk3_4]
  intro a
  match a with
  | ⟨0, _⟩ => show win3_4.index t (0 : Fin 2) * 4000 ≤ (i 0).val ∧ (i 0).val < win3_4.index t (0 : Fin 2) * 4000 + 4000; omega
  | ⟨1, _⟩ => show win3_4.index t (1 : Fin 2) * 128 ≤ (i 1).val ∧ (i 1).val < win3_4.index t (1 : Fin 2) * 128 + 128; omega

/-- The second output's blocks tile the array likewise. -/
theorem tiles3_5 (i : S640000x128.Idx) :
    ∃ t : Fin cfg3.N, (cfg3.win 5).flush t = true ∧ i ∈ ((cfg3.win 5).blk t).view.set := by
  have hi0 : (i 0).val < 640000 := (i 0).isLt
  have hi1 : (i 1).val < 128 := (i 1).isLt
  obtain ⟨t, ht⟩ : ∃ t : Fin cfg3.N, t.val = (i 0).val / 4000 :=
    ⟨⟨(i 0).val / 4000, by rw [show cfg3.N = 160 from N_3]; omega⟩, rfl⟩
  obtain ⟨-, -, -, -, -, -, -, -, -, -, e10, e11⟩ := idx_facts3 t
  refine ⟨t, flush3_5 t, ?_⟩
  rw [mem_blk3_5]
  intro a
  match a with
  | ⟨0, _⟩ => show win3_5.index t (0 : Fin 2) * 4000 ≤ (i 0).val ∧ (i 0).val < win3_5.index t (0 : Fin 2) * 4000 + 4000; omega
  | ⟨1, _⟩ => show win3_5.index t (1 : Fin 2) * 128 ≤ (i 1).val ∧ (i 1).val < win3_5.index t (1 : Fin 2) * 128 + 128; omega

/-- The first array the region leaves: the product of its first two input arrays, entry by entry. -/
theorem final3_4 (c : Dev nD) : (dat3 V c).arrAt 4 cfg3.N
    = prod3 (V c main_v11) (V c main_v8) :=
  (dat3 V c).arrAt_eq_of_cover 4 (prod3 (V c main_v11) (V c main_v8)) (fun t _ => flushed3_4_eq V c t) tiles3_4

/-- The second array the region leaves: the product of its first three input arrays over the fourth, entry by entry. -/
theorem final3_5 (c : Dev nD) : (dat3 V c).arrAt 5 cfg3.N
    = quot3 (V c main_v11) (V c main_v8) (V c main_v15) (V c main_v16) :=
  (dat3 V c).arrAt_eq_of_cover 5 (quot3 (V c main_v11) (V c main_v8) (V c main_v15) (V c main_v16)) (fun t _ => flushed3_5_eq V c t) tiles3_5

end Cert.KernelIdeal.Hand

end
-- ==== Proof.KI.ChainTake3.lean ====
/-
  A call of the row gather read at its result: the call's twenty-three operations leave, in the call's result buffer, the
  gather's composed term over the call's table and index array as the stretch finds them.
-/
import proofs.«426099_j50130858279187_1_alg».proof.Proof.Gen.KernelIdeal.Launch
import proofs.«426099_j50130858279187_1_alg».proof.Proof.KI.Take
import proofs.«426099_j50130858279187_1_alg».proof.Proof.KI.ChainTake2
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe

variable {F : FTy → Type} [FloatOps F] (V : Valuation τ sig (Elt F))

/-- The third call: v's rows at src. -/
theorem h3_v15 : StableHlo.after hostOps3_1 V (Proc.devRef .tc main_v15)
    = takeTerm (F := F) (V (Proc.devRef .tc main_v6)) (V (Proc.devRef .tc main_arg14)) := by
  after_results_simp
  simp only [StableHlo.TRef.ofBuf, StableHlo.TRef.toBuf, cast_cast]
  simp only [cast_self]
  simp only [takeTerm, takeOk, takeBits, takeW2, takeW]

end Cert.KernelIdeal.Hand

end
-- ==== Proof.KI.ChainTake4.lean ====
/-
  A call of the row gather read at its result: the call's twenty-three operations leave, in the call's result buffer, the
  gather's composed term over the call's table and index array as the stretch finds them.
-/
import proofs.«426099_j50130858279187_1_alg».proof.Proof.Gen.KernelIdeal.Launch
import proofs.«426099_j50130858279187_1_alg».proof.Proof.KI.Take
import proofs.«426099_j50130858279187_1_alg».proof.Proof.KI.ChainTake3
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe

variable {F : FTy → Type} [FloatOps F] (V : Valuation τ sig (Elt F))

/-- The fourth call: z's rows at dst. -/
theorem h3_v16 : StableHlo.after hostOps3_2 V (Proc.devRef .tc main_v16)
    = takeTerm (F := F) (V (Proc.devRef .tc main_v14)) (V (Proc.devRef .tc main_arg15)) := by
  after_results_simp
  simp only [StableHlo.TRef.ofBuf, StableHlo.TRef.toBuf, cast_cast]
  simp only [cast_self]
  simp only [takeTerm, takeOk, takeBits, takeW2, takeW]

end Cert.KernelIdeal.Hand

end
-- ==== Proof.LibRowScatter.lean ====
/-
  THE ROW SCATTER-ADD READ AT AN INDEX (extended reals).

  A row scatter-add takes an operand of N rows, an array of E index words and an array of E update rows, and
  adds update row e into operand row idx[e]: the index word is read as a SIGNED integer and is NOT clamped, and
  an update row whose index falls outside [0, N) is dropped. So entry (n, rest) of the result is the operand's
  entry (n, rest) plus the sum of the update entries (e, rest) over exactly those rows e whose index word,
  read signed, equals n — a segment sum along the first axis. Below: an update index lands at an operand
  index exactly when start plus window coordinate meets it on every axis (any dimension numbers); then, for
  the row-scatter dimension numbers (one scatter axis going to operand axis 0, which is an inserted window
  axis; every other axis a window axis), the start and the window coordinate axis by axis, the landing
  condition in coordinates, and the scatter-add read at an index, for an operand of rank 2 and of rank 3.
-/
import Idealize.ShloMosaic.PureOps.Ideal
import Idealize.ShloMosaic.Lib.ValueIdx

noncomputable section

open scoped BigOperators

namespace Cert.LibRows

open Idealize.ShloMosaic Idealize.ShloMosaic.ValueIdx

/-! ## Lists and small index types -/

/-- In a list equal to `l'`, the entry at the position of `a` in `l'` is `a`. -/
theorem getElem_idxOf_of_eq {α : Type} [BEq α] [LawfulBEq α] {l l' : List α} (h : l = l') {a : α}
    (hk : l'.idxOf a < l.length) : l[l'.idxOf a]'hk = a := by
  subst h; exact List.getElem_idxOf hk

/-- Of two axes, the one that is not axis 1 is axis 0. -/
theorem fin2_eq_zero : ∀ a : Fin 2, a ∉ ([1] : List (Fin 2)) → a = 0 := by decide
/-- Of two axes, axis 1 is not axis 0. -/
theorem fin2_one_not_mem : (1 : Fin 2) ∉ ([0] : List (Fin 2)) := by decide
/-- Of three axes, the one that is neither axis 1 nor axis 2 is axis 0. -/
theorem fin3_eq_zero : ∀ a : Fin 3, a ∉ ([1, 2] : List (Fin 3)) → a = 0 := by decide
/-- Of three axes, axis 1 is not axis 0. -/
theorem fin3_one_not_mem : (1 : Fin 3) ∉ ([0] : List (Fin 3)) := by decide
/-- Of three axes, axis 2 is not axis 0. -/
theorem fin3_two_not_mem : (2 : Fin 3) ∉ ([0] : List (Fin 3)) := by decide
/-- Of three axes, the ones other than axis 0 are, in order, axes 1 and 2. -/
theorem kept_fin3 : (List.finRange 3).filter (fun a : Fin 3 => decide (a ∉ ([0] : List (Fin 3)))) = [1, 2] := by decide

/-! ## Any scatter -/

section General
variable {s si u : Shape} (d : ScatterDims s si u) {w : Nat}

/-- An update index lands at the operand index `i` exactly when, on every operand axis, the signed start plus
    the window coordinate is `i`'s coordinate (and it lands nowhere when that sum leaves the operand on some axis). -/
theorem resultIdx?_eq_some_iff (j : u.Idx) (idx : IVec si w) (i : s.Idx) :
    d.resultIdx? j idx = some i ↔ ∀ a, d.start j idx a + (d.window j a : Int) = ((i a).val : Int) := by
  unfold ScatterDims.resultIdx?
  split
  · next h =>
    constructor
    · intro heq a
      have hv := congrArg Fin.val (congrFun (Option.some.inj heq) a)
      have h0 := (h a).1
      simp only at hv
      omega
    · intro hall
      refine congrArg some (funext fun a => Fin.ext ?_)
      have := hall a
      show (d.start j idx a + (d.window j a : Int)).toNat = (i a).val
      omega
  · next h =>
    constructor
    · intro heq; cases heq
    · intro hall
      exfalso; apply h; intro a
      rw [hall a]
      exact ⟨Int.natCast_nonneg _, Int.ofNat_lt.2 (i a).isLt⟩

/-- On an operand axis the scatter indices name, the start is the index word read signed. -/
theorem start_of_mem (j : u.Idx) (idx : IVec si w) (a : Fin s.rank) (ha : a ∈ d.scatterDimsToOperandDims) :
    d.start j idx a
      = (idx (d.siIdx j ⟨d.scatterDimsToOperandDims.idxOf a, List.idxOf_lt_length_iff.2 ha⟩)).toInt := by
  unfold ScatterDims.start; rw [dif_pos ha]

/-- On an operand axis the scatter indices do not name, the start is 0. -/
theorem start_of_not_mem (j : u.Idx) (idx : IVec si w) (a : Fin s.rank) (ha : a ∉ d.scatterDimsToOperandDims) :
    d.start j idx a = 0 := by
  unfold ScatterDims.start; rw [dif_neg ha]

/-- The operand's kept axes are the ones that are not inserted window axes. -/
theorem mem_sKept (a : Fin s.rank) : a ∈ d.sKept ↔ a ∉ d.insertedWindowDims := by
  simp [ScatterDims.sKept, Shape.kept, List.mem_filter, List.mem_finRange]

/-- On an inserted window axis the window coordinate is 0. -/
theorem window_of_not_mem (j : u.Idx) (a : Fin s.rank) (ha : a ∉ d.sKept) : d.window j a = 0 := by
  unfold ScatterDims.window; rw [dif_neg ha]

end General

/-! ## Operand of rank 2: rows of length D -/

section Rank2
variable {N E D w : Nat} (d : ScatterDims ⟨2, ![N, D]⟩ ⟨2, ![E, 1]⟩ ⟨2, ![E, D]⟩)

/-- The updates' one scatter axis is axis 0. -/
theorem uScatter_getElem2 (huw : d.updateWindowDims = [1]) (k : Nat) (hk : k < d.uScatter.length) :
    d.uScatter[k] = 0 := by
  have hm : d.uScatter[k] ∈ d.uScatter := List.getElem_mem hk
  have hn : d.uScatter[k] ∉ d.updateWindowDims := by
    have := (List.mem_filter.1 hm).2
    simpa using this
  rw [huw] at hn
  exact fin2_eq_zero _ hn

/-- The updates' one window axis is axis 1. -/
theorem window_getElem2 (huw : d.updateWindowDims = [1]) (k : Nat) (hk : k < d.updateWindowDims.length) :
    d.updateWindowDims[k] = 1 := by
  have hm : d.updateWindowDims[k] ∈ d.updateWindowDims := List.getElem_mem hk
  have hm' : d.updateWindowDims[k] ∈ ([1] : List (Fin 2)) := by rw [← huw]; exact hm
  exact List.mem_singleton.1 hm'

/-- Update index `j` reads its one index word at row `j 0` of the index column. -/
theorem siIdx2 (huw : d.updateWindowDims = [1]) (hsd : d.scatterDimsToOperandDims = [0]) (hivd : d.indexVectorDim = 1)
    (j : (⟨2, ![E, D]⟩ : Shape).Idx) (c : Fin d.scatterDimsToOperandDims.length) :
    d.siIdx j c = ix2 (j 0) (0 : Fin 1) := by
  funext b
  match b with
  | ⟨0, _⟩ =>
    unfold ScatterDims.siIdx
    rw [dif_neg (by rw [hivd]; exact Nat.zero_ne_one)]
    unfold ScatterDims.siCoord
    apply Fin.ext
    simp only [Fin.val_cast]
    rw [uScatter_getElem2 d huw]
  | ⟨1, _⟩ =>
    unfold ScatterDims.siIdx
    rw [dif_pos (by rw [hivd])]
    apply Fin.ext
    have := c.isLt
    simp only [hsd, List.length_singleton] at this
    show c.val = 0
    omega

/-- Start plus window coordinate on operand axis 0: the index word of the update's row, read signed. -/
theorem land2_zero (huw : d.updateWindowDims = [1]) (hiw : d.insertedWindowDims = [0])
    (hsd : d.scatterDimsToOperandDims = [0]) (hivd : d.indexVectorDim = 1)
    (idx : IVec ⟨2, ![E, 1]⟩ w) (jj : (⟨2, ![E, D]⟩ : Shape).Idx) :
    d.start jj idx 0 + (d.window jj 0 : Int) = (idx (ix2 (jj 0) (0 : Fin 1))).toInt := by
  have h0 : 0 ∈ d.scatterDimsToOperandDims := by rw [hsd]; exact List.mem_singleton.2 rfl
  have hk : 0 ∉ d.sKept := fun h => (mem_sKept d 0).1 h (by rw [hiw]; exact List.mem_singleton.2 rfl)
  rw [start_of_mem d jj idx 0 h0, siIdx2 d huw hsd hivd, window_of_not_mem d jj 0 hk]
  simp

/-- Start plus window coordinate on operand axis 1: the update index's own coordinate there. -/
theorem land2_one (huw : d.updateWindowDims = [1]) (hiw : d.insertedWindowDims = [0])
    (hsd : d.scatterDimsToOperandDims = [0])
    (idx : IVec ⟨2, ![E, 1]⟩ w) (jj : (⟨2, ![E, D]⟩ : Shape).Idx) :
    d.start jj idx 1 + (d.window jj 1 : Int) = ((jj 1).val : Int) := by
  have h1 : 1 ∉ d.scatterDimsToOperandDims := by rw [hsd]; exact fin2_one_not_mem
  have hk := (mem_sKept d 1).2 (by rw [hiw]; exact fin2_one_not_mem)
  rw [start_of_not_mem d jj idx 1 h1]
  unfold ScatterDims.window
  rw [dif_pos hk, window_getElem2 d huw]
  simp

/-- WHERE AN UPDATE LANDS. Update index `jj` lands at operand index (n, j) exactly when the index word of its row,
    read signed, is n and its column is j. -/
theorem resultIdx2_iff (huw : d.updateWindowDims = [1]) (hiw : d.insertedWindowDims = [0])
    (hsd : d.scatterDimsToOperandDims = [0]) (hivd : d.indexVectorDim = 1)
    (idx : IVec ⟨2, ![E, 1]⟩ w) (jj : (⟨2, ![E, D]⟩ : Shape).Idx) (n : Fin N) (j : Fin D) :
    d.resultIdx? jj idx = some (ix2 n j)
      ↔ (idx (ix2 (jj 0) (0 : Fin 1))).toInt = ((n.val : Nat) : Int) ∧ jj 1 = j := by
  have e0 := land2_zero d huw hiw hsd hivd idx jj
  have e1 := land2_one d huw hiw hsd idx jj
  rw [resultIdx?_eq_some_iff]
  constructor
  · intro h
    have h0 : (idx (ix2 (jj 0) (0 : Fin 1))).toInt = ((n.val : Nat) : Int) := e0.symm.trans (h 0)
    have h1 : ((jj 1).val : Int) = ((j.val : Nat) : Int) := e1.symm.trans (h 1)
    exact ⟨h0, Fin.ext (by omega)⟩
  · rintro ⟨h0, rfl⟩ a
    match a with
    | ⟨0, _⟩ => exact e0.trans h0
    | ⟨1, _⟩ => exact e1

/-- The same, for an update index given by its coordinates (e, j'). -/
theorem resultIdx2_iff' (huw : d.updateWindowDims = [1]) (hiw : d.insertedWindowDims = [0])
    (hsd : d.scatterDimsToOperandDims = [0]) (hivd : d.indexVectorDim = 1)
    (idx : IVec ⟨2, ![E, 1]⟩ w) (e : Fin E) (j' : Fin D) (n : Fin N) (j : Fin D) :
    d.resultIdx? (ix2 e j') idx = some (ix2 n j)
      ↔ (idx (ix2 e (0 : Fin 1))).toInt = ((n.val : Nat) : Int) ∧ j' = j :=
  resultIdx2_iff d huw hiw hsd hivd idx (ix2 e j') n j

/-- THE ROW SCATTER-ADD AT (n, j), rows of length D: the operand's entry plus the sum of the updates' entries
    (e, j) over the rows e whose index word, read signed, is n. -/
theorem scatterAdd_rows2
    (huw : d.updateWindowDims = [1]) (hiw : d.insertedWindowDims = [0]) (hsd : d.scatterDimsToOperandDims = [0]) (hivd : d.indexVectorDim = 1)
    (x : (⟨2, ![N, D]⟩ : Shape).Idx → EReal) (idx : IVec ⟨2, ![E, 1]⟩ w) (u : (⟨2, ![E, D]⟩ : Shape).Idx → EReal) (n : Fin N) (j : Fin D) :
    Ideal.hostScatterAdd d x idx u (ix2 n j)
      = x (ix2 n j) + ∑ e ∈ Finset.univ.filter (fun e : Fin E => (idx (ix2 e (0 : Fin 1))).toInt = ((n.val : Nat) : Int)), u (ix2 e j) := by
  unfold Ideal.hostScatterAdd
  show _ + _ = _ + _
  congr 1
  refine Finset.sum_bij' (fun jj _ => jj 0) (fun e _ => ix2 e j) ?_ ?_ ?_ ?_ ?_
  · intro jj hjj
    have := (resultIdx2_iff d huw hiw hsd hivd idx jj n j).1 (Finset.mem_filter.1 hjj).2
    exact Finset.mem_filter.2 ⟨Finset.mem_univ _, this.1⟩
  · intro e he
    exact Finset.mem_filter.2 ⟨Finset.mem_univ _,
      (resultIdx2_iff d huw hiw hsd hivd idx (ix2 e j) n j).2 ⟨(Finset.mem_filter.1 he).2, rfl⟩⟩
  · intro jj hjj
    obtain ⟨_, h1⟩ := (resultIdx2_iff d huw hiw hsd hivd idx jj n j).1 (Finset.mem_filter.1 hjj).2
    subst h1
    exact (eq_ix2 jj).symm
  · intro e he; rfl
  · intro jj hjj
    obtain ⟨_, h1⟩ := (resultIdx2_iff d huw hiw hsd hivd idx jj n j).1 (Finset.mem_filter.1 hjj).2
    subst h1
    exact congrArg u (eq_ix2 jj)

end Rank2

/-! ## Operand of rank 3: rows of H × D entries -/

section Rank3
variable {N E H D w : Nat} (d : ScatterDims ⟨3, ![N, H, D]⟩ ⟨2, ![E, 1]⟩ ⟨3, ![E, H, D]⟩)

/-- The updates' one scatter axis is axis 0. -/
theorem uScatter_getElem3 (huw : d.updateWindowDims = [1, 2]) (k : Nat) (hk : k < d.uScatter.length) :
    d.uScatter[k] = 0 := by
  have hm : d.uScatter[k] ∈ d.uScatter := List.getElem_mem hk
  have hn : d.uScatter[k] ∉ d.updateWindowDims := by
    have := (List.mem_filter.1 hm).2
    simpa using this
  rw [huw] at hn
  exact fin3_eq_zero _ hn

/-- The operand's kept axes are, in order, axes 1 and 2. -/
theorem sKept3 (hiw : d.insertedWindowDims = [0]) : d.sKept = [1, 2] := by
  show (List.finRange 3).filter (fun a : Fin 3 => decide (a ∉ d.insertedWindowDims)) = [1, 2]
  rw [hiw]; exact kept_fin3

/-- Update index `j` reads its one index word at row `j 0` of the index column. -/
theorem siIdx3 (huw : d.updateWindowDims = [1, 2]) (hsd : d.scatterDimsToOperandDims = [0]) (hivd : d.indexVectorDim = 1)
    (j : (⟨3, ![E, H, D]⟩ : Shape).Idx) (c : Fin d.scatterDimsToOperandDims.length) :
    d.siIdx j c = ix2 (j 0) (0 : Fin 1) := by
  funext b
  match b with
  | ⟨0, _⟩ =>
    unfold ScatterDims.siIdx
    rw [dif_neg (by rw [hivd]; exact Nat.zero_ne_one)]
    unfold ScatterDims.siCoord
    apply Fin.ext
    simp only [Fin.val_cast]
    rw [uScatter_getElem3 d huw]
  | ⟨1, _⟩ =>
    unfold ScatterDims.siIdx
    rw [dif_pos (by rw [hivd])]
    apply Fin.ext
    have := c.isLt
    simp only [hsd, List.length_singleton] at this
    show c.val = 0
    omega

/-- Start plus window coordinate on operand axis 0: the index word of the update's row, read signed. -/
theorem land3_zero (huw : d.updateWindowDims = [1, 2]) (hiw : d.insertedWindowDims = [0])
    (hsd : d.scatterDimsToOperandDims = [0]) (hivd : d.indexVectorDim = 1)
    (idx : IVec ⟨2, ![E, 1]⟩ w) (jj : (⟨3, ![E, H, D]⟩ : Shape).Idx) :
    d.start jj idx 0 + (d.window jj 0 : Int) = (idx (ix2 (jj 0) (0 : Fin 1))).toInt := by
  have h0 : 0 ∈ d.scatterDimsToOperandDims := by rw [hsd]; exact List.mem_singleton.2 rfl
  have hk : 0 ∉ d.sKept := fun h => (mem_sKept d 0).1 h (by rw [hiw]; exact List.mem_singleton.2 rfl)
  rw [start_of_mem d jj idx 0 h0, siIdx3 d huw hsd hivd, window_of_not_mem d jj 0 hk]
  simp

/-- On a kept operand axis the window coordinate is the update index's own coordinate on that axis. -/
theorem window3_of_mem (huw : d.updateWindowDims = [1, 2]) (hiw : d.insertedWindowDims = [0])
    (jj : (⟨3, ![E, H, D]⟩ : Shape).Idx) (a : Fin 3) (ha : a ∈ d.sKept) :
    d.window jj a = (jj a).val := by
  have heq : d.updateWindowDims = d.sKept := huw.trans (sKept3 d hiw).symm
  unfold ScatterDims.window
  rw [dif_pos ha, getElem_idxOf_of_eq heq]

/-- Start plus window coordinate on operand axis 1: the update index's own coordinate there. -/
theorem land3_one (huw : d.updateWindowDims = [1, 2]) (hiw : d.insertedWindowDims = [0])
    (hsd : d.scatterDimsToOperandDims = [0])
    (idx : IVec ⟨2, ![E, 1]⟩ w) (jj : (⟨3, ![E, H, D]⟩ : Shape).Idx) :
    d.start jj idx 1 + (d.window jj 1 : Int) = ((jj 1).val : Int) := by
  have h1 : 1 ∉ d.scatterDimsToOperandDims := by rw [hsd]; exact fin3_one_not_mem
  have hk := (mem_sKept d 1).2 (by rw [hiw]; exact fin3_one_not_mem)
  rw [start_of_not_mem d jj idx 1 h1, window3_of_mem d huw hiw jj 1 hk]
  simp

/-- Start plus window coordinate on operand axis 2: the update index's own coordinate there. -/
theorem land3_two (huw : d.updateWindowDims = [1, 2]) (hiw : d.insertedWindowDims = [0])
    (hsd : d.scatterDimsToOperandDims = [0])
    (idx : IVec ⟨2, ![E, 1]⟩ w) (jj : (⟨3, ![E, H, D]⟩ : Shape).Idx) :
    d.start jj idx 2 + (d.window jj 2 : Int) = ((jj 2).val : Int) := by
  have h2 : 2 ∉ d.scatterDimsToOperandDims := by rw [hsd]; exact fin3_two_not_mem
  have hk := (mem_sKept d 2).2 (by rw [hiw]; exact fin3_two_not_mem)
  rw [start_of_not_mem d jj idx 2 h2, window3_of_mem d huw hiw jj 2 hk]
  simp

/-- WHERE AN UPDATE LANDS. Update index `jj` lands at operand index (n, h, dd) exactly when the index word of its
    row, read signed, is n and its other two coordinates are h and dd. -/
theorem resultIdx3_iff (huw : d.updateWindowDims = [1, 2]) (hiw : d.insertedWindowDims = [0])
    (hsd : d.scatterDimsToOperandDims = [0]) (hivd : d.indexVectorDim = 1)
    (idx : IVec ⟨2, ![E, 1]⟩ w) (jj : (⟨3, ![E, H, D]⟩ : Shape).Idx) (n : Fin N) (h : Fin H) (dd : Fin D) :
    d.resultIdx? jj idx = some (ix3 n h dd)
      ↔ (idx (ix2 (jj 0) (0 : Fin 1))).toInt = ((n.val : Nat) : Int) ∧ jj 1 = h ∧ jj 2 = dd := by
  have e0 := land3_zero d huw hiw hsd hivd idx jj
  have e1 := land3_one d huw hiw hsd idx jj
  have e2 := land3_two d huw hiw hsd idx jj
  rw [resultIdx?_eq_some_iff]
  constructor
  · intro hall
    have h0 : (idx (ix2 (jj 0) (0 : Fin 1))).toInt = ((n.val : Nat) : Int) := e0.symm.trans (hall 0)
    have h1 : ((jj 1).val : Int) = ((h.val : Nat) : Int) := e1.symm.trans (hall 1)
    have h2 : ((jj 2).val : Int) = ((dd.val : Nat) : Int) := e2.symm.trans (hall 2)
    exact ⟨h0, Fin.ext (by omega), Fin.ext (by omega)⟩
  · rintro ⟨h0, rfl, rfl⟩ a
    match a with
    | ⟨0, _⟩ => exact e0.trans h0
    | ⟨1, _⟩ => exact e1
    | ⟨2, _⟩ => exact e2

/-- The same, for an update index given by its coordinates (e, h', dd'). -/
theorem resultIdx3_iff' (huw : d.updateWindowDims = [1, 2]) (hiw : d.insertedWindowDims = [0])
    (hsd : d.scatterDimsToOperandDims = [0]) (hivd : d.indexVectorDim = 1)
    (idx : IVec ⟨2, ![E, 1]⟩ w) (e : Fin E) (h' : Fin H) (dd' : Fin D) (n : Fin N) (h : Fin H) (dd : Fin D) :
    d.resultIdx? (ix3 e h' dd') idx = some (ix3 n h dd)
      ↔ (idx (ix2 e (0 : Fin 1))).toInt = ((n.val : Nat) : Int) ∧ h' = h ∧ dd' = dd :=
  resultIdx3_iff d huw hiw hsd hivd idx (ix3 e h' dd') n h dd

/-- THE ROW SCATTER-ADD AT (n, h, dd), rows of H × D entries: the operand's entry plus the sum of the updates'
    entries (e, h, dd) over the rows e whose index word, read signed, is n. -/
theorem scatterAdd_rows3
    (huw : d.updateWindowDims = [1, 2]) (hiw : d.insertedWindowDims = [0]) (hsd : d.scatterDimsToOperandDims = [0]) (hivd : d.indexVectorDim = 1)
    (x : (⟨3, ![N, H, D]⟩ : Shape).Idx → EReal) (idx : IVec ⟨2, ![E, 1]⟩ w) (u : (⟨3, ![E, H, D]⟩ : Shape).Idx → EReal) (n : Fin N) (h : Fin H) (dd : Fin D) :
    Ideal.hostScatterAdd d x idx u (ix3 n h dd)
      = x (ix3 n h dd) + ∑ e ∈ Finset.univ.filter (fun e : Fin E => (idx (ix2 e (0 : Fin 1))).toInt = ((n.val : Nat) : Int)), u (ix3 e h dd) := by
  unfold Ideal.hostScatterAdd
  show _ + _ = _ + _
  congr 1
  refine Finset.sum_bij' (fun jj _ => jj 0) (fun e _ => ix3 e h dd) ?_ ?_ ?_ ?_ ?_
  · intro jj hjj
    have := (resultIdx3_iff d huw hiw hsd hivd idx jj n h dd).1 (Finset.mem_filter.1 hjj).2
    exact Finset.mem_filter.2 ⟨Finset.mem_univ _, this.1⟩
  · intro e he
    exact Finset.mem_filter.2 ⟨Finset.mem_univ _,
      (resultIdx3_iff d huw hiw hsd hivd idx (ix3 e h dd) n h dd).2 ⟨(Finset.mem_filter.1 he).2, rfl, rfl⟩⟩
  · intro jj hjj
    obtain ⟨_, h1, h2⟩ := (resultIdx3_iff d huw hiw hsd hivd idx jj n h dd).1 (Finset.mem_filter.1 hjj).2
    subst h1; subst h2
    exact (eq_ix3 jj).symm
  · intro e he; rfl
  · intro jj hjj
    obtain ⟨_, h1, h2⟩ := (resultIdx3_iff d huw hiw hsd hivd idx jj n h dd).1 (Finset.mem_filter.1 hjj).2
    subst h1; subst h2
    exact congrArg u (eq_ix3 jj)

end Rank3

end Cert.LibRows

end
-- ==== Proof.KI.ScatterStage.lean ====
/-
  THE SCATTER STAGE AND THE BIAS ROW, READ BACK. The program accumulates edge rows into a node table by a scatter with an
  `add` body: the operand is the constant zero broadcast to the [20000, 128] table, the scatter indices are the destination
  array laid down a unit axis ([640000] → [640000, 1]), the updates the [640000, 128] edge rows. At the extended reals the
  scatter is, entry by entry, the operand's entry plus the sum of the update entries that land on it; an update row e lands
  on table row n exactly when the index word of e, read signed, is n. With the operand zero and the index column read
  back to the destination array this is the specification's per-destination sum. Beside it: a bias vector recast as a
  one-row matrix ([128] → [1, 128]) has at (0, j) the vector's entry j.
-/
import proofs.«426099_j50130858279187_1_alg».proof.KernelIdeal
import proofs.«426099_j50130858279187_1_alg».proof.Proof.Spec
import proofs.«426099_j50130858279187_1_alg».proof.Proof.LibRowScatter
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

open scoped BigOperators

namespace Cert.KernelIdeal.Hand

open Cert.KernelIdeal
open Idealize.ShloMosaic Idealize.ShloMosaic.ValueIdx
open Cert.KernelIdeal.Facts₀ Cert.KernelIdeal.Facts

variable [Cert.KernelIdeal.Facts]

/-- The index column: entry (e, 0) of an index array laid down a unit axis is the array's entry e. -/
theorem indexColumn_apply (idx : S640000.Idx → BitVec 32) (e : Fin 640000) :
    (broadcastInDim S640000x1 ![0] bcast_S640000_S640000x1_0 idx : S640000x1.Idx → BitVec 32) (ix2 e (0 : Fin 1))
      = idx (ix1 e) :=
  broadcastInDim_apply _ _ idx _ (ix1 e) (fun a => match a with
    | ⟨0, _⟩ => by
      -- the operand's one axis has 640000 entries, not one: the coordinate read is the result's on axis 0
      show e.val = if (640000 : Nat) = 1 then 0 else e.val
      rw [if_neg (by omega : ¬ ((640000 : Nat) = 1))])

/-- The scatter's operand: the zero pattern broadcast to the table is the extended real 0 at every entry. -/
theorem zeroTable_apply (i : S20000x128.Idx) :
    (broadcastInDim S20000x128 ![] bcast_S_S20000x128 (constant (F := Ideal) S_ .f32 0x00000000#32) : S20000x128.Idx → EReal) i
      = 0 :=
  (broadcastInDim_scalar_apply bcast_S_S20000x128 _ i).trans ((constant_apply _ _).trans Ideal.ofBits_zero_f32)

/-- A bias vector recast as one row: entry (0, j) of the row is entry j of the vector. -/
theorem bias_row (b : S128.Idx → EReal) (j : Fin 128) :
    (shapeCast S1x128 b shapeCasts_S128_S1x128 : S1x128.Idx → EReal) (ValueIdx.ix2 (0 : Fin 1) j) = b (ValueIdx.ix1 j) :=
  shapeCast_a_1a_apply b shapeCasts_S128_S1x128 0 j

/-- At the extended reals the host's accumulating scatter is the exact one: each operand entry plus the sum of the
    update entries that land on it (any shapes, any dimension numbers). -/
theorem scatterAdd_ideal {s si su : Shape} {w : Nat} (d : ScatterDims s si su) (x : s.Idx → EReal) (idx : IVec si w)
    (upd : su.Idx → EReal) :
    (Host.scatterAdd (F := Ideal) (φ := .f32) d x idx upd : s.Idx → EReal) = Ideal.hostScatterAdd d x idx upd := rfl

/-- THE SCATTER STAGE: the scatter-add of the edge rows `u` into the zero table by the destination column is the
    specification's per-destination sum of `u`. -/
theorem scatter_stage (u : S640000x128.Idx → EReal) (dst : S640000.Idx → BitVec 32) :
    (Host.scatterAdd (F := Ideal) scatter_S20000x128_S640000x1_S640000x128_1_0_0_1
        (broadcastInDim S20000x128 ![] bcast_S_S20000x128 (constant (F := Ideal) S_ .f32 0x00000000#32))
        (broadcastInDim S640000x1 ![0] bcast_S640000_S640000x1_0 dst) u : S20000x128.Idx → EReal)
      = Cert.Spec.segsum u dst := by
  funext i
  -- entry (n, j)
  obtain ⟨n, j, rfl⟩ : ∃ (n : Fin 20000) (j : Fin 128), i = ix2 n j := ⟨i 0, i 1, eq_ix2 i⟩
  -- at the extended reals the program's scatter is the exact accumulating scatter
  rw [scatterAdd_ideal]
  -- read at (n, j): the operand there plus the sum over the edges whose index word is n
  refine (Cert.LibRows.scatterAdd_rows2 (N := 20000) (E := 640000) (D := 128)
    scatter_S20000x128_S640000x1_S640000x128_1_0_0_1 rfl rfl rfl rfl _ _ u n j).trans ?_
  -- the operand there is 0, and the index column at (e, 0) is the destination word of e
  rw [zeroTable_apply]
  -- what is left is the specification's sum: the same edges (the same condition on e) and the same terms
  unfold Cert.Spec.segsum
  refine congrArg (HAdd.hAdd (0 : EReal)) ?_
  refine Finset.sum_congr (Finset.ext fun e => ?_) (fun e _ => rfl)
  rw [Finset.mem_filter, Finset.mem_filter, indexColumn_apply]

end Cert.KernelIdeal.Hand

end
-- ==== Proof.KI.ChainB.lean ====
/-
  The value chain of the program from the exit of region 2 to the exit of region 3, against the specification, at the
  extended reals. Given the edge score m at region 2's exit, the edge projection ep at region 1's exit and the node
  projection v after the column slices, with every index word of src and dst inside the table: the per-destination
  sum z of the score (the scatter-add into a zero table by the destination column), the gathered rows v[src] and
  z[dst] (the index-checked row gather, which with indices in range is the plain one), and the two arrays region 3
  leaves, me = m · ep and mx = me · v[src] / z[dst], entry by entry. A buffer is carried from the boundary where it was
  written to the boundary where it is read across the items that do not write it; an argument array holds its launch
  contents at every boundary.
-/
import proofs.«426099_j50130858279187_1_alg».proof.Proof.KI.Vals
import proofs.«426099_j50130858279187_1_alg».proof.Proof.KI.Keep
import proofs.«426099_j50130858279187_1_alg».proof.Proof.KI.Val3
import proofs.«426099_j50130858279187_1_alg».proof.Proof.KI.Take
import proofs.«426099_j50130858279187_1_alg».proof.Proof.KI.ChainTake3
import proofs.«426099_j50130858279187_1_alg».proof.Proof.KI.ChainTake4
import proofs.«426099_j50130858279187_1_alg».proof.Proof.KI.ScatterStage
import proofs.«426099_j50130858279187_1_alg».proof.Proof.Gen.KernelIdeal.Regions
import proofs.«426099_j50130858279187_1_alg».proof.Proof.Spec
import Idealize.ShloMosaic.Lib.StableHlo.Run
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.ShloMosaic.ValueIdx

namespace ChainB

/-! ## The scatter's host stretch, from any entry contents -/

/-- `hostOps3` leaves in `main_v14` the scatter-add of `main_v11` into a zero table by the column of `main_arg15`. -/
theorem host3_v14 (V : Valuation τ sig (Elt Ideal)) :
    (StableHlo.after hostOps3 V (Proc.devRef .tc main_v14) : S20000x128.Idx → EReal)
      = Host.scatterAdd scatter_S20000x128_S640000x1_S640000x128_1_0_0_1
          (broadcastInDim S20000x128 ![] bcast_S_S20000x128 (constant (F := Ideal) S_ .f32 0x00000000#32))
          (broadcastInDim S640000x1 ![0] bcast_S640000_S640000x1_0 (V (Proc.devRef .tc main_arg15)))
          (V (Proc.devRef .tc main_v11)) := by
  after_results <;> rfl

end ChainB

/-! ## From region 2's exit to region 3's exit -/

variable (m : (ℓ : Loc nD τ sig) → Buf (Elt Ideal) ℓ) (ρ : Dev nD → PrngReg) (c : Dev nD)

set_option quotPrecheck false
local notation "A0" => m ((c.tc : Thread nD τ).loc main_arg0)
local notation "A1" => m ((c.tc : Thread nD τ).loc main_arg1)
local notation "A2" => m ((c.tc : Thread nD τ).loc main_arg2)
local notation "A3" => m ((c.tc : Thread nD τ).loc main_arg3)
local notation "A4" => m ((c.tc : Thread nD τ).loc main_arg4)
local notation "A5" => m ((c.tc : Thread nD τ).loc main_arg5)
local notation "A6" => m ((c.tc : Thread nD τ).loc main_arg6)
local notation "A7" => m ((c.tc : Thread nD τ).loc main_arg7)
local notation "A8" => m ((c.tc : Thread nD τ).loc main_arg8)
local notation "A9" => m ((c.tc : Thread nD τ).loc main_arg9)
local notation "A10" => m ((c.tc : Thread nD τ).loc main_arg10)
local notation "A11" => m ((c.tc : Thread nD τ).loc main_arg11)
local notation "A12" => m ((c.tc : Thread nD τ).loc main_arg12)
local notation "A13" => m ((c.tc : Thread nD τ).loc main_arg13)
local notation "A14" => m ((c.tc : Thread nD τ).loc main_arg14)
local notation "A15" => m ((c.tc : Thread nD τ).loc main_arg15)

namespace ChainB

/-! ### The arguments at the boundaries -/

/-- An argument no item writes holds its launch contents at region 2's exit. -/
theorem U7_arg (r : Ref sig .tc) (h : Unwritten r) : U7 m ρ c (Proc.devRef .tc r) = m ((c.tc : Thread nD τ).loc r) := by
  obtain ⟨h0, h1, h2, h3, h4, h5, h6, -⟩ := h
  calc U7 m ρ c (Proc.devRef .tc r)
    _ = U6 m ρ c (Proc.devRef .tc r) := U7_keep m ρ c r h6
    _ = U5 m ρ c (Proc.devRef .tc r) := StableHlo.after_of_writes_sub hostOps2_1 _ hostOps2_1_writes h5
    _ = U4 m ρ c (Proc.devRef .tc r) := StableHlo.after_of_writes_sub hostOps2 _ hostOps2_writes h4
    _ = U3 m ρ c (Proc.devRef .tc r) := U4_keep m ρ c r h3
    _ = U2 m ρ c (Proc.devRef .tc r) := StableHlo.after_of_writes_sub hostOps1 _ hostOps1_writes h2
    _ = U1 m ρ c (Proc.devRef .tc r) := U2_keep m ρ c r h1
    _ = U0 m ρ c (Proc.devRef .tc r) := StableHlo.after_of_writes_sub hostOps0 _ hostOps0_writes h0
    _ = m ((c.tc : Thread nD τ).loc r) := rfl
/-- … after `hostOps3`. -/
theorem U8_arg (r : Ref sig .tc) (h : Unwritten r) : U8 m ρ c (Proc.devRef .tc r) = m ((c.tc : Thread nD τ).loc r) :=
  (StableHlo.after_of_writes_sub hostOps3 _ hostOps3_writes h.2.2.2.2.2.2.2.1).trans (U7_arg m ρ c r h)
/-- … after `hostOps3_1`. -/
theorem U9_arg (r : Ref sig .tc) (h : Unwritten r) : U9 m ρ c (Proc.devRef .tc r) = m ((c.tc : Thread nD τ).loc r) :=
  (StableHlo.after_of_writes_sub hostOps3_1 _ hostOps3_1_writes h.2.2.2.2.2.2.2.2.1).trans (U8_arg m ρ c r h)
/-- … after `hostOps3_2`. -/
theorem U10_arg (r : Ref sig .tc) (h : Unwritten r) : U10 m ρ c (Proc.devRef .tc r) = m ((c.tc : Thread nD τ).loc r) :=
  (StableHlo.after_of_writes_sub hostOps3_2 _ hostOps3_2_writes h.2.2.2.2.2.2.2.2.2.1).trans (U9_arg m ρ c r h)
/-- No item writes the source index array. -/
theorem unwritten_arg14 : Unwritten main_arg14 := by decide
/-- No item writes the destination index array. -/
theorem unwritten_arg15 : Unwritten main_arg15 := by decide

/-! ### From the score to the two weighted edge arrays -/

/-- z, the per-destination sum of the score, after `hostOps3`. -/
theorem z_U8 (hscore : U7 m ρ c (Proc.devRef .tc main_v11) = Cert.Spec.score A0 A2 A3 A4 A5 A14 A15) :
    (U8 m ρ c (Proc.devRef .tc main_v14) : S20000x128.Idx → EReal) = Cert.Spec.segsum (Cert.Spec.score A0 A2 A3 A4 A5 A14 A15) A15 := by
  refine (host3_v14 (U7 m ρ c)).trans ?_
  rw [hscore, U7_arg m ρ c main_arg15 unwritten_arg15]
  exact scatter_stage _ _

/-- v reaches `hostOps3_1` as region 0 and the slice left it. -/
theorem v_U8 (hv : U3 m ρ c (Proc.devRef .tc main_v6) = Cert.Spec.lin A0 A6 A7) : U8 m ρ c (Proc.devRef .tc main_v6) = Cert.Spec.lin A0 A6 A7 := by
  calc U8 m ρ c (Proc.devRef .tc main_v6)
    _ = U7 m ρ c (Proc.devRef .tc main_v6) := StableHlo.after_of_writes_sub hostOps3 _ hostOps3_writes (by decide)
    _ = U6 m ρ c (Proc.devRef .tc main_v6) := U7_keep m ρ c main_v6 (by decide)
    _ = U5 m ρ c (Proc.devRef .tc main_v6) := StableHlo.after_of_writes_sub hostOps2_1 _ hostOps2_1_writes (by decide)
    _ = U4 m ρ c (Proc.devRef .tc main_v6) := StableHlo.after_of_writes_sub hostOps2 _ hostOps2_writes (by decide)
    _ = U3 m ρ c (Proc.devRef .tc main_v6) := U4_keep m ρ c main_v6 (by decide)
    _ = Cert.Spec.lin A0 A6 A7 := hv

/-- v[src] after `hostOps3_1`. -/
theorem vsrc_U9 (hsrc : ∀ e : Fin 640000, 0 ≤ (A14 (ValueIdx.ix1 e)).toInt ∧ (A14 (ValueIdx.ix1 e)).toInt < 20000) (hv : U3 m ρ c (Proc.devRef .tc main_v6) = Cert.Spec.lin A0 A6 A7) :
    (U9 m ρ c (Proc.devRef .tc main_v15) : S640000x128.Idx → EReal) = Cert.Spec.gat (Cert.Spec.lin A0 A6 A7) A14 := by
  refine (h3_v15 (U8 m ρ c)).trans ?_
  rw [v_U8 m ρ c hv, U8_arg m ρ c main_arg14 unwritten_arg14]
  exact takeTerm_eq_gat _ _ hsrc

/-- z[dst] after `hostOps3_2`. -/
theorem zdst_U10 (hdst : ∀ e : Fin 640000, 0 ≤ (A15 (ValueIdx.ix1 e)).toInt ∧ (A15 (ValueIdx.ix1 e)).toInt < 20000) (hscore : U7 m ρ c (Proc.devRef .tc main_v11) = Cert.Spec.score A0 A2 A3 A4 A5 A14 A15) :
    (U10 m ρ c (Proc.devRef .tc main_v16) : S640000x128.Idx → EReal)
      = Cert.Spec.gat (Cert.Spec.segsum (Cert.Spec.score A0 A2 A3 A4 A5 A14 A15) A15) A15 := by
  refine (h3_v16 (U9 m ρ c)).trans ?_
  rw [show U9 m ρ c (Proc.devRef .tc main_v14) = U8 m ρ c (Proc.devRef .tc main_v14) from StableHlo.after_of_writes_sub hostOps3_1 _ hostOps3_1_writes (by decide),
    z_U8 m ρ c hscore, U9_arg m ρ c main_arg15 unwritten_arg15]
  exact takeTerm_eq_gat _ _ hdst

/-- The score at region 3's entry. -/
theorem score_U10 (hscore : U7 m ρ c (Proc.devRef .tc main_v11) = Cert.Spec.score A0 A2 A3 A4 A5 A14 A15) : U10 m ρ c (Proc.devRef .tc main_v11) = Cert.Spec.score A0 A2 A3 A4 A5 A14 A15 := by
  calc U10 m ρ c (Proc.devRef .tc main_v11)
    _ = U9 m ρ c (Proc.devRef .tc main_v11) := StableHlo.after_of_writes_sub hostOps3_2 _ hostOps3_2_writes (by decide)
    _ = U8 m ρ c (Proc.devRef .tc main_v11) := StableHlo.after_of_writes_sub hostOps3_1 _ hostOps3_1_writes (by decide)
    _ = U7 m ρ c (Proc.devRef .tc main_v11) := StableHlo.after_of_writes_sub hostOps3 _ hostOps3_writes (by decide)
    _ = Cert.Spec.score A0 A2 A3 A4 A5 A14 A15 := hscore

/-- The edge projection at region 3's entry. -/
theorem ep_U10 (hep : U4 m ρ c (Proc.devRef .tc main_v8) = Cert.Spec.lin A1 A8 A9) : U10 m ρ c (Proc.devRef .tc main_v8) = Cert.Spec.lin A1 A8 A9 := by
  calc U10 m ρ c (Proc.devRef .tc main_v8)
    _ = U9 m ρ c (Proc.devRef .tc main_v8) := StableHlo.after_of_writes_sub hostOps3_2 _ hostOps3_2_writes (by decide)
    _ = U8 m ρ c (Proc.devRef .tc main_v8) := StableHlo.after_of_writes_sub hostOps3_1 _ hostOps3_1_writes (by decide)
    _ = U7 m ρ c (Proc.devRef .tc main_v8) := StableHlo.after_of_writes_sub hostOps3 _ hostOps3_writes (by decide)
    _ = U6 m ρ c (Proc.devRef .tc main_v8) := U7_keep m ρ c main_v8 (by decide)
    _ = U5 m ρ c (Proc.devRef .tc main_v8) := StableHlo.after_of_writes_sub hostOps2_1 _ hostOps2_1_writes (by decide)
    _ = U4 m ρ c (Proc.devRef .tc main_v8) := StableHlo.after_of_writes_sub hostOps2 _ hostOps2_writes (by decide)
    _ = Cert.Spec.lin A1 A8 A9 := hep

/-- v[src] at region 3's entry. -/
theorem vsrc_U10 (hsrc : ∀ e : Fin 640000, 0 ≤ (A14 (ValueIdx.ix1 e)).toInt ∧ (A14 (ValueIdx.ix1 e)).toInt < 20000) (hv : U3 m ρ c (Proc.devRef .tc main_v6) = Cert.Spec.lin A0 A6 A7) :
    (U10 m ρ c (Proc.devRef .tc main_v15) : S640000x128.Idx → EReal) = Cert.Spec.gat (Cert.Spec.lin A0 A6 A7) A14 :=
  (StableHlo.after_of_writes_sub hostOps3_2 _ hostOps3_2_writes (by decide)).trans (vsrc_U9 m ρ c hsrc hv)

/-- Equal operands give equal entrywise quotients. -/
theorem quot3_congr {a a' b b' e e' d d' : S640000x128.Idx → EReal} (ha : a = a') (hb : b = b') (he : e = e') (hd : d = d') :
    quot3 a b e d = quot3 a' b' e' d' := by
  subst ha hb he hd; rfl

/-- me at region 3's exit. -/
theorem me_U11 (hscore : U7 m ρ c (Proc.devRef .tc main_v11) = Cert.Spec.score A0 A2 A3 A4 A5 A14 A15) (hep : U4 m ρ c (Proc.devRef .tc main_v8) = Cert.Spec.lin A1 A8 A9) :
    (U11 m ρ c (Proc.devRef .tc main_v17_0) : S640000x128.Idx → EReal) = Cert.Spec.me A0 A1 A2 A3 A4 A5 A8 A9 A14 A15 := by
  refine ((U11_arr m ρ c 4).trans (final3_4 (T10 m ρ) c)).trans ?_
  exact congrArg₂ prod3 (score_U10 m ρ c hscore) (ep_U10 m ρ c hep)

/-- mx at region 3's exit. -/
theorem mx_U11 (hsrc : ∀ e : Fin 640000, 0 ≤ (A14 (ValueIdx.ix1 e)).toInt ∧ (A14 (ValueIdx.ix1 e)).toInt < 20000) (hdst : ∀ e : Fin 640000, 0 ≤ (A15 (ValueIdx.ix1 e)).toInt ∧ (A15 (ValueIdx.ix1 e)).toInt < 20000) (hscore : U7 m ρ c (Proc.devRef .tc main_v11) = Cert.Spec.score A0 A2 A3 A4 A5 A14 A15) (hep : U4 m ρ c (Proc.devRef .tc main_v8) = Cert.Spec.lin A1 A8 A9) (hv : U3 m ρ c (Proc.devRef .tc main_v6) = Cert.Spec.lin A0 A6 A7) :
    (U11 m ρ c (Proc.devRef .tc main_v17_1) : S640000x128.Idx → EReal) = Cert.Spec.mx A0 A1 A2 A3 A4 A5 A6 A7 A8 A9 A14 A15 := by
  refine ((U11_arr m ρ c 5).trans (final3_5 (T10 m ρ) c)).trans ?_
  exact quot3_congr (score_U10 m ρ c hscore) (ep_U10 m ρ c hep) (vsrc_U10 m ρ c hsrc hv) (zdst_U10 m ρ c hdst hscore)

end ChainB

open ChainB

/-- me at region 3's exit is the specification's. -/
theorem end_me (hsrc : ∀ e : Fin 640000, 0 ≤ (A14 (ValueIdx.ix1 e)).toInt ∧ (A14 (ValueIdx.ix1 e)).toInt < 20000) (hdst : ∀ e : Fin 640000, 0 ≤ (A15 (ValueIdx.ix1 e)).toInt ∧ (A15 (ValueIdx.ix1 e)).toInt < 20000) (hscore : U7 m ρ c (Proc.devRef .tc main_v11) = Cert.Spec.score A0 A2 A3 A4 A5 A14 A15) (hep : U4 m ρ c (Proc.devRef .tc main_v8) = Cert.Spec.lin A1 A8 A9) (hv : U3 m ρ c (Proc.devRef .tc main_v6) = Cert.Spec.lin A0 A6 A7) :
    U11 m ρ c (Proc.devRef .tc main_v17_0) = Cert.Spec.me A0 A1 A2 A3 A4 A5 A8 A9 A14 A15 :=
  me_U11 m ρ c hscore hep

/-- mx at region 3's exit is the specification's. -/
theorem end_mx (hsrc : ∀ e : Fin 640000, 0 ≤ (A14 (ValueIdx.ix1 e)).toInt ∧ (A14 (ValueIdx.ix1 e)).toInt < 20000) (hdst : ∀ e : Fin 640000, 0 ≤ (A15 (ValueIdx.ix1 e)).toInt ∧ (A15 (ValueIdx.ix1 e)).toInt < 20000) (hscore : U7 m ρ c (Proc.devRef .tc main_v11) = Cert.Spec.score A0 A2 A3 A4 A5 A14 A15) (hep : U4 m ρ c (Proc.devRef .tc main_v8) = Cert.Spec.lin A1 A8 A9) (hv : U3 m ρ c (Proc.devRef .tc main_v6) = Cert.Spec.lin A0 A6 A7) :
    U11 m ρ c (Proc.devRef .tc main_v17_1) = Cert.Spec.mx A0 A1 A2 A3 A4 A5 A6 A7 A8 A9 A14 A15 :=
  mx_U11 m ρ c hsrc hdst hscore hep hv

end Cert.KernelIdeal.Hand

end
-- ==== Proof.KI.Pay4.lean ====
/-
  The payload of region 4 (the projection of the gathered node sums) read at one entry, at the ideal values: the change of format is the identity, the
  product into the zero accumulator is the sum over the contracted axis, and the one-row bias is read at the entry's column.
-/
import proofs.«426099_j50130858279187_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx

/-- The left operand's row coordinate is the output's row. -/
theorem lhs_k4_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- The left operand's column coordinate is the contraction index. -/
theorem lhs_k4_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- The right operand's row coordinate is the contraction index. -/
theorem rhs_k4_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- The right operand's column coordinate is the output's column. -/
theorem rhs_k4_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The product into the zero accumulator, at an entry: the sum over the contracted axis. -/
theorem matmul_k4_apply (a : FVec Ideal S2000x128 .bf16) (b : FVec Ideal S128x128 .bf16) (p : Fin 2000) (q : Fin 128) :
    matmul dot_S2000x128_S128x128_S2000x128_1_0_0_1_n_n none a b (constant S2000x128 .f32 0x00000000#32) (ix2 p q)
      = ∑ k : Fin 128, a (ix2 p k) * b (ix2 k q) := by
  show FloatOps.matmul dot_S2000x128_S128x128_S2000x128_1_0_0_1_n_n none a b (constant S2000x128 .f32 0x00000000#32) (ix2 p q) = _
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_k4_0 _ _
    | ⟨1, _⟩ => exact (lhs_k4_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_k4_0 _ _).trans hk
    | ⟨1, _⟩ => exact rhs_k4_1 _ _)
  rw [el, er]

/-- A one-row array spread over the block's rows reads its row's entry of the same column. -/
theorem bcast_row_k4_apply (x : S1x128.Idx → EReal) (p : Fin 2000) (q : Fin 128) :
    broadcastTo S2000x128 x broadcasts_S1x128_S2000x128 (ix2 p q) = x (ix2 (0 : Fin 1) q) :=
  broadcastTo_apply x broadcasts_S1x128_S2000x128 (ix2 p q) (ix2 (0 : Fin 1) q) (fun a => match a with
    | ⟨0, _⟩ => by show 0 = if (1 : Nat) = 1 then 0 else _; rw [if_pos rfl]
    | ⟨1, _⟩ => by show q.val = if (128 : Nat) = 1 then 0 else q.val; rw [if_neg (by decide)])

/-- The payload at an entry: the row of the input block against the column of the weights, plus the bias of that column. -/
theorem k4_pay1_apply (x0 : Vec Ideal S2000x128 .f32) (x1 : Vec Ideal S128x128 .f32) (x2 : Vec Ideal S1x128 .f32) (p : Fin 2000) (q : Fin 128) :
    k4_pay1 x0 x1 x2 (ix2 p q) = (∑ k : Fin 128, x0 (ix2 p k) * x1 (ix2 k q)) + x2 (ix2 (0 : Fin 1) q) := by
  unfold k4_pay1
  refine (addf_apply _ _ _).trans ?_
  refine congrArg₂ (· + ·) ((matmul_k4_apply _ _ p q).trans ?_) ((bcast_row_k4_apply _ p q).trans ?_)
  · refine Finset.sum_congr rfl fun k _ => ?_
    rw [shapeCast_self]
    rfl
  · rw [shapeCast_self]

end Cert.KernelIdeal.Hand

end
-- ==== Proof.KI.Val4.lean ====
/-
  What region 4 (the projection of the gathered node sums) leaves in its output array, at the ideal values: ONE function of the region's three input arrays as
  it finds them, entry by entry — row `i 0` of the input array against column `i 1` of the weights, plus the bias of that
  column. Each grid point writes back its block of 2000 rows of that function; the 10 blocks tile the 20000 rows.
-/
import proofs.«426099_j50130858279187_1_alg».proof.Proof.KI.Region4
import proofs.«426099_j50130858279187_1_alg».proof.Proof.KI.Pay4
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The zero offsets of a whole-block rectangle. -/
theorem off00_4 : (![0, 0] : Fin 2 → Nat) = fun _ => 0 := funext fun a => by fin_cases a <;> rfl

/-- The projection of whole arrays: row `i 0` of `a` against column `i 1` of `w`, plus the bias row's entry of that column. -/
def lin4 (a : S20000x128.Idx → EReal) (w : S128x128.Idx → EReal) (b : S1x128.Idx → EReal) : S20000x128.Idx → EReal :=
  fun i => (∑ k : Fin 128, a (ix2 (i 0) k) * w (ix2 k (i 1))) + b (ix2 (0 : Fin 1) (i 1))

/-- The same at an entry given by its coordinates. -/
theorem lin4_ix2 (a : S20000x128.Idx → EReal) (w : S128x128.Idx → EReal) (b : S1x128.Idx → EReal) (r : Fin 20000) (q : Fin 128) :
    lin4 a w b (ix2 r q) = (∑ k : Fin 128, a (ix2 r k) * w (ix2 k q)) + b (ix2 (0 : Fin 1) q) := rfl

/-- The projection at any entry, spelt out. -/
theorem lin4_apply (a : S20000x128.Idx → EReal) (w : S128x128.Idx → EReal) (b : S1x128.Idx → EReal) (i : S20000x128.Idx) :
    lin4 a w b i = (∑ k : Fin 128, a (ix2 (i 0) k) * w (ix2 k (i 1))) + b (ix2 (0 : Fin 1) (i 1)) := rfl

/-- The payload of blocks that are restrictions of the arrays is the restriction of the projection: at row `p` of the
    block whose rows are the array's rows from `r - p` on. -/
theorem lin4_block (a : S20000x128.Idx → EReal) (w : S128x128.Idx → EReal) (b : S1x128.Idx → EReal)
    (x0 : Vec Ideal S2000x128 .f32) (x1 : Vec Ideal S128x128 .f32) (x2 : Vec Ideal S1x128 .f32)
    (p : Fin 2000) (q : Fin 128) (r : Fin 20000)
    (h0 : ∀ k : Fin 128, x0 (ix2 p k) = a (ix2 r k))
    (h1 : ∀ k : Fin 128, x1 (ix2 k q) = w (ix2 k q))
    (h2 : x2 (ix2 (0 : Fin 1) q) = b (ix2 (0 : Fin 1) q)) :
    k4_pay1 x0 x1 x2 (ix2 p q) = lin4 a w b (ix2 r q) := by
  refine (k4_pay1_apply x0 x1 x2 p q).trans ?_
  refine Eq.trans ?_ (lin4_ix2 a w b r q).symm
  exact congrArg₂ (· + ·) (Finset.sum_congr rfl fun k _ => by rw [h0 k, h1 k]) h2

/-- The printed index maps, decided over the grid: the input and the output move one block of rows per point, the weights
    and the bias stay. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- WHAT POINT `t` WRITES BACK is block `t` of the projection of the arrays as the region finds them. -/
theorem flushed4_eq (c : Dev nD) (t : Fin cfg4.N) :
    (dat4 V c).flushed 3 t
      = ((cfg4.win 3).blk t).view.read (Elt Ideal) (lin4 (V c main_v20) (V c main_arg10) (V c main_v21)) := by
  show (cfg4.win 3).cut (grid4.coords t) ((dat4 V c).after 3 t) = _
  rw [after4_3]
  unfold out4_3
  rw [View.canon_unit_zero off00_4]
  simp only [View.ld_unit_zero (S := S2000x128) off00_4, View.ld_unit_zero (S := S128x128) off00_4, View.ld_unit_zero (S := S1x128) off00_4]
  obtain ⟨e00, e01, e10, e11, e20, e21, e30, e31⟩ := idx_facts4 t
  have ht : t.val < 10 := t.isLt.trans_eq N_4
  funext j
  obtain ⟨p, q, rfl⟩ : ∃ (p : Fin 2000) (q : Fin 128), j = ix2 p q := ⟨j 0, j 1, @eq_ix2 2000 128 j⟩
  have hp : p.val < 2000 := p.isLt
  have hq : q.val < 128 := q.isLt
  have hr : t.val * 2000 + p.val < 20000 := by omega
  show k4_pay1 (iblk4 V c 0 t) (iblk4 V c 1 t) (iblk4 V c 2 t) (ix2 p q)
      = lin4 (V c main_v20) (V c main_arg10) (V c main_v21) (((cfg4.win 3).blk t).view.emb (ix2 p q))
  have hemb : ((cfg4.win 3).blk t).view.emb (ix2 p q) = (ix2 (⟨t.val * 2000 + p.val, hr⟩ : Fin 20000) q : S20000x128.Idx) := by
    funext a; apply Fin.ext
    match a with
    | ⟨0, _⟩ => show win4_3.index t (0 : Fin 2) * 2000 + 1 * p.val = t.val * 2000 + p.val; omega
    | ⟨1, _⟩ => show win4_3.index t (1 : Fin 2) * 128 + 1 * q.val = q.val; omega
  refine Eq.trans ?_ (congrArg (lin4 (V c main_v20) (V c main_arg10) (V c main_v21)) hemb.symm)
  refine lin4_block (V c main_v20) (V c main_arg10) (V c main_v21) (iblk4 V c 0 t) (iblk4 V c 1 t) (iblk4 V c 2 t) p q ⟨t.val * 2000 + p.val, hr⟩ ?_ ?_ ?_
  · intro k
    have hk : k.val < 128 := k.isLt
    show V c main_v20 (((cfg4.win 0).blk t).view.emb (ix2 p k)) = V c main_v20 (ix2 (⟨t.val * 2000 + p.val, hr⟩ : Fin 20000) k)
    have h : ((cfg4.win 0).blk t).view.emb (ix2 p k) = (ix2 (⟨t.val * 2000 + p.val, hr⟩ : Fin 20000) k : S20000x128.Idx) := by
      funext a; apply Fin.ext
      match a with
      | ⟨0, _⟩ => show win4_0.index t (0 : Fin 2) * 2000 + 1 * p.val = t.val * 2000 + p.val; omega
      | ⟨1, _⟩ => show win4_0.index t (1 : Fin 2) * 128 + 1 * k.val = k.val; omega
    rw [h]
  · intro k
    have hk : k.val < 128 := k.isLt
    show V c main_arg10 (((cfg4.win 1).blk t).view.emb (ix2 k q)) = V c main_arg10 (ix2 k q)
    have h : ((cfg4.win 1).blk t).view.emb (ix2 k q) = (ix2 k q : S128x128.Idx) := by
      funext a; apply Fin.ext
      match a with
      | ⟨0, _⟩ => show win4_1.index t (0 : Fin 2) * 128 + 1 * k.val = k.val; omega
      | ⟨1, _⟩ => show win4_1.index t (1 : Fin 2) * 128 + 1 * q.val = q.val; omega
    rw [h]
  · show V c main_v21 (((cfg4.win 2).blk t).view.emb (ix2 (0 : Fin 1) q)) = V c main_v21 (ix2 (0 : Fin 1) q)
    have h : ((cfg4.win 2).blk t).view.emb (ix2 (0 : Fin 1) q) = (ix2 (0 : Fin 1) q : S1x128.Idx) := by
      funext a; apply Fin.ext
      match a with
      | ⟨0, _⟩ => show win4_2.index t (0 : Fin 2) * 1 + 1 * 0 = 0; omega
      | ⟨1, _⟩ => show win4_2.index t (1 : Fin 2) * 128 + 1 * q.val = q.val; omega
    rw [h]

/-- An index of the output array is in point `t`'s block iff each coordinate is in the block's range on its axis. -/
theorem mem_blk4 (t : Fin cfg4.N) (i : S20000x128.Idx) :
    i ∈ ((cfg4.win 3).blk t).view.set ↔ ∀ a : Fin 2, win4_3.index t a * S2000x128.size a ≤ (i a).val ∧ (i a).val < win4_3.index t a * S2000x128.size a + S2000x128.size a := by
  show i ∈ ((View.whole main_v22).slice (win4_3.rect t)).set ↔ _
  rw [View.set_slice_whole, Rect.mem_set_unit]
  exact Iff.rfl

/-- Every entry of the output array is in the block of the point its row's block number names. -/
theorem cover4 (i : S20000x128.Idx) : ∃ t : Fin cfg4.N, (cfg4.win 3).flush t = true ∧ i ∈ ((cfg4.win 3).blk t).view.set := by
  have hi0 : (i 0).val < 20000 := (i 0).isLt
  have hi1 : (i 1).val < 128 := (i 1).isLt
  obtain ⟨t, ht⟩ : ∃ t : Fin cfg4.N, t.val = (i 0).val / 2000 :=
    ⟨⟨(i 0).val / 2000, (show (i 0).val / 2000 < 10 by omega).trans_eq N_4.symm⟩, rfl⟩
  obtain ⟨e00, e01, e10, e11, e20, e21, e30, e31⟩ := idx_facts4 t
  refine ⟨t, flush4_3 t, ?_⟩
  rw [mem_blk4]
  intro a
  match a with
  | ⟨0, _⟩ => show win4_3.index t (0 : Fin 2) * 2000 ≤ (i 0).val ∧ (i 0).val < win4_3.index t (0 : Fin 2) * 2000 + 2000; omega
  | ⟨1, _⟩ => show win4_3.index t (1 : Fin 2) * 128 ≤ (i 1).val ∧ (i 1).val < win4_3.index t (1 : Fin 2) * 128 + 128; omega

/-- THE OUTPUT ARRAY after the region: the projection `lin4` of the three input arrays as the region finds them
    (`lin4_apply` spells it at an entry: the sum over `k` of the input at `(i 0, k)` times the weights at `(k, i 1)`, plus the
    bias at `(0, i 1)`). -/
theorem final4 (c : Dev nD) : (dat4 (F := Ideal) V c).arrAt 3 cfg4.N = lin4 (V c main_v20) (V c main_arg10) (V c main_v21) :=
  (dat4 V c).arrAt_eq_of_cover 3 (lin4 (V c main_v20) (V c main_arg10) (V c main_v21)) (fun t _ => flushed4_eq V c t) cover4

/-- The same array read at an entry. -/
theorem final4_apply (c : Dev nD) (i : S20000x128.Idx) :
    ((dat4 (F := Ideal) V c).arrAt 3 cfg4.N : S20000x128.Idx → EReal) i = lin4 (V c main_v20) (V c main_arg10) (V c main_v21) i :=
  congrFun (final4 V c) i

end Cert.KernelIdeal.Hand

end
-- ==== Proof.KI.Pay5.lean ====
/-
  The payload of region 5 (the projection of the gated edge messages) read at one entry, at the ideal values: the change of format is the identity, the
  product into the zero accumulator is the sum over the contracted axis, and the one-row bias is read at the entry's column.
-/
import proofs.«426099_j50130858279187_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx

/-- The left operand's row coordinate is the output's row. -/
theorem lhs_k5_0 (i : S8000x128.Idx) (q : dot_S8000x128_S128x128_S8000x128_1_0_0_1_n_n.contr.Idx) :
    (dot_S8000x128_S128x128_S8000x128_1_0_0_1_n_n.lhsIdx i q 0).val = (i 0).val := by
  unfold DotDims.lhsIdx
  rw [dif_neg (show ¬(0 : Fin S8000x128.rank) ∈ dot_S8000x128_S128x128_S8000x128_1_0_0_1_n_n.lhsBatch by decide), dif_pos (show (0 : Fin S8000x128.rank) ∈ dot_S8000x128_S128x128_S8000x128_1_0_0_1_n_n.lhsNonContracting by decide)]
  rfl
/-- The left operand's column coordinate is the contraction index. -/
theorem lhs_k5_1 (i : S8000x128.Idx) (q : dot_S8000x128_S128x128_S8000x128_1_0_0_1_n_n.contr.Idx) :
    (dot_S8000x128_S128x128_S8000x128_1_0_0_1_n_n.lhsIdx i q 1).val = (q ⟨0, by decide⟩).val :=
  dot_S8000x128_S128x128_S8000x128_1_0_0_1_n_n.lhsIdx_val_of_single rfl i q
/-- The right operand's row coordinate is the contraction index. -/
theorem rhs_k5_0 (i : S8000x128.Idx) (q : dot_S8000x128_S128x128_S8000x128_1_0_0_1_n_n.contr.Idx) :
    (dot_S8000x128_S128x128_S8000x128_1_0_0_1_n_n.rhsIdx i q 0).val = (q ⟨0, by decide⟩).val :=
  dot_S8000x128_S128x128_S8000x128_1_0_0_1_n_n.rhsIdx_val_of_single rfl i q
/-- The right operand's column coordinate is the output's column. -/
theorem rhs_k5_1 (i : S8000x128.Idx) (q : dot_S8000x128_S128x128_S8000x128_1_0_0_1_n_n.contr.Idx) :
    (dot_S8000x128_S128x128_S8000x128_1_0_0_1_n_n.rhsIdx i q 1).val = (i 1).val := by
  unfold DotDims.rhsIdx
  rw [dif_neg (show ¬(1 : Fin S128x128.rank) ∈ dot_S8000x128_S128x128_S8000x128_1_0_0_1_n_n.rhsBatch by decide), dif_pos (show (1 : Fin S128x128.rank) ∈ dot_S8000x128_S128x128_S8000x128_1_0_0_1_n_n.rhsNonContracting by decide)]
  rfl

/-- The product into the zero accumulator, at an entry: the sum over the contracted axis. -/
theorem matmul_k5_apply (a : FVec Ideal S8000x128 .bf16) (b : FVec Ideal S128x128 .bf16) (p : Fin 8000) (q : Fin 128) :
    matmul dot_S8000x128_S128x128_S8000x128_1_0_0_1_n_n none a b (constant S8000x128 .f32 0x00000000#32) (ix2 p q)
      = ∑ k : Fin 128, a (ix2 p k) * b (ix2 k q) := by
  show FloatOps.matmul dot_S8000x128_S128x128_S8000x128_1_0_0_1_n_n none a b (constant S8000x128 .f32 0x00000000#32) (ix2 p q) = _
  rw [Ideal.matmul_constant_zero_apply, ← Equiv.sum_comp (contrEquiv1 dot_S8000x128_S128x128_S8000x128_1_0_0_1_n_n 128 rfl rfl).symm]
  refine Finset.sum_congr rfl fun k _ => ?_
  have hk := contrEquiv1_symm_val dot_S8000x128_S128x128_S8000x128_1_0_0_1_n_n 128 rfl rfl k
  have el : dot_S8000x128_S128x128_S8000x128_1_0_0_1_n_n.lhsIdx (ix2 p q) ((contrEquiv1 dot_S8000x128_S128x128_S8000x128_1_0_0_1_n_n 128 rfl rfl).symm k) = ix2 p k := funext fun a => Fin.ext (by
    match a with
    | ⟨0, _⟩ => exact lhs_k5_0 _ _
    | ⟨1, _⟩ => exact (lhs_k5_1 _ _).trans hk)
  have er : dot_S8000x128_S128x128_S8000x128_1_0_0_1_n_n.rhsIdx (ix2 p q) ((contrEquiv1 dot_S8000x128_S128x128_S8000x128_1_0_0_1_n_n 128 rfl rfl).symm k) = ix2 k q := funext fun a => Fin.ext (by
    match a with
    | ⟨0, _⟩ => exact (rhs_k5_0 _ _).trans hk
    | ⟨1, _⟩ => exact rhs_k5_1 _ _)
  rw [el, er]

/-- A one-row array spread over the block's rows reads its row's entry of the same column. -/
theorem bcast_row_k5_apply (x : S1x128.Idx → EReal) (p : Fin 8000) (q : Fin 128) :
    broadcastTo S8000x128 x broadcasts_S1x128_S8000x128 (ix2 p q) = x (ix2 (0 : Fin 1) q) :=
  broadcastTo_apply x broadcasts_S1x128_S8000x128 (ix2 p q) (ix2 (0 : Fin 1) q) (fun a => match a with
    | ⟨0, _⟩ => by show 0 = if (1 : Nat) = 1 then 0 else _; rw [if_pos rfl]
    | ⟨1, _⟩ => by show q.val = if (128 : Nat) = 1 then 0 else q.val; rw [if_neg (by decide)])

/-- The payload at an entry: the row of the input block against the column of the weights, plus the bias of that column. -/
theorem k5_pay1_apply (x0 : Vec Ideal S8000x128 .f32) (x1 : Vec Ideal S128x128 .f32) (x2 : Vec Ideal S1x128 .f32) (p : Fin 8000) (q : Fin 128) :
    k5_pay1 x0 x1 x2 (ix2 p q) = (∑ k : Fin 128, x0 (ix2 p k) * x1 (ix2 k q)) + x2 (ix2 (0 : Fin 1) q) := by
  unfold k5_pay1
  refine (addf_apply _ _ _).trans ?_
  refine congrArg₂ (· + ·) ((matmul_k5_apply _ _ p q).trans ?_) ((bcast_row_k5_apply _ p q).trans ?_)
  · refine Finset.sum_congr rfl fun k _ => ?_
    rw [shapeCast_self]
    rfl
  · rw [shapeCast_self]

end Cert.KernelIdeal.Hand

end
-- ==== Proof.KI.Val5.lean ====
/-
  What region 5 (the projection of the gated edge messages) leaves in its output array, at the ideal values: ONE function of the region's three input arrays as
  it finds them, entry by entry — row `i 0` of the input array against column `i 1` of the weights, plus the bias of that
  column. Each grid point writes back its block of 8000 rows of that function; the 80 blocks tile the 640000 rows.
-/
import proofs.«426099_j50130858279187_1_alg».proof.Proof.KI.Region5
import proofs.«426099_j50130858279187_1_alg».proof.Proof.KI.Pay5
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The zero offsets of a whole-block rectangle. -/
theorem off00_5 : (![0, 0] : Fin 2 → Nat) = fun _ => 0 := funext fun a => by fin_cases a <;> rfl

/-- The projection of whole arrays: row `i 0` of `a` against column `i 1` of `w`, plus the bias row's entry of that column. -/
def lin5 (a : S640000x128.Idx → EReal) (w : S128x128.Idx → EReal) (b : S1x128.Idx → EReal) : S640000x128.Idx → EReal :=
  fun i => (∑ k : Fin 128, a (ix2 (i 0) k) * w (ix2 k (i 1))) + b (ix2 (0 : Fin 1) (i 1))

/-- The same at an entry given by its coordinates. -/
theorem lin5_ix2 (a : S640000x128.Idx → EReal) (w : S128x128.Idx → EReal) (b : S1x128.Idx → EReal) (r : Fin 640000) (q : Fin 128) :
    lin5 a w b (ix2 r q) = (∑ k : Fin 128, a (ix2 r k) * w (ix2 k q)) + b (ix2 (0 : Fin 1) q) := rfl

/-- The projection at any entry, spelt out. -/
theorem lin5_apply (a : S640000x128.Idx → EReal) (w : S128x128.Idx → EReal) (b : S1x128.Idx → EReal) (i : S640000x128.Idx) :
    lin5 a w b i = (∑ k : Fin 128, a (ix2 (i 0) k) * w (ix2 k (i 1))) + b (ix2 (0 : Fin 1) (i 1)) := rfl

/-- The payload of blocks that are restrictions of the arrays is the restriction of the projection: at row `p` of the
    block whose rows are the array's rows from `r - p` on. -/
theorem lin5_block (a : S640000x128.Idx → EReal) (w : S128x128.Idx → EReal) (b : S1x128.Idx → EReal)
    (x0 : Vec Ideal S8000x128 .f32) (x1 : Vec Ideal S128x128 .f32) (x2 : Vec Ideal S1x128 .f32)
    (p : Fin 8000) (q : Fin 128) (r : Fin 640000)
    (h0 : ∀ k : Fin 128, x0 (ix2 p k) = a (ix2 r k))
    (h1 : ∀ k : Fin 128, x1 (ix2 k q) = w (ix2 k q))
    (h2 : x2 (ix2 (0 : Fin 1) q) = b (ix2 (0 : Fin 1) q)) :
    k5_pay1 x0 x1 x2 (ix2 p q) = lin5 a w b (ix2 r q) := by
  refine (k5_pay1_apply x0 x1 x2 p q).trans ?_
  refine Eq.trans ?_ (lin5_ix2 a w b r q).symm
  exact congrArg₂ (· + ·) (Finset.sum_congr rfl fun k _ => by rw [h0 k, h1 k]) h2

/-- The printed index maps, decided over the grid: the input and the output move one block of rows per point, the weights
    and the bias stay. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- WHAT POINT `t` WRITES BACK is block `t` of the projection of the arrays as the region finds them. -/
theorem flushed5_eq (c : Dev nD) (t : Fin cfg5.N) :
    (dat5 V c).flushed 3 t
      = ((cfg5.win 3).blk t).view.read (Elt Ideal) (lin5 (V c main_v17_0) (V c main_arg12) (V c main_v23)) := by
  show (cfg5.win 3).cut (grid5.coords t) ((dat5 V c).after 3 t) = _
  rw [after5_3]
  unfold out5_3
  rw [View.canon_unit_zero off00_5]
  simp only [View.ld_unit_zero (S := S8000x128) off00_5, View.ld_unit_zero (S := S128x128) off00_5, View.ld_unit_zero (S := S1x128) off00_5]
  obtain ⟨e00, e01, e10, e11, e20, e21, e30, e31⟩ := idx_facts5 t
  have ht : t.val < 80 := t.isLt.trans_eq N_5
  funext j
  obtain ⟨p, q, rfl⟩ : ∃ (p : Fin 8000) (q : Fin 128), j = ix2 p q := ⟨j 0, j 1, @eq_ix2 8000 128 j⟩
  have hp : p.val < 8000 := p.isLt
  have hq : q.val < 128 := q.isLt
  have hr : t.val * 8000 + p.val < 640000 := by omega
  show k5_pay1 (iblk5 V c 0 t) (iblk5 V c 1 t) (iblk5 V c 2 t) (ix2 p q)
      = lin5 (V c main_v17_0) (V c main_arg12) (V c main_v23) (((cfg5.win 3).blk t).view.emb (ix2 p q))
  have hemb : ((cfg5.win 3).blk t).view.emb (ix2 p q) = (ix2 (⟨t.val * 8000 + p.val, hr⟩ : Fin 640000) q : S640000x128.Idx) := by
    funext a; apply Fin.ext
    match a with
    | ⟨0, _⟩ => show win5_3.index t (0 : Fin 2) * 8000 + 1 * p.val = t.val * 8000 + p.val; omega
    | ⟨1, _⟩ => show win5_3.index t (1 : Fin 2) * 128 + 1 * q.val = q.val; omega
  refine Eq.trans ?_ (congrArg (lin5 (V c main_v17_0) (V c main_arg12) (V c main_v23)) hemb.symm)
  refine lin5_block (V c main_v17_0) (V c main_arg12) (V c main_v23) (iblk5 V c 0 t) (iblk5 V c 1 t) (iblk5 V c 2 t) p q ⟨t.val * 8000 + p.val, hr⟩ ?_ ?_ ?_
  · intro k
    have hk : k.val < 128 := k.isLt
    show V c main_v17_0 (((cfg5.win 0).blk t).view.emb (ix2 p k)) = V c main_v17_0 (ix2 (⟨t.val * 8000 + p.val, hr⟩ : Fin 640000) k)
    have h : ((cfg5.win 0).blk t).view.emb (ix2 p k) = (ix2 (⟨t.val * 8000 + p.val, hr⟩ : Fin 640000) k : S640000x128.Idx) := by
      funext a; apply Fin.ext
      match a with
      | ⟨0, _⟩ => show win5_0.index t (0 : Fin 2) * 8000 + 1 * p.val = t.val * 8000 + p.val; omega
      | ⟨1, _⟩ => show win5_0.index t (1 : Fin 2) * 128 + 1 * k.val = k.val; omega
    rw [h]
  · intro k
    have hk : k.val < 128 := k.isLt
    show V c main_arg12 (((cfg5.win 1).blk t).view.emb (ix2 k q)) = V c main_arg12 (ix2 k q)
    have h : ((cfg5.win 1).blk t).view.emb (ix2 k q) = (ix2 k q : S128x128.Idx) := by
      funext a; apply Fin.ext
      match a with
      | ⟨0, _⟩ => show win5_1.index t (0 : Fin 2) * 128 + 1 * k.val = k.val; omega
      | ⟨1, _⟩ => show win5_1.index t (1 : Fin 2) * 128 + 1 * q.val = q.val; omega
    rw [h]
  · show V c main_v23 (((cfg5.win 2).blk t).view.emb (ix2 (0 : Fin 1) q)) = V c main_v23 (ix2 (0 : Fin 1) q)
    have h : ((cfg5.win 2).blk t).view.emb (ix2 (0 : Fin 1) q) = (ix2 (0 : Fin 1) q : S1x128.Idx) := by
      funext a; apply Fin.ext
      match a with
      | ⟨0, _⟩ => show win5_2.index t (0 : Fin 2) * 1 + 1 * 0 = 0; omega
      | ⟨1, _⟩ => show win5_2.index t (1 : Fin 2) * 128 + 1 * q.val = q.val; omega
    rw [h]

/-- An index of the output array is in point `t`'s block iff each coordinate is in the block's range on its axis. -/
theorem mem_blk5 (t : Fin cfg5.N) (i : S640000x128.Idx) :
    i ∈ ((cfg5.win 3).blk t).view.set ↔ ∀ a : Fin 2, win5_3.index t a * S8000x128.size a ≤ (i a).val ∧ (i a).val < win5_3.index t a * S8000x128.size a + S8000x128.size a := by
  show i ∈ ((View.whole main_v24).slice (win5_3.rect t)).set ↔ _
  rw [View.set_slice_whole, Rect.mem_set_unit]
  exact Iff.rfl

/-- Every entry of the output array is in the block of the point its row's block number names. -/
theorem cover5 (i : S640000x128.Idx) : ∃ t : Fin cfg5.N, (cfg5.win 3).flush t = true ∧ i ∈ ((cfg5.win 3).blk t).view.set := by
  have hi0 : (i 0).val < 640000 := (i 0).isLt
  have hi1 : (i 1).val < 128 := (i 1).isLt
  obtain ⟨t, ht⟩ : ∃ t : Fin cfg5.N, t.val = (i 0).val / 8000 :=
    ⟨⟨(i 0).val / 8000, (show (i 0).val / 8000 < 80 by omega).trans_eq N_5.symm⟩, rfl⟩
  obtain ⟨e00, e01, e10, e11, e20, e21, e30, e31⟩ := idx_facts5 t
  refine ⟨t, flush5_3 t, ?_⟩
  rw [mem_blk5]
  intro a
  match a with
  | ⟨0, _⟩ => show win5_3.index t (0 : Fin 2) * 8000 ≤ (i 0).val ∧ (i 0).val < win5_3.index t (0 : Fin 2) * 8000 + 8000; omega
  | ⟨1, _⟩ => show win5_3.index t (1 : Fin 2) * 128 ≤ (i 1).val ∧ (i 1).val < win5_3.index t (1 : Fin 2) * 128 + 128; omega

/-- THE OUTPUT ARRAY after the region: the projection `lin5` of the three input arrays as the region finds them
    (`lin5_apply` spells it at an entry: the sum over `k` of the input at `(i 0, k)` times the weights at `(k, i 1)`, plus the
    bias at `(0, i 1)`). -/
theorem final5 (c : Dev nD) : (dat5 (F := Ideal) V c).arrAt 3 cfg5.N = lin5 (V c main_v17_0) (V c main_arg12) (V c main_v23) :=
  (dat5 V c).arrAt_eq_of_cover 3 (lin5 (V c main_v17_0) (V c main_arg12) (V c main_v23)) (fun t _ => flushed5_eq V c t) cover5

/-- The same array read at an entry. -/
theorem final5_apply (c : Dev nD) (i : S640000x128.Idx) :
    ((dat5 (F := Ideal) V c).arrAt 3 cfg5.N : S640000x128.Idx → EReal) i = lin5 (V c main_v17_0) (V c main_arg12) (V c main_v23) i :=
  congrFun (final5 V c) i

end Cert.KernelIdeal.Hand

end
-- ==== Proof.KI.ChainC.lean ====
/-
  The tail of the program's value chain against the specification, from region 3's exit to the end, at core c and launch
  memory m. Given the two edge arrays region 3 leaves (me = m · ep and mx = me · v[src] / z[dst]): the host stretch before
  region 4 leaves the per-destination sum of mx (a scatter-add into a zero table by the destination column) and the node
  output's bias as one row; region 4 leaves that sum times Wox plus box, the node output; the host stretch before region 5
  leaves the edge output's bias as one row; region 5 leaves me times Woe plus boe, the edge output. A buffer keeps its
  contents across every item that does not write it, and an argument array holds its launch contents throughout.
-/
import proofs.«426099_j50130858279187_1_alg».proof.Proof.KI.Vals
import proofs.«426099_j50130858279187_1_alg».proof.Proof.KI.Keep
import proofs.«426099_j50130858279187_1_alg».proof.Proof.KI.Val4
import proofs.«426099_j50130858279187_1_alg».proof.Proof.KI.Val5
import proofs.«426099_j50130858279187_1_alg».proof.Proof.KI.ScatterStage
import proofs.«426099_j50130858279187_1_alg».proof.Proof.Gen.KernelIdeal.Regions
import proofs.«426099_j50130858279187_1_alg».proof.Proof.Spec
import Idealize.ShloMosaic.Lib.StableHlo.Run
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg) (c : Dev nD)

set_option quotPrecheck false in
local notation "A0" => m ((c : Thread nD τ).loc main_arg0)
set_option quotPrecheck false in
local notation "A1" => m ((c : Thread nD τ).loc main_arg1)
set_option quotPrecheck false in
local notation "A2" => m ((c : Thread nD τ).loc main_arg2)
set_option quotPrecheck false in
local notation "A3" => m ((c : Thread nD τ).loc main_arg3)
set_option quotPrecheck false in
local notation "A4" => m ((c : Thread nD τ).loc main_arg4)
set_option quotPrecheck false in
local notation "A5" => m ((c : Thread nD τ).loc main_arg5)
set_option quotPrecheck false in
local notation "A6" => m ((c : Thread nD τ).loc main_arg6)
set_option quotPrecheck false in
local notation "A7" => m ((c : Thread nD τ).loc main_arg7)
set_option quotPrecheck false in
local notation "A8" => m ((c : Thread nD τ).loc main_arg8)
set_option quotPrecheck false in
local notation "A9" => m ((c : Thread nD τ).loc main_arg9)
set_option quotPrecheck false in
local notation "A10" => m ((c : Thread nD τ).loc main_arg10)
set_option quotPrecheck false in
local notation "A11" => m ((c : Thread nD τ).loc main_arg11)
set_option quotPrecheck false in
local notation "A12" => m ((c : Thread nD τ).loc main_arg12)
set_option quotPrecheck false in
local notation "A13" => m ((c : Thread nD τ).loc main_arg13)
set_option quotPrecheck false in
local notation "A14" => m ((c : Thread nD τ).loc main_arg14)
set_option quotPrecheck false in
local notation "A15" => m ((c : Thread nD τ).loc main_arg15)

namespace ChainC

/-- A projection read entry by entry — a row against a column of the matrix plus the bias row's entry — is the
    specification's projection of the same operands. -/
theorem lin_of_entries {R : Nat} (X₀ X : (⟨2, ![R, 128]⟩ : Shape).Idx → EReal) (W₀ W : Cert.Spec.Sw.Idx → EReal)
    (b₀ : S1x128.Idx → EReal) (b : Cert.Spec.Sb.Idx → EReal)
    (hX : X₀ = X) (hW : W₀ = W) (hb : ∀ j : Fin 128, b₀ (ix2 (0 : Fin 1) j) = b (ix1 j)) :
    (fun i : (⟨2, ![R, 128]⟩ : Shape).Idx =>
        (∑ k : Fin 128, X₀ (ix2 (i 0) k) * W₀ (ix2 k (i 1))) + b₀ (ix2 (0 : Fin 1) (i 1)))
      = Cert.Spec.lin X W b := by
  subst hX; subst hW
  funext i
  show (∑ k : Fin 128, X₀ (ix2 (i 0) k) * W₀ (ix2 k (i 1))) + b₀ (ix2 (0 : Fin 1) (i 1))
      = (∑ k : Fin 128, X₀ (ix2 (i 0) k) * W₀ (ix2 k (i 1))) + b (ix1 (i 1))
  exact congrArg (fun t => (∑ k : Fin 128, X₀ (ix2 (i 0) k) * W₀ (ix2 k (i 1))) + t) (hb (i 1))

/-! ## The two last host stretches, read at a reference, from any entry contents -/

section Host

variable (V : Valuation τ sig (Elt Ideal))

/-- The node table: the scatter-add of the second edge array into zeros by the destination column. -/
theorem h4_v20 : StableHlo.after hostOps4 V (Proc.devRef .tc main_v20)
    = Host.scatterAdd (F := Ideal) scatter_S20000x128_S640000x1_S640000x128_1_0_0_1
        (broadcastInDim S20000x128 ![] bcast_S_S20000x128 (constant (F := Ideal) S_ .f32 0x00000000#32))
        (broadcastInDim S640000x1 ![0] bcast_S640000_S640000x1_0 (V (Proc.devRef .tc main_arg15)))
        (V (Proc.devRef .tc main_v17_1)) := by
  after_results <;> rfl

/-- The node output's bias viewed as one row. -/
theorem h4_v21 : StableHlo.after hostOps4 V (Proc.devRef .tc main_v21)
    = fun i => shapeCast S1x128 (V (Proc.devRef .tc main_arg11)) shapeCasts_S128_S1x128 i := by
  after_results <;> rfl

/-- The edge output's bias viewed as one row. -/
theorem h5_v23 : StableHlo.after hostOps5 V (Proc.devRef .tc main_v23)
    = fun i => shapeCast S1x128 (V (Proc.devRef .tc main_arg13)) shapeCasts_S128_S1x128 i := by
  after_results <;> rfl

end Host

/-! ## The arguments at the boundaries -/

/-- A buffer no item writes holds its launch contents at region 3's exit. -/
theorem U11_arg (r : Ref sig .tc) (h : Unwritten r) : U11 m ρ c (Proc.devRef .tc r) = m ((c : Thread nD τ).loc r) := by
  obtain ⟨h0, h1, h2, h3, h4, h5, h6, h7, h8, h9, h10, -⟩ := h
  calc U11 m ρ c (Proc.devRef .tc r)
    _ = U10 m ρ c (Proc.devRef .tc r) := U11_keep m ρ c r h10
    _ = U9 m ρ c (Proc.devRef .tc r) := StableHlo.after_of_writes_sub hostOps3_2 _ hostOps3_2_writes h9
    _ = U8 m ρ c (Proc.devRef .tc r) := StableHlo.after_of_writes_sub hostOps3_1 _ hostOps3_1_writes h8
    _ = U7 m ρ c (Proc.devRef .tc r) := StableHlo.after_of_writes_sub hostOps3 _ hostOps3_writes h7
    _ = U6 m ρ c (Proc.devRef .tc r) := U7_keep m ρ c r h6
    _ = U5 m ρ c (Proc.devRef .tc r) := StableHlo.after_of_writes_sub hostOps2_1 _ hostOps2_1_writes h5
    _ = U4 m ρ c (Proc.devRef .tc r) := StableHlo.after_of_writes_sub hostOps2 _ hostOps2_writes h4
    _ = U3 m ρ c (Proc.devRef .tc r) := U4_keep m ρ c r h3
    _ = U2 m ρ c (Proc.devRef .tc r) := StableHlo.after_of_writes_sub hostOps1 _ hostOps1_writes h2
    _ = U1 m ρ c (Proc.devRef .tc r) := U2_keep m ρ c r h1
    _ = U0 m ρ c (Proc.devRef .tc r) := StableHlo.after_of_writes_sub hostOps0 _ hostOps0_writes h0
    _ = m ((c : Thread nD τ).loc r) := rfl
/-- … after the host stretch before region 4. -/
theorem U12_arg (r : Ref sig .tc) (h : Unwritten r) : U12 m ρ c (Proc.devRef .tc r) = m ((c : Thread nD τ).loc r) :=
  (StableHlo.after_of_writes_sub hostOps4 _ hostOps4_writes h.2.2.2.2.2.2.2.2.2.2.2.1).trans (U11_arg m ρ c r h)
/-- … at region 4's exit. -/
theorem U13_arg (r : Ref sig .tc) (h : Unwritten r) : U13 m ρ c (Proc.devRef .tc r) = m ((c : Thread nD τ).loc r) :=
  (U13_keep m ρ c r h.2.2.2.2.2.2.2.2.2.2.2.2.1).trans (U12_arg m ρ c r h)
/-- … after the host stretch before region 5. -/
theorem U14_arg (r : Ref sig .tc) (h : Unwritten r) : U14 m ρ c (Proc.devRef .tc r) = m ((c : Thread nD τ).loc r) :=
  (StableHlo.after_of_writes_sub hostOps5 _ hostOps5_writes h.2.2.2.2.2.2.2.2.2.2.2.2.2.1).trans (U13_arg m ρ c r h)

theorem unwritten_arg10 : Unwritten main_arg10 := by decide
theorem unwritten_arg11 : Unwritten main_arg11 := by decide
theorem unwritten_arg12 : Unwritten main_arg12 := by decide
theorem unwritten_arg13 : Unwritten main_arg13 := by decide
theorem unwritten_arg15 : Unwritten main_arg15 := by decide

/-! ## The node output -/

/-- The per-destination sum of mx, after the host stretch before region 4. -/
theorem xagg_U12 (hmx : U11 m ρ c (Proc.devRef .tc main_v17_1) = Cert.Spec.mx A0 A1 A2 A3 A4 A5 A6 A7 A8 A9 A14 A15) :
    U12 m ρ c (Proc.devRef .tc main_v20) = Cert.Spec.segsum (Cert.Spec.mx A0 A1 A2 A3 A4 A5 A6 A7 A8 A9 A14 A15) A15 := by
  refine (h4_v20 (U11 m ρ c)).trans ?_
  rw [hmx, U11_arg m ρ c main_arg15 unwritten_arg15]
  exact scatter_stage _ _

/-- The node output's bias row after the host stretch before region 4. -/
theorem row_U12 : U12 m ρ c (Proc.devRef .tc main_v21) = fun i => shapeCast S1x128 A11 shapeCasts_S128_S1x128 i := by
  refine (h4_v21 (U11 m ρ c)).trans ?_
  rw [U11_arg m ρ c main_arg11 unwritten_arg11]

/-- The node output at region 4's exit. -/
theorem outX_U13 (hmx : U11 m ρ c (Proc.devRef .tc main_v17_1) = Cert.Spec.mx A0 A1 A2 A3 A4 A5 A6 A7 A8 A9 A14 A15) :
    U13 m ρ c (Proc.devRef .tc main_v22) = Cert.Spec.outX A0 A1 A2 A3 A4 A5 A6 A7 A8 A9 A10 A11 A14 A15 := by
  refine ((U13_arr m ρ c 3).trans (final4 (T12 m ρ) c)).trans ?_
  exact lin_of_entries (R := 20000) (U12 m ρ c (Proc.devRef .tc main_v20)) (Cert.Spec.segsum (Cert.Spec.mx A0 A1 A2 A3 A4 A5 A6 A7 A8 A9 A14 A15) A15)
    (U12 m ρ c (Proc.devRef .tc main_arg10)) A10 (U12 m ρ c (Proc.devRef .tc main_v21)) A11
    (xagg_U12 m ρ c hmx) (U12_arg m ρ c main_arg10 unwritten_arg10)
    (fun j => (congrFun (row_U12 m ρ c) (ix2 (0 : Fin 1) j)).trans (bias_row _ j))

/-! ## The edge output -/

/-- me at region 5's entry. -/
theorem me_U14 (hme : U11 m ρ c (Proc.devRef .tc main_v17_0) = Cert.Spec.me A0 A1 A2 A3 A4 A5 A8 A9 A14 A15) :
    U14 m ρ c (Proc.devRef .tc main_v17_0) = Cert.Spec.me A0 A1 A2 A3 A4 A5 A8 A9 A14 A15 :=
  calc U14 m ρ c (Proc.devRef .tc main_v17_0)
    _ = U13 m ρ c (Proc.devRef .tc main_v17_0) := StableHlo.after_of_writes_sub hostOps5 _ hostOps5_writes (by decide)
    _ = U12 m ρ c (Proc.devRef .tc main_v17_0) := U13_keep m ρ c main_v17_0 (by decide)
    _ = U11 m ρ c (Proc.devRef .tc main_v17_0) := StableHlo.after_of_writes_sub hostOps4 _ hostOps4_writes (by decide)
    _ = Cert.Spec.me A0 A1 A2 A3 A4 A5 A8 A9 A14 A15 := hme

/-- The edge output's bias row after the host stretch before region 5. -/
theorem row_U14 : U14 m ρ c (Proc.devRef .tc main_v23) = fun i => shapeCast S1x128 A13 shapeCasts_S128_S1x128 i := by
  refine (h5_v23 (U13 m ρ c)).trans ?_
  rw [U13_arg m ρ c main_arg13 unwritten_arg13]

end ChainC

open ChainC

/-- The node output at the end is the specification's. -/
theorem end_outX (hme : U11 m ρ c (Proc.devRef .tc main_v17_0) = Cert.Spec.me A0 A1 A2 A3 A4 A5 A8 A9 A14 A15) (hmx : U11 m ρ c (Proc.devRef .tc main_v17_1) = Cert.Spec.mx A0 A1 A2 A3 A4 A5 A6 A7 A8 A9 A14 A15) :
    U15 m ρ c (Proc.devRef .tc main_v22) = Cert.Spec.outX A0 A1 A2 A3 A4 A5 A6 A7 A8 A9 A10 A11 A14 A15 :=
  calc U15 m ρ c (Proc.devRef .tc main_v22)
    _ = U14 m ρ c (Proc.devRef .tc main_v22) := U15_keep m ρ c main_v22 (by decide)
    _ = U13 m ρ c (Proc.devRef .tc main_v22) := StableHlo.after_of_writes_sub hostOps5 _ hostOps5_writes (by decide)
    _ = Cert.Spec.outX A0 A1 A2 A3 A4 A5 A6 A7 A8 A9 A10 A11 A14 A15 := outX_U13 m ρ c hmx

/-- The edge output at the end is the specification's. -/
theorem end_outE (hme : U11 m ρ c (Proc.devRef .tc main_v17_0) = Cert.Spec.me A0 A1 A2 A3 A4 A5 A8 A9 A14 A15) :
    U15 m ρ c (Proc.devRef .tc main_v24) = Cert.Spec.outE A0 A1 A2 A3 A4 A5 A8 A9 A12 A13 A14 A15 := by
  refine ((U15_arr m ρ c 3).trans (final5 (T14 m ρ) c)).trans ?_
  exact lin_of_entries (R := 640000) (U14 m ρ c (Proc.devRef .tc main_v17_0)) (Cert.Spec.me A0 A1 A2 A3 A4 A5 A8 A9 A14 A15)
    (U14 m ρ c (Proc.devRef .tc main_arg12)) A12 (U14 m ρ c (Proc.devRef .tc main_v23)) A13
    (me_U14 m ρ c hme) (U14_arg m ρ c main_arg12 unwritten_arg12)
    (fun j => (congrFun (row_U14 m ρ c) (ix2 (0 : Fin 1) j)).trans (bias_row _ j))

end Cert.KernelIdeal.Hand

end
-- ==== Proof.KI.Final.lean ====
/-
  The program run from any memory whose two index arrays hold row numbers of the node table: every weakly fair execution
  terminates with the node output at the specification's `outX` and the edge output at its `outE` of the argument arrays,
  the arguments unchanged. The run leaves every unscoped buffer at the last boundary's contents; the two results are read
  there through the value chain (the projections, the two gathered products and the score up to the third region; the
  normaliser, the two weighted products and the two output projections after it), the arguments through the buffers no
  item writes.
-/
import proofs.«426099_j50130858279187_1_alg».proof.Proof.KI.Run
import proofs.«426099_j50130858279187_1_alg».proof.Proof.KI.Keep
import proofs.«426099_j50130858279187_1_alg».proof.Proof.KI.ChainA
import proofs.«426099_j50130858279187_1_alg».proof.Proof.KI.ChainB
import proofs.«426099_j50130858279187_1_alg».proof.Proof.KI.ChainC

set_option maxRecDepth 16384

noncomputable section

namespace Cert.KernelIdeal.Hand

open Cert.KernelIdeal Cert.KernelIdeal.Gen
open Idealize.ShloMosaic Idealize.ShloMosaic.TcCoe Idealize.SL.Sem

/-- The two results at the end, on one core, from the index ranges. -/
theorem results_spec (m : (ℓ : Loc nD τ sig) → Buf (Elt Ideal) ℓ) (ρ : Dev nD → PrngReg) (c : Dev nD)
    (hsrc : ∀ e : Fin 640000, 0 ≤ (m ((c.tc : Thread nD τ).loc main_arg14) (ValueIdx.ix1 e)).toInt ∧ (m ((c.tc : Thread nD τ).loc main_arg14) (ValueIdx.ix1 e)).toInt < 20000)
    (hdst : ∀ e : Fin 640000, 0 ≤ (m ((c.tc : Thread nD τ).loc main_arg15) (ValueIdx.ix1 e)).toInt ∧ (m ((c.tc : Thread nD τ).loc main_arg15) (ValueIdx.ix1 e)).toInt < 20000) :
    U15 m ρ c (Proc.devRef .tc main_v22) = Cert.Spec.outX (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg14)) (m ((c.tc : Thread nD τ).loc main_arg15))
    ∧ U15 m ρ c (Proc.devRef .tc main_v24) = Cert.Spec.outE (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)) (m ((c.tc : Thread nD τ).loc main_arg12)) (m ((c.tc : Thread nD τ).loc main_arg13)) (m ((c.tc : Thread nD τ).loc main_arg14)) (m ((c.tc : Thread nD τ).loc main_arg15)) := by
  have hscore := mid_score m ρ c hsrc hdst
  have hep := mid_ep m ρ c
  have hv := mid_v m ρ c
  have hme := end_me m ρ c hsrc hdst hscore hep hv
  have hmx := end_mx m ρ c hsrc hdst hscore hep hv
  exact ⟨end_outX m ρ c hme hmx, end_outE m ρ c hme⟩

/-- The run against the specification. -/
theorem run_spec (m : (ℓ : Loc nD τ sig) → Buf (Elt Ideal) ℓ) (ρ : Dev nD → PrngReg)
    (hsrc : ∀ c : Dev nD, ∀ e : Fin 640000, 0 ≤ (m ((c.tc : Thread nD τ).loc main_arg14) (ValueIdx.ix1 e)).toInt ∧ (m ((c.tc : Thread nD τ).loc main_arg14) (ValueIdx.ix1 e)).toInt < 20000)
    (hdst : ∀ c : Dev nD, ∀ e : Fin 640000, 0 ≤ (m ((c.tc : Thread nD τ).loc main_arg15) (ValueIdx.ix1 e)).toInt ∧ (m ((c.tc : Thread nD τ).loc main_arg15) (ValueIdx.ix1 e)).toInt < 20000) :
    θ_run (defs (F := Ideal)) (onTc (τ := τ) (main (F := Ideal))) ⟨m, fun _ => 0, ρ⟩ (fun r => ∀ c : Dev nD,
      r.2.mem ((c.tc : Thread nD τ).loc main_v22) = Cert.Spec.outX (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg14)) (m ((c.tc : Thread nD τ).loc main_arg15))
      ∧ r.2.mem ((c.tc : Thread nD τ).loc main_v24) = Cert.Spec.outE (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    ⟨(h c _ (mem_uc main_v22 (by decide))).trans (results_spec m ρ c (hsrc c) (hdst c)).1,
      (h c _ (mem_uc main_v24 (by decide))).trans (results_spec m ρ c (hsrc c) (hdst c)).2,
      (h c _ (mem_uc main_arg0 (by decide))).trans (U15_arg m ρ c main_arg0 (by decide)),
      (h c _ (mem_uc main_arg1 (by decide))).trans (U15_arg m ρ c main_arg1 (by decide)),
      (h c _ (mem_uc main_arg2 (by decide))).trans (U15_arg m ρ c main_arg2 (by decide)),
      (h c _ (mem_uc main_arg3 (by decide))).trans (U15_arg m ρ c main_arg3 (by decide)),
      (h c _ (mem_uc main_arg4 (by decide))).trans (U15_arg m ρ c main_arg4 (by decide)),
      (h c _ (mem_uc main_arg5 (by decide))).trans (U15_arg m ρ c main_arg5 (by decide)),
      (h c _ (mem_uc main_arg6 (by decide))).trans (U15_arg m ρ c main_arg6 (by decide)),
      (h c _ (mem_uc main_arg7 (by decide))).trans (U15_arg m ρ c main_arg7 (by decide)),
      (h c _ (mem_uc main_arg8 (by decide))).trans (U15_arg m ρ c main_arg8 (by decide)),
      (h c _ (mem_uc main_arg9 (by decide))).trans (U15_arg m ρ c main_arg9 (by decide)),
      (h c _ (mem_uc main_arg10 (by decide))).trans (U15_arg m ρ c main_arg10 (by decide)),
      (h c _ (mem_uc main_arg11 (by decide))).trans (U15_arg m ρ c main_arg11 (by decide)),
      (h c _ (mem_uc main_arg12 (by decide))).trans (U15_arg m ρ c main_arg12 (by decide)),
      (h c _ (mem_uc main_arg13 (by decide))).trans (U15_arg m ρ c main_arg13 (by decide)),
      (h c _ (mem_uc main_arg14 (by decide))).trans (U15_arg m ρ c main_arg14 (by decide)),
      (h c _ (mem_uc main_arg15 (by decide))).trans (U15_arg m ρ c main_arg15 (by decide))⟩)
    (run_all (F := Ideal) m ρ)

end Cert.KernelIdeal.Hand

end
-- ==== Proof.RefChainA.lean ====
/-
  The reference's [rows, 8, 16] views read entry by entry against the flat [rows, 128] arrays of the specification:
  entry (r, h, d) of a view is entry (r, 16 h + d) of the flat array and back; the index column a row gather reads is the
  index array normalised (a negative word counted from the end of the 20000 rows); a row gather of a [20000, 8, 16] array
  at that column reads row `row (s e)`; a row scatter-add into zeros at the plain index column is, entry by entry, zero
  plus the sum of the update rows whose index word, read signed, names the row.
-/
import proofs.«426099_j50130858279187_1_alg».proof.Proof.Gen.ReferenceIdeal
import proofs.«426099_j50130858279187_1_alg».proof.Proof.Spec
import proofs.«426099_j50130858279187_1_alg».proof.Proof.LibRowGather
import proofs.«426099_j50130858279187_1_alg».proof.Proof.LibRowScatter
import Idealize.ShloMosaic.Lib.Pipeline.Value
import Idealize.ShloMosaic.Lib.ValueIdx
import Idealize.ShloMosaic.Lib.IdealHost
import Idealize.ShloMosaic.PureOps.Ideal.Laws

noncomputable section

namespace Cert.RefChain

open Idealize.ShloMosaic Idealize.ShloMosaic.ValueIdx Cert.ReferenceIdeal Cert.ReferenceIdeal.Gen

/-- Column 16 h + d of a 128-wide row: where entry (h, d) of the [8, 16] view sits. -/
abbrev col (h : Fin 8) (d : Fin 16) : Fin 128 := ⟨16 * h.val + d.val, by have := h.isLt; have := d.isLt; omega⟩

/-- The [N, 8, 16] view of a flat [N, 128] array reads entry (r, h, d) at (r, 16 h + d). -/
theorem split_apply {α : Type} {N : Nat} (A : (⟨2, ![N, 128]⟩ : Shape).Idx → α)
    (sc : (⟨2, ![N, 128]⟩ : Shape).ShapeCasts ⟨3, ![N, 8, 16]⟩) (r : Fin N) (h : Fin 8) (d : Fin 16) :
    shapeCast ⟨3, ![N, 8, 16]⟩ A sc (ix3 r h d) = A (ix2 r (col h d)) := by
  refine shapeCast_apply A sc (ix3 r h d) (ix2 r (col h d)) ?_
  rewrite [Shape.rowMajor_val_two, Shape.rowMajor_val_three]
  show r.val * 128 + (16 * h.val + d.val) = (r.val * 8 + h.val) * 16 + d.val
  omega

/-- The flat [N, 128] view of an [N, 8, 16] array reads entry (r, j) at (r, j / 16, j % 16). -/
theorem merge_apply {α : Type} {N : Nat} (T : (⟨3, ![N, 8, 16]⟩ : Shape).Idx → α)
    (sc : (⟨3, ![N, 8, 16]⟩ : Shape).ShapeCasts ⟨2, ![N, 128]⟩) (r : Fin N) (j : Fin 128) :
    shapeCast ⟨2, ![N, 128]⟩ T sc (ix2 r j)
      = T (ix3 r (⟨j.val / 16, by have := j.isLt; omega⟩ : Fin 8) (⟨j.val % 16, by omega⟩ : Fin 16)) := by
  refine shapeCast_apply T sc (ix2 r j) _ ?_
  rewrite [Shape.rowMajor_val_two, Shape.rowMajor_val_three]
  show (r.val * 8 + j.val / 16) * 16 + j.val % 16 = r.val * 128 + j.val
  omega

/-- Column 16 (j / 16) + j % 16 is column j. -/
theorem col_div_mod (j : Fin 128) :
    col (⟨j.val / 16, by have := j.isLt; omega⟩ : Fin 8) (⟨j.val % 16, by omega⟩ : Fin 16) = j :=
  Fin.ext (by show 16 * (j.val / 16) + j.val % 16 = j.val; omega)

/-- An index array seen as a one-column array reads its entry e at (e, 0). -/
theorem icol_apply (hb : S640000.BroadcastsInDim S640000x1 (![0] : Fin 1 → Fin S640000x1.rank))
    (s : IVec S640000 32) (e : Fin 640000) :
    broadcastInDim S640000x1 ![0] hb s (ix2 e (0 : Fin 1)) = s (ix1 e) := by
  refine broadcastInDim_apply _ hb s _ (ix1 e) (fun a => ?_)
  match a with
  | ⟨0, _⟩ =>
    show e.val = if (640000 : Nat) = 1 then 0 else e.val
    rw [if_neg (by decide)]

/-- The index array normalised: a negative index word counts from the end of the 20000 rows. -/
abbrev wrapv (h0 : S_.BroadcastsInDim S640000 (![] : Fin 0 → Fin S640000.rank)) (s : IVec S640000 32) : IVec S640000 32 :=
  select (cmpi .slt s (broadcastInDim S640000 ![] h0 (constantI S_ 32 0#32)))
    (addi s (broadcastInDim S640000 ![] h0 (constantI S_ 32 20000#32))) s

/-- The normalised index array at an entry is the specification's normalisation of the entry. -/
theorem wrapv_apply (h0 : S_.BroadcastsInDim S640000 (![] : Fin 0 → Fin S640000.rank)) (s : IVec S640000 32) (i : S640000.Idx) :
    wrapv h0 s i = Cert.Spec.wrap (s i) := rfl

/-- An array read at two rows of equal number reads the same entry. -/
theorem row_congr {α : Type} (T : S20000x8x16.Idx → α) (q q' : Fin 20000) (hq : q.val = q'.val) (h : Fin 8) (d : Fin 16) :
    T (ix3 q h d) = T (ix3 q' h d) := by
  rw [Fin.ext hq]

/-- A row gather of a [20000, 8, 16] array at the normalised index column reads row `row (s e)`. -/
theorem gather3_apply {α : Type} (T : S20000x8x16.Idx → α)
    (hb : S640000.BroadcastsInDim S640000x1 (![0] : Fin 1 → Fin S640000x1.rank))
    (h0 : S_.BroadcastsInDim S640000 (![] : Fin 0 → Fin S640000.rank))
    (s : IVec S640000 32) (e : Fin 640000) (h : Fin 8) (d : Fin 16) :
    Host.gather gather_S20000x8x16_S640000x1_S640000x8x16_12_0_n_n_0_1_1816 T
        (broadcastInDim S640000x1 ![0] hb (wrapv h0 s)) (ix3 e h d)
      = T (ix3 (Cert.Spec.row (s (ix1 e))) h d) := by
  have e1 : (broadcastInDim S640000x1 ![0] hb (wrapv h0 s)) (ix2 e (0 : Fin 1)) = Cert.Spec.wrap (s (ix1 e)) :=
    (icol_apply hb (wrapv h0 s) e).trans (wrapv_apply h0 s (ix1 e))
  have hq : min ((broadcastInDim S640000x1 ![0] hb (wrapv h0 s)) (ix2 e (0 : Fin 1))).toInt.toNat (20000 - 1)
      = (Cert.Spec.row (s (ix1 e))).val :=
    congrArg (fun w : BitVec 32 => min w.toInt.toNat 19999) e1
  have g0 := Cert.LibRows.gather_rows3 (N := 20000) (E := 640000) (H := 8) (D := 16) (w := 32) (hN := by omega)
    (d := gather_S20000x8x16_S640000x1_S640000x8x16_12_0_n_n_0_1_1816)
    (x := T) (idx := broadcastInDim S640000x1 ![0] hb (wrapv h0 s)) (e := e) (h := h) (dd := d)
  first
  | exact (g0 rfl rfl rfl rfl rfl rfl rfl).trans (row_congr T _ _ hq h d)
  | exact (g0 rfl rfl rfl rfl rfl).trans (row_congr T _ _ hq h d)

/-- The specification's per-destination sum at (n, c), spelt out. -/
theorem segsum_at (U : Cert.Spec.Se.Idx → EReal) (s : Cert.Spec.Si.Idx → BitVec 32) (n : Fin 20000) (c : Fin 128) :
    Cert.Spec.segsum U s (ix2 n c)
      = (0 : EReal) + ∑ e ∈ Finset.univ.filter (fun e : Fin 640000 => (s (ix1 e)).toInt = ((n.val : Nat) : Int)), U (ix2 e c) := rfl

/-- The zero array a scatter-add starts from reads zero everywhere. -/
theorem zeros_apply (hz : S_.BroadcastsInDim S20000x8x16 (![] : Fin 0 → Fin S20000x8x16.rank)) (i : S20000x8x16.Idx) :
    (broadcastInDim S20000x8x16 ![] hz (constant (F := Ideal) S_ .f32 0x00000000#32)) i = (0 : EReal) :=
  (broadcastInDim_scalar_apply hz (constant (F := Ideal) S_ .f32 0x00000000#32) i).trans
    ((constant_apply (s := S_) (φ := .f32) 0x00000000#32 ix0).trans Ideal.ofBits_zero_f32)

/-- A row scatter-add into zeros at the index column, of an [640000, 8, 16] array whose entry (e, h, d) is entry
    (e, 16 h + d) of a flat array: entry (n, h, d) is the flat array's per-destination sum at (n, 16 h + d). -/
theorem scatter3_apply (hz : S_.BroadcastsInDim S20000x8x16 (![] : Fin 0 → Fin S20000x8x16.rank))
    (hb : S640000.BroadcastsInDim S640000x1 (![0] : Fin 1 → Fin S640000x1.rank))
    (s : IVec S640000 32) (U : FVec Ideal S640000x8x16 .f32) (U' : Cert.Spec.Se.Idx → EReal)
    (n : Fin 20000) (h : Fin 8) (d : Fin 16)
    (hU : ∀ e : Fin 640000, U (ix3 e h d) = U' (ix2 e (col h d))) :
    Host.scatterAdd (F := Ideal) (φ := .f32) scatter_S20000x8x16_S640000x1_S640000x8x16_12_0_0_1
        (broadcastInDim S20000x8x16 ![] hz (constant (F := Ideal) S_ .f32 0x00000000#32))
        (broadcastInDim S640000x1 ![0] hb s) U (ix3 n h d)
      = Cert.Spec.segsum U' s (ix2 n (col h d)) := by
  have g := Cert.LibRows.scatterAdd_rows3 (N := 20000) (E := 640000) (H := 8) (D := 16) (w := 32)
    scatter_S20000x8x16_S640000x1_S640000x8x16_12_0_0_1 rfl rfl rfl rfl
    (broadcastInDim S20000x8x16 ![] hz (constant (F := Ideal) S_ .f32 0x00000000#32))
    (broadcastInDim S640000x1 ![0] hb s) U n h d
  have hfil : Finset.univ.filter (fun e : Fin 640000 => ((broadcastInDim S640000x1 ![0] hb s) (ix2 e (0 : Fin 1))).toInt = ((n.val : Nat) : Int))
      = Finset.univ.filter (fun e : Fin 640000 => (s (ix1 e)).toInt = ((n.val : Nat) : Int)) :=
    Finset.filter_congr fun e _ => by rw [icol_apply]
  unfold Host.scatterAdd
  rw [Ideal.hostScatterAdd_def, g, zeros_apply, hfil, segsum_at]
  exact congrArg (fun t : EReal => (0 : EReal) + t) (Finset.sum_congr rfl fun e _ => hU e)

end Cert.RefChain

end
-- ==== Proof.RefChain.lean ====
/-
  The reference program's two results, at the ideal instance, are the specification's outX and outE of the arguments.
  The four projections are rows times a 128 × 128 matrix plus a bias row; between the reshapes every operation of the
  [rows, 8, 16] views is entrywise, a row gather at the normalised index column or a row scatter-add into zeros, so entry
  (r, h, d) of each view is entry (r, 16 h + d) of the specification's flat array: the gathered rows, the score, me, the
  per-destination sum z, mx and its per-destination sum, stage by stage; the reshape back and the output projection give
  the two results.
-/
import proofs.«426099_j50130858279187_1_alg».proof.Proof.Gen.ReferenceIdeal.Read
import proofs.«426099_j50130858279187_1_alg».proof.Proof.RefChainA

noncomputable section

namespace Cert.RefChain

open Cert.ReferenceIdeal Cert.ReferenceIdeal.Gen Cert.ReferenceIdeal.Read
open Idealize.ShloMosaic Idealize.ShloMosaic.ValueIdx Idealize.ShloMosaic.TcCoe Idealize.SL.Sem Idealize.ShloMosaic.StableHlo

/-! ## The projections: a row of the input against a column of the matrix, plus the bias entry -/

theorem lidx20 (r : Fin 20000) (j k : Fin 128) : lidx_main_v0 (ix2 r j) k = ix2 r k := by
  funext a; match a with | ⟨0, _⟩ => rfl | ⟨1, _⟩ => rfl
theorem ridx20 (r : Fin 20000) (j k : Fin 128) : ridx_main_v0 (ix2 r j) k = ix2 k j := by
  funext a; match a with | ⟨0, _⟩ => rfl | ⟨1, _⟩ => rfl
theorem bidx20 (r : Fin 20000) (j : Fin 128) : idx_main_v1 (idx_main_v2 (ix2 r j)) = ix1 j := by
  funext a; match a with | ⟨0, _⟩ => rfl
theorem lidx64 (r : Fin 640000) (j k : Fin 128) : lidx_main_v15 (ix2 r j) k = ix2 r k := by
  funext a; match a with | ⟨0, _⟩ => rfl | ⟨1, _⟩ => rfl
theorem ridx64 (r : Fin 640000) (j k : Fin 128) : ridx_main_v15 (ix2 r j) k = ix2 k j := by
  funext a; match a with | ⟨0, _⟩ => rfl | ⟨1, _⟩ => rfl
theorem bidx64 (r : Fin 640000) (j : Fin 128) : idx_main_v16 (idx_main_v17 (ix2 r j)) = ix1 j := by
  funext a; match a with | ⟨0, _⟩ => rfl

/-- A node projection at (r, j). -/
theorem v3_at (X : (⟨S20000x128, .f32⟩ : BufTy).Contents (Elt Ideal)) (W : (⟨S128x128, .f32⟩ : BufTy).Contents (Elt Ideal)) (b : (⟨S128, .f32⟩ : BufTy).Contents (Elt Ideal))
    (r : Fin 20000) (j : Fin 128) :
    val_main_v3 (F := Ideal) X W b (ix2 r j) = Cert.Spec.linAt X W b r j := by
  rw [val_main_v3_apply, val_main_v0_apply, val_main_v2_apply, val_main_v1_apply, bidx20, Ideal.addf_def]
  simp only [lidx20, ridx20]
  rfl

/-- A node projection is the specification's. -/
theorem v3_eq (X : (⟨S20000x128, .f32⟩ : BufTy).Contents (Elt Ideal)) (W : (⟨S128x128, .f32⟩ : BufTy).Contents (Elt Ideal)) (b : (⟨S128, .f32⟩ : BufTy).Contents (Elt Ideal)) :
    val_main_v3 (F := Ideal) X W b = Cert.Spec.lin X W b := by
  funext i
  obtain ⟨r, j, rfl⟩ : ∃ (r : Fin 20000) (j : Fin 128), i = ix2 r j := ⟨i 0, i 1, eq_ix2 i⟩
  exact v3_at X W b r j

/-- An edge projection at (r, j). -/
theorem v18_at (X : (⟨S640000x128, .f32⟩ : BufTy).Contents (Elt Ideal)) (W : (⟨S128x128, .f32⟩ : BufTy).Contents (Elt Ideal)) (b : (⟨S128, .f32⟩ : BufTy).Contents (Elt Ideal))
    (r : Fin 640000) (j : Fin 128) :
    val_main_v18 (F := Ideal) X W b (ix2 r j) = Cert.Spec.linAt X W b r j := by
  rw [val_main_v18_apply, val_main_v15_apply, val_main_v17_apply, val_main_v16_apply, bidx64, Ideal.addf_def]
  simp only [lidx64, ridx64]
  rfl

/-- An edge projection is the specification's. -/
theorem v18_eq (X : (⟨S640000x128, .f32⟩ : BufTy).Contents (Elt Ideal)) (W : (⟨S128x128, .f32⟩ : BufTy).Contents (Elt Ideal)) (b : (⟨S128, .f32⟩ : BufTy).Contents (Elt Ideal)) :
    val_main_v18 (F := Ideal) X W b = Cert.Spec.lin X W b := by
  funext i
  obtain ⟨r, j, rfl⟩ : ∃ (r : Fin 640000) (j : Fin 128), i = ix2 r j := ⟨i 0, i 1, eq_ix2 i⟩
  exact v18_at X W b r j

section Stages
variable (x0 : (⟨S20000x128, .f32⟩ : BufTy).Contents (Elt Ideal)) (x1 : (⟨S640000x128, .f32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (x6 : (⟨S128x128, .f32⟩ : BufTy).Contents (Elt Ideal)) (x7 : (⟨S128, .f32⟩ : BufTy).Contents (Elt Ideal))
  (x8 : (⟨S128x128, .f32⟩ : BufTy).Contents (Elt Ideal)) (x9 : (⟨S128, .f32⟩ : BufTy).Contents (Elt Ideal))
  (x10 : (⟨S128x128, .f32⟩ : BufTy).Contents (Elt Ideal)) (x11 : (⟨S128, .f32⟩ : BufTy).Contents (Elt Ideal))
  (x12 : (⟨S128x128, .f32⟩ : BufTy).Contents (Elt Ideal)) (x13 : (⟨S128, .f32⟩ : BufTy).Contents (Elt Ideal))
  (x14 x15 : (⟨S640000, .i32⟩ : BufTy).Contents (Elt Ideal))

/-! ## The [rows, 8, 16] views of the four projections -/

/-- q at (r, h, d). -/
theorem v4_at (r : Fin 20000) (h : Fin 8) (d : Fin 16) :
    val_main_v4 (F := Ideal) x0 x2 x3 (ix3 r h d) = Cert.Spec.lin x0 x2 x3 (ix2 r (col h d)) := by
  unfold val_main_v4
  rw [v3_eq]
  exact split_apply _ _ r h d

/-- k at (r, h, d). -/
theorem v9_at (r : Fin 20000) (h : Fin 8) (d : Fin 16) :
    val_main_v9 (F := Ideal) x0 x4 x5 (ix3 r h d) = Cert.Spec.lin x0 x4 x5 (ix2 r (col h d)) :=
  v4_at x0 x4 x5 r h d

/-- v at (r, h, d). -/
theorem v14_at (r : Fin 20000) (h : Fin 8) (d : Fin 16) :
    val_main_v14 (F := Ideal) x0 x6 x7 (ix3 r h d) = Cert.Spec.lin x0 x6 x7 (ix2 r (col h d)) :=
  v4_at x0 x6 x7 r h d

/-- ep at (e, h, d). -/
theorem v19_at (e : Fin 640000) (h : Fin 8) (d : Fin 16) :
    val_main_v19 (F := Ideal) x1 x8 x9 (ix3 e h d) = Cert.Spec.lin x1 x8 x9 (ix2 e (col h d)) := by
  unfold val_main_v19
  rw [v18_eq]
  exact split_apply _ _ e h d

/-! ## The gathered rows -/

/-- k[src] at (e, h, d). -/
theorem v26_at (e : Fin 640000) (h : Fin 8) (d : Fin 16) :
    val_main_v26 (F := Ideal) x0 x4 x5 x14 (ix3 e h d)
      = Cert.Spec.gat (Cert.Spec.lin x0 x4 x5) x14 (ix2 e (col h d)) :=
  (gather3_apply (val_main_v9 (F := Ideal) x0 x4 x5) bcast_S640000_S640000x1_0 bcast_S_S640000 x14 e h d).trans
    (v9_at x0 x4 x5 (Cert.Spec.row (x14 (ix1 e))) h d)

/-- q[dst] at (e, h, d). -/
theorem v33_at (e : Fin 640000) (h : Fin 8) (d : Fin 16) :
    val_main_v33 (F := Ideal) x0 x2 x3 x15 (ix3 e h d)
      = Cert.Spec.gat (Cert.Spec.lin x0 x2 x3) x15 (ix2 e (col h d)) :=
  (gather3_apply (val_main_v4 (F := Ideal) x0 x2 x3) bcast_S640000_S640000x1_0 bcast_S_S640000 x15 e h d).trans
    (v4_at x0 x2 x3 (Cert.Spec.row (x15 (ix1 e))) h d)

/-- v[src] at (e, h, d). -/
theorem v48_at (e : Fin 640000) (h : Fin 8) (d : Fin 16) :
    val_main_v48 (F := Ideal) x0 x6 x7 x14 (ix3 e h d)
      = Cert.Spec.gat (Cert.Spec.lin x0 x6 x7) x14 (ix2 e (col h d)) :=
  (gather3_apply (val_main_v14 (F := Ideal) x0 x6 x7) bcast_S640000_S640000x1_0 bcast_S_S640000 x14 e h d).trans
    (v14_at x0 x6 x7 (Cert.Spec.row (x14 (ix1 e))) h d)

/-! ## The score, its per-destination sum, me, mx and its per-destination sum -/

/-- The score m at (e, h, d). -/
theorem v37_at (e : Fin 640000) (h : Fin 8) (d : Fin 16) :
    val_main_v37 (F := Ideal) x0 x2 x3 x4 x5 x14 x15 (ix3 e h d)
      = Cert.Spec.score x0 x2 x3 x4 x5 x14 x15 (ix2 e (col h d)) := by
  rw [val_main_v37_apply, val_main_v36_apply, val_main_v34_apply, v26_at, v33_at, val_main_v35_apply, val_main_cst_apply]
  simp only [Ideal.hostUnary_exp_def, Ideal.mulf_def, Ideal.ofBits_def]
  rfl

/-- z at (n, h, d). -/
theorem v40_at (n : Fin 20000) (h : Fin 8) (d : Fin 16) :
    val_main_v40 (F := Ideal) x0 x2 x3 x4 x5 x14 x15 (ix3 n h d)
      = Cert.Spec.segsum (Cert.Spec.score x0 x2 x3 x4 x5 x14 x15) x15 (ix2 n (col h d)) := by
  unfold val_main_v40 val_main_v38 val_main_v39 val_main_cst_3
  exact scatter3_apply bcast_S_S20000x8x16 bcast_S640000_S640000x1_0 x15 (val_main_v37 (F := Ideal) x0 x2 x3 x4 x5 x14 x15)
    (Cert.Spec.score x0 x2 x3 x4 x5 x14 x15) n h d (fun e => v37_at x0 x2 x3 x4 x5 x14 x15 e h d)

/-- z[dst] at (e, h, d). -/
theorem v56_at (e : Fin 640000) (h : Fin 8) (d : Fin 16) :
    val_main_v56 (F := Ideal) x0 x2 x3 x4 x5 x14 x15 (ix3 e h d)
      = Cert.Spec.gat (Cert.Spec.segsum (Cert.Spec.score x0 x2 x3 x4 x5 x14 x15) x15) x15 (ix2 e (col h d)) :=
  (gather3_apply (val_main_v40 (F := Ideal) x0 x2 x3 x4 x5 x14 x15) bcast_S640000_S640000x1_0 bcast_S_S640000 x15 e h d).trans
    (v40_at x0 x2 x3 x4 x5 x14 x15 (Cert.Spec.row (x15 (ix1 e))) h d)

/-- me at (e, h, d). -/
theorem v41_at (e : Fin 640000) (h : Fin 8) (d : Fin 16) :
    val_main_v41 (F := Ideal) x0 x1 x2 x3 x4 x5 x8 x9 x14 x15 (ix3 e h d)
      = Cert.Spec.me x0 x1 x2 x3 x4 x5 x8 x9 x14 x15 (ix2 e (col h d)) := by
  rw [val_main_v41_apply, v37_at, v19_at, Ideal.mulf_def]
  rfl

/-- mx at (e, h, d). -/
theorem v57_at (e : Fin 640000) (h : Fin 8) (d : Fin 16) :
    val_main_v57 (F := Ideal) x0 x1 x2 x3 x4 x5 x6 x7 x8 x9 x14 x15 (ix3 e h d)
      = Cert.Spec.mx x0 x1 x2 x3 x4 x5 x6 x7 x8 x9 x14 x15 (ix2 e (col h d)) := by
  rw [val_main_v57_apply, val_main_v49_apply, v41_at, v48_at, v56_at, Ideal.hostDivf_def, Ideal.mulf_def]
  rfl

/-- The per-destination sum of mx at (n, h, d). -/
theorem v60_at (n : Fin 20000) (h : Fin 8) (d : Fin 16) :
    val_main_v60 (F := Ideal) x0 x1 x2 x3 x4 x5 x6 x7 x8 x9 x14 x15 (ix3 n h d)
      = Cert.Spec.segsum (Cert.Spec.mx x0 x1 x2 x3 x4 x5 x6 x7 x8 x9 x14 x15) x15 (ix2 n (col h d)) := by
  unfold val_main_v60 val_main_v58 val_main_v59 val_main_cst_8
  exact scatter3_apply bcast_S_S20000x8x16 bcast_S640000_S640000x1_0 x15 (val_main_v57 (F := Ideal) x0 x1 x2 x3 x4 x5 x6 x7 x8 x9 x14 x15)
    (Cert.Spec.mx x0 x1 x2 x3 x4 x5 x6 x7 x8 x9 x14 x15) n h d (fun e => v57_at x0 x1 x2 x3 x4 x5 x6 x7 x8 x9 x14 x15 e h d)

/-! ## Back to flat rows, and the two output projections -/

/-- The per-destination sum of mx as a flat array. -/
theorem v61_eq :
    val_main_v61 (F := Ideal) x0 x1 x2 x3 x4 x5 x6 x7 x8 x9 x14 x15
      = Cert.Spec.segsum (Cert.Spec.mx x0 x1 x2 x3 x4 x5 x6 x7 x8 x9 x14 x15) x15 := by
  funext i
  obtain ⟨r, j, rfl⟩ : ∃ (r : Fin 20000) (j : Fin 128), i = ix2 r j := ⟨i 0, i 1, eq_ix2 i⟩
  unfold val_main_v61
  refine (merge_apply _ _ r j).trans ?_
  refine (v60_at x0 x1 x2 x3 x4 x5 x6 x7 x8 x9 x14 x15 r _ _).trans ?_
  rw [col_div_mod]

/-- me as a flat array. -/
theorem v66_eq :
    val_main_v66 (F := Ideal) x0 x1 x2 x3 x4 x5 x8 x9 x14 x15
      = Cert.Spec.me x0 x1 x2 x3 x4 x5 x8 x9 x14 x15 := by
  funext i
  obtain ⟨r, j, rfl⟩ : ∃ (r : Fin 640000) (j : Fin 128), i = ix2 r j := ⟨i 0, i 1, eq_ix2 i⟩
  unfold val_main_v66
  refine (merge_apply _ _ r j).trans ?_
  refine (v41_at x0 x1 x2 x3 x4 x5 x8 x9 x14 x15 r _ _).trans ?_
  rw [col_div_mod]

/-- The node output is the specification's. -/
theorem v65_eq :
    val_main_v65 (F := Ideal) x0 x1 x2 x3 x4 x5 x6 x7 x8 x9 x10 x11 x14 x15
      = Cert.Spec.outX x0 x1 x2 x3 x4 x5 x6 x7 x8 x9 x10 x11 x14 x15 := by
  refine (v3_eq (val_main_v61 (F := Ideal) x0 x1 x2 x3 x4 x5 x6 x7 x8 x9 x14 x15) x10 x11).trans ?_
  rw [v61_eq]
  rfl

/-- The edge output is the specification's. -/
theorem v70_eq :
    val_main_v70 (F := Ideal) x0 x1 x2 x3 x4 x5 x8 x9 x12 x13 x14 x15
      = Cert.Spec.outE x0 x1 x2 x3 x4 x5 x8 x9 x12 x13 x14 x15 := by
  refine (v18_eq (val_main_v66 (F := Ideal) x0 x1 x2 x3 x4 x5 x8 x9 x14 x15) x12 x13).trans ?_
  rw [v66_eq]
  rfl

end Stages

/-! ## The run -/

/-- Every execution of the reference ends with its two results at the specification's outX and outE of the arguments,
    the arguments unchanged. -/
theorem run_spec [Cert.ReferenceIdeal.Facts] (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ fun r => ∀ c : Dev nD,
      r.2.mem ((c.tc : Thread nD τ).loc main_v65) = Cert.Spec.outX (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg14)) (m ((c.tc : Thread nD τ).loc main_arg15))
      ∧ r.2.mem ((c.tc : Thread nD τ).loc main_v70) = Cert.Spec.outE (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run (Cert.ReferenceIdeal.defs (F := Ideal)) _ _).mono (fun _ h c =>
    ⟨(h c).1.trans ((val_main_v65_eq (F := Ideal) m c).trans
        (v65_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg14)) (m ((c.tc : Thread nD τ).loc main_arg15)))),
      (h c).2.1.trans ((val_main_v70_eq (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)) (m ((c.tc : Thread nD τ).loc main_arg12)) (m ((c.tc : Thread nD τ).loc main_arg13)) (m ((c.tc : Thread nD τ).loc main_arg14)) (m ((c.tc : Thread nD τ).loc main_arg15))).trans
        (v70_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)) (m ((c.tc : Thread nD τ).loc main_arg12)) (m ((c.tc : Thread nD τ).loc main_arg13)) (m ((c.tc : Thread nD τ).loc main_arg14)) (m ((c.tc : Thread nD τ).loc main_arg15)))),
      (h c).2.2⟩)
    (Cert.ReferenceIdeal.Value.run (F := Ideal) m ρ)

end Cert.RefChain

end
-- ==== Proof.PreRange.lean ====
/-
  THE INDEX RANGES, DECODED FROM THE PRINTED PRECONDITION. The precondition is one bit: the conjunction
  (by `and`) of sixteen `jnp.all`s, fourteen of them "every entry of this float array is finite" and, last, the two
  statements about the index arrays src = argument 14 and dst = argument 15, each of 640000 signed 32-bit words:
  all (0 ≤ src ∧ src < 20000) and all (0 ≤ dst ∧ dst < 20000). The claim states that the bit is 1. A conjunction that
  is 1 has both conjuncts 1; an `all` (a reduction by `and` from 1 into the one-element result) that is 1 had a 1 at
  every entry; an entry's bit is the `and` of the two signed comparisons of the word against the literals 0 and 20000,
  so both hold of the word read as a signed integer. Nothing here evaluates a reduction: every step is about one
  arbitrary entry e.
-/
import proofs.«426099_j50130858279187_1_alg».proof.Defs
import proofs.«426099_j50130858279187_1_alg».proof.Proof.Gen.Pre_finite_inputs
import Idealize.ShloMosaic.Lib.ReduceAll
import Idealize.ShloMosaic.Lib.ValueIdx

noncomputable section

namespace Cert.PreRange

open Idealize.ShloMosaic Idealize.SL.Sem Cert.Pre_finite_inputs

/-- The rank-0 shape has one index. -/
instance subsingleton_scalar_idx : Subsingleton S_.Idx := ⟨fun a b => funext fun d => d.elim0⟩

/-- The two literals, read signed. -/
theorem toInt_zero : (0#32 : BitVec 32).toInt = 0 := by decide
theorem toInt_20000 : (20000#32 : BitVec 32).toInt = 20000 := by decide

/-- ONE ENTRY: the bit (w ≥ 0) and (w < 20000), signed, is 1 exactly when the word read signed lies in [0, 20000);
    here the direction the decoding uses. -/
theorem word_range (w : BitVec 32)
    (h : IntOp.andi (IntOp.cmpi .sge w (0#32)) (IntOp.cmpi .slt w (20000#32)) = 1#1) :
    0 ≤ w.toInt ∧ w.toInt < 20000 := by
  obtain ⟨h0, h1⟩ := IntOp.andi_eq_one.1 h
  rw [IntOp.cmpi_sge, toInt_zero] at h0
  rw [IntOp.cmpi_slt, toInt_20000] at h1
  exact ⟨h0, h1⟩

/-- ONE ARRAY: `all ((x ≥ 0) & (x < 20000))` of a 640000-word array, as printed (the literals broadcast from scalars,
    the `all` a reduction by `and` from the constant 1 over the one axis), is 1 only if every word lies in [0, 20000). -/
theorem all_range [Cert.Pre_finite_inputs.Facts] (x : IVec S640000 32)
    (h : Host.reduce IntOp.andi
          (andi (cmpi .sge x (broadcastInDim S640000 ![] Facts.bcast_S_S640000 (constantI S_ 32 0#32)))
                (cmpi .slt x (broadcastInDim S640000 ![] Facts.bcast_S_S640000 (constantI S_ 32 20000#32))))
          (constantI S_ 1 1#1) Facts.reducesTo_S640000_S_d0 Facts.h_S_ ValueIdx.ix0 = 1#1)
    (e : Fin 640000) : 0 ≤ (x (ValueIdx.ix1 e)).toInt ∧ (x (ValueIdx.ix1 e)).toInt < 20000 := by
  -- the entry's bit is 1 …
  have hb := Host.reduce_andi_all _ _ _ _ ValueIdx.ix0 h (ValueIdx.ix1 e)
  -- … and it is, the pointwise operations read at the entry and the broadcast literals read there, the bit of `word_range`
  exact word_range (x (ValueIdx.ix1 e)) hb

/-- THE LAST PART of the printed chain: its result is ((p ∧ q) ∧ all-src) ∧ all-dst for the two bits p, q it is handed;
    that being 1, both `all`s are 1. -/
theorem range_of_part4 [Cert.Pre_finite_inputs.Facts] {F : FTy → Type} [FloatOps F] (a14 a15 : IVec S640000 32)
    (p q : IVec S_ 1) (h : fn_part4 (F := F) a14 a15 p q ValueIdx.ix0 = 1#1) :
    (∀ e : Fin 640000, 0 ≤ (a14 (ValueIdx.ix1 e)).toInt ∧ (a14 (ValueIdx.ix1 e)).toInt < 20000)
    ∧ (∀ e : Fin 640000, 0 ≤ (a15 (ValueIdx.ix1 e)).toInt ∧ (a15 (ValueIdx.ix1 e)).toInt < 20000) := by
  dsimp only [fn_part4] at h
  obtain ⟨h75, h81⟩ := IntOp.andi_eq_one.1 h
  obtain ⟨-, h74⟩ := IntOp.andi_eq_one.1 h75
  exact ⟨all_range a14 h74, all_range a15 h81⟩

/-- THE PRECONDITION DECODED, at any float instance: if the printed predicate of the sixteen arrays is all ones, every
    word of src (argument 14) and of dst (argument 15), read signed, lies in [0, 20000). -/
theorem range_of_fn [Cert.Pre_finite_inputs.Facts] {F : FTy → Type} [FloatOps F]
    (a0 : FVec F S20000x128 .f32) (a1 : FVec F S640000x128 .f32) (a2 : FVec F S128x128 .f32) (a3 : FVec F S128 .f32) (a4 : FVec F S128x128 .f32) (a5 : FVec F S128 .f32) (a6 : FVec F S128x128 .f32) (a7 : FVec F S128 .f32) (a8 : FVec F S128x128 .f32) (a9 : FVec F S128 .f32) (a10 : FVec F S128x128 .f32) (a11 : FVec F S128 .f32) (a12 : FVec F S128x128 .f32) (a13 : FVec F S128 .f32) (a14 : IVec S640000 32) (a15 : IVec S640000 32)
    (h : Cert.Pre_finite_inputs.fn (F := F) a0 a1 a2 a3 a4 a5 a6 a7 a8 a9 a10 a11 a12 a13 a14 a15 = (fun _ => 1#1)) :
    (∀ e : Fin 640000, 0 ≤ (a14 (ValueIdx.ix1 e)).toInt ∧ (a14 (ValueIdx.ix1 e)).toInt < 20000)
    ∧ (∀ e : Fin 640000, 0 ≤ (a15 (ValueIdx.ix1 e)).toInt ∧ (a15 (ValueIdx.ix1 e)).toInt < 20000) := by
  have h0 : Cert.Pre_finite_inputs.fn (F := F) a0 a1 a2 a3 a4 a5 a6 a7 a8 a9 a10 a11 a12 a13 a14 a15 ValueIdx.ix0 = 1#1 := congrFun h ValueIdx.ix0
  -- the chain's first four parts only compute the finiteness bits and hand them, with src and dst, to the last part
  dsimp only [fn, fn_part1, fn_part2, fn_part3] at h0
  exact range_of_part4 a14 a15 _ _ h0

/-- THE PRECONDITION DECODED, as the claims state it of the idealized kernel's launch memory: on every device the
    src and dst arrays hold words in [0, 20000). -/
theorem range_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ e : Fin 640000, 0 ≤ (((m ((c.tc : Thread Cert.KernelIdeal.nD Cert.KernelIdeal.τ).loc Cert.KernelIdeal.main_arg14)) : IVec S640000 32) (ValueIdx.ix1 e)).toInt
        ∧ (((m ((c.tc : Thread Cert.KernelIdeal.nD Cert.KernelIdeal.τ).loc Cert.KernelIdeal.main_arg14)) : IVec S640000 32) (ValueIdx.ix1 e)).toInt < 20000)
    ∧ (∀ e : Fin 640000, 0 ≤ (((m ((c.tc : Thread Cert.KernelIdeal.nD Cert.KernelIdeal.τ).loc Cert.KernelIdeal.main_arg15)) : IVec S640000 32) (ValueIdx.ix1 e)).toInt
        ∧ (((m ((c.tc : Thread Cert.KernelIdeal.nD Cert.KernelIdeal.τ).loc Cert.KernelIdeal.main_arg15)) : IVec S640000 32) (ValueIdx.ix1 e)).toInt < 20000) :=
  range_of_fn (F := Ideal) _ _ _ _ _ _ _ _ _ _ _ _ _ _ _ _ (h c)

end Cert.PreRange

end
-- ==== Proof.lean ====
/-
  The certificate's five claims.
  Frames: the program of six kernel regions among stretches of host operations runs to the end on every weakly fair
  execution and leaves its sixteen argument arrays as launched — proved once, for any float instance, from the regions'
  bodies and the library's several-regions launch, and cited at the word-level instance and at the ideal one; the
  reference's frame is its run with the results dropped.
  Value: at the ideal instance, when the two index arrays hold row numbers of the node table (the precondition's last two
  conjuncts), both programs end with the node output at `Spec.outX` and the edge output at `Spec.outE` of the arguments:
  the kernel's fused projection, its fill-mode row reads and its flat [rows, 128] arrays compute, entry by entry, what the
  reference's three projections, clamped row reads and [rows, 8, 16] views compute.
-/
import proofs.«426099_j50130858279187_1_alg».proof.Defs
import proofs.«426099_j50130858279187_1_alg».proof.Proof.Gen.Kernel
import proofs.«426099_j50130858279187_1_alg».proof.Proof.Gen.KernelIdeal
import proofs.«426099_j50130858279187_1_alg».proof.Proof.Gen.ReferenceIdeal
import proofs.«426099_j50130858279187_1_alg».proof.Proof.Gen.ReferenceIdeal.Run
import proofs.«426099_j50130858279187_1_alg».proof.Proof.Gen.ReferenceIdeal.Read
import proofs.«426099_j50130858279187_1_alg».proof.Proof.Gen.Pre_finite_inputs
import proofs.«426099_j50130858279187_1_alg».proof.Proof.K.Frame
import proofs.«426099_j50130858279187_1_alg».proof.Proof.KI.Frame
import proofs.«426099_j50130858279187_1_alg».proof.Proof.KI.Final
import proofs.«426099_j50130858279187_1_alg».proof.Proof.RefChain
import proofs.«426099_j50130858279187_1_alg».proof.Proof.PreRange
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2.2) (Cert.ReferenceIdeal.Value.run (F := Ideal) m ρ)

/-- Both runs against the one specification: the kernel's under the index ranges the precondition states, the
    reference's with its arguments rewritten to the kernel's. -/
theorem algebraic : Cert.algebraic_KernelIdeal_ReferenceIdeal := by
  intro m ρ m' ρ' hpre hagree
  have hrange := fun c => Cert.PreRange.range_of_pre m hpre c
  refine ⟨_, _, Cert.KernelIdeal.Hand.run_spec m ρ (fun c => (hrange c).1) (fun c => (hrange c).2), ?_⟩
  refine (θ_run Cert.ReferenceIdeal.defs _ _).mono (fun r h c => ?_) (Cert.RefChain.run_spec m' ρ')
  obtain ⟨h0, h1, hargs⟩ := h c
  obtain ⟨a0, a1, a2, a3, a4, a5, a6, a7, a8, a9, a10, a11, a12, a13, a14, a15⟩ := hagree c
  refine ⟨h0.trans ?_, h1.trans ?_, hargs⟩
  · rw [a0, a1, a2, a3, a4, a5, a6, a7, a8, a9, a10, a11, a14, a15]
  · rw [a0, a1, a2, a3, a4, a5, a8, a9, a12, a13, a14, a15]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
